-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn_part1 {F : FTy → Type} [FloatOps F] (main_v13 : IVec S_ 1) (main_v16 : IVec S86x4096 1) : IVec S_ 1 :=
  let main_c_5 : IVec S_ 1 := constantI S_ 1 1#1
  let main_v17 : IVec S_ 1 := (fun x v => Host.reduce IntOp.andi x v reducesTo_S86x4096_S_d0_1 h_S_) main_v16 main_c_5
  let main_v18 : IVec S_ 1 := andi main_v13 main_v17
  main_v18

def fn {F : FTy → Type} [FloatOps F] (main_arg0 : FVec F S2x2048x4096 .f32) (main_arg1 : IVec S4096x1376 32) (main_arg2 : FVec F S32x11008 .f32) (main_arg3 : IVec S32x1376 32) (main_arg4 : IVec S4096x1376 32) (main_arg5 : FVec F S32x11008 .f32) (main_arg6 : IVec S32x1376 32) (main_arg7 : IVec S11008x512 32) (main_arg8 : FVec F S86x4096 .f32) (main_arg9 : IVec S86x512 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg5
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S86x4096 .f32 := Host.absf main_arg8
  let main_cst_4 : FVec F S_ .f32 := constant S_ .f32 0x7F800000#32
  let main_v15 : FVec F S86x4096 .f32 := broadcastInDim S86x4096 ![] bcast_S_S86x4096 main_cst_4
  let main_v16 : IVec S86x4096 1 := cmpf .olt main_v14 main_v15
  fn_part1 (F := F) main_v13 main_v16
-- ==== Kernel.lean ====
abbrev S2x2048x4096 : Shape := ⟨3, ![2, 2048, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S4096x4096 : Shape := ⟨2, ![4096, 4096]⟩
abbrev S_ : Shape := ⟨0, ![]⟩
abbrev S4096x1408 : Shape := ⟨2, ![4096, 1408]⟩
abbrev S32x11264 : Shape := ⟨2, ![32, 11264]⟩
abbrev S32x1408 : Shape := ⟨2, ![32, 1408]⟩
abbrev S4096x11264 : Shape := ⟨2, ![4096, 11264]⟩
abbrev S2048x1024 : Shape := ⟨2, ![2048, 1024]⟩
abbrev S1024x128 : Shape := ⟨2, ![1024, 128]⟩
abbrev S32x1024 : Shape := ⟨2, ![32, 1024]⟩
abbrev S32x128 : Shape := ⟨2, ![32, 128]⟩
abbrev S1x8 : Shape := ⟨2, ![1, 8]⟩
abbrev S8 : Shape := ⟨1, ![8]⟩
abbrev S1024x128x1 : Shape := ⟨3, ![1024, 128, 1]⟩
abbrev S1x1x8 : Shape := ⟨3, ![1, 1, 8]⟩
abbrev S1024x128x8 : Shape := ⟨3, ![1024, 128, 8]⟩
abbrev S1024x1024 : Shape := ⟨2, ![1024, 1024]⟩
abbrev S8x128 : Shape := ⟨2, ![8, 128]⟩
abbrev S8x128x1 : Shape := ⟨3, ![8, 128, 1]⟩
abbrev S8x128x8 : Shape := ⟨3, ![8, 128, 8]⟩
abbrev S8x1024 : Shape := ⟨2, ![8, 1024]⟩
abbrev S8x1x1024 : Shape := ⟨3, ![8, 1, 1024]⟩
abbrev S8x128x1024 : Shape := ⟨3, ![8, 128, 1024]⟩
abbrev S11264x512 : Shape := ⟨2, ![11264, 512]⟩
abbrev S88x4096 : Shape := ⟨2, ![88, 4096]⟩
abbrev S88x512 : Shape := ⟨2, ![88, 512]⟩
abbrev S88x1024 : Shape := ⟨2, ![88, 1024]⟩
abbrev S88x128 : Shape := ⟨2, ![88, 128]⟩

abbrev nBuf : Space → Nat
  | .hbm => 42
  | .vmem => 29
  | .smem => 0
  | _ => 0

abbrev bufTy : (tb : Table) → Fin (tcTables nBuf tb) → BufTy
  | .hbm, ⟨0, _⟩ => ⟨S2x2048x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S4096x1376, .i32⟩
  | .hbm, ⟨5, _⟩ => ⟨S32x11008, .f32⟩
  | .hbm, ⟨6, _⟩ => ⟨S32x1376, .i32⟩
  | .hbm, ⟨7, _⟩ => ⟨S11008x512, .i32⟩
  | .hbm, ⟨8, _⟩ => ⟨S86x4096, .f32⟩
  | .hbm, ⟨9, _⟩ => ⟨S86x512, .i32⟩
  | .hbm, ⟨10, _⟩ => ⟨S4096x4096, .f32⟩
  | .hbm, ⟨11, _⟩ => ⟨S4096x4096, .bf16⟩
  | .hbm, ⟨12, _⟩ => ⟨S_, .i32⟩
  | .hbm, ⟨13, _⟩ => ⟨S_, .i32⟩
  | .hbm, ⟨14, _⟩ => ⟨S4096x1408, .i32⟩
  | .hbm, ⟨15, _⟩ => ⟨S_, .f32⟩
  | .hbm, ⟨16, _⟩ => ⟨S_, .f32⟩
  | .hbm, ⟨17, _⟩ => ⟨S32x11264, .f32⟩
  | .hbm, ⟨18, _⟩ => ⟨S_, .i32⟩
  | .hbm, ⟨19, _⟩ => ⟨S_, .i32⟩
  | .hbm, ⟨20, _⟩ => ⟨S32x1408, .i32⟩
  | .hbm, ⟨21, _⟩ => ⟨S_, .i32⟩
  | .hbm, ⟨22, _⟩ => ⟨S_, .i32⟩
  | .hbm, ⟨23, _⟩ => ⟨S4096x1408, .i32⟩
  | .hbm, ⟨24, _⟩ => ⟨S_, .f32⟩
  | .hbm, ⟨25, _⟩ => ⟨S_, .f32⟩
  | .hbm, ⟨26, _⟩ => ⟨S32x11264, .f32⟩
  | .hbm, ⟨27, _⟩ => ⟨S_, .i32⟩
  | .hbm, ⟨28, _⟩ => ⟨S_, .i32⟩
  | .hbm, ⟨29, _⟩ => ⟨S32x1408, .i32⟩
  | .hbm, ⟨30, _⟩ => ⟨S4096x11264, .bf16⟩
  | .hbm, ⟨31, _⟩ => ⟨S_, .i32⟩
  | .hbm, ⟨32, _⟩ => ⟨S_, .i32⟩
  | .hbm, ⟨33, _⟩ => ⟨S11264x512, .i32⟩
  | .hbm, ⟨34, _⟩ => ⟨S_, .f32⟩
  | .hbm, ⟨35, _⟩ => ⟨S_, .f32⟩
  | .hbm, ⟨36, _⟩ => ⟨S88x4096, .f32⟩
  | .hbm, ⟨37, _⟩ => ⟨S_, .i32⟩
  | .hbm, ⟨38, _⟩ => ⟨S_, .i32⟩
  | .hbm, ⟨39, _⟩ => ⟨S88x512, .i32⟩
  | .hbm, ⟨40, _⟩ => ⟨S4096x4096, .f32⟩
  | .hbm, ⟨41, _⟩ => ⟨S2x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .i32⟩
  | .local _ .vmem, ⟨3, _⟩ => ⟨S1024x128, .i32⟩
  | .local _ .vmem, ⟨4, _⟩ => ⟨S32x1024, .f32⟩
  | .local _ .vmem, ⟨5, _⟩ => ⟨S32x1024, .f32⟩
  | .local _ .vmem, ⟨6, _⟩ => ⟨S32x128, .i32⟩
  | .local _ .vmem, ⟨7, _⟩ => ⟨S32x128, .i32⟩
  | .local _ .vmem, ⟨8, _⟩ => ⟨S1024x128, .i32⟩
  | .local _ .vmem, ⟨9, _⟩ => ⟨S1024x128, .i32⟩
  | .local _ .vmem, ⟨10, _⟩ => ⟨S32x1024, .f32⟩
  | .local _ .vmem, ⟨11, _⟩ => ⟨S32x1024, .f32⟩
  | .local _ .vmem, ⟨12, _⟩ => ⟨S32x128, .i32⟩
  | .local _ .vmem, ⟨13, _⟩ => ⟨S32x128, .i32⟩
  | .local _ .vmem, ⟨14, _⟩ => ⟨S2048x1024, .bf16⟩
  | .local _ .vmem, ⟨15, _⟩ => ⟨S2048x1024, .bf16⟩
  | .local _ .vmem, ⟨16, _⟩ => ⟨S2048x1024, .f32⟩
  | .local _ .vmem, ⟨17, _⟩ => ⟨S2048x1024, .f32⟩
  | .local _ .vmem, ⟨18, _⟩ => ⟨S2048x1024, .bf16⟩
  | .local _ .vmem, ⟨19, _⟩ => ⟨S2048x1024, .bf16⟩
  | .local _ .vmem, ⟨20, _⟩ => ⟨S1024x128, .i32⟩
  | .local _ .vmem, ⟨21, _⟩ => ⟨S1024x128, .i32⟩
  | .local _ .vmem, ⟨22, _⟩ => ⟨S88x1024, .f32⟩
  | .local _ .vmem, ⟨23, _⟩ => ⟨S88x1024, .f32⟩
  | .local _ .vmem, ⟨24, _⟩ => ⟨S88x128, .i32⟩
  | .local _ .vmem, ⟨25, _⟩ => ⟨S88x128, .i32⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_cst : Ref sig .tc := ⟨.hbm, 15, rfl⟩
abbrev main_call1_v0 : Ref sig .tc := ⟨.hbm, 16, rfl⟩
abbrev main_v3 : Ref sig .tc := ⟨.hbm, 17, rfl⟩
abbrev main_c_0 : Ref sig .tc := ⟨.hbm, 18, rfl⟩
abbrev main_call2_v0 : Ref sig .tc := ⟨.hbm, 19, rfl⟩
abbrev main_v4 : Ref sig .tc := ⟨.hbm, 20, rfl⟩
abbrev main_c_1 : Ref sig .tc := ⟨.hbm, 21, rfl⟩
abbrev main_call3_v0 : Ref sig .tc := ⟨.hbm, 22, rfl⟩
abbrev main_v5 : Ref sig .tc := ⟨.hbm, 23, rfl⟩
abbrev main_cst_2 : Ref sig .tc := ⟨.hbm, 24, rfl⟩
abbrev main_call4_v0 : Ref sig .tc := ⟨.hbm, 25, rfl⟩
abbrev main_v6 : Ref sig .tc := ⟨.hbm, 26, rfl⟩
abbrev main_c_3 : Ref sig .tc := ⟨.hbm, 27, rfl⟩
abbrev main_call5_v0 : Ref sig .tc := ⟨.hbm, 28, rfl⟩
abbrev main_v7 : Ref sig .tc := ⟨.hbm, 29, rfl⟩
abbrev main_v8 : Ref sig .tc := ⟨.hbm, 30, rfl⟩
abbrev main_c_4 : Ref sig .tc := ⟨.hbm, 31, rfl⟩
abbrev main_call6_v0 : Ref sig .tc := ⟨.hbm, 32, rfl⟩
abbrev main_v9 : Ref sig .tc := ⟨.hbm, 33, rfl⟩
abbrev main_cst_5 : Ref sig .tc := ⟨.hbm, 34, rfl⟩
abbrev main_call7_v0 : Ref sig .tc := ⟨.hbm, 35, rfl⟩
abbrev main_v10 : Ref sig .tc := ⟨.hbm, 36, rfl⟩
abbrev main_c_6 : Ref sig .tc := ⟨.hbm, 37, rfl⟩
abbrev main_call8_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨3, ![2, 11, 4], ![false, false, false]⟩

def k0_mult1 (i : grid0.Coords) : BitVec 32 :=
  let arg2 : BitVec 32 := BitVec.ofNat 32 (i 2).val
  let c8_i32 : BitVec 32 := 8#32
  let v5 : BitVec 32 := Scalar.muli arg2 c8_i32
  v5
def k0_off1 (i : grid0.Coords) : Fin 2 → Nat :=
  let arg2 : BitVec 32 := BitVec.ofNat 32 (i 2).val
  let c8_i32 : BitVec 32 := 8#32
  let v5 : BitVec 32 := Scalar.muli arg2 c8_i32
  let v6 : BitVec 32 := v5
  let v22 : Index := Scalar.indexCast v6
  let c0_4 : Index := 0#32
  ![v22.toNat, 0]
def k0_off2 (i : grid0.Coords) : Fin 2 → Nat :=
  let arg2 : BitVec 32 := BitVec.ofNat 32 (i 2).val
  let c8_i32 : BitVec 32 := 8#32
  let v5 : BitVec 32 := Scalar.muli arg2 c8_i32
  let v6 : BitVec 32 := v5
  let v38 : Index := Scalar.indexCast v6
  let c0_6 : Index := 0#32
  ![v38.toNat, 0]
def k0_mult2 (i : grid0.Coords) : BitVec 32 :=
  let arg2 : BitVec 32 := BitVec.ofNat 32 (i 2).val
  let c8_i32_11 : BitVec 32 := 8#32
  let v54 : BitVec 32 := Scalar.muli arg2 c8_i32_11
  v54
def k0_cond2 (i : grid0.Coords) : BitVec 1 :=
  let arg2 : BitVec 32 := BitVec.ofNat 32 (i 2).val
  let c3_i32 : BitVec 32 := 3#32
  let v103 : BitVec 1 := Scalar.cmpi .eq arg2 c3_i32
  let v104 : BitVec 32 := Scalar.extui v103
  let c0_i32_24 : BitVec 32 := 0#32
  let v105 : BitVec 1 := Scalar.cmpi .ne v104 c0_i32_24
  v105

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S32x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![2, 4, 11], ![false, false, false]⟩

def k1_mult1 (i : grid1.Coords) : BitVec 32 :=
  let arg2 : BitVec 32 := BitVec.ofNat 32 (i 2).val
  let c8_i32 : BitVec 32 := 8#32
  let v5 : BitVec 32 := Scalar.muli arg2 c8_i32
  v5
def k1_off1 (i : grid1.Coords) : Fin 2 → Nat :=
  let arg2 : BitVec 32 := BitVec.ofNat 32 (i 2).val
  let c8_i32 : BitVec 32 := 8#32
  let v5 : BitVec 32 := Scalar.muli arg2 c8_i32
  let v6 : BitVec 32 := v5
  let v22 : Index := Scalar.indexCast v6
  let c0_4 : Index := 0#32
  ![v22.toNat, 0]
def k1_off2 (i : grid1.Coords) : Fin 2 → Nat :=
  let arg2 : BitVec 32 := BitVec.ofNat 32 (i 2).val
  let c8_i32 : BitVec 32 := 8#32
  let v5 : BitVec 32 := Scalar.muli arg2 c8_i32
  let v6 : BitVec 32 := v5
  let v38 : Index := Scalar.indexCast v6
  let c0_6 : Index := 0#32
  ![v38.toNat, 0]
def k1_cond2 (i : grid1.Coords) : BitVec 1 :=
  let arg2 : BitVec 32 := BitVec.ofNat 32 (i 2).val
  let c10_i32 : BitVec 32 := 10#32
  let v54 : BitVec 1 := Scalar.cmpi .eq arg2 c10_i32
  let v55 : BitVec 32 := Scalar.extui v54
  let c0_i32_11 : BitVec 32 := 0#32
  let v56 : BitVec 1 := Scalar.cmpi .ne v55 c0_i32_11
  v56

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S88x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S88x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S2x2048x4096_S4096x4096 : S2x2048x4096.ShapeCasts S4096x4096
  bitsLt_bf16_f32 : FTy.bits .bf16 < FTy.bits .f32
  pads_S4096x1376_S4096x1408_000_0320 : S4096x1376.Pads (![0, 0] : Fin 2 → Nat) ![0, 32] ![0, 0] S4096x1408
  h_S_ : 0 < S_.numel
  pads_S32x11008_S32x11264_000_02560 : S32x11008.Pads (![0, 0] : Fin 2 → Nat) ![0, 256] ![0, 0] S32x11264
  pads_S32x1376_S32x1408_000_0320 : S32x1376.Pads (![0, 0] : Fin 2 → Nat) ![0, 32] ![0, 0] S32x1408
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S1x8_d1_w32 : S1x8.Iotas .tc 32 [1]
  shapeCasts_S1x8_S8 : S1x8.ShapeCasts S8
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x128_S1024x128x1 : S1024x128.ShapeCasts S1024x128x1
  shapeCasts_S8_S1x1x8 : S8.ShapeCasts S1x1x8
  broadcasts_S1024x128x1_S1024x128x8 : S1024x128x1.Broadcasts S1024x128x8
  broadcasts_S1x1x8_S1024x128x8 : S1x1x8.Broadcasts S1024x128x8
  shapeCasts_S1024x128x8_S1024x1024 : S1024x128x8.ShapeCasts S1024x1024
  h_S8x128 : 0 < S8x128.numel
  shapeCasts_S8x128_S8x128 : S8x128.ShapeCasts S8x128
  shapeCasts_S8x128_S8x128x1 : S8x128.ShapeCasts S8x128x1
  broadcasts_S8x128x1_S8x128x8 : S8x128x1.Broadcasts S8x128x8
  broadcasts_S1x1x8_S8x128x8 : S1x1x8.Broadcasts S8x128x8
  shapeCasts_S8x128x8_S8x1024 : S8x128x8.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  h_S8x1024 : 0 < S8x1024.numel
  shapeCasts_S8x1024_S8x1024 : S8x1024.ShapeCasts S8x1024
  packedbf16_S2048x1024_S2048x1024_0_0 : (Rect.unit (s := S2048x1024) ![0, 0] S2048x1024.size inb_S2048x1024_S2048x1024_0_0).PackedRows (EltTy.packing .bf16)
  pads_S11008x512_S11264x512_02560_000 : S11008x512.Pads (![0, 0] : Fin 2 → Nat) ![256, 0] ![0, 0] S11264x512
  pads_S86x4096_S88x4096_020_000 : S86x4096.Pads (![0, 0] : Fin 2 → Nat) ![2, 0] ![0, 0] S88x4096
  pads_S86x512_S88x512_020_000 : S86x512.Pads (![0, 0] : Fin 2 → Nat) ![2, 0] ![0, 0] S88x512
  shapeCasts_S4096x4096_S2x2048x4096 : S4096x4096.ShapeCasts S2x2048x4096
  dot_S2048x1024_S1024x1024_S2048x1024_1_0_0_1_n_n_wf : DotDims.WF S2048x1024 S1024x1024 S2048x1024 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x128.size a ≤ S32x128.size a
  k0_off2_inb : ∀ i : grid0.Coords, ∀ a, (k0_off2 i) a + S8x1024.size a ≤ S32x1024.size a
  k0_mult2_dvd : ∀ i : grid0.Coords, 8 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x1408.size a
  hwx0_1 : ∀ i : grid0.Coords, EltTy.bits .i32 = 32 ∨ (Rect.block (s := S4096x1408) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x11264.size a
  hwx0_2 : ∀ i : grid0.Coords, EltTy.bits .f32 = 32 ∨ (Rect.block (s := S32x11264) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x1408.size a
  hwx0_3 : ∀ i : grid0.Coords, EltTy.bits .i32 = 32 ∨ (Rect.block (s := S32x1408) S32x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x1408.size a
  hwx0_4 : ∀ i : grid0.Coords, EltTy.bits .i32 = 32 ∨ (Rect.block (s := S4096x1408) S1024x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x11264.size a
  hwx0_5 : ∀ i : grid0.Coords, EltTy.bits .f32 = 32 ∨ (Rect.block (s := S32x11264) S32x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x1408.size a
  hwx0_6 : ∀ i : grid0.Coords, EltTy.bits .i32 = 32 ∨ (Rect.block (s := S32x1408) S32x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S4096x11264.size a
  hwx0_7 : ∀ i : grid0.Coords, EltTy.bits .bf16 = 32 ∨ (Rect.block (s := S4096x11264) S2048x1024.size (cc0_transform_7 i) (hinb0_7 i)).WholeWords (EltTy.packing .bf16)
  hrank1 : 0 < grid1.rank
  k1_mult1_dvd : ∀ i : grid1.Coords, 8 ∣ (k1_mult1 i).toNat
  k1_off1_inb : ∀ i : grid1.Coords, ∀ a, (k1_off1 i) a + S8x128.size a ≤ S88x128.size a
  k1_off2_inb : ∀ i : grid1.Coords, ∀ a, (k1_off2 i) a + S8x1024.size a ≤ S88x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x11264.size a
  hwx1_0 : ∀ i : grid1.Coords, EltTy.bits .bf16 = 32 ∨ (Rect.block (s := S4096x11264) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S11264x512.size a
  hwx1_1 : ∀ i : grid1.Coords, EltTy.bits .i32 = 32 ∨ (Rect.block (s := S11264x512) S1024x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S88x1024.size a ≤ S88x4096.size a
  hwx1_2 : ∀ i : grid1.Coords, EltTy.bits .f32 = 32 ∨ (Rect.block (s := S88x4096) S88x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S88x128.size a ≤ S88x512.size a
  hwx1_3 : ∀ i : grid1.Coords, EltTy.bits .i32 = 32 ∨ (Rect.block (s := S88x512) S88x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S4096x4096.size a
  hwx1_4 : ∀ i : grid1.Coords, EltTy.bits .f32 = 32 ∨ (Rect.block (s := S4096x4096) S2048x1024.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S32x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v8) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S88x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S88x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S8 : Shape := ⟨1, ![8]⟩
abbrev S4096x4096 : Shape := ⟨2, ![4096, 4096]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S_ : Shape := ⟨0, ![]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S11008x512x1 : Shape := ⟨3, ![11008, 512, 1]⟩
abbrev S11008x512x8 : Shape := ⟨3, ![11008, 512, 8]⟩
abbrev S11008x4096 : Shape := ⟨2, ![11008, 4096]⟩
abbrev S86x512x1 : Shape := ⟨3, ![86, 512, 1]⟩
abbrev S86x512x8 : Shape := ⟨3, ![86, 512, 8]⟩
abbrev S86x128x4096 : Shape := ⟨3, ![86, 128, 4096]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S4096x1376, .i32⟩
  | .hbm, ⟨5, _⟩ => ⟨S32x11008, .f32⟩
  | .hbm, ⟨6, _⟩ => ⟨S32x1376, .i32⟩
  | .hbm, ⟨7, _⟩ => ⟨S11008x512, .i32⟩
  | .hbm, ⟨8, _⟩ => ⟨S86x4096, .f32⟩
  | .hbm, ⟨9, _⟩ => ⟨S86x512, .i32⟩
  | .hbm, ⟨10, _⟩ => ⟨S8, .i32⟩
  | .hbm, ⟨11, _⟩ => ⟨S4096x4096, .f32⟩
  | .hbm, ⟨12, _⟩ => ⟨S4096x1376x1, .i32⟩
  | .hbm, ⟨13, _⟩ => ⟨S1x1x8, .i32⟩
  | .hbm, ⟨14, _⟩ => ⟨S4096x1376x8, .i32⟩
  | .hbm, ⟨15, _⟩ => ⟨S4096x1376x8, .i32⟩
  | .hbm, ⟨16, _⟩ => ⟨S4096x1376x8, .i32⟩
  | .hbm, ⟨17, _⟩ => ⟨S_, .i32⟩
  | .hbm, ⟨18, _⟩ => ⟨S4096x1376x8, .i32⟩
  | .hbm, ⟨19, _⟩ => ⟨S4096x1376x8, .i32⟩
  | .hbm, ⟨20, _⟩ => ⟨S4096x11008, .i32⟩
  | .hbm, ⟨21, _⟩ => ⟨S4096x11008, .f32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S32x128x11008, .f32⟩
  | .hbm, ⟨33, _⟩ => ⟨S4096x11008, .f32⟩
  | .hbm, ⟨34, _⟩ => ⟨S4096x11008, .f32⟩
  | .hbm, ⟨35, _⟩ => ⟨S32x128x11008, .f32⟩
  | .hbm, ⟨36, _⟩ => ⟨S4096x11008, .f32⟩
  | .hbm, ⟨37, _⟩ => ⟨S4096x11008, .f32⟩
  | .hbm, ⟨38, _⟩ => ⟨S4096x1376x1, .i32⟩
  | .hbm, ⟨39, _⟩ => ⟨S1x1x8, .i32⟩
  | .hbm, ⟨40, _⟩ => ⟨S4096x1376x8, .i32⟩
  | .hbm, ⟨41, _⟩ => ⟨S4096x1376x8, .i32⟩
  | .hbm, ⟨42, _⟩ => ⟨S4096x1376x8, .i32⟩
  | .hbm, ⟨43, _⟩ => ⟨S_, .i32⟩
  | .hbm, ⟨44, _⟩ => ⟨S4096x1376x8, .i32⟩
  | .hbm, ⟨45, _⟩ => ⟨S4096x1376x8, .i32⟩
  | .hbm, ⟨46, _⟩ => ⟨S4096x11008, .i32⟩
  | .hbm, ⟨47, _⟩ => ⟨S4096x11008, .f32⟩
  | .hbm, ⟨48, _⟩ => ⟨S32x1376x1, .i32⟩
  | .hbm, ⟨49, _⟩ => ⟨S1x1x8, .i32⟩
  | .hbm, ⟨50, _⟩ => ⟨S32x1376x8, .i32⟩
  | .hbm, ⟨51, _⟩ => ⟨S32x1376x8, .i32⟩
  | .hbm, ⟨52, _⟩ => ⟨S32x1376x8, .i32⟩
  | .hbm, ⟨53, _⟩ => ⟨S_, .i32⟩
  | .hbm, ⟨54, _⟩ => ⟨S32x1376x8, .i32⟩
  | .hbm, ⟨55, _⟩ => ⟨S32x1376x8, .i32⟩
  | .hbm, ⟨56, _⟩ => ⟨S32x11008, .i32⟩
  | .hbm, ⟨57, _⟩ => ⟨S32x11008, .f32⟩
  | .hbm, ⟨58, _⟩ => ⟨S32x128x11008, .f32⟩
  | .hbm, ⟨59, _⟩ => ⟨S4096x11008, .f32⟩
  | .hbm, ⟨60, _⟩ => ⟨S4096x11008, .f32⟩
  | .hbm, ⟨61, _⟩ => ⟨S32x128x11008, .f32⟩
  | .hbm, ⟨62, _⟩ => ⟨S4096x11008, .f32⟩
  | .hbm, ⟨63, _⟩ => ⟨S4096x11008, .f32⟩
  | .hbm, ⟨64, _⟩ => ⟨S11008x512x1, .i32⟩
  | .hbm, ⟨65, _⟩ => ⟨S1x1x8, .i32⟩
  | .hbm, ⟨66, _⟩ => ⟨S11008x512x8, .i32⟩
  | .hbm, ⟨67, _⟩ => ⟨S11008x512x8, .i32⟩
  | .hbm, ⟨68, _⟩ => ⟨S11008x512x8, .i32⟩
  | .hbm, ⟨69, _⟩ => ⟨S_, .i32⟩
  | .hbm, ⟨70, _⟩ => ⟨S11008x512x8, .i32⟩
  | .hbm, ⟨71, _⟩ => ⟨S11008x512x8, .i32⟩
  | .hbm, ⟨72, _⟩ => ⟨S11008x4096, .i32⟩
  | .hbm, ⟨73, _⟩ => ⟨S11008x4096, .f32⟩
  | .hbm, ⟨74, _⟩ => ⟨S86x512x1, .i32⟩
  | .hbm, ⟨75, _⟩ => ⟨S1x1x8, .i32⟩
  | .hbm, ⟨76, _⟩ => ⟨S86x512x8, .i32⟩
  | .hbm, ⟨77, _⟩ => ⟨S86x512x8, .i32⟩
  | .hbm, ⟨78, _⟩ => ⟨S86x512x8, .i32⟩
  | .hbm, ⟨79, _⟩ => ⟨S_, .i32⟩
  | .hbm, ⟨80, _⟩ => ⟨S86x512x8, .i32⟩
  | .hbm, ⟨81, _⟩ => ⟨S86x512x8, .i32⟩
  | .hbm, ⟨82, _⟩ => ⟨S86x4096, .i32⟩
  | .hbm, ⟨83, _⟩ => ⟨S86x4096, .f32⟩
  | .hbm, ⟨84, _⟩ => ⟨S86x128x4096, .f32⟩
  | .hbm, ⟨85, _⟩ => ⟨S11008x4096, .f32⟩
  | .hbm, ⟨86, _⟩ => ⟨S11008x4096, .f32⟩
  | .hbm, ⟨87, _⟩ => ⟨S86x128x4096, .f32⟩
  | .hbm, ⟨88, _⟩ => ⟨S11008x4096, .f32⟩
  | .hbm, ⟨89, _⟩ => ⟨S11008x4096, .f32⟩
  | .hbm, ⟨90, _⟩ => ⟨S4096x11008, .f32⟩
  | .hbm, ⟨91, _⟩ => ⟨S4096x11008, .f32⟩
  | .hbm, ⟨92, _⟩ => ⟨S4096x11008, .f32⟩
  | .hbm, ⟨93, _⟩ => ⟨S_, .f32⟩
  | .hbm, ⟨94, _⟩ => ⟨S4096x11008, .f32⟩
  | .hbm, ⟨95, _⟩ => ⟨S4096x11008, .f32⟩
  | .hbm, ⟨96, _⟩ => ⟨S_, .f32⟩
  | .hbm, ⟨97, _⟩ => ⟨S4096x11008, .f32⟩
  | .hbm, ⟨98, _⟩ => ⟨S4096x11008, .f32⟩
  | .hbm, ⟨99, _⟩ => ⟨S4096x11008, .f32⟩
  | .hbm, ⟨100, _⟩ => ⟨S4096x11008, .f32⟩
  | .hbm, ⟨101, _⟩ => ⟨S4096x11008, .f32⟩
  | .hbm, ⟨102, _⟩ => ⟨S4096x4096, .f32⟩
  | .hbm, ⟨103, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_5 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008x512_S11008x512x1_0_1 : S11008x512.BroadcastsInDim S11008x512x1 (![0, 1] : Fin 2 → Fin S11008x512x1.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  bcast_S86x512_S86x512x1_0_1 : S86x512.BroadcastsInDim S86x512x1 (![0, 1] : Fin 2 → Fin S86x512x1.rank)
  bcast_S86x512x1_S86x512x8_0_1_2 : S86x512x1.BroadcastsInDim S86x512x8 (![0, 1, 2] : Fin 3 → Fin S86x512x8.rank)
  bcast_S1x1x8_S86x512x8_0_1_2 : S1x1x8.BroadcastsInDim S86x512x8 (![0, 1, 2] : Fin 3 → Fin S86x512x8.rank)
  bcast_S_S86x512x8 : S_.BroadcastsInDim S86x512x8 (![] : Fin 0 → Fin S86x512x8.rank)
  shapeCasts_S86x512x8_S86x4096 : S86x512x8.ShapeCasts S86x4096
  bcast_S86x4096_S86x128x4096_0_2 : S86x4096.BroadcastsInDim S86x128x4096 (![0, 2] : Fin 2 → Fin S86x128x4096.rank)
  shapeCasts_S86x128x4096_S11008x4096 : S86x128x4096.ShapeCasts S11008x4096
  bcast_S_S4096x11008 : S_.BroadcastsInDim S4096x11008 (![] : Fin 0 → Fin S4096x11008.rank)
  shapeCasts_S4096x4096_S2x2048x4096 : S4096x4096.ShapeCasts S2x2048x4096
  dot_S4096x4096_S4096x11008_S4096x11008_1_0_0_1_n_n_wf : DotDims.WF S4096x4096 S4096x11008 S4096x11008 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.Kernel.Run.lean ====
/-
  The launch of the two kernel regions, from each region's proof data.

  Between two items of the program core `c` holds every unscoped buffer at a known valuation: the launch contents pushed
  through the host stretches, with the first kernel's output array replaced, at its exit, by what its write-backs leave
  (`Dat.arrAt` at the last point) and likewise the second's. Each region is entered by splitting its windows' arrays out
  of that valuation and left by putting them back; the register of the random-number generator enters the region's
  invariant and comes back; nothing is owed to any other core. Every weakly fair execution then terminates, and the final
  memory has every unscoped buffer at the last valuation: the arguments at their launch contents, the result at the
  second kernel's output array reshaped.

  The regions' proof data are parameters here: any data whose arrays are the entry valuation's, with full shares and
  nothing owed, a body obligation, and an invariant that begins and ends at the scoped rest with the generator register.
-/
import proofs.«413103_j549755813920_3_alg».proof.Proof.Gen.Kernel.Regions
import proofs.«413103_j549755813920_3_alg».proof.Proof.Gen.Kernel.Skeleton
import proofs.«413103_j549755813920_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's entry contents, read at the TensorCore's references. -/
abbrev VA (c : Dev nD) (b : Ref sig .tc) : Buf (Elt F) ((c : Thread nD τ).loc b) := V12 m c b

variable (D0 : (c : Dev nD) → Dat τ (Elt F) Unit ℕ (UR sig nD τ) ℕ cfg0 c)

/-- The buffers at the first region's exit: its arrays at what the pipeline leaves, every other buffer as entered. -/
def o13 (c : Dev nD) : Valuation τ sig (Elt F) :=
  Pipeline.withArrays spec0 c (V12 m c) fun w => (D0 c).arrAt w cfg0.N

/-- The regions' exit contents, first approximation: the first region's everywhere. -/
def outsA : Outs (F := F) := fun _ r c => o13 m D0 c r

/-- The second region's entry contents, read at the TensorCore's references. -/
abbrev VB (c : Dev nD) (b : Ref sig .tc) : Buf (Elt F) ((c : Thread nD τ).loc b) := V19 m (outsA m D0) c b

variable (D1 : (c : Dev nD) → Dat τ (Elt F) Unit ℕ (UR sig nD τ) ℕ cfg1 c)

/-- The buffers at the second region's exit. -/
def o20 (c : Dev nD) : Valuation τ sig (Elt F) :=
  Pipeline.withArrays spec1 c (V19 m (outsA m D0) c) fun w => (D1 c).arrAt w cfg1.N

/-- What each region leaves: after item 19 the second region's exit contents, before it the first's. -/
def outs : Outs (F := F) := fun J r c => if J = 20 then o20 m D0 D1 c r else o13 m D0 c r

theorem V19_outs (c : Dev nD) : V19 m (outs m D0 D1) c = V19 m (outsA m D0) c := rfl

/-- Every pipeline's proof data. -/
def pdats : (p : Fin 2) → (c : Dev nD) → Dat τ (Elt F) Unit ℕ (UR sig nD τ) ℕ (cfgs p) c
  | ⟨0, _⟩ => fun c => D0 c
  | ⟨1, _⟩ => fun c => D1 c

abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R c

/-- A core that owes nothing owes the proof data's tallies, when those are zero and nothing bounds the recorded pairs. -/
theorem owesAt_intro {cfg : Cfg sig Λ₀} (c : Dev nD) (D : Dat τ (Elt F) Unit ℕ (UR sig nD τ) ℕ cfg c) (t : Fin (cfg.N + 1))
    (howed : D.owed t = 0) (hrec : D.recorded t = Set.univ) :
    (iprop(∃ W, owes (c : Thread nD τ) (0 : CellTallies nD τ sig Unit) W) : sProp 𝕄) ⊢ D.owesAt () t := by
  unfold Pipeline.Dat.owesAt Pipeline.owesWithin
  rw [howed]
  iintro ⟨%W, HO⟩; iexists W; isplitr
  · ipureintro; intro x _; exact Or.inl (hrec ▸ Set.mem_univ x)
  iexact HO

/-- And back. -/
theorem owesAt_elim {cfg : Cfg sig Λ₀} (c : Dev nD) (D : Dat τ (Elt F) Unit ℕ (UR sig nD τ) ℕ cfg c) (t : Fin (cfg.N + 1))
    (howed : D.owed t = 0) :
    D.owesAt () t ⊢ (iprop(∃ W, owes (c : Thread nD τ) (0 : CellTallies nD τ sig Unit) W) : sProp 𝕄) := by
  unfold Pipeline.Dat.owesAt Pipeline.owesWithin
  rw [howed]
  iintro ⟨%W, -, HO⟩; iexists W; iexact HO

section Records

/-- What the launch asks of the first region's proof data: its arrays are the entry valuation's, held whole, nothing
    owed, a body obligation, and an invariant that begins and ends at the scoped rest with the generator register. -/
structure Half0 : Prop where
  hA : ∀ (c : Dev nD) (w : Fin cfg0.W), (D0 c).A w = VA m c (Pipeline.arrRef spec0 w)
  hq : ∀ (c : Dev nD) (w : Fin cfg0.W), (D0 c).q w = fullShare
  howed : ∀ (c : Dev nD) (t : Fin (cfg0.N + 1)), (D0 c).owed t = 0
  hrec : ∀ (c : Dev nD) (t : Fin (cfg0.N + 1)), (D0 c).recorded t = Set.univ
  hb : ∀ c : Dev nD, BodyObligation (D0 c) (defs₀ (F := F)) Variants.none () Set.univ
  hin : ∀ c : Dev nD, (Pipeline.ΦA spec0 c : sProp 𝕄) ⊢ (D0 c).Φ 0
  hout : ∀ c : Dev nD, (D0 c).Φ (Fin.last cfg0.N) ⊢ (Pipeline.ΦA spec0 c : sProp 𝕄)

/-- The same of the second region's, at its own entry valuation. -/
structure Half1 : Prop where
  hA : ∀ (c : Dev nD) (w : Fin cfg1.W), (D1 c).A w = VB m D0 c (Pipeline.arrRef spec1 w)
  hq : ∀ (c : Dev nD) (w : Fin cfg1.W), (D1 c).q w = fullShare
  howed : ∀ (c : Dev nD) (t : Fin (cfg1.N + 1)), (D1 c).owed t = 0
  hrec : ∀ (c : Dev nD) (t : Fin (cfg1.N + 1)), (D1 c).recorded t = Set.univ
  hb : ∀ c : Dev nD, BodyObligation (D1 c) (defs₀ (F := F)) Variants.none () Set.univ
  hin : ∀ c : Dev nD, (Pipeline.ΦA spec1 c : sProp 𝕄) ⊢ (D1 c).Φ 0
  hout : ∀ c : Dev nD, (D1 c).Φ (Fin.last cfg1.N) ⊢ (Pipeline.ΦA spec1 c : sProp 𝕄)

/-- The first region's exit contents, read at the TensorCore's references. -/
abbrev VA' (c : Dev nD) (b : Ref sig .tc) : Buf (Elt F) ((c : Thread nD τ).loc b) := V13 m (outs m D0 D1) c b

/-- The exit valuation at the first region's output array is what its write-backs leave. -/
theorem V13_out (c : Dev nD) : VA' m D0 D1 c main_v8 = (D0 c).arrAt 7 cfg0.N := by
  show Function.update (V12 m c) main_v8 (outs m D0 D1 13 main_v8 c) main_v8 = _
  rw [Function.update_self]
  show o13 m D0 c (Proc.devRef .tc (Pipeline.arrRef spec0 7)) = _
  unfold o13; exact Pipeline.withArrays_arr spec0 launch0.win.arr_inj c _ _ 7

/-- Off that array the exit valuation is the entry one. -/
theorem V13_of_ne (c : Dev nD) (b : Ref sig .tc) (hb : b ≠ main_v8) : VA' m D0 D1 c b = VA m c b := by
  show Function.update (V12 m c) main_v8 (outs m D0 D1 13 main_v8 c) (Proc.devRef .tc b) = _
  exact Function.update_of_ne (fun e => hb (Proc.devRef_injective _ e)) _ _

theorem hF0 (h : Half0 m D0) (c : Dev nD) (w : Fin cfg0.W) : (D0 c).arrAt w cfg0.N = VA' m D0 D1 c (Pipeline.arrRef spec0 w) := by
  have hin : ∀ w' : Fin cfg0.W, (cfg0.win w').isOut = false → (D0 c).arrAt w' cfg0.N = VA' m D0 D1 c (Pipeline.arrRef spec0 w') ∨ w' = 7 := by
    intro w' hw
    left
    rw [(D0 c).arrAt_in w' hw, h.hA]
    exact (V13_of_ne m D0 D1 c _ (by revert hw; revert w'; decide)).symm
  fin_cases w
  all_goals first
    | exact (hin _ rfl).resolve_right (by decide)
    | exact (V13_out m D0 D1 c).symm

theorem hrest0 (c : Dev nD) : ∀ b, b ∉ Finset.univ.image (Pipeline.arrRef spec0) → VA' m D0 D1 c b = VA m c b :=
  fun b hb => V13_of_ne m D0 D1 c b fun e => hb (Finset.mem_image.mpr ⟨7, Finset.mem_univ _, e.symm⟩)

/-- The second region's exit contents, read at the TensorCore's references. -/
abbrev VB' (c : Dev nD) (b : Ref sig .tc) : Buf (Elt F) ((c : Thread nD τ).loc b) := V20 m (outs m D0 D1) c b

theorem V20_out (c : Dev nD) : VB' m D0 D1 c main_v12 = (D1 c).arrAt 4 cfg1.N := by
  show Function.update (V19 m (outs m D0 D1) c) main_v12 (outs m D0 D1 20 main_v12 c) main_v12 = _
  rw [Function.update_self]
  show o20 m D0 D1 c (Proc.devRef .tc (Pipeline.arrRef spec1 4)) = _
  unfold o20; exact Pipeline.withArrays_arr spec1 launch1.win.arr_inj c _ _ 4

theorem V20_of_ne (c : Dev nD) (b : Ref sig .tc) (hb : b ≠ main_v12) : VB' m D0 D1 c b = VB m D0 c b := by
  show Function.update (V19 m (outs m D0 D1) c) main_v12 (outs m D0 D1 20 main_v12 c) (Proc.devRef .tc b) = _
  exact Function.update_of_ne (fun e => hb (Proc.devRef_injective _ e)) _ _

theorem hF1 (h : Half1 m D0 D1) (c : Dev nD) (w : Fin cfg1.W) : (D1 c).arrAt w cfg1.N = VB' m D0 D1 c (Pipeline.arrRef spec1 w) := by
  have hin : ∀ w' : Fin cfg1.W, (cfg1.win w').isOut = false → (D1 c).arrAt w' cfg1.N = VB' m D0 D1 c (Pipeline.arrRef spec1 w') ∨ w' = 4 := by
    intro w' hw
    left
    rw [(D1 c).arrAt_in w' hw, h.hA]
    exact (V20_of_ne m D0 D1 c _ (by revert hw; revert w'; decide)).symm
  fin_cases w
  all_goals first
    | exact (hin _ rfl).resolve_right (by decide)
    | exact (V20_out m D0 D1 c).symm

theorem hrest1 (c : Dev nD) : ∀ b, b ∉ Finset.univ.image (Pipeline.arrRef spec1) → VB' m D0 D1 c b = VB m D0 c b :=
  fun b hb => V20_of_ne m D0 D1 c b fun e => hb (Finset.mem_image.mpr ⟨4, Finset.mem_univ _, e.symm⟩)

set_option backward.isDefEq.respectTransparency.types false in
theorem hentry0 (h : Half0 m D0) (c : Dev nD) :
    iprop(iprop(StableHlo.held (c : Thread nD τ) (Pipeline.ucRefs τ sig) (V12 m c) ∗ R c) ∗ Pipeline.ownSems0 (fun k : PEmpty => k.elim) c ∗ levAts L lv)
      ⊢ (|={Set.univ}=> iprop((pdats D0 D1 0 c).arrays ((pdats D0 D1 0 c).arrAt · 0) ∗ Pipeline.prefHeld (pcfgs (F := F) 0).pre c (fun _ => fullShare) (adm (F := F) 0).1
        ∗ (pdats D0 D1 0 c).owesAt () 0 ∗ iprop(∃ r, prngReg c r) ∗ Pipeline.unscopedRest (Ix := Unit) (Name := ℕ) (U := UR sig nD τ) (Lvl := ℕ) spec0 c (VA m c)) : sProp 𝕄) := by
  rw [Pipeline.ownSems0_none]
  have hsplit := Pipeline.arrays_of_unscopedBufs (p := 0) (pcfgs (F := F)) adm (pdats D0 D1) launch0.win launch0.arr_whole c
    ((pdats D0 D1 0 c).share_full (h.hq c)) (VA m c) (h.hA c)
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_intro c (pdats D0 D1 0 c) 0 (h.howed c 0) (h.hrec c 0)); iexact HO
  isplitl [Hp]; · iexact Hp
  iexact Hrest

set_option backward.isDefEq.respectTransparency.types false in
theorem hin0' (h : Half0 m D0) (c : Dev nD) :
    iprop(iprop(∃ r, prngReg c r) ∗ Pipeline.prefHeld (pcfgs (F := F) 0).pre c (fun _ => fullShare) (adm (F := F) 0).1 ∗ Pipeline.scopedRest (Pipeline.pin (pcfgs (F := F)) adm 0).spec c)
      ⊢ ((pdats D0 D1 0 c).Φ 0 : sProp 𝕄) := by
  have h1 : iprop(iprop(∃ r, prngReg c r) ∗ Pipeline.prefHeld (pcfgs (F := F) 0).pre c (fun _ => fullShare) (adm (F := F) 0).1 ∗ Pipeline.scopedRest (Pipeline.pin (pcfgs (F := F)) adm 0).spec c)
      ⊢ (Pipeline.ΦA spec0 c : sProp 𝕄) := by
    unfold Pipeline.ΦA
    iintro ⟨Hp, -, Hr⟩
    isplitl [Hr]; · iexact Hr
    iexact Hp
  exact h1.trans (h.hin c)

set_option backward.isDefEq.respectTransparency.types false in
theorem hout0' (h : Half0 m D0) (c : Dev nD) :
    ((pdats D0 D1 0 c).Φ (Fin.last (Pipeline.pin (pcfgs (F := F)) adm 0).N) : sProp 𝕄)
      ⊢ iprop(iprop(∃ r, prngReg c r) ∗ Pipeline.ownSems0 (fun k : PEmpty => k.elim) c ∗ Pipeline.scopedRest (Pipeline.pin (pcfgs (F := F)) adm 0).spec c) := by
  rw [Pipeline.ownSems0_none]
  have h1 : (Pipeline.ΦA spec0 c : sProp 𝕄)
      ⊢ iprop(iprop(∃ r, prngReg c r) ∗ BI.emp ∗ Pipeline.scopedRest (Pipeline.pin (pcfgs (F := F)) adm 0).spec c) := by
    unfold Pipeline.ΦA
    iintro ⟨Hr, Hp⟩
    isplitl [Hp]; · iexact Hp
    isplitr; · iempintro
    iexact Hr
  exact (h.hout c).trans h1

set_option backward.isDefEq.respectTransparency.types false in
theorem hexit0 (h : Half0 m D0) (c : Dev nD) :
    iprop((pdats D0 D1 0 c).arrays ((pdats D0 D1 0 c).arrAt · (Pipeline.pin (pcfgs (F := F)) adm 0).N) ∗ (pdats D0 D1 0 c).owesAt () (Fin.last (Pipeline.pin (pcfgs (F := F)) adm 0).N)
        ∗ iprop(∃ r, prngReg c r) ∗ Pipeline.unscopedRest (Ix := Unit) (Name := ℕ) (U := UR sig nD τ) (Lvl := ℕ) spec0 c (VA m c))
      ⊢ (|={Set.univ}=> iprop(StableHlo.held (c : Thread nD τ) (Pipeline.ucRefs τ sig) (V13 m (outs m D0 D1) c) ∗ R c) : sProp 𝕄) := by
  have hjoin := Pipeline.unscopedBufs_of_arrays (p := 0) (pcfgs (F := F)) adm (Ix := Unit) (Name := ℕ) (U := UR sig nD τ) (Lvl := ℕ)
    launch0.win launch0.arr_whole c (pdats D0 D1) ((pdats D0 D1 0 c).share_full (h.hq c))
    (VA m c) (VA' m D0 D1 c) ((pdats D0 D1 0 c).arrAt · cfg0.N) (hF0 m D0 D1 h c) (hrest0 m D0 D1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owesAt_elim c (pdats D0 D1 0 c) _ (h.howed c _)); iexact HO

set_option backward.isDefEq.respectTransparency.types false in
/-- Region 0 as a segment: entered from every unscoped buffer at the entry valuation, left at the exit one. -/
def reg0 (h : Half0 m D0) : Pipeline.RegionSeg (pcfgs (F := F)) adm (pdats D0 D1) () defs₀ Variants.none L lv 0 where
  win := launch0.win.to₀
  block_pos := launch0.block_pos
  stage_whole := launch0.stage_whole
  K := PEmpty
  osem k := k.elim
  ho := Pipeline.OwnSemFacts.none _
  hbody c := (h.hb c).loose
  hwaits := Pipeline.hwaits_of_owed_zero _ _ _ _ L lv 0 fun c t => h.howed c t
  pre c := iprop(StableHlo.held (c : Thread nD τ) (Pipeline.ucRefs τ sig) (V12 m c) ∗ R c)
  post c := iprop(StableHlo.held (c : Thread nD τ) (Pipeline.ucRefs τ sig) (V13 m (outs m D0 D1) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := hentry0 m D0 D1 h c
  hin c := hin0' m D0 D1 h c
  hout c := hout0' m D0 D1 h c
  hexit c := hexit0 m D0 D1 h c

set_option backward.isDefEq.respectTransparency.types false in
theorem hentry1 (h : Half1 m D0 D1) (c : Dev nD) :
    iprop(iprop(StableHlo.held (c : Thread nD τ) (Pipeline.ucRefs τ sig) (V19 m (outs m D0 D1) c) ∗ R c) ∗ Pipeline.ownSems0 (fun k : PEmpty => k.elim) c ∗ levAts L lv)
      ⊢ (|={Set.univ}=> iprop((pdats D0 D1 1 c).arrays ((pdats D0 D1 1 c).arrAt · 0) ∗ Pipeline.prefHeld (pcfgs (F := F) 1).pre c (fun _ => fullShare) (adm (F := F) 1).1
        ∗ (pdats D0 D1 1 c).owesAt () 0 ∗ iprop(∃ r, prngReg c r) ∗ Pipeline.unscopedRest (Ix := Unit) (Name := ℕ) (U := UR sig nD τ) (Lvl := ℕ) spec1 c (VB m D0 c)) : sProp 𝕄) := by
  rw [Pipeline.ownSems0_none, V19_outs m D0 D1 c]
  have hsplit := Pipeline.arrays_of_unscopedBufs (p := 1) (pcfgs (F := F)) adm (pdats D0 D1) launch1.win launch1.arr_whole c
    ((pdats D0 D1 1 c).share_full (h.hq c)) (VB m D0 c) (h.hA c)
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_intro c (pdats D0 D1 1 c) 0 (h.howed c 0) (h.hrec c 0)); iexact HO
  isplitl [Hp]; · iexact Hp
  iexact Hrest

set_option backward.isDefEq.respectTransparency.types false in
theorem hin1' (h : Half1 m D0 D1) (c : Dev nD) :
    iprop(iprop(∃ r, prngReg c r) ∗ Pipeline.prefHeld (pcfgs (F := F) 1).pre c (fun _ => fullShare) (adm (F := F) 1).1 ∗ Pipeline.scopedRest (Pipeline.pin (pcfgs (F := F)) adm 1).spec c)
      ⊢ ((pdats D0 D1 1 c).Φ 0 : sProp 𝕄) := by
  have h1 : iprop(iprop(∃ r, prngReg c r) ∗ Pipeline.prefHeld (pcfgs (F := F) 1).pre c (fun _ => fullShare) (adm (F := F) 1).1 ∗ Pipeline.scopedRest (Pipeline.pin (pcfgs (F := F)) adm 1).spec c)
      ⊢ (Pipeline.ΦA spec1 c : sProp 𝕄) := by
    unfold Pipeline.ΦA
    iintro ⟨Hp, -, Hr⟩
    isplitl [Hr]; · iexact Hr
    iexact Hp
  exact h1.trans (h.hin c)

set_option backward.isDefEq.respectTransparency.types false in
theorem hout1' (h : Half1 m D0 D1) (c : Dev nD) :
    ((pdats D0 D1 1 c).Φ (Fin.last (Pipeline.pin (pcfgs (F := F)) adm 1).N) : sProp 𝕄)
      ⊢ iprop(iprop(∃ r, prngReg c r) ∗ Pipeline.ownSems0 (fun k : PEmpty => k.elim) c ∗ Pipeline.scopedRest (Pipeline.pin (pcfgs (F := F)) adm 1).spec c) := by
  rw [Pipeline.ownSems0_none]
  have h1 : (Pipeline.ΦA spec1 c : sProp 𝕄)
      ⊢ iprop(iprop(∃ r, prngReg c r) ∗ BI.emp ∗ Pipeline.scopedRest (Pipeline.pin (pcfgs (F := F)) adm 1).spec c) := by
    unfold Pipeline.ΦA
    iintro ⟨Hr, Hp⟩
    isplitl [Hp]; · iexact Hp
    isplitr; · iempintro
    iexact Hr
  exact (h.hout c).trans h1

set_option backward.isDefEq.respectTransparency.types false in
theorem hexit1 (h : Half1 m D0 D1) (c : Dev nD) :
    iprop((pdats D0 D1 1 c).arrays ((pdats D0 D1 1 c).arrAt · (Pipeline.pin (pcfgs (F := F)) adm 1).N) ∗ (pdats D0 D1 1 c).owesAt () (Fin.last (Pipeline.pin (pcfgs (F := F)) adm 1).N)
        ∗ iprop(∃ r, prngReg c r) ∗ Pipeline.unscopedRest (Ix := Unit) (Name := ℕ) (U := UR sig nD τ) (Lvl := ℕ) spec1 c (VB m D0 c))
      ⊢ (|={Set.univ}=> iprop(StableHlo.held (c : Thread nD τ) (Pipeline.ucRefs τ sig) (V20 m (outs m D0 D1) c) ∗ R c) : sProp 𝕄) := by
  have hjoin := Pipeline.unscopedBufs_of_arrays (p := 1) (pcfgs (F := F)) adm (Ix := Unit) (Name := ℕ) (U := UR sig nD τ) (Lvl := ℕ)
    launch1.win launch1.arr_whole c (pdats D0 D1) ((pdats D0 D1 1 c).share_full (h.hq c))
    (VB m D0 c) (VB' m D0 D1 c) ((pdats D0 D1 1 c).arrAt · cfg1.N) (hF1 m D0 D1 h c) (hrest1 m D0 D1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owesAt_elim c (pdats D0 D1 1 c) _ (h.howed c _)); iexact HO

set_option backward.isDefEq.respectTransparency.types false in
/-- Region 1 as a segment: entered from every unscoped buffer at the entry valuation, left at the exit one. -/
def reg1 (h : Half1 m D0 D1) : Pipeline.RegionSeg (pcfgs (F := F)) adm (pdats D0 D1) () defs₀ Variants.none L lv 1 where
  win := launch1.win.to₀
  block_pos := launch1.block_pos
  stage_whole := launch1.stage_whole
  K := PEmpty
  osem k := k.elim
  ho := Pipeline.OwnSemFacts.none _
  hbody c := (h.hb c).loose
  hwaits := Pipeline.hwaits_of_owed_zero _ _ _ _ L lv 1 fun c t => h.howed c t
  pre c := iprop(StableHlo.held (c : Thread nD τ) (Pipeline.ucRefs τ sig) (V19 m (outs m D0 D1) c) ∗ R c)
  post c := iprop(StableHlo.held (c : Thread nD τ) (Pipeline.ucRefs τ sig) (V20 m (outs m D0 D1) c) ∗ R c)
  X c := iprop(∃ r, prngReg c r)
  Y c := iprop(∃ r, prngReg c r)
  Z c := Pipeline.unscopedRest (Ix := Unit) (Name := ℕ) (U := UR sig nD τ) (Lvl := ℕ) spec1 c (VB m D0 c)
  hentry c := hentry1 m D0 D1 h c
  hin c := hin1' m D0 D1 h c
  hout c := hout1' m D0 D1 h c
  hexit c := hexit1 m D0 D1 h c

/-- What the first region leaves in its output array. -/
theorem outs13 (c : Dev nD) : outs m D0 D1 13 main_v8 c = (D0 c).arrAt 7 cfg0.N := by
  show o13 m D0 c (Proc.devRef .tc (Pipeline.arrRef spec0 7)) = _
  unfold o13; exact Pipeline.withArrays_arr spec0 launch0.win.arr_inj c _ _ 7

/-- What the second region leaves in its output array. -/
theorem outs20 (c : Dev nD) : outs m D0 D1 20 main_v12 c = (D1 c).arrAt 4 cfg1.N := by
  show o20 m D0 D1 c (Proc.devRef .tc (Pipeline.arrRef spec1 4)) = _
  unfold o20; exact Pipeline.withArrays_arr spec1 launch1.win.arr_inj c _ _ 4

/-- The first approximation agrees with the exit contents at the first region's output. -/
theorem outsA13 (c : Dev nD) : outsA m D0 13 main_v8 c = (D0 c).arrAt 7 cfg0.N := by
  show o13 m D0 c (Proc.devRef .tc (Pipeline.arrRef spec0 7)) = _
  unfold o13; exact Pipeline.withArrays_arr spec0 launch0.win.arr_inj c _ _ 7

end Records

section Launch

set_option backward.isDefEq.respectTransparency.types false in
/-- THE RUN. From any memory with zero counters every weakly fair execution of the program terminates, and the final
    memory has every unscoped buffer of every core at the last valuation. -/
theorem run_all (h0 : Half0 m D0) (h1 : Half1 m D0 D1) :
    θ_run defs (onTc (τ := τ) (main (F := F))) ⟨m, fun _ => 0, ρ⟩ (fun r => ∀ c : Dev nD,
      ∀ b ∈ Pipeline.ucRefs τ sig, r.2.mem ((c : Thread nD τ).1, b) = V21 m (outs m D0 D1) c b) := by
  have hE2 : ∀ c : Dev nD, E (F := F) 2 c ⊢ (iprop(∃ W, owes (c : Thread nD τ) (0 : CellTallies nD τ sig Unit) W) : sProp 𝕄) := by
    intro c
    iintro ⟨-, HO⟩
    iexact HO
  refine Pipeline.θ_run_regions_kit_dev (pcfgs (F := F)) adm (pdats D0 D1) () cellOf_inj emb₁ defs₀ Variants.none L lv m ρ main
    (segs m (outs m D0 D1) Variants.none L lv (E (F := F)) () (pdats D0 D1) (reg0 m D0 D1 h0) (reg1 m D0 D1 h1))
    (fun c Q => by
      rewrite [main_chain c, Pipeline.Seg.run_eq_chain,
        show (segs m (outs m D0 D1) Variants.none L lv (E (F := F)) () (pdats D0 D1) (reg0 m D0 D1 h0) (reg1 m D0 D1 h1) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => StableHlo.held (c : Thread nD τ) (Pipeline.ucRefs τ sig) (V21 m (outs m D0 D1) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => ∀ b ∈ Pipeline.ucRefs τ sig, s.mem ((c : Thread nD τ).1, b) = V21 m (outs m D0 D1) c b)
    (hfin := fun c s' => ?_) (hQ := fun _ h => h)
  · -- the launch: the unscoped buffers are held at the launch contents; the rest makes the thread state on every core
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (V21 m (outs m D0 D1) c) s')
    isplitl [Hh] <;> iassumption

end Launch

end Cert.Kernel.Run

end
-- ==== Proof.Kernel.R0.Shared.lean ====
/- Region 0 (the gate/up projection with its two accumulators): what its three control cases share. The last grid
   coordinate k runs over the four K-blocks of one output block: at k = 0 both accumulators are reset, at every k a
   product is added into each, and only at k = 3 is the output block stored. Here: the two branch conditions in
   closed form over the grid, where the output window is idle and not written back, each window's staging memref,
   the two accumulators as memrefs, the region's invariant with the accumulators named, each window's block as the
   region finds it, and that every input's staging buffer holds its block whether or not it was fetched there. -/
import proofs.«413103_j549755813920_3_alg».proof.Proof.Gen.Kernel.Launch
import proofs.«413103_j549755813920_3_alg».proof.Proof.Gen.Kernel.Skeleton
import proofs.«413103_j549755813920_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block

Each of the seven inputs is uncut and never idle, and the body leaves its block in place. Where the pipeline does not
fetch it (the scale and zero-point windows 2, 3, 5, 6 move only with the N-block, so three points in four), the block
index has not moved since the point before, and the buffer still holds that point's block, which is this point's. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition (k = 0), from the grid coordinates: the body's scalar chain substituted. -/
abbrev condA (i : grid0.Coords) : Prop := (Scalar.cmpi .ne (Scalar.extui (Scalar.cmpi .eq (BitVec.ofNat 32 (i 2).val) 0#32)) 0#32) = 1#1
/-- It holds at the points ≡ 0 (mod 4): k is the fastest coordinate and runs over 4 values. -/
theorem hcondA : ∀ t : Fin cfg0.N, condA (grid0.coords t) ↔ t.val % 4 = 0 :=
  (by decide +kernel : ∀ t : Fin grid0.N, condA (grid0.coords t) ↔ t.val % 4 = 0)

/-- The output store's condition (k = 3). -/
abbrev condC (i : grid0.Coords) : Prop := k0_cond2 i = 1#1
/-- It holds at the points ≡ 3 (mod 4). -/
theorem hcondC : ∀ t : Fin cfg0.N, condC (grid0.coords t) ↔ t.val % 4 = 3 :=
  (by decide +kernel : ∀ t : Fin grid0.N, condC (grid0.coords t) ↔ t.val % 4 = 3)

/-! ## Where the windows are idle -/

/-- No input is ever idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

/-- Where k = 0 the output window is idle: the body stores nothing into it. -/
theorem idle_7_A : ∀ t : Fin cfg0.N, condA (grid0.coords t) → ¬condC (grid0.coords t) → cfg0.idle 7 (grid0.coords t) = true := by decide +kernel
/-- And the pipeline does not write its block back there. -/
theorem noFlush_7_A : ∀ t : Fin cfg0.N, condA (grid0.coords t) → ¬condC (grid0.coords t) → (cfg0.win 7).flush t = false := by decide +kernel
/-- Where 0 < k < 3 likewise. -/
theorem idle_7_B : ∀ t : Fin cfg0.N, ¬condA (grid0.coords t) → ¬condC (grid0.coords t) → cfg0.idle 7 (grid0.coords t) = true := by decide +kernel
theorem noFlush_7_B : ∀ t : Fin cfg0.N, ¬condA (grid0.coords t) → ¬condC (grid0.coords t) → (cfg0.win 7).flush t = false := by decide +kernel
/-- Where k = 3 the output window is live: the body stores its block. -/
theorem live_7_C : ∀ t : Fin cfg0.N, ¬condA (grid0.coords t) → condC (grid0.coords t) → cfg0.idle 7 (grid0.coords t) = false := by decide +kernel

/-! ## The memrefs the body is called with -/

/-- Each window's current staging memref at point t, as the pipeline passes it, and its wholeness. -/
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S32x128 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x128 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S32x1024 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S32x128 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2048x1024 .bf16 := win0_7.stage (cfg0.slots t 7)
abbrev hs_7 (t : Fin cfg0.N) : (ms_7 t).IsWhole := hstage0_7 ((cfg0.slots t 7).cast nbuf0_7)

/-- One staging buffer of the output window, through which its contents are stated (the choice does not matter). -/
abbrev VO_7 : View sig .tc .vmem S2048x1024 .bf16 := (Memref.whole cc0_stg7_0 : Memref sig .tc .vmem S2048x1024 .bf16).view

/-- The two accumulators: whole scoped buffers of the body's own, carried from point to point. -/
abbrev scM_0 : Memref sig .tc .vmem S2048x1024 .f32 := Memref.whole cc0_scratch0
abbrev scM_1 : Memref sig .tc .vmem S2048x1024 .f32 := Memref.whole cc0_scratch1
/-- As views: what each holds is stated through them. -/
abbrev VS_0 : View sig .tc .vmem S2048x1024 .f32 := scM_0.view
abbrev VS_1 : View sig .tc .vmem S2048x1024 .f32 := scM_1.view

/-! ## The region's invariant, the accumulators named -/

/-- The core's scoped buffers that are neither a staging buffer of this region nor one of its accumulators — the
    other region's staging buffers and accumulator —, each whole at some contents: this region never touches them. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region, with the two accumulators as memrefs owned at some contents: what the body
    obligation hands a run and takes back. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ restOther (F := F) c) ∗ (∃ r, prngReg c r)) := by
  unfold Pipeline.ΦA restOther; rw [scopedRest0_eq]; simp only [scM_0, scM_1, owns_whole]; try rfl

end Cert.Kernel.R0

end
-- ==== Proof.Kernel.R0.RunA.lean ====
/- Region 0, the body's run where k = 0 (the first K-block of an output block): both accumulators are reset to zero
   and the first product is added into each; nothing is stored into the output window, which is handed back as
   found. The pieces each accumulator ends with are what the run finds. -/
import proofs.«413103_j549755813920_3_alg».proof.Proof.Kernel.R0.Shared

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at contents handed back untouched,
    the two accumulators at anything — the body at a point with k = 0 runs to the continuation holding the inputs as
    they were, the output as it was, and each accumulator with its pieces written (last first): the reset, then
    the sum of the reset value and the point's product. -/
noncomputable def bodyRun_A (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) :
    Σ' (L7 : List (View.Piece (Elt F) S2048x1024 .bf16)) (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ owns (c : Thread nD τ) arg10 fullShare xi7
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.R0

end
-- ==== Proof.Kernel.R0.RunB.lean ====
/- Region 0, the body's run where 0 < k < 3 (a middle K-block of an output block): no reset; the point's product is
   added into each accumulator, which comes in at what the point before left; nothing is stored into the output
   window, which is handed back as found. The pieces each accumulator ends with are what the run finds. -/
import proofs.«413103_j549755813920_3_alg».proof.Proof.Kernel.R0.RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at contents handed back untouched,
    the two accumulators at the contents xs0, xs1 the point before left — the body at a point with 0 < k < 3 runs to
    the continuation holding the inputs as they were, the output as it was, and each accumulator with its one piece
    written: what it held plus the point's product. -/
noncomputable def bodyRun_B (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) :
    Σ' (L7 : List (View.Piece (Elt F) S2048x1024 .bf16)) (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ owns (c : Thread nD τ) arg10 fullShare xi7
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.R0

end
-- ==== Proof.Kernel.R0.RunC.lean ====
/- Region 0, the body's run where k = 3 (the last K-block of an output block): no reset; the point's product is added
   into each accumulator, which comes in at what the point before left; then the output block is stored from the two
   finished sums. The pieces the output window and each accumulator end with are what the run finds. -/
import proofs.«413103_j549755813920_3_alg».proof.Proof.Kernel.R0.RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at anything, the two accumulators at
    the contents xs0, xs1 the point before left — the body at a point with k = 3 runs to the continuation holding the
    inputs as they were, each accumulator with its one piece written (what it held plus the point's product), and the
    output's buffer with its one piece written: the block computed from the two finished sums. -/
noncomputable def bodyRun_C (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) :
    Σ' (L7 : List (View.Piece (Elt F) S2048x1024 .bf16)) (LS0 : List (View.Piece (Elt F) S2048x1024 .f32)), { LS1 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.Kernel.R0

end
-- ==== Proof.Kernel.R0.Body.lean ====
/- Region 0 (the gate/up projection), its body obligation and what it computes. One output block takes four points
   (k = 0..3). Each point adds one product into each of two accumulators that live in scratch memory between points:
   the bf16 activation block times a weight block rebuilt from packed 4-bit fields, row offsets and row factors. At
   k = 0 the accumulators start from zero; at k = 3 the output block is computed from the two finished sums and
   stored. Here: one point's update of each accumulator through the body's value names; that the pieces each case's
   run found read back as those updates; the accumulators' contents by recursion on the point; the invariant that
   carries them; the proof data; and the body obligation by cases on k. -/
import proofs.«413103_j549755813920_3_alg».proof.Proof.Kernel.R0.RunC
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's arithmetic, through the body's own value names -/

/-- The literal zero offsets of a rank-2 rectangle are the zero function. -/
theorem hz : (![0, 0] : Fin 2 → Nat) = fun _ => 0 := funext fun a => by fin_cases a <;> rfl

/-- One point's update of the first accumulator, as the body's value names have it: the eight 4-bit fields of each
    word of x1 as floats, less the eight 4-bit fields of each word of the point's eight rows of x3 as floats (each row
    spread over 128 rows), times the point's eight rows of x2 (spread likewise), rounded to bf16; the block x0 times
    that matrix, added to what the accumulator held. The eight rows are those at the row offset the point's k gives. -/
def gstep (x0 : Vec F S2048x1024 .bf16) (x1 : Vec F S1024x128 .i32) (x2 : Vec F S32x1024 .f32) (x3 : Vec F S32x128 .i32) (i : grid0.Coords) (acc : Vec F S2048x1024 .f32) : Vec F S2048x1024 .f32 :=
  k0_pay10 (k0_pay5 x0) (k0_pay7 x1) (k0_pay8 (View.ld x3 (Rect.unit (s := S32x128) (k0_off1 i) S8x128.size (k0_off1_inb i)))) (k0_pay9 (View.ld x2 (Rect.unit (s := S32x1024) (k0_off2 i) S8x1024.size (k0_off2_inb i)))) acc

/-- One point's update of the second accumulator: the same arithmetic over the words x4, the rows of x6 and the rows
    of x5. -/
def ustep (x0 : Vec F S2048x1024 .bf16) (x4 : Vec F S1024x128 .i32) (x5 : Vec F S32x1024 .f32) (x6 : Vec F S32x128 .i32) (i : grid0.Coords) (acc : Vec F S2048x1024 .f32) : Vec F S2048x1024 .f32 :=
  k0_pay1 (k0_pay5 x0) (k0_pay12 x4) (k0_pay13 (View.ld x6 (Rect.unit (s := S32x128) (k0_off1 i) S8x128.size (k0_off1_inb i)))) (k0_pay14 (View.ld x5 (Rect.unit (s := S32x1024) (k0_off2 i) S8x1024.size (k0_off2_inb i)))) acc

/-! ## Where k = 0: what the run leaves -/

/-- The first accumulator's pieces (the reset, then the update) tile it, so they cover it. -/
theorem scover_A_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (y : S2048x1024.Idx) :
    ∃ pc ∈ (bodyRun_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (bodyRun_A c i arg3 harg3 arg4 harg4 arg5 harg5 arg6 harg6 arg7 harg7 arg8 harg8 arg9 harg9 arg10 harg10 arg11 harg11 arg12 harg12 hc0 hc1 x0 x1 x2 x3 x4 x5 x6).2.1 S2048x1024.size (by sl_kernel_rfl) y

/-- The second accumulator's likewise. -/
theorem scover_A_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (y : S2048x1024.Idx) :
    ∃ pc ∈ (bodyRun_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (bodyRun_A c i arg3 harg3 arg4 harg4 arg5 harg5 arg6 harg6 arg7 harg7 arg8 harg8 arg9 harg9 arg10 harg10 arg11 harg11 arg12 harg12 hc0 hc1 x0 x1 x2 x3 x4 x5 x6).2.2.1 S2048x1024.size (by sl_kernel_rfl) y

set_option maxHeartbeats 1600000 in
/-- What the first accumulator reads after the point, over any prior contents: the update laid over the reset is the
    update, whose accumulator argument — a load of what the reset left — is the reset value; each input load reads
    its block, the two row loads their eight rows. -/
theorem leaves_A_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (f) :
    arg11.view.read (Elt F) (arg11.view.writes (Elt F) f (bodyRun_A c i arg3 harg3 arg4 harg4 arg5 harg5 arg6 harg6 arg7 harg7 arg8 harg8 arg9 harg9 arg10 harg10 arg11 harg11 arg12 harg12 hc0 hc1 x0 x1 x2 x3 x4 x5 x6).2.1)
      = gstep x0 x1 x2 x3 i (k0_pay3 (F := F)) := by
  rw [View.read_writes_eq_canon _ _ _ (scover_A_0 c i arg3 harg3 arg4 harg4 arg5 harg5 arg6 harg6 arg7 harg7 arg8 harg8 arg9 harg9 arg10 harg10 arg11 harg11 arg12 harg12 hc0 hc1 x0 x1 x2 x3 x4 x5 x6)]
  unfold bodyRun_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, View.ld_unit_zero (S := S2048x1024) hz, View.ld_unit_zero (S := S1024x128) hz]
  rfl

set_option maxHeartbeats 1600000 in
/-- What the second accumulator reads after the point, likewise. -/
theorem leaves_A_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (f) :
    arg12.view.read (Elt F) (arg12.view.writes (Elt F) f (bodyRun_A c i arg3 harg3 arg4 harg4 arg5 harg5 arg6 harg6 arg7 harg7 arg8 harg8 arg9 harg9 arg10 harg10 arg11 harg11 arg12 harg12 hc0 hc1 x0 x1 x2 x3 x4 x5 x6).2.2.1)
      = ustep x0 x4 x5 x6 i (k0_pay4 (F := F)) := by
  rw [View.read_writes_eq_canon _ _ _ (scover_A_1 c i arg3 harg3 arg4 harg4 arg5 harg5 arg6 harg6 arg7 harg7 arg8 harg8 arg9 harg9 arg10 harg10 arg11 harg11 arg12 harg12 hc0 hc1 x0 x1 x2 x3 x4 x5 x6)]
  unfold bodyRun_A
  dsimp only
  sl_unfold_words
  rw [View.canon_cons_unit_zero (S := S2048x1024) hz, View.readCov_unit_zero (S := S2048x1024) _ hz]
  simp only [View.readAt_eq_ld, harg3.read_unread, harg7.read_unread, harg8.read_unread, harg9.read_unread, View.ld_unit_zero (S := S2048x1024) hz, View.ld_unit_zero (S := S1024x128) hz]
  rfl

/-! ## Where 0 < k < 3: what the run leaves -/

/-- The first accumulator's one piece (the update) tiles it, so it covers it. -/
theorem scover_B_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- The second accumulator's likewise. -/
theorem scover_B_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S2048x1024.size (by sl_kernel_rfl) y

set_option maxHeartbeats 1600000 in
/-- What the first accumulator reads after the point: the one update, whose accumulator argument is a load of what
    it held, xs0. -/
theorem leaves_B_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg11.view.read (Elt F) (arg11.view.writes (Elt F) f (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)
      = gstep x0 x1 x2 x3 i xs0 := by
  rw [View.read_writes_eq_canon _ _ _ (scover_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_B
  dsimp only
  sl_unfold_words
  rw [View.canon_unit_zero (S := S2048x1024) hz]
  simp only [View.readAt_eq_ld, harg3.read_unread, harg4.read_unread, harg5.read_unread, harg6.read_unread, harg11.read_unread, View.ld_unit_zero (S := S2048x1024) hz, View.ld_unit_zero (S := S1024x128) hz]
  rfl

set_option maxHeartbeats 1600000 in
/-- What the second accumulator reads after the point, likewise over xs1. -/
theorem leaves_B_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg12.view.read (Elt F) (arg12.view.writes (Elt F) f (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)
      = ustep x0 x4 x5 x6 i xs1 := by
  rw [View.read_writes_eq_canon _ _ _ (scover_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_B
  dsimp only
  sl_unfold_words
  rw [View.canon_unit_zero (S := S2048x1024) hz]
  simp only [View.readAt_eq_ld, harg3.read_unread, harg7.read_unread, harg8.read_unread, harg9.read_unread, harg12.read_unread, View.ld_unit_zero (S := S2048x1024) hz, View.ld_unit_zero (S := S1024x128) hz]
  rfl

/-! ## Where k = 3: what the run leaves -/

/-- The output window's one piece (the stored block) tiles it, so it covers it. -/
theorem cover_C_7 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1 S2048x1024.size (by sl_kernel_rfl) y

/-- The first accumulator's one piece likewise. -/
theorem scover_C_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- The second accumulator's likewise. -/
theorem scover_C_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S2048x1024.size (by sl_kernel_rfl) y

set_option maxHeartbeats 1600000 in
/-- What the first accumulator reads after the point: the one update over xs0. -/
theorem leaves_C_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg11.view.read (Elt F) (arg11.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)
      = gstep x0 x1 x2 x3 i xs0 := by
  rw [View.read_writes_eq_canon _ _ _ (scover_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readAt_eq_ld, harg3.read_unread, harg4.read_unread, harg5.read_unread, harg6.read_unread, harg11.read_unread, View.ld_unit_zero (S := S2048x1024) hz, View.ld_unit_zero (S := S1024x128) hz]
  rfl

set_option maxHeartbeats 1600000 in
/-- What the second accumulator reads after the point: the one update over xs1. -/
theorem leaves_C_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg12.view.read (Elt F) (arg12.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)
      = ustep x0 x4 x5 x6 i xs1 := by
  rw [View.read_writes_eq_canon _ _ _ (scover_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readAt_eq_ld, harg3.read_unread, harg7.read_unread, harg8.read_unread, harg9.read_unread, harg12.read_unread, View.ld_unit_zero (S := S2048x1024) hz, View.ld_unit_zero (S := S1024x128) hz]
  rfl

set_option maxHeartbeats 1600000 in
/-- What the output window's buffer reads after the point: the one stored block, computed from a load of each
    accumulator after its update — the two finished sums. -/
theorem leaves_C_7 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg10.view.read (Elt F) (arg10.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1)
      = k0_pay2 (gstep x0 x1 x2 x3 i xs0) (ustep x0 x4 x5 x6 i xs1) := by
  rw [View.read_writes_eq_canon _ _ _ (cover_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readCov_unit_zero (S := S2048x1024) _ hz, View.readAt_eq_ld, harg3.read_unread, harg4.read_unread, harg5.read_unread, harg6.read_unread, harg7.read_unread, harg8.read_unread, harg9.read_unread, harg11.read_unread, harg12.read_unread, View.ld_unit_zero (S := S2048x1024) hz, View.ld_unit_zero (S := S1024x128) hz]
  rfl

/-! ## The body's triple per case, over named contents -/

set_option maxHeartbeats 1600000 in
/-- Where k = 0: from the inputs at their contents, the output at xi7 and the accumulators at anything, to the inputs
    and the output as they were and the accumulators at one update of their reset values. -/
theorem triple_A (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (xi7 : Vec F S2048x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ owns (c : Thread nD τ) arg10 fullShare xi7 ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7
            ∗ owns (c : Thread nD τ) arg11 fullShare (gstep x0 x1 x2 x3 i (k0_pay3 (F := F)))
            ∗ owns (c : Thread nD τ) arg12 fullShare (ustep x0 x4 x5 x6 i (k0_pay4 (F := F)))) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_A c i arg3 harg3 arg4 harg4 arg5 harg5 arg6 harg6 arg7 harg7 arg8 harg8 arg9 harg9 arg10 harg10 arg11 harg11 arg12 harg12 hc0 hc1 x0 x1 x2 x3 x4 x5 x6).2.2.2 xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · unfold owns; iexists _; isplitr
    swap; · iexact HS0
    ipureintro; exact leaves_A_0 c i arg3 harg3 arg4 harg4 arg5 harg5 arg6 harg6 arg7 harg7 arg8 harg8 arg9 harg9 arg10 harg10 arg11 harg11 arg12 harg12 hc0 hc1 x0 x1 x2 x3 x4 x5 x6 e0
  unfold owns; iexists _; isplitr
  swap; · iexact HS1
  ipureintro; exact leaves_A_1 c i arg3 harg3 arg4 harg4 arg5 harg5 arg6 harg6 arg7 harg7 arg8 harg8 arg9 harg9 arg10 harg10 arg11 harg11 arg12 harg12 hc0 hc1 x0 x1 x2 x3 x4 x5 x6 e1

set_option maxHeartbeats 1600000 in
/-- Where 0 < k < 3: from the accumulators at xs0, xs1 to the accumulators at one update of those. -/
theorem triple_B (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (xi7 : Vec F S2048x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ owns (c : Thread nD τ) arg10 fullShare xi7 ∗ owns (c : Thread nD τ) arg11 fullShare xs0 ∗ owns (c : Thread nD τ) arg12 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7
            ∗ owns (c : Thread nD τ) arg11 fullShare (gstep x0 x1 x2 x3 i xs0)
            ∗ owns (c : Thread nD τ) arg12 fullShare (ustep x0 x4 x5 x6 i xs1)) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.2 xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · unfold owns; iexists _; isplitr
    swap; · iexact HS0
    ipureintro; exact leaves_B_0 c i arg3 harg3 arg4 harg4 arg5 harg5 arg6 harg6 arg7 harg7 arg8 harg8 arg9 harg9 arg10 harg10 arg11 harg11 arg12 harg12 hc0 hc1 x0 x1 x2 x3 x4 x5 x6 xs0 xs1 e0
  unfold owns; iexists _; isplitr
  swap; · iexact HS1
  ipureintro; exact leaves_B_1 c i arg3 harg3 arg4 harg4 arg5 harg5 arg6 harg6 arg7 harg7 arg8 harg8 arg9 harg9 arg10 harg10 arg11 harg11 arg12 harg12 hc0 hc1 x0 x1 x2 x3 x4 x5 x6 xs0 xs1 e1

set_option maxHeartbeats 1600000 in
/-- Where k = 3: from the accumulators at xs0, xs1 and the output at anything to the accumulators at one update of
    those and the output at the block computed from the two updated sums. -/
theorem triple_C (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xs0 ∗ owns (c : Thread nD τ) arg12 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare (k0_pay2 (gstep x0 x1 x2 x3 i xs0) (ustep x0 x4 x5 x6 i xs1))
            ∗ owns (c : Thread nD τ) arg11 fullShare (gstep x0 x1 x2 x3 i xs0)
            ∗ owns (c : Thread nD τ) arg12 fullShare (ustep x0 x4 x5 x6 i xs1)) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact leaves_C_7 c i arg3 harg3 arg4 harg4 arg5 harg5 arg6 harg6 arg7 harg7 arg8 harg8 arg9 harg9 arg10 harg10 arg11 harg11 arg12 harg12 hc0 hc1 x0 x1 x2 x3 x4 x5 x6 xs0 xs1 e7
  isplitl [HS0]
  · unfold owns; iexists _; isplitr
    swap; · iexact HS0
    ipureintro; exact leaves_C_0 c i arg3 harg3 arg4 harg4 arg5 harg5 arg6 harg6 arg7 harg7 arg8 harg8 arg9 harg9 arg10 harg10 arg11 harg11 arg12 harg12 hc0 hc1 x0 x1 x2 x3 x4 x5 x6 xs0 xs1 e0
  unfold owns; iexists _; isplitr
  swap; · iexact HS1
  ipureintro; exact leaves_C_1 c i arg3 harg3 arg4 harg4 arg5 harg5 arg6 harg6 arg7 harg7 arg8 harg8 arg9 harg9 arg10 harg10 arg11 harg11 arg12 harg12 hc0 hc1 x0 x1 x2 x3 x4 x5 x6 xs0 xs1 e1

/-! ## What the accumulators hold after each point -/

-- the TensorCore's buffer contents when the region is entered
variable (V : (c : Dev nD) → (b : Ref sig .tc) → Buf (Elt F) ((c : Thread nD τ).loc b))

/-- The first accumulator after the body at position n: at a point with k = 0 (the first of an output block's four)
    one update of the reset value, at any other one update of what the point before left; each update over the
    point's own blocks. -/
def gaccAt (c : Dev nD) : (n : ℕ) → n < cfg0.N → Vec F S2048x1024 .f32
  | 0, hn => gstep (iblk V c 0 ⟨0, hn⟩) (iblk V c 1 ⟨0, hn⟩) (iblk V c 2 ⟨0, hn⟩) (iblk V c 3 ⟨0, hn⟩) (grid0.coords ⟨0, hn⟩) (k0_pay3 (F := F))
  | n + 1, hn =>
    if (n + 1) % 4 = 0 then
      gstep (iblk V c 0 ⟨n + 1, hn⟩) (iblk V c 1 ⟨n + 1, hn⟩) (iblk V c 2 ⟨n + 1, hn⟩) (iblk V c 3 ⟨n + 1, hn⟩) (grid0.coords ⟨n + 1, hn⟩) (k0_pay3 (F := F))
    else
      gstep (iblk V c 0 ⟨n + 1, hn⟩) (iblk V c 1 ⟨n + 1, hn⟩) (iblk V c 2 ⟨n + 1, hn⟩) (iblk V c 3 ⟨n + 1, hn⟩) (grid0.coords ⟨n + 1, hn⟩) (gaccAt c n (Nat.lt_of_succ_lt hn))

/-- The second accumulator likewise. -/
def uaccAt (c : Dev nD) : (n : ℕ) → n < cfg0.N → Vec F S2048x1024 .f32
  | 0, hn => ustep (iblk V c 0 ⟨0, hn⟩) (iblk V c 4 ⟨0, hn⟩) (iblk V c 5 ⟨0, hn⟩) (iblk V c 6 ⟨0, hn⟩) (grid0.coords ⟨0, hn⟩) (k0_pay4 (F := F))
  | n + 1, hn =>
    if (n + 1) % 4 = 0 then
      ustep (iblk V c 0 ⟨n + 1, hn⟩) (iblk V c 4 ⟨n + 1, hn⟩) (iblk V c 5 ⟨n + 1, hn⟩) (iblk V c 6 ⟨n + 1, hn⟩) (grid0.coords ⟨n + 1, hn⟩) (k0_pay4 (F := F))
    else
      ustep (iblk V c 0 ⟨n + 1, hn⟩) (iblk V c 4 ⟨n + 1, hn⟩) (iblk V c 5 ⟨n + 1, hn⟩) (iblk V c 6 ⟨n + 1, hn⟩) (grid0.coords ⟨n + 1, hn⟩) (uaccAt c n (Nat.lt_of_succ_lt hn))

/-- At a point with k = 0 the first accumulator is one update of the reset value. -/
theorem gaccAt_first (c : Dev nD) (t : Fin cfg0.N) (h : t.val % 4 = 0) :
    gaccAt V c t.val t.isLt = gstep (iblk V c 0 t) (iblk V c 1 t) (iblk V c 2 t) (iblk V c 3 t) (grid0.coords t) (k0_pay3 (F := F)) := by
  obtain ⟨n, hn⟩ := t
  cases n with
  | zero => rfl
  | succ n => exact if_pos h

/-- At any other point it is one update of what the point before left. -/
theorem gaccAt_next (c : Dev nD) (t : Fin cfg0.N) (h : ¬ t.val % 4 = 0) :
    gaccAt V c t.val t.isLt = gstep (iblk V c 0 t) (iblk V c 1 t) (iblk V c 2 t) (iblk V c 3 t) (grid0.coords t) (gaccAt V c (t.val - 1) (Nat.lt_of_le_of_lt (Nat.sub_le _ _) t.isLt)) := by
  obtain ⟨n, hn⟩ := t
  cases n with
  | zero => exact absurd (Nat.zero_mod _) h
  | succ n => exact (if_neg h).trans rfl

theorem uaccAt_first (c : Dev nD) (t : Fin cfg0.N) (h : t.val % 4 = 0) :
    uaccAt V c t.val t.isLt = ustep (iblk V c 0 t) (iblk V c 4 t) (iblk V c 5 t) (iblk V c 6 t) (grid0.coords t) (k0_pay4 (F := F)) := by
  obtain ⟨n, hn⟩ := t
  cases n with
  | zero => rfl
  | succ n => exact if_pos h

theorem uaccAt_next (c : Dev nD) (t : Fin cfg0.N) (h : ¬ t.val % 4 = 0) :
    uaccAt V c t.val t.isLt = ustep (iblk V c 0 t) (iblk V c 4 t) (iblk V c 5 t) (iblk V c 6 t) (grid0.coords t) (uaccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant and proof data -/

/-- The invariant before position n: before the first point what the launch hands the region (both accumulators at
    anything); afterwards both accumulators at what the point before left, the other region's scoped buffers
    untouched, the generator register at some state. -/
def PhiS (c : Dev nD) : (n : ℕ) → n ≤ cfg0.N → sProp 𝕄
  | 0, _ => Pipeline.ΦA spec0 c
  | n + 1, hn => iprop(iprop(owns (c : Thread nD τ) scM_0 fullShare (gaccAt V c n hn) ∗ owns (c : Thread nD τ) scM_1 fullShare (uaccAt V c n hn) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare (gaccAt V c n hn) ∗ owns (c : Thread nD τ) scM_1 fullShare (uaccAt V c n hn) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM_0 fullShare (gaccAt V c (n - 1) (by omega)) ∗ owns (c : Thread nD τ) scM_1 fullShare (uaccAt V c (n - 1) (by omega)) ∗ restOther (F := F) c) ∗ (∃ r, prngReg c r)) := by
  cases n with
  | zero => exact absurd rfl hz
  | succ n => rfl

/-- The proof data of the region on core c: the arrays as the region finds them; after the body each input's buffer at
    its block; the output's at the block computed from the two accumulators as they then stand — what the body stores
    where k = 3, and a placeholder nothing consults at the other points, where the window is idle and not written
    back —; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k0_pay2 (gaccAt V c t.val t.isLt) (uaccAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = k0_pay2 (gaccAt V c t.val t.isLt) (uaccAt V c t.val t.isLt) := by dsimp only [dat]

/-- Where k = 3 the output window's buffer holds, after the body, the block computed from the two finished sums. -/
theorem after_out (c : Dev nD) (t : Fin cfg0.N) (h : t.val % 4 = 3) : (dat V c).after 7 t = k0_pay2 (gaccAt V c t.val t.isLt) (uaccAt V c t.val t.isLt) :=
  after_7 V c t

theorem before_0 (c : Dev nD) (t : Fin cfg0.N) (d) : (dat V c).before 0 t d = iblk V c 0 t := before_0_of V (dat V c) (A_eq V c 0) (after_0 V c) t d
theorem before_1 (c : Dev nD) (t : Fin cfg0.N) (d) : (dat V c).before 1 t d = iblk V c 1 t := before_1_of V (dat V c) (A_eq V c 1) (after_1 V c) t d
theorem before_2 (c : Dev nD) (t : Fin cfg0.N) (d) : (dat V c).before 2 t d = iblk V c 2 t := before_2_of V (dat V c) (A_eq V c 2) (after_2 V c) t d
theorem before_3 (c : Dev nD) (t : Fin cfg0.N) (d) : (dat V c).before 3 t d = iblk V c 3 t := before_3_of V (dat V c) (A_eq V c 3) (after_3 V c) t d
theorem before_4 (c : Dev nD) (t : Fin cfg0.N) (d) : (dat V c).before 4 t d = iblk V c 4 t := before_4_of V (dat V c) (A_eq V c 4) (after_4 V c) t d
theorem before_5 (c : Dev nD) (t : Fin cfg0.N) (d) : (dat V c).before 5 t d = iblk V c 5 t := before_5_of V (dat V c) (A_eq V c 5) (after_5 V c) t d
theorem before_6 (c : Dev nD) (t : Fin cfg0.N) (d) : (dat V c).before 6 t d = iblk V c 6 t := before_6_of V (dat V c) (A_eq V c 6) (after_6 V c) t d

/-! ## The body obligation -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

theorem leaves_in_0 (c : Dev nD) (t : Fin cfg0.N) : (dat V c).leavesExact 0 t = owns (c : Thread nD τ) (ms_0 t) fullShare (iblk V c 0 t) := by
  unfold Dat.leavesExact; rw [live_0 t, after_0]
theorem leaves_in_1 (c : Dev nD) (t : Fin cfg0.N) : (dat V c).leavesExact 1 t = owns (c : Thread nD τ) (ms_1 t) fullShare (iblk V c 1 t) := by
  unfold Dat.leavesExact; rw [live_1 t, after_1]
theorem leaves_in_2 (c : Dev nD) (t : Fin cfg0.N) : (dat V c).leavesExact 2 t = owns (c : Thread nD τ) (ms_2 t) fullShare (iblk V c 2 t) := by
  unfold Dat.leavesExact; rw [live_2 t, after_2]
theorem leaves_in_3 (c : Dev nD) (t : Fin cfg0.N) : (dat V c).leavesExact 3 t = owns (c : Thread nD τ) (ms_3 t) fullShare (iblk V c 3 t) := by
  unfold Dat.leavesExact; rw [live_3 t, after_3]
theorem leaves_in_4 (c : Dev nD) (t : Fin cfg0.N) : (dat V c).leavesExact 4 t = owns (c : Thread nD τ) (ms_4 t) fullShare (iblk V c 4 t) := by
  unfold Dat.leavesExact; rw [live_4 t, after_4]
theorem leaves_in_5 (c : Dev nD) (t : Fin cfg0.N) : (dat V c).leavesExact 5 t = owns (c : Thread nD τ) (ms_5 t) fullShare (iblk V c 5 t) := by
  unfold Dat.leavesExact; rw [live_5 t, after_5]
theorem leaves_in_6 (c : Dev nD) (t : Fin cfg0.N) : (dat V c).leavesExact 6 t = owns (c : Thread nD τ) (ms_6 t) fullShare (iblk V c 6 t) := by
  unfold Dat.leavesExact; rw [live_6 t, after_6]

set_option maxHeartbeats 4800000 in
/-- The body at any point. The inputs' memrefs hold their blocks; the closed forms say which of the three cases the
    point is in; the invariant hands the body both accumulators at what the point before left (at anything at the
    first point, and where k = 0 the named contents are simply forgotten) and takes them back at this point's; where
    the output window is idle it goes back as found, where k = 3 at the stored block; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  rw [leaves_in_0, leaves_in_1, leaves_in_2, leaves_in_3, leaves_in_4, leaves_in_5, leaves_in_6]
  have hN : t.val < 88 := lt_of_lt_of_eq t.isLt (show cfg0.N = 88 from N_0)
  by_cases h0 : t.val % 4 = 0
  · have h1 : ¬ t.val % 4 = 3 := by omega
    rw [Dat.leavesExact_idle (dat V c) 7 t (idle_7_A t ((hcondA t).mpr h0) (fun h => h1 ((hcondC t).mp h))) (noFlush_7_A t ((hcondA t).mpr h0) (fun h => h1 ((hcondC t).mp h)))]
    rw [gaccAt_first V c t h0, uaccAt_first V c t h0]
    by_cases hz : t.val = 0
    · rw [PhiS_castSucc V c t, PhiS_zero V c _ _ hz, PhiA_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_A c (grid0.coords t) _ _ _ _ _ _ _ _ _ _ _ _ _ _ _ _ _ _ _ _ ((hcondA t).mpr h0) (fun h => h1 ((hcondC t).mp h)) (iblk V c 0 t) (iblk V c 1 t) (iblk V c 2 t) (iblk V c 3 t) (iblk V c 4 t) (iblk V c 5 t) (iblk V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_A c (grid0.coords t) _ _ _ _ _ _ _ _ _ _ _ _ _ _ _ _ _ _ _ _ ((hcondA t).mpr h0) (fun h => h1 ((hcondC t).mp h)) (iblk V c 0 t) (iblk V c 1 t) (iblk V c 2 t) (iblk V c 3 t) (iblk V c 4 t) (iblk V c 5 t) (iblk V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [PhiS_castSucc V c t, PhiS_pos V c _ _ hz]
    rw [gaccAt_next V c t h0, uaccAt_next V c t h0]
    by_cases h1 : t.val % 4 = 3
    · rw [show (dat V c).leavesExact 7 t = owns (c : Thread nD τ) (ms_7 t) fullShare ((dat V c).after 7 t) from by
        unfold Dat.leavesExact; rw [live_7_C t (fun h => h0 ((hcondA t).mp h)) ((hcondC t).mpr h1)], after_7]
      rw [gaccAt_next V c t h0, uaccAt_next V c t h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_C c (grid0.coords t) _ _ _ _ _ _ _ _ _ _ _ _ _ _ _ _ _ _ _ _ (fun h => h0 ((hcondA t).mp h)) ((hcondC t).mpr h1) (iblk V c 0 t) (iblk V c 1 t) (iblk V c 2 t) (iblk V c 3 t) (iblk V c 4 t) (iblk V c 5 t) (iblk V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat V c) 7 t (idle_7_B t (fun h => h0 ((hcondA t).mp h)) (fun h => h1 ((hcondC t).mp h))) (noFlush_7_B t (fun h => h0 ((hcondA t).mp h)) (fun h => h1 ((hcondC t).mp h)))]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_B c (grid0.coords t) _ _ _ _ _ _ _ _ _ _ _ _ _ _ _ _ _ _ _ _ (fun h => h0 ((hcondA t).mp h)) (fun h => h1 ((hcondC t).mp h)) (iblk V c 0 t) (iblk V c 1 t) (iblk V c 2 t) (iblk V c 3 t) (iblk V c 4 t) (iblk V c 5 t) (iblk V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulators' named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout (c : Dev nD) : (dat V c).Φ (Fin.last cfg0.N) ⊢ (Pipeline.ΦA spec0 c : sProp 𝕄) :=
  Phi_out V c _ (by rw [Fin.val_last]; have : cfg0.N = 88 := N_0; omega)

end Cert.Kernel.R0

end
-- ==== Proof.Kernel.R1.Shared.lean ====
/- The second pipeline of the program (the down projection: grid 2 × 4 × 11, the last coordinate k the
   reduction axis): what the three control cases of its body share. The body zeroes a carried accumulator
   where k = 0, adds one dequantised matrix product into it at every point, and stores the accumulator into the
   output block only where k = 10. Here: each window's block at a point, the inputs found at their blocks, the
   two conditions in closed form over the 88 points, where the output window is idle, the memrefs the body is
   called with, and the invariant before the first point with the accumulator as an owned memref. -/
import proofs.«413103_j549755813920_3_alg».proof.Proof.Gen.Kernel.Launch
import proofs.«413103_j549755813920_3_alg».proof.Proof.Gen.Kernel.Skeleton
import proofs.«413103_j549755813920_3_alg».proof.Proof.Gen.Kernel.Points
import Idealize.ShloMosaic.Lib.Pipeline.FrameBody
import Idealize.ShloMosaic.Lib.Ring
import Idealize.ShloMosaic.Lib.Tactic

-- membership in a rectangle of production extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

/-! ## The windows' blocks -/

/-- Window `w`'s block at point `t`, read off its array as the pipeline finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or
    not (where it did not, the block index has not moved since the point before), for any proof data whose array
    is the entry contents and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or
    not (where it did not, the block index has not moved since the point before), for any proof data whose array
    is the entry contents and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or
    not (where it did not, the block index has not moved since the point before), for any proof data whose array
    is the entry contents and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or
    not (where it did not, the block index has not moved since the point before), for any proof data whose array
    is the entry contents and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- k = 0: the accumulator is reset. -/
abbrev condA (i : grid1.Coords) : Prop := (Scalar.cmpi .ne (Scalar.extui (Scalar.cmpi .eq (BitVec.ofNat 32 (i 2).val) 0#32)) 0#32) = 1#1
/-- It holds at the points ≡ 0 (mod 11). -/
theorem hcondA : ∀ t : Fin cfg1.N, condA (grid1.coords t) ↔ t.val % 11 = 0 :=
  (by decide +kernel : ∀ t : Fin grid1.N, condA (grid1.coords t) ↔ t.val % 11 = 0)

/-- k = 10: the accumulator is stored into the output block. -/
abbrev condC (i : grid1.Coords) : Prop := k1_cond2 i = 1#1
/-- It holds at the points ≡ 10 (mod 11). -/
theorem hcondC : ∀ t : Fin cfg1.N, condC (grid1.coords t) ↔ t.val % 11 = 10 :=
  (by decide +kernel : ∀ t : Fin grid1.N, condC (grid1.coords t) ↔ t.val % 11 = 10)

/-! ## Where the windows are idle -/

/-- The four inputs are never idle. -/
theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
/-- Where k = 0 the output window is idle (nothing is stored into it) and not written back. -/
theorem idleAt4_A : ∀ t : Fin cfg1.N, condA (grid1.coords t) → ¬condC (grid1.coords t) → cfg1.idle 4 (grid1.coords t) = true := by decide +kernel
theorem noFlush4_A : ∀ t : Fin cfg1.N, condA (grid1.coords t) → ¬condC (grid1.coords t) → (cfg1.win 4).flush t = false := by decide +kernel
/-- Where 0 < k < 10 likewise. -/
theorem idleAt4_B : ∀ t : Fin cfg1.N, ¬condA (grid1.coords t) → ¬condC (grid1.coords t) → cfg1.idle 4 (grid1.coords t) = true := by decide +kernel
theorem noFlush4_B : ∀ t : Fin cfg1.N, ¬condA (grid1.coords t) → ¬condC (grid1.coords t) → (cfg1.win 4).flush t = false := by decide +kernel
/-- Where k = 10 the output window is live: the body stores its whole block. -/
theorem liveAt4_C : ∀ t : Fin cfg1.N, ¬condA (grid1.coords t) → condC (grid1.coords t) → cfg1.idle 4 (grid1.coords t) = false := by decide +kernel

/-! ## The memrefs the body is called with -/

/-- One staging buffer of the output window, through which its contents are stated (the choice does not matter). -/
abbrev VO4 : View sig .tc .vmem S2048x1024 .f32 := (Memref.whole cc1_stg4_0 : Memref sig .tc .vmem S2048x1024 .f32).view
/-- Each window's current staging memref at point `t`, spelled as the pipeline passes it, and its wholeness. -/
abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S88x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S88x128 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x1024 .f32 := win1_4.stage (cfg1.slots t 4)
abbrev hs4 (t : Fin cfg1.N) : (ms4 t).IsWhole := hstage1_4 ((cfg1.slots t 4).cast nbuf1_4)
/-- The accumulator: a whole scoped buffer of the pipeline's own, passed beside the windows and carried between points. -/
abbrev scM : Memref sig .tc .vmem S2048x1024 .f32 := Memref.whole cc1_scratch0
/-- The same as a view: what the accumulator holds is stated through it. -/
abbrev VS : View sig .tc .vmem S2048x1024 .f32 := scM.view

/-! ## The invariant -/

/-- The core's other scoped buffers — the first pipeline's sixteen staging buffers and its two accumulators —,
    each whole at some contents: the second pipeline never touches them. -/
def Others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The pipeline's invariant with the accumulator in state `S`: the other scoped buffers at anything, the
    accumulator, the generator register at some state. -/
def PhiWith (c : Dev nD) (S : sProp 𝕄) : sProp 𝕄 := iprop((Others (F := F) c ∗ S) ∗ (∃ r, prngReg c r))

/-- What the launch hands the pipeline is the invariant with the accumulator at anything: the scoped rest
    enumerated, the accumulator (its last buffer) set apart as an owned memref. -/
theorem PhiA_split (c : Dev nD) :
    (Pipeline.ΦA spec1 c : sProp 𝕄) ⊢ PhiWith (F := F) c iprop(∃ d, owns (c : Thread nD τ) scM fullShare d) := by
  unfold Pipeline.ΦA PhiWith Others; rw [scopedRest1_eq]
  simp only [scM, owns_whole]
  iintro ⟨⟨H1, H2, H3, H4, H5, H6, H7, H8, H9, H10, H11, H12, H13, H14, H15, H16, H17, H18, HS⟩, Hg⟩
  isplitr [Hg]
  swap; · iexact Hg
  isplitr [HS]
  swap; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- And back. -/
theorem PhiA_join (c : Dev nD) :
    PhiWith (F := F) c iprop(∃ d, owns (c : Thread nD τ) scM fullShare d) ⊢ (Pipeline.ΦA spec1 c : sProp 𝕄) := by
  unfold Pipeline.ΦA PhiWith Others; rw [scopedRest1_eq]
  simp only [scM, owns_whole]
  iintro ⟨⟨⟨H1, H2, H3, H4, H5, H6, H7, H8, H9, H10, H11, H12, H13, H14, H15, H16, H17, H18⟩, HS⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HS

end Cert.Kernel.R1

end
-- ==== Proof.Kernel.R1.RunA.lean ====
/- The second pipeline's body where k = 0 (the first step of a reduction): the accumulator is zeroed, one
   dequantised matrix product is added into it, and nothing is stored into the output block. -/
import proofs.«413103_j549755813920_3_alg».proof.Proof.Kernel.R1.Shared

-- membership in a rectangle of production extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE k = 0. On whole staging memrefs — the four inputs' at their blocks, the output's at contents handed back
    untouched (nothing is stored into it), the accumulator at anything — the body runs to the continuation
    holding the inputs' as they were and the accumulator with its pieces written: the reset, then the update read
    back over it. The pieces are the witness the run finds. -/
noncomputable def runA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) :
    Σ' (L4 : List (View.Piece (Elt F) S2048x1024 .f32)), { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.R1

end
-- ==== Proof.Kernel.R1.RunB.lean ====
/- The second pipeline's body where 0 < k < 10 (a middle step of a reduction): one dequantised matrix product is
   added into the accumulator carried from the point before, and nothing is stored into the output block. -/
import proofs.«413103_j549755813920_3_alg».proof.Proof.Kernel.R1.RunA

-- membership in a rectangle of production extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE 0 < k < 10. On whole staging memrefs — the four inputs' at their blocks, the output's at contents handed
    back untouched (nothing is stored into it), the accumulator at what the point before left — the body runs to
    the continuation holding the inputs' as they were and the accumulator with its one piece written: the update
    over what it held. The piece is the witness the run finds. -/
noncomputable def runB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) :
    Σ' (L4 : List (View.Piece (Elt F) S2048x1024 .f32)), { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.R1

end
-- ==== Proof.Kernel.R1.RunC.lean ====
/- The second pipeline's body where k = 10 (the last step of a reduction): one dequantised matrix product is added
   into the accumulator carried from the point before, and the accumulator is stored into the output block. -/
import proofs.«413103_j549755813920_3_alg».proof.Proof.Kernel.R1.RunB

-- membership in a rectangle of production extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE k = 10. On whole staging memrefs — the four inputs' at their blocks, the output's at anything, the
    accumulator at what the point before left — the body runs to the continuation holding the inputs' as they
    were, the accumulator with its one piece written (the update over what it held) and the output's buffer with
    its one piece written (the accumulator read back). The pieces are the witness the run finds. -/
noncomputable def runC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.R1

end
-- ==== Proof.Kernel.R1.Body.lean ====
/- The second pipeline's half of the certificate: what the accumulator holds after each of the 88 points (a
   reduction over k restarted at every output block, each step the activations block times the dequantised weights
   block added in), the pipeline's proof data, its body obligation from the three cases' runs, and the invariant's
   two ends. Where k = 10 the output block is the accumulator, i.e. the whole reduction of its eleven steps. -/
import proofs.«413103_j549755813920_3_alg».proof.Proof.Kernel.R1.RunC
import Idealize.ShloMosaic.Lib.Pipeline.Value

-- membership in a rectangle of production extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

/-! ## The pieces cover -/

/-- In each case the accumulator's pieces tile it (every store is of the whole buffer), so they cover it; -/
theorem scoverA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) (y : S2048x1024.Idx) :
    ∃ pc ∈ (runA c i arg3 harg3 arg4 harg4 arg5 harg5 arg6 harg6 arg7 harg7 arg8 harg8 hc0 hc1 x0 x1 x2 x3).2.1, y ∈ pc.1.set :=
  View.cover_of_tiledL (runA c i arg3 harg3 arg4 harg4 arg5 harg5 arg6 harg6 arg7 harg7 arg8 harg8 hc0 hc1 x0 x1 x2 x3).2.1 S2048x1024.size (by sl_kernel_rfl) y
theorem scoverB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runB c i arg3 harg3 arg4 harg4 arg5 harg5 arg6 harg6 arg7 harg7 arg8 harg8 hc0 hc1 x0 x1 x2 x3 xs).2.1, y ∈ pc.1.set :=
  View.cover_of_tiledL (runB c i arg3 harg3 arg4 harg4 arg5 harg5 arg6 harg6 arg7 harg7 arg8 harg8 hc0 hc1 x0 x1 x2 x3 xs).2.1 S2048x1024.size (by sl_kernel_rfl) y
theorem scoverC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runC c i arg3 harg3 arg4 harg4 arg5 harg5 arg6 harg6 arg7 harg7 arg8 harg8 hc0 hc1 x0 x1 x2 x3 xs).2.1, y ∈ pc.1.set :=
  View.cover_of_tiledL (runC c i arg3 harg3 arg4 harg4 arg5 harg5 arg6 harg6 arg7 harg7 arg8 harg8 hc0 hc1 x0 x1 x2 x3 xs).2.1 S2048x1024.size (by sl_kernel_rfl) y
/-- and where k = 10 the output block's one piece covers it. -/
theorem coverC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runC c i arg3 harg3 arg4 harg4 arg5 harg5 arg6 harg6 arg7 harg7 arg8 harg8 hc0 hc1 x0 x1 x2 x3 xs).1, y ∈ pc.1.set :=
  View.cover_of_tiledL (runC c i arg3 harg3 arg4 harg4 arg5 harg5 arg6 harg6 arg7 harg7 arg8 harg8 hc0 hc1 x0 x1 x2 x3 xs).1 S2048x1024.size (by sl_kernel_rfl) y

/-! ## One step of the reduction -/

/-- The accumulator after one point, from the four input blocks, the point and the accumulator before: the
    activations block times the dequantised weights block — the 4-bit weights unpacked, less the unpacked zero
    points of the point's eight quantisation groups (rows 8 k … 8 k + 7 of the zero-point block), times those
    groups' scales (the same rows of the scale block), rounded to bf16 — added to the accumulator. -/
def step (x0 : Vec F S2048x1024 .bf16) (x1 : Vec F S1024x128 .i32) (x2 : Vec F S88x1024 .f32) (x3 : Vec F S88x128 .i32)
    (i : grid1.Coords) (acc : Vec F S2048x1024 .f32) : Vec F S2048x1024 .f32 :=
  k1_pay1 (k1_pay3 x0) (k1_pay5 x1)
    (k1_pay6 (View.ld x3 (Rect.unit (s := S88x128) (k1_off1 i) S8x128.size (k1_off1_inb i))))
    (k1_pay7 (View.ld x2 (Rect.unit (s := S88x1024) (k1_off2 i) S8x1024.size (k1_off2_inb i)))) acc

theorem zero2 : (![0, 0] : Fin 2 → ℕ) = fun _ => 0 := by
  funext a; fin_cases a <;> rfl

/-! ## What each case's pieces read back as -/

/-- k = 0: the reset then the update read back over it — one step from the zero accumulator. -/
theorem canonA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) :
    View.canon (runA c i arg3 harg3 arg4 harg4 arg5 harg5 arg6 harg6 arg7 harg7 arg8 harg8 hc0 hc1 x0 x1 x2 x3).2.1 = step x0 x1 x2 x3 i (k1_pay2 (F := F)) := by
  unfold runA; dsimp only; sl_unfold_run_names
  rw [View.canon_cons_unit_zero (S := S2048x1024) zero2, View.readCov_unit_zero (S := S2048x1024) _ zero2]
  simp only [View.readAt_eq_ld, Memref.IsWhole.read_unread, View.ld_unit_zero (S := S2048x1024) zero2, View.ld_unit_zero (S := S1024x128) zero2]
  rfl

/-- 0 < k < 10: the update over what the accumulator held — one step from it. -/
theorem canonB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) :
    View.canon (runB c i arg3 harg3 arg4 harg4 arg5 harg5 arg6 harg6 arg7 harg7 arg8 harg8 hc0 hc1 x0 x1 x2 x3 xs).2.1 = step x0 x1 x2 x3 i xs := by
  unfold runB; dsimp only; sl_unfold_run_names
  rw [View.canon_unit_zero (S := S2048x1024) zero2]
  simp only [View.readAt_eq_ld, Memref.IsWhole.read_unread, View.ld_unit_zero (S := S2048x1024) zero2, View.ld_unit_zero (S := S1024x128) zero2]
  rfl

/-- k = 10: the accumulator likewise, -/
theorem canonC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    View.canon (runC c i arg3 harg3 arg4 harg4 arg5 harg5 arg6 harg6 arg7 harg7 arg8 harg8 hc0 hc1 x0 x1 x2 x3 xs).2.1 = step x0 x1 x2 x3 i xs := by
  unfold runC; dsimp only; sl_unfold_run_names
  rw [View.canon_unit_zero (S := S2048x1024) zero2]
  simp only [View.readAt_eq_ld, Memref.IsWhole.read_unread, View.ld_unit_zero (S := S2048x1024) zero2, View.ld_unit_zero (S := S1024x128) zero2]
  rfl

/-- and the output block holds the accumulator read back after its update: the same. -/
theorem canonC4 (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    View.canon (runC c i arg3 harg3 arg4 harg4 arg5 harg5 arg6 harg6 arg7 harg7 arg8 harg8 hc0 hc1 x0 x1 x2 x3 xs).1 = step x0 x1 x2 x3 i xs := by
  unfold runC; dsimp only; sl_unfold_run_names
  rw [View.canon_unit_zero (S := S2048x1024) zero2, View.readCov_unit_zero (S := S2048x1024) _ zero2]
  simp only [View.readAt_eq_ld, Memref.IsWhole.read_unread, View.ld_unit_zero (S := S2048x1024) zero2, View.ld_unit_zero (S := S1024x128) zero2]
  rfl

/-! ## The accumulator after each point -/

/-- THE ACCUMULATION. The accumulator after the body at position `n`: where k = 0 (the positions ≡ 0 mod 11) one
    step from the zero accumulator, elsewhere one step from what position `n - 1` left — a reduction over k
    restarted at every output block. -/
def accAt (c : Dev nD) : (n : ℕ) → n < cfg1.N → Vec F S2048x1024 .f32
  | 0, hn => step (iblk V c 0 ⟨0, hn⟩) (iblk V c 1 ⟨0, hn⟩) (iblk V c 2 ⟨0, hn⟩) (iblk V c 3 ⟨0, hn⟩) (grid1.coords ⟨0, hn⟩) (k1_pay2 (F := F))
  | n + 1, hn =>
    if (n + 1) % 11 = 0 then
      step (iblk V c 0 ⟨n + 1, hn⟩) (iblk V c 1 ⟨n + 1, hn⟩) (iblk V c 2 ⟨n + 1, hn⟩) (iblk V c 3 ⟨n + 1, hn⟩) (grid1.coords ⟨n + 1, hn⟩) (k1_pay2 (F := F))
    else
      step (iblk V c 0 ⟨n + 1, hn⟩) (iblk V c 1 ⟨n + 1, hn⟩) (iblk V c 2 ⟨n + 1, hn⟩) (iblk V c 3 ⟨n + 1, hn⟩) (grid1.coords ⟨n + 1, hn⟩) (accAt c n (Nat.lt_of_succ_lt hn))

/-- At the first point of a reduction: one step from zero. -/
theorem accAt_first (c : Dev nD) (t : Fin cfg1.N) (h : t.val % 11 = 0) :
    accAt V c t.val t.isLt = step (iblk V c 0 t) (iblk V c 1 t) (iblk V c 2 t) (iblk V c 3 t) (grid1.coords t) (k1_pay2 (F := F)) := by
  obtain ⟨n, hn⟩ := t
  cases n with
  | zero => exact rfl
  | succ n => exact (if_pos h).trans rfl

/-- At a later point: one step from what the point before left. -/
theorem accAt_next (c : Dev nD) (t : Fin cfg1.N) (h : ¬ t.val % 11 = 0) :
    accAt V c t.val t.isLt = step (iblk V c 0 t) (iblk V c 1 t) (iblk V c 2 t) (iblk V c 3 t) (grid1.coords t)
      (accAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The invariant point by point -/

/-- Before position `n`: before the first point the accumulator at anything; afterwards at what the point before left. -/
def PhiS (c : Dev nD) : (n : ℕ) → n ≤ cfg1.N → sProp 𝕄
  | 0, _ => PhiWith (F := F) c iprop(∃ d, owns (c : Thread nD τ) scM fullShare d)
  | n + 1, hn => PhiWith (F := F) c (owns (c : Thread nD τ) scM fullShare (accAt V c n hn))

theorem PhiS_zero (c : Dev nD) (n : ℕ) (h : n ≤ cfg1.N) (hz : n = 0) :
    PhiS V c n h = PhiWith (F := F) c iprop(∃ d, owns (c : Thread nD τ) scM fullShare d) := by
  subst hz; rfl

theorem PhiS_succ (c : Dev nD) (n : ℕ) (hn : n < cfg1.N) :
    PhiS V c (n + 1) hn = PhiWith (F := F) c (owns (c : Thread nD τ) scM fullShare (accAt V c n hn)) := rfl

theorem PhiS_pos (c : Dev nD) (n : ℕ) (h : n ≤ cfg1.N) (hz : n ≠ 0) :
    PhiS V c n h = PhiWith (F := F) c (owns (c : Thread nD τ) scM fullShare (accAt V c (n - 1) (by omega))) := by
  cases n with
  | zero => exact absurd rfl hz
  | succ n => rfl

/-! ## The pipeline's proof data -/

/-- The proof data of the second pipeline on core `c`: the arrays as the pipeline finds them; after the body at
    point `t` each input's buffer at its block and the output's at the accumulator (consulted only where k = 10,
    where the block is written back); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => accAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = accAt V c t.val t.isLt := by dsimp only [dat]

/-- Where the output block is written back (k = 10) it holds the accumulator. -/
theorem after_out (c : Dev nD) (t : Fin cfg1.N) (h : t.val % 11 = 10) : (dat V c).after 4 t = accAt V c t.val t.isLt :=
  after4 V c t

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms say which case the point is in;
    the invariant hands the body the accumulator at what the point before left (at anything before the first point,
    and where k = 0 the body does not read it) and takes it back one step further; where k < 10 the output's buffer
    is handed back as found, where k = 10 it holds the accumulator; the other scoped buffers, the generator register
    and the core's debts pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  rw [show (dat V c).leavesExact 2 t = owns (c : Thread nD τ) (ms2 t) fullShare ((dat V c).after 2 t) from by
    unfold Dat.leavesExact; rw [liveAt2 t], after2]
  rw [show (dat V c).leavesExact 3 t = owns (c : Thread nD τ) (ms3 t) fullShare ((dat V c).after 3 t) from by
    unfold Dat.leavesExact; rw [liveAt3 t], after3]
  have hN : t.val < 88 := lt_of_lt_of_eq t.isLt (show cfg1.N = 88 from N_1)
  by_cases h0 : t.val % 11 = 0
  · have hA : condA (grid1.coords t) := (hcondA t).mpr h0
    have hC : ¬condC (grid1.coords t) := fun h => by have := (hcondC t).mp h; omega
    rw [Dat.leavesExact_idle (dat V c) 4 t (idleAt4_A t hA hC) (noFlush4_A t hA hC)]
    rw [accAt_first V c t h0]
    by_cases hz : t.val = 0
    · rw [PhiS_castSucc V c t, PhiS_zero V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))).trans (canonA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))).trans (canonA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))
        iexact Hg
      isplitl [Ho]; · iexact Ho
      isplitl [H0]; · iexact H0
      isplitl [H1]; · iexact H1
      isplitl [H2]; · iexact H2
      isplitl [H3]; · iexact H3
      iexists _; iexact H4
  · have hA : ¬condA (grid1.coords t) := fun h => h0 ((hcondA t).mp h)
    have hz : t.val ≠ 0 := fun e => h0 (by rw [e])
    by_cases h1 : t.val % 11 = 10
    · have hC : condC (grid1.coords t) := (hcondC t).mpr h1
      rw [show (dat V c).leavesExact 4 t = owns (c : Thread nD τ) (ms4 t) fullShare ((dat V c).after 4 t) from by
        unfold Dat.leavesExact; rw [liveAt4_C t hA hC], after4]
      rw [accAt_next V c t h0]
      rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HO HS Hg]
      · isplitl [HO HS]
        · isplitl [HO]; · iexact HO
          unfold owns; iexists _; isplitr
          swap; · iexact HS
          ipureintro
          exact (View.read_writes_eq_canon _ _ _ (scoverC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonC4 c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
    · have hC : ¬condC (grid1.coords t) := fun h => h1 ((hcondC t).mp h)
      rw [Dat.leavesExact_idle (dat V c) 4 t (idleAt4_B t hA hC) (noFlush4_B t hA hC)]
      rw [accAt_next V c t h0]
      rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-! ## Into and out of the pipeline -/

/-- What the launch hands the pipeline is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  exact PhiA_split c

/-- The accumulator's named contents may be forgotten. -/
theorem PhiWith_forget (c : Dev nD) (X : Vec F S2048x1024 .f32) :
    PhiWith (F := F) c (owns (c : Thread nD τ) scM fullShare X) ⊢ PhiWith (F := F) c iprop(∃ d, owns (c : Thread nD τ) scM fullShare d) := by
  unfold PhiWith
  iintro ⟨⟨HO, HS⟩, Hg⟩
  isplitl [HO HS]
  · isplitl [HO]; · iexact HO
    iexists _; iexact HS
  iexact Hg

/-- After any point the invariant gives back what the launch handed in: what the accumulator holds is forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht]
  exact Idealize.SL.BI.Entails.trans (PhiWith_forget c _) (PhiA_join c)

/-- The same after the last point. -/
theorem hout (c : Dev nD) : (dat V c).Φ (Fin.last cfg1.N) ⊢ (Pipeline.ΦA spec1 c : sProp 𝕄) :=
  Phi_out V c _ (by rw [Fin.val_last]; have : cfg1.N = 88 := N_1; omega)

end Cert.Kernel.R1

end
-- ==== Proof.Kernel.Frame.lean ====
/-
  The program's frame: the launch of its two kernel regions at each region's proof data.

  The first region is entered at the launch contents pushed through the host operations before it, the second at those
  contents with the first region's output array at what its write-backs leave, pushed through the host operations
  between the regions. Each region's proof data has its arrays at that entry valuation, holds them whole, owes nothing,
  and its invariant begins and ends at the scoped rest with the generator register; so every weakly fair execution
  terminates with every unscoped buffer at the last valuation, in which no argument has moved.
-/
import proofs.«413103_j549755813920_3_alg».proof.Proof.Kernel.Run
import proofs.«413103_j549755813920_3_alg».proof.Proof.Kernel.R0.Body
import proofs.«413103_j549755813920_3_alg».proof.Proof.Kernel.R1.Body

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The first region's proof data, at its entry contents. -/
abbrev D0 (c : Dev nD) : Dat τ (Elt F) Unit ℕ (UR sig nD τ) ℕ cfg0 c := R0.dat (Run.VA m) c

/-- The second region's proof data, at its entry contents: the first region's output array at what it left. -/
abbrev D1 (c : Dev nD) : Dat τ (Elt F) Unit ℕ (UR sig nD τ) ℕ cfg1 c := R1.dat (Run.VB m (D0 m)) c

theorem half0 : Run.Half0 m (D0 m) where
  hA c w := R0.A_eq (Run.VA m) c w
  hq _ _ := rfl
  howed _ _ := rfl
  hrec _ _ := rfl
  hb c := R0.body_obligation (Run.VA m) c
  hin c := R0.hin (Run.VA m) c
  hout c := R0.hout (Run.VA m) c

theorem half1 : Run.Half1 m (D0 m) (D1 m) where
  hA c w := R1.A_eq (Run.VB m (D0 m)) c w
  hq _ _ := rfl
  howed _ _ := rfl
  hrec _ _ := rfl
  hb c := R1.body_obligation (Run.VB m (D0 m)) c
  hin c := R1.hin (Run.VB m (D0 m)) c
  hout c := R1.hout (Run.VB m (D0 m)) c

/-- What the regions leave. -/
abbrev outs : Outs (F := F) := Run.outs m (D0 m) (D1 m)

/-- Every weakly fair execution terminates with every unscoped buffer at the last valuation. -/
theorem run : θ_run defs (onTc (τ := τ) (main (F := F))) ⟨m, fun _ => 0, ρ⟩ (fun r => ∀ c : Dev nD,
    ∀ b ∈ Pipeline.ucRefs τ sig, r.2.mem ((c : Thread nD τ).1, b) = V21 m (outs m) c b) :=
  Run.run_all m ρ (D0 m) (D1 m) (half0 m) (half1 m)

/-- An unscoped reference of the TensorCore is among those the last valuation names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (V21_main_arg0 m (outs m) c),
      (h c _ (mem_uc main_arg1 (by decide))).trans (V21_main_arg1 m (outs m) c),
      (h c _ (mem_uc main_arg2 (by decide))).trans (V21_main_arg2 m (outs m) c),
      (h c _ (mem_uc main_arg3 (by decide))).trans (V21_main_arg3 m (outs m) c),
      (h c _ (mem_uc main_arg4 (by decide))).trans (V21_main_arg4 m (outs m) c),
      (h c _ (mem_uc main_arg5 (by decide))).trans (V21_main_arg5 m (outs m) c),
      (h c _ (mem_uc main_arg6 (by decide))).trans (V21_main_arg6 m (outs m) c),
      (h c _ (mem_uc main_arg7 (by decide))).trans (V21_main_arg7 m (outs m) c),
      (h c _ (mem_uc main_arg8 (by decide))).trans (V21_main_arg8 m (outs m) c),
      (h c _ (mem_uc main_arg9 (by decide))).trans (V21_main_arg9 m (outs m) c)⟩) (run m ρ)

/-- The same with the result buffer named: it ends at the last valuation's contents. -/
theorem run_result : θ_run defs (onTc (τ := τ) (main (F := F))) ⟨m, fun _ => 0, ρ⟩ (fun r => ∀ c : Dev nD,
      r.2.mem ((c.tc : Thread nD τ).loc main_v13) = V21 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v13 (by decide)), (h c _ (mem_uc main_arg0 (by decide))).trans (V21_main_arg0 m (outs m) c),
      (h c _ (mem_uc main_arg1 (by decide))).trans (V21_main_arg1 m (outs m) c),
      (h c _ (mem_uc main_arg2 (by decide))).trans (V21_main_arg2 m (outs m) c),
      (h c _ (mem_uc main_arg3 (by decide))).trans (V21_main_arg3 m (outs m) c),
      (h c _ (mem_uc main_arg4 (by decide))).trans (V21_main_arg4 m (outs m) c),
      (h c _ (mem_uc main_arg5 (by decide))).trans (V21_main_arg5 m (outs m) c),
      (h c _ (mem_uc main_arg6 (by decide))).trans (V21_main_arg6 m (outs m) c),
      (h c _ (mem_uc main_arg7 (by decide))).trans (V21_main_arg7 m (outs m) c),
      (h c _ (mem_uc main_arg8 (by decide))).trans (V21_main_arg8 m (outs m) c),
      (h c _ (mem_uc main_arg9 (by decide))).trans (V21_main_arg9 m (outs m) c)⟩) (run m ρ)

end Cert.Kernel.Fr

end
-- ==== Proof.KernelIdeal.Run.lean ====
/-
  The launch of the two kernel regions, from each region's proof data.

  Between two items of the program core `c` holds every unscoped buffer at a known valuation: the launch contents pushed
  through the host stretches, with the first kernel's output array replaced, at its exit, by what its write-backs leave
  (`Dat.arrAt` at the last point) and likewise the second's. Each region is entered by splitting its windows' arrays out
  of that valuation and left by putting them back; the register of the random-number generator enters the region's
  invariant and comes back; nothing is owed to any other core. Every weakly fair execution then terminates, and the final
  memory has every unscoped buffer at the last valuation: the arguments at their launch contents, the result at the
  second kernel's output array reshaped.

  The regions' proof data are parameters here: any data whose arrays are the entry valuation's, with full shares and
  nothing owed, a body obligation, and an invariant that begins and ends at the scoped rest with the generator register.
-/
import proofs.«413103_j549755813920_3_alg».proof.Proof.Gen.KernelIdeal.Regions
import proofs.«413103_j549755813920_3_alg».proof.Proof.Gen.KernelIdeal.Skeleton
import proofs.«413103_j549755813920_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region's entry contents, read at the TensorCore's references. -/
abbrev VA (c : Dev nD) (b : Ref sig .tc) : Buf (Elt F) ((c : Thread nD τ).loc b) := V12 m c b

variable (D0 : (c : Dev nD) → Dat τ (Elt F) Unit ℕ (UR sig nD τ) ℕ cfg0 c)

/-- The buffers at the first region's exit: its arrays at what the pipeline leaves, every other buffer as entered. -/
def o13 (c : Dev nD) : Valuation τ sig (Elt F) :=
  Pipeline.withArrays spec0 c (V12 m c) fun w => (D0 c).arrAt w cfg0.N

/-- The regions' exit contents, first approximation: the first region's everywhere. -/
def outsA : Outs (F := F) := fun _ r c => o13 m D0 c r

/-- The second region's entry contents, read at the TensorCore's references. -/
abbrev VB (c : Dev nD) (b : Ref sig .tc) : Buf (Elt F) ((c : Thread nD τ).loc b) := V19 m (outsA m D0) c b

variable (D1 : (c : Dev nD) → Dat τ (Elt F) Unit ℕ (UR sig nD τ) ℕ cfg1 c)

/-- The buffers at the second region's exit. -/
def o20 (c : Dev nD) : Valuation τ sig (Elt F) :=
  Pipeline.withArrays spec1 c (V19 m (outsA m D0) c) fun w => (D1 c).arrAt w cfg1.N

/-- What each region leaves: after item 19 the second region's exit contents, before it the first's. -/
def outs : Outs (F := F) := fun J r c => if J = 20 then o20 m D0 D1 c r else o13 m D0 c r

theorem V19_outs (c : Dev nD) : V19 m (outs m D0 D1) c = V19 m (outsA m D0) c := rfl

/-- Every pipeline's proof data. -/
def pdats : (p : Fin 2) → (c : Dev nD) → Dat τ (Elt F) Unit ℕ (UR sig nD τ) ℕ (cfgs p) c
  | ⟨0, _⟩ => fun c => D0 c
  | ⟨1, _⟩ => fun c => D1 c

abbrev L : GSem nD τ sig → Finset Unit := fun _ => ∅
abbrev lv : GSem nD τ sig → Unit → ℕ := fun _ _ => 0

/-- What rides beside the buffers: the generator register at some state, and nothing owed. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R c

/-- A core that owes nothing owes the proof data's tallies, when those are zero and nothing bounds the recorded pairs. -/
theorem owesAt_intro {cfg : Cfg sig Λ₀} (c : Dev nD) (D : Dat τ (Elt F) Unit ℕ (UR sig nD τ) ℕ cfg c) (t : Fin (cfg.N + 1))
    (howed : D.owed t = 0) (hrec : D.recorded t = Set.univ) :
    (iprop(∃ W, owes (c : Thread nD τ) (0 : CellTallies nD τ sig Unit) W) : sProp 𝕄) ⊢ D.owesAt () t := by
  unfold Pipeline.Dat.owesAt Pipeline.owesWithin
  rw [howed]
  iintro ⟨%W, HO⟩; iexists W; isplitr
  · ipureintro; intro x _; exact Or.inl (hrec ▸ Set.mem_univ x)
  iexact HO

/-- And back. -/
theorem owesAt_elim {cfg : Cfg sig Λ₀} (c : Dev nD) (D : Dat τ (Elt F) Unit ℕ (UR sig nD τ) ℕ cfg c) (t : Fin (cfg.N + 1))
    (howed : D.owed t = 0) :
    D.owesAt () t ⊢ (iprop(∃ W, owes (c : Thread nD τ) (0 : CellTallies nD τ sig Unit) W) : sProp 𝕄) := by
  unfold Pipeline.Dat.owesAt Pipeline.owesWithin
  rw [howed]
  iintro ⟨%W, -, HO⟩; iexists W; iexact HO

section Records

/-- What the launch asks of the first region's proof data: its arrays are the entry valuation's, held whole, nothing
    owed, a body obligation, and an invariant that begins and ends at the scoped rest with the generator register. -/
structure Half0 : Prop where
  hA : ∀ (c : Dev nD) (w : Fin cfg0.W), (D0 c).A w = VA m c (Pipeline.arrRef spec0 w)
  hq : ∀ (c : Dev nD) (w : Fin cfg0.W), (D0 c).q w = fullShare
  howed : ∀ (c : Dev nD) (t : Fin (cfg0.N + 1)), (D0 c).owed t = 0
  hrec : ∀ (c : Dev nD) (t : Fin (cfg0.N + 1)), (D0 c).recorded t = Set.univ
  hb : ∀ c : Dev nD, BodyObligation (D0 c) (defs₀ (F := F)) Variants.none () Set.univ
  hin : ∀ c : Dev nD, (Pipeline.ΦA spec0 c : sProp 𝕄) ⊢ (D0 c).Φ 0
  hout : ∀ c : Dev nD, (D0 c).Φ (Fin.last cfg0.N) ⊢ (Pipeline.ΦA spec0 c : sProp 𝕄)

/-- The same of the second region's, at its own entry valuation. -/
structure Half1 : Prop where
  hA : ∀ (c : Dev nD) (w : Fin cfg1.W), (D1 c).A w = VB m D0 c (Pipeline.arrRef spec1 w)
  hq : ∀ (c : Dev nD) (w : Fin cfg1.W), (D1 c).q w = fullShare
  howed : ∀ (c : Dev nD) (t : Fin (cfg1.N + 1)), (D1 c).owed t = 0
  hrec : ∀ (c : Dev nD) (t : Fin (cfg1.N + 1)), (D1 c).recorded t = Set.univ
  hb : ∀ c : Dev nD, BodyObligation (D1 c) (defs₀ (F := F)) Variants.none () Set.univ
  hin : ∀ c : Dev nD, (Pipeline.ΦA spec1 c : sProp 𝕄) ⊢ (D1 c).Φ 0
  hout : ∀ c : Dev nD, (D1 c).Φ (Fin.last cfg1.N) ⊢ (Pipeline.ΦA spec1 c : sProp 𝕄)

/-- The first region's exit contents, read at the TensorCore's references. -/
abbrev VA' (c : Dev nD) (b : Ref sig .tc) : Buf (Elt F) ((c : Thread nD τ).loc b) := V13 m (outs m D0 D1) c b

/-- The exit valuation at the first region's output array is what its write-backs leave. -/
theorem V13_out (c : Dev nD) : VA' m D0 D1 c main_v8 = (D0 c).arrAt 7 cfg0.N := by
  show Function.update (V12 m c) main_v8 (outs m D0 D1 13 main_v8 c) main_v8 = _
  rw [Function.update_self]
  show o13 m D0 c (Proc.devRef .tc (Pipeline.arrRef spec0 7)) = _
  unfold o13; exact Pipeline.withArrays_arr spec0 launch0.win.arr_inj c _ _ 7

/-- Off that array the exit valuation is the entry one. -/
theorem V13_of_ne (c : Dev nD) (b : Ref sig .tc) (hb : b ≠ main_v8) : VA' m D0 D1 c b = VA m c b := by
  show Function.update (V12 m c) main_v8 (outs m D0 D1 13 main_v8 c) (Proc.devRef .tc b) = _
  exact Function.update_of_ne (fun e => hb (Proc.devRef_injective _ e)) _ _

theorem hF0 (h : Half0 m D0) (c : Dev nD) (w : Fin cfg0.W) : (D0 c).arrAt w cfg0.N = VA' m D0 D1 c (Pipeline.arrRef spec0 w) := by
  have hin : ∀ w' : Fin cfg0.W, (cfg0.win w').isOut = false → (D0 c).arrAt w' cfg0.N = VA' m D0 D1 c (Pipeline.arrRef spec0 w') ∨ w' = 7 := by
    intro w' hw
    left
    rw [(D0 c).arrAt_in w' hw, h.hA]
    exact (V13_of_ne m D0 D1 c _ (by revert hw; revert w'; decide)).symm
  fin_cases w
  all_goals first
    | exact (hin _ rfl).resolve_right (by decide)
    | exact (V13_out m D0 D1 c).symm

theorem hrest0 (c : Dev nD) : ∀ b, b ∉ Finset.univ.image (Pipeline.arrRef spec0) → VA' m D0 D1 c b = VA m c b :=
  fun b hb => V13_of_ne m D0 D1 c b fun e => hb (Finset.mem_image.mpr ⟨7, Finset.mem_univ _, e.symm⟩)

/-- The second region's exit contents, read at the TensorCore's references. -/
abbrev VB' (c : Dev nD) (b : Ref sig .tc) : Buf (Elt F) ((c : Thread nD τ).loc b) := V20 m (outs m D0 D1) c b

theorem V20_out (c : Dev nD) : VB' m D0 D1 c main_v12 = (D1 c).arrAt 4 cfg1.N := by
  show Function.update (V19 m (outs m D0 D1) c) main_v12 (outs m D0 D1 20 main_v12 c) main_v12 = _
  rw [Function.update_self]
  show o20 m D0 D1 c (Proc.devRef .tc (Pipeline.arrRef spec1 4)) = _
  unfold o20; exact Pipeline.withArrays_arr spec1 launch1.win.arr_inj c _ _ 4

theorem V20_of_ne (c : Dev nD) (b : Ref sig .tc) (hb : b ≠ main_v12) : VB' m D0 D1 c b = VB m D0 c b := by
  show Function.update (V19 m (outs m D0 D1) c) main_v12 (outs m D0 D1 20 main_v12 c) (Proc.devRef .tc b) = _
  exact Function.update_of_ne (fun e => hb (Proc.devRef_injective _ e)) _ _

theorem hF1 (h : Half1 m D0 D1) (c : Dev nD) (w : Fin cfg1.W) : (D1 c).arrAt w cfg1.N = VB' m D0 D1 c (Pipeline.arrRef spec1 w) := by
  have hin : ∀ w' : Fin cfg1.W, (cfg1.win w').isOut = false → (D1 c).arrAt w' cfg1.N = VB' m D0 D1 c (Pipeline.arrRef spec1 w') ∨ w' = 4 := by
    intro w' hw
    left
    rw [(D1 c).arrAt_in w' hw, h.hA]
    exact (V20_of_ne m D0 D1 c _ (by revert hw; revert w'; decide)).symm
  fin_cases w
  all_goals first
    | exact (hin _ rfl).resolve_right (by decide)
    | exact (V20_out m D0 D1 c).symm

theorem hrest1 (c : Dev nD) : ∀ b, b ∉ Finset.univ.image (Pipeline.arrRef spec1) → VB' m D0 D1 c b = VB m D0 c b :=
  fun b hb => V20_of_ne m D0 D1 c b fun e => hb (Finset.mem_image.mpr ⟨4, Finset.mem_univ _, e.symm⟩)

set_option backward.isDefEq.respectTransparency.types false in
theorem hentry0 (h : Half0 m D0) (c : Dev nD) :
    iprop(iprop(StableHlo.held (c : Thread nD τ) (Pipeline.ucRefs τ sig) (V12 m c) ∗ R c) ∗ Pipeline.ownSems0 (fun k : PEmpty => k.elim) c ∗ levAts L lv)
      ⊢ (|={Set.univ}=> iprop((pdats D0 D1 0 c).arrays ((pdats D0 D1 0 c).arrAt · 0) ∗ Pipeline.prefHeld (pcfgs (F := F) 0).pre c (fun _ => fullShare) (adm (F := F) 0).1
        ∗ (pdats D0 D1 0 c).owesAt () 0 ∗ iprop(∃ r, prngReg c r) ∗ Pipeline.unscopedRest (Ix := Unit) (Name := ℕ) (U := UR sig nD τ) (Lvl := ℕ) spec0 c (VA m c)) : sProp 𝕄) := by
  rw [Pipeline.ownSems0_none]
  have hsplit := Pipeline.arrays_of_unscopedBufs (p := 0) (pcfgs (F := F)) adm (pdats D0 D1) launch0.win launch0.arr_whole c
    ((pdats D0 D1 0 c).share_full (h.hq c)) (VA m c) (h.hA c)
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_intro c (pdats D0 D1 0 c) 0 (h.howed c 0) (h.hrec c 0)); iexact HO
  isplitl [Hp]; · iexact Hp
  iexact Hrest

set_option backward.isDefEq.respectTransparency.types false in
theorem hin0' (h : Half0 m D0) (c : Dev nD) :
    iprop(iprop(∃ r, prngReg c r) ∗ Pipeline.prefHeld (pcfgs (F := F) 0).pre c (fun _ => fullShare) (adm (F := F) 0).1 ∗ Pipeline.scopedRest (Pipeline.pin (pcfgs (F := F)) adm 0).spec c)
      ⊢ ((pdats D0 D1 0 c).Φ 0 : sProp 𝕄) := by
  have h1 : iprop(iprop(∃ r, prngReg c r) ∗ Pipeline.prefHeld (pcfgs (F := F) 0).pre c (fun _ => fullShare) (adm (F := F) 0).1 ∗ Pipeline.scopedRest (Pipeline.pin (pcfgs (F := F)) adm 0).spec c)
      ⊢ (Pipeline.ΦA spec0 c : sProp 𝕄) := by
    unfold Pipeline.ΦA
    iintro ⟨Hp, -, Hr⟩
    isplitl [Hr]; · iexact Hr
    iexact Hp
  exact h1.trans (h.hin c)

set_option backward.isDefEq.respectTransparency.types false in
theorem hout0' (h : Half0 m D0) (c : Dev nD) :
    ((pdats D0 D1 0 c).Φ (Fin.last (Pipeline.pin (pcfgs (F := F)) adm 0).N) : sProp 𝕄)
      ⊢ iprop(iprop(∃ r, prngReg c r) ∗ Pipeline.ownSems0 (fun k : PEmpty => k.elim) c ∗ Pipeline.scopedRest (Pipeline.pin (pcfgs (F := F)) adm 0).spec c) := by
  rw [Pipeline.ownSems0_none]
  have h1 : (Pipeline.ΦA spec0 c : sProp 𝕄)
      ⊢ iprop(iprop(∃ r, prngReg c r) ∗ BI.emp ∗ Pipeline.scopedRest (Pipeline.pin (pcfgs (F := F)) adm 0).spec c) := by
    unfold Pipeline.ΦA
    iintro ⟨Hr, Hp⟩
    isplitl [Hp]; · iexact Hp
    isplitr; · iempintro
    iexact Hr
  exact (h.hout c).trans h1

set_option backward.isDefEq.respectTransparency.types false in
theorem hexit0 (h : Half0 m D0) (c : Dev nD) :
    iprop((pdats D0 D1 0 c).arrays ((pdats D0 D1 0 c).arrAt · (Pipeline.pin (pcfgs (F := F)) adm 0).N) ∗ (pdats D0 D1 0 c).owesAt () (Fin.last (Pipeline.pin (pcfgs (F := F)) adm 0).N)
        ∗ iprop(∃ r, prngReg c r) ∗ Pipeline.unscopedRest (Ix := Unit) (Name := ℕ) (U := UR sig nD τ) (Lvl := ℕ) spec0 c (VA m c))
      ⊢ (|={Set.univ}=> iprop(StableHlo.held (c : Thread nD τ) (Pipeline.ucRefs τ sig) (V13 m (outs m D0 D1) c) ∗ R c) : sProp 𝕄) := by
  have hjoin := Pipeline.unscopedBufs_of_arrays (p := 0) (pcfgs (F := F)) adm (Ix := Unit) (Name := ℕ) (U := UR sig nD τ) (Lvl := ℕ)
    launch0.win launch0.arr_whole c (pdats D0 D1) ((pdats D0 D1 0 c).share_full (h.hq c))
    (VA m c) (VA' m D0 D1 c) ((pdats D0 D1 0 c).arrAt · cfg0.N) (hF0 m D0 D1 h c) (hrest0 m D0 D1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owesAt_elim c (pdats D0 D1 0 c) _ (h.howed c _)); iexact HO

set_option backward.isDefEq.respectTransparency.types false in
/-- Region 0 as a segment: entered from every unscoped buffer at the entry valuation, left at the exit one. -/
def reg0 (h : Half0 m D0) : Pipeline.RegionSeg (pcfgs (F := F)) adm (pdats D0 D1) () defs₀ Variants.none L lv 0 where
  win := launch0.win.to₀
  block_pos := launch0.block_pos
  stage_whole := launch0.stage_whole
  K := PEmpty
  osem k := k.elim
  ho := Pipeline.OwnSemFacts.none _
  hbody c := (h.hb c).loose
  hwaits := Pipeline.hwaits_of_owed_zero _ _ _ _ L lv 0 fun c t => h.howed c t
  pre c := iprop(StableHlo.held (c : Thread nD τ) (Pipeline.ucRefs τ sig) (V12 m c) ∗ R c)
  post c := iprop(StableHlo.held (c : Thread nD τ) (Pipeline.ucRefs τ sig) (V13 m (outs m D0 D1) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := hentry0 m D0 D1 h c
  hin c := hin0' m D0 D1 h c
  hout c := hout0' m D0 D1 h c
  hexit c := hexit0 m D0 D1 h c

set_option backward.isDefEq.respectTransparency.types false in
theorem hentry1 (h : Half1 m D0 D1) (c : Dev nD) :
    iprop(iprop(StableHlo.held (c : Thread nD τ) (Pipeline.ucRefs τ sig) (V19 m (outs m D0 D1) c) ∗ R c) ∗ Pipeline.ownSems0 (fun k : PEmpty => k.elim) c ∗ levAts L lv)
      ⊢ (|={Set.univ}=> iprop((pdats D0 D1 1 c).arrays ((pdats D0 D1 1 c).arrAt · 0) ∗ Pipeline.prefHeld (pcfgs (F := F) 1).pre c (fun _ => fullShare) (adm (F := F) 1).1
        ∗ (pdats D0 D1 1 c).owesAt () 0 ∗ iprop(∃ r, prngReg c r) ∗ Pipeline.unscopedRest (Ix := Unit) (Name := ℕ) (U := UR sig nD τ) (Lvl := ℕ) spec1 c (VB m D0 c)) : sProp 𝕄) := by
  rw [Pipeline.ownSems0_none, V19_outs m D0 D1 c]
  have hsplit := Pipeline.arrays_of_unscopedBufs (p := 1) (pcfgs (F := F)) adm (pdats D0 D1) launch1.win launch1.arr_whole c
    ((pdats D0 D1 1 c).share_full (h.hq c)) (VB m D0 c) (h.hA c)
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_intro c (pdats D0 D1 1 c) 0 (h.howed c 0) (h.hrec c 0)); iexact HO
  isplitl [Hp]; · iexact Hp
  iexact Hrest

set_option backward.isDefEq.respectTransparency.types false in
theorem hin1' (h : Half1 m D0 D1) (c : Dev nD) :
    iprop(iprop(∃ r, prngReg c r) ∗ Pipeline.prefHeld (pcfgs (F := F) 1).pre c (fun _ => fullShare) (adm (F := F) 1).1 ∗ Pipeline.scopedRest (Pipeline.pin (pcfgs (F := F)) adm 1).spec c)
      ⊢ ((pdats D0 D1 1 c).Φ 0 : sProp 𝕄) := by
  have h1 : iprop(iprop(∃ r, prngReg c r) ∗ Pipeline.prefHeld (pcfgs (F := F) 1).pre c (fun _ => fullShare) (adm (F := F) 1).1 ∗ Pipeline.scopedRest (Pipeline.pin (pcfgs (F := F)) adm 1).spec c)
      ⊢ (Pipeline.ΦA spec1 c : sProp 𝕄) := by
    unfold Pipeline.ΦA
    iintro ⟨Hp, -, Hr⟩
    isplitl [Hr]; · iexact Hr
    iexact Hp
  exact h1.trans (h.hin c)

set_option backward.isDefEq.respectTransparency.types false in
theorem hout1' (h : Half1 m D0 D1) (c : Dev nD) :
    ((pdats D0 D1 1 c).Φ (Fin.last (Pipeline.pin (pcfgs (F := F)) adm 1).N) : sProp 𝕄)
      ⊢ iprop(iprop(∃ r, prngReg c r) ∗ Pipeline.ownSems0 (fun k : PEmpty => k.elim) c ∗ Pipeline.scopedRest (Pipeline.pin (pcfgs (F := F)) adm 1).spec c) := by
  rw [Pipeline.ownSems0_none]
  have h1 : (Pipeline.ΦA spec1 c : sProp 𝕄)
      ⊢ iprop(iprop(∃ r, prngReg c r) ∗ BI.emp ∗ Pipeline.scopedRest (Pipeline.pin (pcfgs (F := F)) adm 1).spec c) := by
    unfold Pipeline.ΦA
    iintro ⟨Hr, Hp⟩
    isplitl [Hp]; · iexact Hp
    isplitr; · iempintro
    iexact Hr
  exact (h.hout c).trans h1

set_option backward.isDefEq.respectTransparency.types false in
theorem hexit1 (h : Half1 m D0 D1) (c : Dev nD) :
    iprop((pdats D0 D1 1 c).arrays ((pdats D0 D1 1 c).arrAt · (Pipeline.pin (pcfgs (F := F)) adm 1).N) ∗ (pdats D0 D1 1 c).owesAt () (Fin.last (Pipeline.pin (pcfgs (F := F)) adm 1).N)
        ∗ iprop(∃ r, prngReg c r) ∗ Pipeline.unscopedRest (Ix := Unit) (Name := ℕ) (U := UR sig nD τ) (Lvl := ℕ) spec1 c (VB m D0 c))
      ⊢ (|={Set.univ}=> iprop(StableHlo.held (c : Thread nD τ) (Pipeline.ucRefs τ sig) (V20 m (outs m D0 D1) c) ∗ R c) : sProp 𝕄) := by
  have hjoin := Pipeline.unscopedBufs_of_arrays (p := 1) (pcfgs (F := F)) adm (Ix := Unit) (Name := ℕ) (U := UR sig nD τ) (Lvl := ℕ)
    launch1.win launch1.arr_whole c (pdats D0 D1) ((pdats D0 D1 1 c).share_full (h.hq c))
    (VB m D0 c) (VB' m D0 D1 c) ((pdats D0 D1 1 c).arrAt · cfg1.N) (hF1 m D0 D1 h c) (hrest1 m D0 D1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owesAt_elim c (pdats D0 D1 1 c) _ (h.howed c _)); iexact HO

set_option backward.isDefEq.respectTransparency.types false in
/-- Region 1 as a segment: entered from every unscoped buffer at the entry valuation, left at the exit one. -/
def reg1 (h : Half1 m D0 D1) : Pipeline.RegionSeg (pcfgs (F := F)) adm (pdats D0 D1) () defs₀ Variants.none L lv 1 where
  win := launch1.win.to₀
  block_pos := launch1.block_pos
  stage_whole := launch1.stage_whole
  K := PEmpty
  osem k := k.elim
  ho := Pipeline.OwnSemFacts.none _
  hbody c := (h.hb c).loose
  hwaits := Pipeline.hwaits_of_owed_zero _ _ _ _ L lv 1 fun c t => h.howed c t
  pre c := iprop(StableHlo.held (c : Thread nD τ) (Pipeline.ucRefs τ sig) (V19 m (outs m D0 D1) c) ∗ R c)
  post c := iprop(StableHlo.held (c : Thread nD τ) (Pipeline.ucRefs τ sig) (V20 m (outs m D0 D1) c) ∗ R c)
  X c := iprop(∃ r, prngReg c r)
  Y c := iprop(∃ r, prngReg c r)
  Z c := Pipeline.unscopedRest (Ix := Unit) (Name := ℕ) (U := UR sig nD τ) (Lvl := ℕ) spec1 c (VB m D0 c)
  hentry c := hentry1 m D0 D1 h c
  hin c := hin1' m D0 D1 h c
  hout c := hout1' m D0 D1 h c
  hexit c := hexit1 m D0 D1 h c

/-- What the first region leaves in its output array. -/
theorem outs13 (c : Dev nD) : outs m D0 D1 13 main_v8 c = (D0 c).arrAt 7 cfg0.N := by
  show o13 m D0 c (Proc.devRef .tc (Pipeline.arrRef spec0 7)) = _
  unfold o13; exact Pipeline.withArrays_arr spec0 launch0.win.arr_inj c _ _ 7

/-- What the second region leaves in its output array. -/
theorem outs20 (c : Dev nD) : outs m D0 D1 20 main_v12 c = (D1 c).arrAt 4 cfg1.N := by
  show o20 m D0 D1 c (Proc.devRef .tc (Pipeline.arrRef spec1 4)) = _
  unfold o20; exact Pipeline.withArrays_arr spec1 launch1.win.arr_inj c _ _ 4

/-- The first approximation agrees with the exit contents at the first region's output. -/
theorem outsA13 (c : Dev nD) : outsA m D0 13 main_v8 c = (D0 c).arrAt 7 cfg0.N := by
  show o13 m D0 c (Proc.devRef .tc (Pipeline.arrRef spec0 7)) = _
  unfold o13; exact Pipeline.withArrays_arr spec0 launch0.win.arr_inj c _ _ 7

end Records

section Launch

set_option backward.isDefEq.respectTransparency.types false in
/-- THE RUN. From any memory with zero counters every weakly fair execution of the program terminates, and the final
    memory has every unscoped buffer of every core at the last valuation. -/
theorem run_all (h0 : Half0 m D0) (h1 : Half1 m D0 D1) :
    θ_run defs (onTc (τ := τ) (main (F := F))) ⟨m, fun _ => 0, ρ⟩ (fun r => ∀ c : Dev nD,
      ∀ b ∈ Pipeline.ucRefs τ sig, r.2.mem ((c : Thread nD τ).1, b) = V21 m (outs m D0 D1) c b) := by
  have hE2 : ∀ c : Dev nD, E (F := F) 2 c ⊢ (iprop(∃ W, owes (c : Thread nD τ) (0 : CellTallies nD τ sig Unit) W) : sProp 𝕄) := by
    intro c
    iintro ⟨-, HO⟩
    iexact HO
  refine Pipeline.θ_run_regions_kit_dev (pcfgs (F := F)) adm (pdats D0 D1) () cellOf_inj emb₁ defs₀ Variants.none L lv m ρ main
    (segs m (outs m D0 D1) Variants.none L lv (E (F := F)) () (pdats D0 D1) (reg0 m D0 D1 h0) (reg1 m D0 D1 h1))
    (fun c Q => by
      rewrite [main_chain c, Pipeline.Seg.run_eq_chain,
        show (segs m (outs m D0 D1) Variants.none L lv (E (F := F)) () (pdats D0 D1) (reg0 m D0 D1 h0) (reg1 m D0 D1 h1) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => StableHlo.held (c : Thread nD τ) (Pipeline.ucRefs τ sig) (V21 m (outs m D0 D1) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_)
    (QY := fun c s => ∀ b ∈ Pipeline.ucRefs τ sig, s.mem ((c : Thread nD τ).1, b) = V21 m (outs m D0 D1) c b)
    (hfin := fun c s' => ?_) (hQ := fun _ h => h)
  · -- the launch: the unscoped buffers are held at the launch contents; the rest makes the thread state on every core
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (V21 m (outs m D0 D1) c) s')
    isplitl [Hh] <;> iassumption

end Launch

end Cert.KernelIdeal.Run

end
-- ==== Proof.KernelIdeal.R0.Shared.lean ====
/- Region 0 (the gate/up projection with its two accumulators): what its three control cases share. The last grid
   coordinate k runs over the four K-blocks of one output block: at k = 0 both accumulators are reset, at every k a
   product is added into each, and only at k = 3 is the output block stored. Here: the two branch conditions in
   closed form over the grid, where the output window is idle and not written back, each window's staging memref,
   the two accumulators as memrefs, the region's invariant with the accumulators named, each window's block as the
   region finds it, and that every input's staging buffer holds its block whether or not it was fetched there. -/
import proofs.«413103_j549755813920_3_alg».proof.Proof.Gen.KernelIdeal.Launch
import proofs.«413103_j549755813920_3_alg».proof.Proof.Gen.KernelIdeal.Skeleton
import proofs.«413103_j549755813920_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's staging buffer holds its block

Each of the seven inputs is uncut and never idle, and the body leaves its block in place. Where the pipeline does not
fetch it (the scale and zero-point windows 2, 3, 5, 6 move only with the N-block, so three points in four), the block
index has not moved since the point before, and the buffer still holds that point's block, which is this point's. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition (k = 0), from the grid coordinates: the body's scalar chain substituted. -/
abbrev condA (i : grid0.Coords) : Prop := (Scalar.cmpi .ne (Scalar.extui (Scalar.cmpi .eq (BitVec.ofNat 32 (i 2).val) 0#32)) 0#32) = 1#1
/-- It holds at the points ≡ 0 (mod 4): k is the fastest coordinate and runs over 4 values. -/
theorem hcondA : ∀ t : Fin cfg0.N, condA (grid0.coords t) ↔ t.val % 4 = 0 :=
  (by decide +kernel : ∀ t : Fin grid0.N, condA (grid0.coords t) ↔ t.val % 4 = 0)

/-- The output store's condition (k = 3). -/
abbrev condC (i : grid0.Coords) : Prop := k0_cond2 i = 1#1
/-- It holds at the points ≡ 3 (mod 4). -/
theorem hcondC : ∀ t : Fin cfg0.N, condC (grid0.coords t) ↔ t.val % 4 = 3 :=
  (by decide +kernel : ∀ t : Fin grid0.N, condC (grid0.coords t) ↔ t.val % 4 = 3)

/-! ## Where the windows are idle -/

/-- No input is ever idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl

/-- Where k = 0 the output window is idle: the body stores nothing into it. -/
theorem idle_7_A : ∀ t : Fin cfg0.N, condA (grid0.coords t) → ¬condC (grid0.coords t) → cfg0.idle 7 (grid0.coords t) = true := by decide +kernel
/-- And the pipeline does not write its block back there. -/
theorem noFlush_7_A : ∀ t : Fin cfg0.N, condA (grid0.coords t) → ¬condC (grid0.coords t) → (cfg0.win 7).flush t = false := by decide +kernel
/-- Where 0 < k < 3 likewise. -/
theorem idle_7_B : ∀ t : Fin cfg0.N, ¬condA (grid0.coords t) → ¬condC (grid0.coords t) → cfg0.idle 7 (grid0.coords t) = true := by decide +kernel
theorem noFlush_7_B : ∀ t : Fin cfg0.N, ¬condA (grid0.coords t) → ¬condC (grid0.coords t) → (cfg0.win 7).flush t = false := by decide +kernel
/-- Where k = 3 the output window is live: the body stores its block. -/
theorem live_7_C : ∀ t : Fin cfg0.N, ¬condA (grid0.coords t) → condC (grid0.coords t) → cfg0.idle 7 (grid0.coords t) = false := by decide +kernel

/-! ## The memrefs the body is called with -/

/-- Each window's current staging memref at point t, as the pipeline passes it, and its wholeness. -/
abbrev ms_0 (t : Fin cfg0.N) : Memref sig .tc .vmem S2048x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x128 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S32x128 .i32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1024x128 .i32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S32x1024 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S32x128 .i32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2048x1024 .bf16 := win0_7.stage (cfg0.slots t 7)
abbrev hs_7 (t : Fin cfg0.N) : (ms_7 t).IsWhole := hstage0_7 ((cfg0.slots t 7).cast nbuf0_7)

/-- One staging buffer of the output window, through which its contents are stated (the choice does not matter). -/
abbrev VO_7 : View sig .tc .vmem S2048x1024 .bf16 := (Memref.whole cc0_stg7_0 : Memref sig .tc .vmem S2048x1024 .bf16).view

/-- The two accumulators: whole scoped buffers of the body's own, carried from point to point. -/
abbrev scM_0 : Memref sig .tc .vmem S2048x1024 .f32 := Memref.whole cc0_scratch0
abbrev scM_1 : Memref sig .tc .vmem S2048x1024 .f32 := Memref.whole cc0_scratch1
/-- As views: what each holds is stated through them. -/
abbrev VS_0 : View sig .tc .vmem S2048x1024 .f32 := scM_0.view
abbrev VS_1 : View sig .tc .vmem S2048x1024 .f32 := scM_1.view

/-! ## The region's invariant, the accumulators named -/

/-- The core's scoped buffers that are neither a staging buffer of this region nor one of its accumulators — the
    other region's staging buffers and accumulator —, each whole at some contents: this region never touches them. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the launch hands the region, with the two accumulators as memrefs owned at some contents: what the body
    obligation hands a run and takes back. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ restOther (F := F) c) ∗ (∃ r, prngReg c r)) := by
  unfold Pipeline.ΦA restOther; rw [scopedRest0_eq]; simp only [scM_0, scM_1, owns_whole]; try rfl

end Cert.KernelIdeal.R0

end
-- ==== Proof.KernelIdeal.R0.RunA.lean ====
/- Region 0, the body's run where k = 0 (the first K-block of an output block): both accumulators are reset to zero
   and the first product is added into each; nothing is stored into the output window, which is handed back as
   found. The pieces each accumulator ends with are what the run finds. -/
import proofs.«413103_j549755813920_3_alg».proof.Proof.KernelIdeal.R0.Shared

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at contents handed back untouched,
    the two accumulators at anything — the body at a point with k = 0 runs to the continuation holding the inputs as
    they were, the output as it was, and each accumulator with its pieces written (last first): the reset, then
    the sum of the reset value and the point's product. -/
noncomputable def bodyRun_A (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) :
    Σ' (L7 : List (View.Piece (Elt F) S2048x1024 .bf16)) (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ owns (c : Thread nD τ) arg10 fullShare xi7
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.R0

end
-- ==== Proof.KernelIdeal.R0.RunB.lean ====
/- Region 0, the body's run where 0 < k < 3 (a middle K-block of an output block): no reset; the point's product is
   added into each accumulator, which comes in at what the point before left; nothing is stored into the output
   window, which is handed back as found. The pieces each accumulator ends with are what the run finds. -/
import proofs.«413103_j549755813920_3_alg».proof.Proof.KernelIdeal.R0.RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at contents handed back untouched,
    the two accumulators at the contents xs0, xs1 the point before left — the body at a point with 0 < k < 3 runs to
    the continuation holding the inputs as they were, the output as it was, and each accumulator with its one piece
    written: what it held plus the point's product. -/
noncomputable def bodyRun_B (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) :
    Σ' (L7 : List (View.Piece (Elt F) S2048x1024 .bf16)) (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ owns (c : Thread nD τ) arg10 fullShare xi7
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨[], ?_, ?_, fun xi7 E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.R0

end
-- ==== Proof.KernelIdeal.R0.RunC.lean ====
/- Region 0, the body's run where k = 3 (the last K-block of an output block): no reset; the point's product is added
   into each accumulator, which comes in at what the point before left; then the output block is stored from the two
   finished sums. The pieces the output window and each accumulator end with are what the run finds. -/
import proofs.«413103_j549755813920_3_alg».proof.Proof.KernelIdeal.R0.RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the seven inputs' at their contents, the output's at anything, the two accumulators at
    the contents xs0, xs1 the point before left — the body at a point with k = 3 runs to the continuation holding the
    inputs as they were, each accumulator with its one piece written (what it held plus the point's product), and the
    output's buffer with its one piece written: the block computed from the two finished sums. -/
noncomputable def bodyRun_C (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) :
    Σ' (L7 : List (View.Piece (Elt F) S2048x1024 .bf16)) (LS0 : List (View.Piece (Elt F) S2048x1024 .f32)), { LS1 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare x4 ∗ owns (c : Thread nD τ) arg8 fullShare x5 ∗ owns (c : Thread nD τ) arg9 fullShare x6
                ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gate_up_kernel_eq_skeleton]; unfold cc0__gate_up_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.KernelIdeal.R0

end
-- ==== Proof.KernelIdeal.R0.Body.lean ====
/- Region 0 (the gate/up projection), its body obligation and what it computes. One output block takes four points
   (k = 0..3). Each point adds one product into each of two accumulators that live in scratch memory between points:
   the bf16 activation block times a weight block rebuilt from packed 4-bit fields, row offsets and row factors. At
   k = 0 the accumulators start from zero; at k = 3 the output block is computed from the two finished sums and
   stored. Here: one point's update of each accumulator through the body's value names; that the pieces each case's
   run found read back as those updates; the accumulators' contents by recursion on the point; the invariant that
   carries them; the proof data; and the body obligation by cases on k. -/
import proofs.«413103_j549755813920_3_alg».proof.Proof.KernelIdeal.R0.RunC
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's arithmetic, through the body's own value names -/

/-- The literal zero offsets of a rank-2 rectangle are the zero function. -/
theorem hz : (![0, 0] : Fin 2 → Nat) = fun _ => 0 := funext fun a => by fin_cases a <;> rfl

/-- One point's update of the first accumulator, as the body's value names have it: the eight 4-bit fields of each
    word of x1 as floats, less the eight 4-bit fields of each word of the point's eight rows of x3 as floats (each row
    spread over 128 rows), times the point's eight rows of x2 (spread likewise), rounded to bf16; the block x0 times
    that matrix, added to what the accumulator held. The eight rows are those at the row offset the point's k gives. -/
def gstep (x0 : Vec F S2048x1024 .bf16) (x1 : Vec F S1024x128 .i32) (x2 : Vec F S32x1024 .f32) (x3 : Vec F S32x128 .i32) (i : grid0.Coords) (acc : Vec F S2048x1024 .f32) : Vec F S2048x1024 .f32 :=
  k0_pay10 (k0_pay5 x0) (k0_pay7 x1) (k0_pay8 (View.ld x3 (Rect.unit (s := S32x128) (k0_off1 i) S8x128.size (k0_off1_inb i)))) (k0_pay9 (View.ld x2 (Rect.unit (s := S32x1024) (k0_off2 i) S8x1024.size (k0_off2_inb i)))) acc

/-- One point's update of the second accumulator: the same arithmetic over the words x4, the rows of x6 and the rows
    of x5. -/
def ustep (x0 : Vec F S2048x1024 .bf16) (x4 : Vec F S1024x128 .i32) (x5 : Vec F S32x1024 .f32) (x6 : Vec F S32x128 .i32) (i : grid0.Coords) (acc : Vec F S2048x1024 .f32) : Vec F S2048x1024 .f32 :=
  k0_pay1 (k0_pay5 x0) (k0_pay12 x4) (k0_pay13 (View.ld x6 (Rect.unit (s := S32x128) (k0_off1 i) S8x128.size (k0_off1_inb i)))) (k0_pay14 (View.ld x5 (Rect.unit (s := S32x1024) (k0_off2 i) S8x1024.size (k0_off2_inb i)))) acc

/-! ## Where k = 0: what the run leaves -/

/-- The first accumulator's pieces (the reset, then the update) tile it, so they cover it. -/
theorem scover_A_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (y : S2048x1024.Idx) :
    ∃ pc ∈ (bodyRun_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (bodyRun_A c i arg3 harg3 arg4 harg4 arg5 harg5 arg6 harg6 arg7 harg7 arg8 harg8 arg9 harg9 arg10 harg10 arg11 harg11 arg12 harg12 hc0 hc1 x0 x1 x2 x3 x4 x5 x6).2.1 S2048x1024.size (by sl_kernel_rfl) y

/-- The second accumulator's likewise. -/
theorem scover_A_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (y : S2048x1024.Idx) :
    ∃ pc ∈ (bodyRun_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (bodyRun_A c i arg3 harg3 arg4 harg4 arg5 harg5 arg6 harg6 arg7 harg7 arg8 harg8 arg9 harg9 arg10 harg10 arg11 harg11 arg12 harg12 hc0 hc1 x0 x1 x2 x3 x4 x5 x6).2.2.1 S2048x1024.size (by sl_kernel_rfl) y

set_option maxHeartbeats 1600000 in
/-- What the first accumulator reads after the point, over any prior contents: the update laid over the reset is the
    update, whose accumulator argument — a load of what the reset left — is the reset value; each input load reads
    its block, the two row loads their eight rows. -/
theorem leaves_A_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (f) :
    arg11.view.read (Elt F) (arg11.view.writes (Elt F) f (bodyRun_A c i arg3 harg3 arg4 harg4 arg5 harg5 arg6 harg6 arg7 harg7 arg8 harg8 arg9 harg9 arg10 harg10 arg11 harg11 arg12 harg12 hc0 hc1 x0 x1 x2 x3 x4 x5 x6).2.1)
      = gstep x0 x1 x2 x3 i (k0_pay3 (F := F)) := by
  rw [View.read_writes_eq_canon _ _ _ (scover_A_0 c i arg3 harg3 arg4 harg4 arg5 harg5 arg6 harg6 arg7 harg7 arg8 harg8 arg9 harg9 arg10 harg10 arg11 harg11 arg12 harg12 hc0 hc1 x0 x1 x2 x3 x4 x5 x6)]
  unfold bodyRun_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, View.ld_unit_zero (S := S2048x1024) hz, View.ld_unit_zero (S := S1024x128) hz]
  rfl

set_option maxHeartbeats 1600000 in
/-- What the second accumulator reads after the point, likewise. -/
theorem leaves_A_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (f) :
    arg12.view.read (Elt F) (arg12.view.writes (Elt F) f (bodyRun_A c i arg3 harg3 arg4 harg4 arg5 harg5 arg6 harg6 arg7 harg7 arg8 harg8 arg9 harg9 arg10 harg10 arg11 harg11 arg12 harg12 hc0 hc1 x0 x1 x2 x3 x4 x5 x6).2.2.1)
      = ustep x0 x4 x5 x6 i (k0_pay4 (F := F)) := by
  rw [View.read_writes_eq_canon _ _ _ (scover_A_1 c i arg3 harg3 arg4 harg4 arg5 harg5 arg6 harg6 arg7 harg7 arg8 harg8 arg9 harg9 arg10 harg10 arg11 harg11 arg12 harg12 hc0 hc1 x0 x1 x2 x3 x4 x5 x6)]
  unfold bodyRun_A
  dsimp only
  sl_unfold_words
  rw [View.canon_cons_unit_zero (S := S2048x1024) hz, View.readCov_unit_zero (S := S2048x1024) _ hz]
  simp only [View.readAt_eq_ld, harg3.read_unread, harg7.read_unread, harg8.read_unread, harg9.read_unread, View.ld_unit_zero (S := S2048x1024) hz, View.ld_unit_zero (S := S1024x128) hz]
  rfl

/-! ## Where 0 < k < 3: what the run leaves -/

/-- The first accumulator's one piece (the update) tiles it, so it covers it. -/
theorem scover_B_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- The second accumulator's likewise. -/
theorem scover_B_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S2048x1024.size (by sl_kernel_rfl) y

set_option maxHeartbeats 1600000 in
/-- What the first accumulator reads after the point: the one update, whose accumulator argument is a load of what
    it held, xs0. -/
theorem leaves_B_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg11.view.read (Elt F) (arg11.view.writes (Elt F) f (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)
      = gstep x0 x1 x2 x3 i xs0 := by
  rw [View.read_writes_eq_canon _ _ _ (scover_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_B
  dsimp only
  sl_unfold_words
  rw [View.canon_unit_zero (S := S2048x1024) hz]
  simp only [View.readAt_eq_ld, harg3.read_unread, harg4.read_unread, harg5.read_unread, harg6.read_unread, harg11.read_unread, View.ld_unit_zero (S := S2048x1024) hz, View.ld_unit_zero (S := S1024x128) hz]
  rfl

set_option maxHeartbeats 1600000 in
/-- What the second accumulator reads after the point, likewise over xs1. -/
theorem leaves_B_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg12.view.read (Elt F) (arg12.view.writes (Elt F) f (bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)
      = ustep x0 x4 x5 x6 i xs1 := by
  rw [View.read_writes_eq_canon _ _ _ (scover_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_B
  dsimp only
  sl_unfold_words
  rw [View.canon_unit_zero (S := S2048x1024) hz]
  simp only [View.readAt_eq_ld, harg3.read_unread, harg7.read_unread, harg8.read_unread, harg9.read_unread, harg12.read_unread, View.ld_unit_zero (S := S2048x1024) hz, View.ld_unit_zero (S := S1024x128) hz]
  rfl

/-! ## Where k = 3: what the run leaves -/

/-- The output window's one piece (the stored block) tiles it, so it covers it. -/
theorem cover_C_7 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1 S2048x1024.size (by sl_kernel_rfl) y

/-- The first accumulator's one piece likewise. -/
theorem scover_C_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- The second accumulator's likewise. -/
theorem scover_C_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (y : S2048x1024.Idx) :
    ∃ pc ∈ (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S2048x1024.size (by sl_kernel_rfl) y

set_option maxHeartbeats 1600000 in
/-- What the first accumulator reads after the point: the one update over xs0. -/
theorem leaves_C_0 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg11.view.read (Elt F) (arg11.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)
      = gstep x0 x1 x2 x3 i xs0 := by
  rw [View.read_writes_eq_canon _ _ _ (scover_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readAt_eq_ld, harg3.read_unread, harg4.read_unread, harg5.read_unread, harg6.read_unread, harg11.read_unread, View.ld_unit_zero (S := S2048x1024) hz, View.ld_unit_zero (S := S1024x128) hz]
  rfl

set_option maxHeartbeats 1600000 in
/-- What the second accumulator reads after the point: the one update over xs1. -/
theorem leaves_C_1 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg12.view.read (Elt F) (arg12.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)
      = ustep x0 x4 x5 x6 i xs1 := by
  rw [View.read_writes_eq_canon _ _ _ (scover_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readAt_eq_ld, harg3.read_unread, harg7.read_unread, harg8.read_unread, harg9.read_unread, harg12.read_unread, View.ld_unit_zero (S := S2048x1024) hz, View.ld_unit_zero (S := S1024x128) hz]
  rfl

set_option maxHeartbeats 1600000 in
/-- What the output window's buffer reads after the point: the one stored block, computed from a load of each
    accumulator after its update — the two finished sums. -/
theorem leaves_C_7 (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (f) :
    arg10.view.read (Elt F) (arg10.view.writes (Elt F) f (bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).1)
      = k0_pay2 (gstep x0 x1 x2 x3 i xs0) (ustep x0 x4 x5 x6 i xs1) := by
  rw [View.read_writes_eq_canon _ _ _ (cover_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold bodyRun_C
  dsimp only
  sl_unfold_words
  rw [View.canon_unit_zero (S := S2048x1024) hz]
  simp only [View.readCov_unit_zero (S := S2048x1024) _ hz, View.readAt_eq_ld, harg3.read_unread, harg4.read_unread, harg5.read_unread, harg6.read_unread, harg7.read_unread, harg8.read_unread, harg9.read_unread, harg11.read_unread, harg12.read_unread, View.ld_unit_zero (S := S2048x1024) hz, View.ld_unit_zero (S := S1024x128) hz]
  rfl

/-! ## The body's triple per case, over named contents -/

set_option maxHeartbeats 1600000 in
/-- Where k = 0: from the inputs at their contents, the output at xi7 and the accumulators at anything, to the inputs
    and the output as they were and the accumulators at one update of their reset values. -/
theorem triple_A (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32) (xi7 : Vec F S2048x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ owns (c : Thread nD τ) arg10 fullShare xi7 ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7
            ∗ owns (c : Thread nD τ) arg11 fullShare (gstep x0 x1 x2 x3 i (k0_pay3 (F := F)))
            ∗ owns (c : Thread nD τ) arg12 fullShare (ustep x0 x4 x5 x6 i (k0_pay4 (F := F)))) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_A c i arg3 harg3 arg4 harg4 arg5 harg5 arg6 harg6 arg7 harg7 arg8 harg8 arg9 harg9 arg10 harg10 arg11 harg11 arg12 harg12 hc0 hc1 x0 x1 x2 x3 x4 x5 x6).2.2.2 xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · unfold owns; iexists _; isplitr
    swap; · iexact HS0
    ipureintro; exact leaves_A_0 c i arg3 harg3 arg4 harg4 arg5 harg5 arg6 harg6 arg7 harg7 arg8 harg8 arg9 harg9 arg10 harg10 arg11 harg11 arg12 harg12 hc0 hc1 x0 x1 x2 x3 x4 x5 x6 e0
  unfold owns; iexists _; isplitr
  swap; · iexact HS1
  ipureintro; exact leaves_A_1 c i arg3 harg3 arg4 harg4 arg5 harg5 arg6 harg6 arg7 harg7 arg8 harg8 arg9 harg9 arg10 harg10 arg11 harg11 arg12 harg12 hc0 hc1 x0 x1 x2 x3 x4 x5 x6 e1

set_option maxHeartbeats 1600000 in
/-- Where 0 < k < 3: from the accumulators at xs0, xs1 to the accumulators at one update of those. -/
theorem triple_B (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : ¬condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32) (xi7 : Vec F S2048x1024 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ owns (c : Thread nD τ) arg10 fullShare xi7 ∗ owns (c : Thread nD τ) arg11 fullShare xs0 ∗ owns (c : Thread nD τ) arg12 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare xi7
            ∗ owns (c : Thread nD τ) arg11 fullShare (gstep x0 x1 x2 x3 i xs0)
            ∗ owns (c : Thread nD τ) arg12 fullShare (ustep x0 x4 x5 x6 i xs1)) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.2 xi7 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]
  · unfold owns; iexists _; isplitr
    swap; · iexact HS0
    ipureintro; exact leaves_B_0 c i arg3 harg3 arg4 harg4 arg5 harg5 arg6 harg6 arg7 harg7 arg8 harg8 arg9 harg9 arg10 harg10 arg11 harg11 arg12 harg12 hc0 hc1 x0 x1 x2 x3 x4 x5 x6 xs0 xs1 e0
  unfold owns; iexists _; isplitr
  swap; · iexact HS1
  ipureintro; exact leaves_B_1 c i arg3 harg3 arg4 harg4 arg5 harg5 arg6 harg6 arg7 harg7 arg8 harg8 arg9 harg9 arg10 harg10 arg11 harg11 arg12 harg12 hc0 hc1 x0 x1 x2 x3 x4 x5 x6 xs0 xs1 e1

set_option maxHeartbeats 1600000 in
/-- Where k = 3: from the accumulators at xs0, xs1 and the output at anything to the accumulators at one update of
    those and the output at the block computed from the two updated sums. -/
theorem triple_C (c : Dev nD) (i : grid0.Coords)
    (arg3 : Memref sig .tc .vmem S2048x1024 .bf16) (harg3 : arg3.IsWhole) (arg4 : Memref sig .tc .vmem S1024x128 .i32) (harg4 : arg4.IsWhole)
    (arg5 : Memref sig .tc .vmem S32x1024 .f32) (harg5 : arg5.IsWhole) (arg6 : Memref sig .tc .vmem S32x128 .i32) (harg6 : arg6.IsWhole)
    (arg7 : Memref sig .tc .vmem S1024x128 .i32) (harg7 : arg7.IsWhole) (arg8 : Memref sig .tc .vmem S32x1024 .f32) (harg8 : arg8.IsWhole)
    (arg9 : Memref sig .tc .vmem S32x128 .i32) (harg9 : arg9.IsWhole) (arg10 : Memref sig .tc .vmem S2048x1024 .bf16) (harg10 : arg10.IsWhole)
    (arg11 : Memref sig .tc .vmem S2048x1024 .f32) (harg11 : arg11.IsWhole) (arg12 : Memref sig .tc .vmem S2048x1024 .f32) (harg12 : arg12.IsWhole)
    (hc0 : ¬condA i) (hc1 : condC i)
    (x0 : Vec F S2048x1024 .bf16) (x1 : Vec F S1024x128 .i32) (x2 : Vec F S32x1024 .f32) (x3 : Vec F S32x128 .i32)
    (x4 : Vec F S1024x128 .i32) (x5 : Vec F S32x1024 .f32) (x6 : Vec F S32x128 .i32)
    (xs0 : Vec F S2048x1024 .f32) (xs1 : Vec F S2048x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6
        ∗ (∃ d, owns (c : Thread nD τ) arg10 fullShare d) ∗ owns (c : Thread nD τ) arg11 fullShare xs0 ∗ owns (c : Thread nD τ) arg12 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare x5 ∗ owns (c : Thread nD τ) arg9 fullShare x6
            ∗ owns (c : Thread nD τ) arg10 fullShare (k0_pay2 (gstep x0 x1 x2 x3 i xs0) (ustep x0 x4 x5 x6 i xs1))
            ∗ owns (c : Thread nD τ) arg11 fullShare (gstep x0 x1 x2 x3 i xs0)
            ∗ owns (c : Thread nD τ) arg12 fullShare (ustep x0 x4 x5 x6 i xs1)) -∗ K ⟨⟩))
      ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K := by
  iintro ⟨H0, H1, H2, H3, H4, H5, H6, H7, HS0, HS1, Hk⟩
  iapply ((bodyRun_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, ⟨%e0, HS0⟩, ⟨%e1, HS1⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact leaves_C_7 c i arg3 harg3 arg4 harg4 arg5 harg5 arg6 harg6 arg7 harg7 arg8 harg8 arg9 harg9 arg10 harg10 arg11 harg11 arg12 harg12 hc0 hc1 x0 x1 x2 x3 x4 x5 x6 xs0 xs1 e7
  isplitl [HS0]
  · unfold owns; iexists _; isplitr
    swap; · iexact HS0
    ipureintro; exact leaves_C_0 c i arg3 harg3 arg4 harg4 arg5 harg5 arg6 harg6 arg7 harg7 arg8 harg8 arg9 harg9 arg10 harg10 arg11 harg11 arg12 harg12 hc0 hc1 x0 x1 x2 x3 x4 x5 x6 xs0 xs1 e0
  unfold owns; iexists _; isplitr
  swap; · iexact HS1
  ipureintro; exact leaves_C_1 c i arg3 harg3 arg4 harg4 arg5 harg5 arg6 harg6 arg7 harg7 arg8 harg8 arg9 harg9 arg10 harg10 arg11 harg11 arg12 harg12 hc0 hc1 x0 x1 x2 x3 x4 x5 x6 xs0 xs1 e1

/-! ## What the accumulators hold after each point -/

-- the TensorCore's buffer contents when the region is entered
variable (V : (c : Dev nD) → (b : Ref sig .tc) → Buf (Elt F) ((c : Thread nD τ).loc b))

/-- The first accumulator after the body at position n: at a point with k = 0 (the first of an output block's four)
    one update of the reset value, at any other one update of what the point before left; each update over the
    point's own blocks. -/
def gaccAt (c : Dev nD) : (n : ℕ) → n < cfg0.N → Vec F S2048x1024 .f32
  | 0, hn => gstep (iblk V c 0 ⟨0, hn⟩) (iblk V c 1 ⟨0, hn⟩) (iblk V c 2 ⟨0, hn⟩) (iblk V c 3 ⟨0, hn⟩) (grid0.coords ⟨0, hn⟩) (k0_pay3 (F := F))
  | n + 1, hn =>
    if (n + 1) % 4 = 0 then
      gstep (iblk V c 0 ⟨n + 1, hn⟩) (iblk V c 1 ⟨n + 1, hn⟩) (iblk V c 2 ⟨n + 1, hn⟩) (iblk V c 3 ⟨n + 1, hn⟩) (grid0.coords ⟨n + 1, hn⟩) (k0_pay3 (F := F))
    else
      gstep (iblk V c 0 ⟨n + 1, hn⟩) (iblk V c 1 ⟨n + 1, hn⟩) (iblk V c 2 ⟨n + 1, hn⟩) (iblk V c 3 ⟨n + 1, hn⟩) (grid0.coords ⟨n + 1, hn⟩) (gaccAt c n (Nat.lt_of_succ_lt hn))

/-- The second accumulator likewise. -/
def uaccAt (c : Dev nD) : (n : ℕ) → n < cfg0.N → Vec F S2048x1024 .f32
  | 0, hn => ustep (iblk V c 0 ⟨0, hn⟩) (iblk V c 4 ⟨0, hn⟩) (iblk V c 5 ⟨0, hn⟩) (iblk V c 6 ⟨0, hn⟩) (grid0.coords ⟨0, hn⟩) (k0_pay4 (F := F))
  | n + 1, hn =>
    if (n + 1) % 4 = 0 then
      ustep (iblk V c 0 ⟨n + 1, hn⟩) (iblk V c 4 ⟨n + 1, hn⟩) (iblk V c 5 ⟨n + 1, hn⟩) (iblk V c 6 ⟨n + 1, hn⟩) (grid0.coords ⟨n + 1, hn⟩) (k0_pay4 (F := F))
    else
      ustep (iblk V c 0 ⟨n + 1, hn⟩) (iblk V c 4 ⟨n + 1, hn⟩) (iblk V c 5 ⟨n + 1, hn⟩) (iblk V c 6 ⟨n + 1, hn⟩) (grid0.coords ⟨n + 1, hn⟩) (uaccAt c n (Nat.lt_of_succ_lt hn))

/-- At a point with k = 0 the first accumulator is one update of the reset value. -/
theorem gaccAt_first (c : Dev nD) (t : Fin cfg0.N) (h : t.val % 4 = 0) :
    gaccAt V c t.val t.isLt = gstep (iblk V c 0 t) (iblk V c 1 t) (iblk V c 2 t) (iblk V c 3 t) (grid0.coords t) (k0_pay3 (F := F)) := by
  obtain ⟨n, hn⟩ := t
  cases n with
  | zero => rfl
  | succ n => exact if_pos h

/-- At any other point it is one update of what the point before left. -/
theorem gaccAt_next (c : Dev nD) (t : Fin cfg0.N) (h : ¬ t.val % 4 = 0) :
    gaccAt V c t.val t.isLt = gstep (iblk V c 0 t) (iblk V c 1 t) (iblk V c 2 t) (iblk V c 3 t) (grid0.coords t) (gaccAt V c (t.val - 1) (Nat.lt_of_le_of_lt (Nat.sub_le _ _) t.isLt)) := by
  obtain ⟨n, hn⟩ := t
  cases n with
  | zero => exact absurd (Nat.zero_mod _) h
  | succ n => exact (if_neg h).trans rfl

theorem uaccAt_first (c : Dev nD) (t : Fin cfg0.N) (h : t.val % 4 = 0) :
    uaccAt V c t.val t.isLt = ustep (iblk V c 0 t) (iblk V c 4 t) (iblk V c 5 t) (iblk V c 6 t) (grid0.coords t) (k0_pay4 (F := F)) := by
  obtain ⟨n, hn⟩ := t
  cases n with
  | zero => rfl
  | succ n => exact if_pos h

theorem uaccAt_next (c : Dev nD) (t : Fin cfg0.N) (h : ¬ t.val % 4 = 0) :
    uaccAt V c t.val t.isLt = ustep (iblk V c 0 t) (iblk V c 4 t) (iblk V c 5 t) (iblk V c 6 t) (grid0.coords t) (uaccAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant and proof data -/

/-- The invariant before position n: before the first point what the launch hands the region (both accumulators at
    anything); afterwards both accumulators at what the point before left, the other region's scoped buffers
    untouched, the generator register at some state. -/
def PhiS (c : Dev nD) : (n : ℕ) → n ≤ cfg0.N → sProp 𝕄
  | 0, _ => Pipeline.ΦA spec0 c
  | n + 1, hn => iprop(iprop(owns (c : Thread nD τ) scM_0 fullShare (gaccAt V c n hn) ∗ owns (c : Thread nD τ) scM_1 fullShare (uaccAt V c n hn) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare (gaccAt V c n hn) ∗ owns (c : Thread nD τ) scM_1 fullShare (uaccAt V c n hn) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM_0 fullShare (gaccAt V c (n - 1) (by omega)) ∗ owns (c : Thread nD τ) scM_1 fullShare (uaccAt V c (n - 1) (by omega)) ∗ restOther (F := F) c) ∗ (∃ r, prngReg c r)) := by
  cases n with
  | zero => exact absurd rfl hz
  | succ n => rfl

/-- The proof data of the region on core c: the arrays as the region finds them; after the body each input's buffer at
    its block; the output's at the block computed from the two accumulators as they then stand — what the body stores
    where k = 3, and a placeholder nothing consults at the other points, where the window is idle and not written
    back —; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => k0_pay2 (gaccAt V c t.val t.isLt) (uaccAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = k0_pay2 (gaccAt V c t.val t.isLt) (uaccAt V c t.val t.isLt) := by dsimp only [dat]

/-- Where k = 3 the output window's buffer holds, after the body, the block computed from the two finished sums. -/
theorem after_out (c : Dev nD) (t : Fin cfg0.N) (h : t.val % 4 = 3) : (dat V c).after 7 t = k0_pay2 (gaccAt V c t.val t.isLt) (uaccAt V c t.val t.isLt) :=
  after_7 V c t

theorem before_0 (c : Dev nD) (t : Fin cfg0.N) (d) : (dat V c).before 0 t d = iblk V c 0 t := before_0_of V (dat V c) (A_eq V c 0) (after_0 V c) t d
theorem before_1 (c : Dev nD) (t : Fin cfg0.N) (d) : (dat V c).before 1 t d = iblk V c 1 t := before_1_of V (dat V c) (A_eq V c 1) (after_1 V c) t d
theorem before_2 (c : Dev nD) (t : Fin cfg0.N) (d) : (dat V c).before 2 t d = iblk V c 2 t := before_2_of V (dat V c) (A_eq V c 2) (after_2 V c) t d
theorem before_3 (c : Dev nD) (t : Fin cfg0.N) (d) : (dat V c).before 3 t d = iblk V c 3 t := before_3_of V (dat V c) (A_eq V c 3) (after_3 V c) t d
theorem before_4 (c : Dev nD) (t : Fin cfg0.N) (d) : (dat V c).before 4 t d = iblk V c 4 t := before_4_of V (dat V c) (A_eq V c 4) (after_4 V c) t d
theorem before_5 (c : Dev nD) (t : Fin cfg0.N) (d) : (dat V c).before 5 t d = iblk V c 5 t := before_5_of V (dat V c) (A_eq V c 5) (after_5 V c) t d
theorem before_6 (c : Dev nD) (t : Fin cfg0.N) (d) : (dat V c).before 6 t d = iblk V c 6 t := before_6_of V (dat V c) (A_eq V c 6) (after_6 V c) t d

/-! ## The body obligation -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

theorem leaves_in_0 (c : Dev nD) (t : Fin cfg0.N) : (dat V c).leavesExact 0 t = owns (c : Thread nD τ) (ms_0 t) fullShare (iblk V c 0 t) := by
  unfold Dat.leavesExact; rw [live_0 t, after_0]
theorem leaves_in_1 (c : Dev nD) (t : Fin cfg0.N) : (dat V c).leavesExact 1 t = owns (c : Thread nD τ) (ms_1 t) fullShare (iblk V c 1 t) := by
  unfold Dat.leavesExact; rw [live_1 t, after_1]
theorem leaves_in_2 (c : Dev nD) (t : Fin cfg0.N) : (dat V c).leavesExact 2 t = owns (c : Thread nD τ) (ms_2 t) fullShare (iblk V c 2 t) := by
  unfold Dat.leavesExact; rw [live_2 t, after_2]
theorem leaves_in_3 (c : Dev nD) (t : Fin cfg0.N) : (dat V c).leavesExact 3 t = owns (c : Thread nD τ) (ms_3 t) fullShare (iblk V c 3 t) := by
  unfold Dat.leavesExact; rw [live_3 t, after_3]
theorem leaves_in_4 (c : Dev nD) (t : Fin cfg0.N) : (dat V c).leavesExact 4 t = owns (c : Thread nD τ) (ms_4 t) fullShare (iblk V c 4 t) := by
  unfold Dat.leavesExact; rw [live_4 t, after_4]
theorem leaves_in_5 (c : Dev nD) (t : Fin cfg0.N) : (dat V c).leavesExact 5 t = owns (c : Thread nD τ) (ms_5 t) fullShare (iblk V c 5 t) := by
  unfold Dat.leavesExact; rw [live_5 t, after_5]
theorem leaves_in_6 (c : Dev nD) (t : Fin cfg0.N) : (dat V c).leavesExact 6 t = owns (c : Thread nD τ) (ms_6 t) fullShare (iblk V c 6 t) := by
  unfold Dat.leavesExact; rw [live_6 t, after_6]

set_option maxHeartbeats 4800000 in
/-- The body at any point. The inputs' memrefs hold their blocks; the closed forms say which of the three cases the
    point is in; the invariant hands the body both accumulators at what the point before left (at anything at the
    first point, and where k = 0 the named contents are simply forgotten) and takes them back at this point's; where
    the output window is idle it goes back as found, where k = 3 at the stored block; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  rw [leaves_in_0, leaves_in_1, leaves_in_2, leaves_in_3, leaves_in_4, leaves_in_5, leaves_in_6]
  have hN : t.val < 88 := lt_of_lt_of_eq t.isLt (show cfg0.N = 88 from N_0)
  by_cases h0 : t.val % 4 = 0
  · have h1 : ¬ t.val % 4 = 3 := by omega
    rw [Dat.leavesExact_idle (dat V c) 7 t (idle_7_A t ((hcondA t).mpr h0) (fun h => h1 ((hcondC t).mp h))) (noFlush_7_A t ((hcondA t).mpr h0) (fun h => h1 ((hcondC t).mp h)))]
    rw [gaccAt_first V c t h0, uaccAt_first V c t h0]
    by_cases hz : t.val = 0
    · rw [PhiS_castSucc V c t, PhiS_zero V c _ _ hz, PhiA_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_A c (grid0.coords t) _ _ _ _ _ _ _ _ _ _ _ _ _ _ _ _ _ _ _ _ ((hcondA t).mpr h0) (fun h => h1 ((hcondC t).mp h)) (iblk V c 0 t) (iblk V c 1 t) (iblk V c 2 t) (iblk V c 3 t) (iblk V c 4 t) (iblk V c 5 t) (iblk V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_A c (grid0.coords t) _ _ _ _ _ _ _ _ _ _ _ _ _ _ _ _ _ _ _ _ ((hcondA t).mpr h0) (fun h => h1 ((hcondC t).mp h)) (iblk V c 0 t) (iblk V c 1 t) (iblk V c 2 t) (iblk V c 3 t) (iblk V c 4 t) (iblk V c 5 t) (iblk V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [PhiS_castSucc V c t, PhiS_pos V c _ _ hz]
    rw [gaccAt_next V c t h0, uaccAt_next V c t h0]
    by_cases h1 : t.val % 4 = 3
    · rw [show (dat V c).leavesExact 7 t = owns (c : Thread nD τ) (ms_7 t) fullShare ((dat V c).after 7 t) from by
        unfold Dat.leavesExact; rw [live_7_C t (fun h => h0 ((hcondA t).mp h)) ((hcondC t).mpr h1)], after_7]
      rw [gaccAt_next V c t h0, uaccAt_next V c t h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_C c (grid0.coords t) _ _ _ _ _ _ _ _ _ _ _ _ _ _ _ _ _ _ _ _ (fun h => h0 ((hcondA t).mp h)) ((hcondC t).mpr h1) (iblk V c 0 t) (iblk V c 1 t) (iblk V c 2 t) (iblk V c 3 t) (iblk V c 4 t) (iblk V c 5 t) (iblk V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat V c) 7 t (idle_7_B t (fun h => h0 ((hcondA t).mp h)) (fun h => h1 ((hcondC t).mp h))) (noFlush_7_B t (fun h => h0 ((hcondA t).mp h)) (fun h => h1 ((hcondC t).mp h)))]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (triple_B c (grid0.coords t) _ _ _ _ _ _ _ _ _ _ _ _ _ _ _ _ _ _ _ _ (fun h => h0 ((hcondA t).mp h)) (fun h => h1 ((hcondC t).mp h)) (iblk V c 0 t) (iblk V c 1 t) (iblk V c 2 t) (iblk V c 3 t) (iblk V c 4 t) (iblk V c 5 t) (iblk V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulators' named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout (c : Dev nD) : (dat V c).Φ (Fin.last cfg0.N) ⊢ (Pipeline.ΦA spec0 c : sProp 𝕄) :=
  Phi_out V c _ (by rw [Fin.val_last]; have : cfg0.N = 88 := N_0; omega)

end Cert.KernelIdeal.R0

end
-- ==== Proof.KernelIdeal.R1.Shared.lean ====
/- The second pipeline of the program (the down projection: grid 2 × 4 × 11, the last coordinate k the
   reduction axis): what the three control cases of its body share. The body zeroes a carried accumulator
   where k = 0, adds one dequantised matrix product into it at every point, and stores the accumulator into the
   output block only where k = 10. Here: each window's block at a point, the inputs found at their blocks, the
   two conditions in closed form over the 88 points, where the output window is idle, the memrefs the body is
   called with, and the invariant before the first point with the accumulator as an owned memref. -/
import proofs.«413103_j549755813920_3_alg».proof.Proof.Gen.KernelIdeal.Launch
import proofs.«413103_j549755813920_3_alg».proof.Proof.Gen.KernelIdeal.Skeleton
import proofs.«413103_j549755813920_3_alg».proof.Proof.Gen.KernelIdeal.Points
import Idealize.ShloMosaic.Lib.Pipeline.FrameBody
import Idealize.ShloMosaic.Lib.Ring
import Idealize.ShloMosaic.Lib.Tactic

-- membership in a rectangle of production extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

/-! ## The windows' blocks -/

/-- Window `w`'s block at point `t`, read off its array as the pipeline finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or
    not (where it did not, the block index has not moved since the point before), for any proof data whose array
    is the entry contents and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether the pipeline fetched it there or
    not (where it did not, the block index has not moved since the point before), for any proof data whose array
    is the entry contents and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether the pipeline fetched it there or
    not (where it did not, the block index has not moved since the point before), for any proof data whose array
    is the entry contents and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether the pipeline fetched it there or
    not (where it did not, the block index has not moved since the point before), for any proof data whose array
    is the entry contents and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- k = 0: the accumulator is reset. -/
abbrev condA (i : grid1.Coords) : Prop := (Scalar.cmpi .ne (Scalar.extui (Scalar.cmpi .eq (BitVec.ofNat 32 (i 2).val) 0#32)) 0#32) = 1#1
/-- It holds at the points ≡ 0 (mod 11). -/
theorem hcondA : ∀ t : Fin cfg1.N, condA (grid1.coords t) ↔ t.val % 11 = 0 :=
  (by decide +kernel : ∀ t : Fin grid1.N, condA (grid1.coords t) ↔ t.val % 11 = 0)

/-- k = 10: the accumulator is stored into the output block. -/
abbrev condC (i : grid1.Coords) : Prop := k1_cond2 i = 1#1
/-- It holds at the points ≡ 10 (mod 11). -/
theorem hcondC : ∀ t : Fin cfg1.N, condC (grid1.coords t) ↔ t.val % 11 = 10 :=
  (by decide +kernel : ∀ t : Fin grid1.N, condC (grid1.coords t) ↔ t.val % 11 = 10)

/-! ## Where the windows are idle -/

/-- The four inputs are never idle. -/
theorem liveAt0 : ∀ t : Fin cfg1.N, cfg1.idle 0 (grid1.coords t) = false := by decide +kernel
theorem liveAt1 : ∀ t : Fin cfg1.N, cfg1.idle 1 (grid1.coords t) = false := by decide +kernel
theorem liveAt2 : ∀ t : Fin cfg1.N, cfg1.idle 2 (grid1.coords t) = false := by decide +kernel
theorem liveAt3 : ∀ t : Fin cfg1.N, cfg1.idle 3 (grid1.coords t) = false := by decide +kernel
/-- Where k = 0 the output window is idle (nothing is stored into it) and not written back. -/
theorem idleAt4_A : ∀ t : Fin cfg1.N, condA (grid1.coords t) → ¬condC (grid1.coords t) → cfg1.idle 4 (grid1.coords t) = true := by decide +kernel
theorem noFlush4_A : ∀ t : Fin cfg1.N, condA (grid1.coords t) → ¬condC (grid1.coords t) → (cfg1.win 4).flush t = false := by decide +kernel
/-- Where 0 < k < 10 likewise. -/
theorem idleAt4_B : ∀ t : Fin cfg1.N, ¬condA (grid1.coords t) → ¬condC (grid1.coords t) → cfg1.idle 4 (grid1.coords t) = true := by decide +kernel
theorem noFlush4_B : ∀ t : Fin cfg1.N, ¬condA (grid1.coords t) → ¬condC (grid1.coords t) → (cfg1.win 4).flush t = false := by decide +kernel
/-- Where k = 10 the output window is live: the body stores its whole block. -/
theorem liveAt4_C : ∀ t : Fin cfg1.N, ¬condA (grid1.coords t) → condC (grid1.coords t) → cfg1.idle 4 (grid1.coords t) = false := by decide +kernel

/-! ## The memrefs the body is called with -/

/-- One staging buffer of the output window, through which its contents are stated (the choice does not matter). -/
abbrev VO4 : View sig .tc .vmem S2048x1024 .f32 := (Memref.whole cc1_stg4_0 : Memref sig .tc .vmem S2048x1024 .f32).view
/-- Each window's current staging memref at point `t`, spelled as the pipeline passes it, and its wholeness. -/
abbrev ms0 (t : Fin cfg1.N) : Memref sig .tc .vmem S2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S88x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S88x128 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x1024 .f32 := win1_4.stage (cfg1.slots t 4)
abbrev hs4 (t : Fin cfg1.N) : (ms4 t).IsWhole := hstage1_4 ((cfg1.slots t 4).cast nbuf1_4)
/-- The accumulator: a whole scoped buffer of the pipeline's own, passed beside the windows and carried between points. -/
abbrev scM : Memref sig .tc .vmem S2048x1024 .f32 := Memref.whole cc1_scratch0
/-- The same as a view: what the accumulator holds is stated through it. -/
abbrev VS : View sig .tc .vmem S2048x1024 .f32 := scM.view

/-! ## The invariant -/

/-- The core's other scoped buffers — the first pipeline's sixteen staging buffers and its two accumulators —,
    each whole at some contents: the second pipeline never touches them. -/
def Others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The pipeline's invariant with the accumulator in state `S`: the other scoped buffers at anything, the
    accumulator, the generator register at some state. -/
def PhiWith (c : Dev nD) (S : sProp 𝕄) : sProp 𝕄 := iprop((Others (F := F) c ∗ S) ∗ (∃ r, prngReg c r))

/-- What the launch hands the pipeline is the invariant with the accumulator at anything: the scoped rest
    enumerated, the accumulator (its last buffer) set apart as an owned memref. -/
theorem PhiA_split (c : Dev nD) :
    (Pipeline.ΦA spec1 c : sProp 𝕄) ⊢ PhiWith (F := F) c iprop(∃ d, owns (c : Thread nD τ) scM fullShare d) := by
  unfold Pipeline.ΦA PhiWith Others; rw [scopedRest1_eq]
  simp only [scM, owns_whole]
  iintro ⟨⟨H1, H2, H3, H4, H5, H6, H7, H8, H9, H10, H11, H12, H13, H14, H15, H16, H17, H18, HS⟩, Hg⟩
  isplitr [Hg]
  swap; · iexact Hg
  isplitr [HS]
  swap; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- And back. -/
theorem PhiA_join (c : Dev nD) :
    PhiWith (F := F) c iprop(∃ d, owns (c : Thread nD τ) scM fullShare d) ⊢ (Pipeline.ΦA spec1 c : sProp 𝕄) := by
  unfold Pipeline.ΦA PhiWith Others; rw [scopedRest1_eq]
  simp only [scM, owns_whole]
  iintro ⟨⟨⟨H1, H2, H3, H4, H5, H6, H7, H8, H9, H10, H11, H12, H13, H14, H15, H16, H17, H18⟩, HS⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HS

end Cert.KernelIdeal.R1

end
-- ==== Proof.KernelIdeal.R1.RunA.lean ====
/- The second pipeline's body where k = 0 (the first step of a reduction): the accumulator is zeroed, one
   dequantised matrix product is added into it, and nothing is stored into the output block. -/
import proofs.«413103_j549755813920_3_alg».proof.Proof.KernelIdeal.R1.Shared

-- membership in a rectangle of production extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE k = 0. On whole staging memrefs — the four inputs' at their blocks, the output's at contents handed back
    untouched (nothing is stored into it), the accumulator at anything — the body runs to the continuation
    holding the inputs' as they were and the accumulator with its pieces written: the reset, then the update read
    back over it. The pieces are the witness the run finds. -/
noncomputable def runA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) :
    Σ' (L4 : List (View.Piece (Elt F) S2048x1024 .f32)), { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.R1

end
-- ==== Proof.KernelIdeal.R1.RunB.lean ====
/- The second pipeline's body where 0 < k < 10 (a middle step of a reduction): one dequantised matrix product is
   added into the accumulator carried from the point before, and nothing is stored into the output block. -/
import proofs.«413103_j549755813920_3_alg».proof.Proof.KernelIdeal.R1.RunA

-- membership in a rectangle of production extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE 0 < k < 10. On whole staging memrefs — the four inputs' at their blocks, the output's at contents handed
    back untouched (nothing is stored into it), the accumulator at what the point before left — the body runs to
    the continuation holding the inputs' as they were and the accumulator with its one piece written: the update
    over what it held. The piece is the witness the run finds. -/
noncomputable def runB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) :
    Σ' (L4 : List (View.Piece (Elt F) S2048x1024 .f32)), { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.R1

end
-- ==== Proof.KernelIdeal.R1.RunC.lean ====
/- The second pipeline's body where k = 10 (the last step of a reduction): one dequantised matrix product is added
   into the accumulator carried from the point before, and the accumulator is stored into the output block. -/
import proofs.«413103_j549755813920_3_alg».proof.Proof.KernelIdeal.R1.RunB

-- membership in a rectangle of production extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

set_option maxHeartbeats 1000000 in
/-- CASE k = 10. On whole staging memrefs — the four inputs' at their blocks, the output's at anything, the
    accumulator at what the point before left — the body runs to the continuation holding the inputs' as they
    were, the accumulator with its one piece written (the update over what it held) and the output's buffer with
    its one piece written (the accumulator read back). The pieces are the witness the run finds. -/
noncomputable def runC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.R1

end
-- ==== Proof.KernelIdeal.R1.Body.lean ====
/- The second pipeline's half of the certificate: what the accumulator holds after each of the 88 points (a
   reduction over k restarted at every output block, each step the activations block times the dequantised weights
   block added in), the pipeline's proof data, its body obligation from the three cases' runs, and the invariant's
   two ends. Where k = 10 the output block is the accumulator, i.e. the whole reduction of its eleven steps. -/
import proofs.«413103_j549755813920_3_alg».proof.Proof.KernelIdeal.R1.RunC
import Idealize.ShloMosaic.Lib.Pipeline.Value

-- membership in a rectangle of production extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second pipeline is entered
variable (V : (c : Dev nD) → (b : Ref sig .tc) → Buf (Elt F) ((c : Thread nD τ).loc b))

/-! ## The pieces cover -/

/-- In each case the accumulator's pieces tile it (every store is of the whole buffer), so they cover it; -/
theorem scoverA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) (y : S2048x1024.Idx) :
    ∃ pc ∈ (runA c i arg3 harg3 arg4 harg4 arg5 harg5 arg6 harg6 arg7 harg7 arg8 harg8 hc0 hc1 x0 x1 x2 x3).2.1, y ∈ pc.1.set :=
  View.cover_of_tiledL (runA c i arg3 harg3 arg4 harg4 arg5 harg5 arg6 harg6 arg7 harg7 arg8 harg8 hc0 hc1 x0 x1 x2 x3).2.1 S2048x1024.size (by sl_kernel_rfl) y
theorem scoverB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runB c i arg3 harg3 arg4 harg4 arg5 harg5 arg6 harg6 arg7 harg7 arg8 harg8 hc0 hc1 x0 x1 x2 x3 xs).2.1, y ∈ pc.1.set :=
  View.cover_of_tiledL (runB c i arg3 harg3 arg4 harg4 arg5 harg5 arg6 harg6 arg7 harg7 arg8 harg8 hc0 hc1 x0 x1 x2 x3 xs).2.1 S2048x1024.size (by sl_kernel_rfl) y
theorem scoverC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runC c i arg3 harg3 arg4 harg4 arg5 harg5 arg6 harg6 arg7 harg7 arg8 harg8 hc0 hc1 x0 x1 x2 x3 xs).2.1, y ∈ pc.1.set :=
  View.cover_of_tiledL (runC c i arg3 harg3 arg4 harg4 arg5 harg5 arg6 harg6 arg7 harg7 arg8 harg8 hc0 hc1 x0 x1 x2 x3 xs).2.1 S2048x1024.size (by sl_kernel_rfl) y
/-- and where k = 10 the output block's one piece covers it. -/
theorem coverC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) (y : S2048x1024.Idx) :
    ∃ pc ∈ (runC c i arg3 harg3 arg4 harg4 arg5 harg5 arg6 harg6 arg7 harg7 arg8 harg8 hc0 hc1 x0 x1 x2 x3 xs).1, y ∈ pc.1.set :=
  View.cover_of_tiledL (runC c i arg3 harg3 arg4 harg4 arg5 harg5 arg6 harg6 arg7 harg7 arg8 harg8 hc0 hc1 x0 x1 x2 x3 xs).1 S2048x1024.size (by sl_kernel_rfl) y

/-! ## One step of the reduction -/

/-- The accumulator after one point, from the four input blocks, the point and the accumulator before: the
    activations block times the dequantised weights block — the 4-bit weights unpacked, less the unpacked zero
    points of the point's eight quantisation groups (rows 8 k … 8 k + 7 of the zero-point block), times those
    groups' scales (the same rows of the scale block), rounded to bf16 — added to the accumulator. -/
def step (x0 : Vec F S2048x1024 .bf16) (x1 : Vec F S1024x128 .i32) (x2 : Vec F S88x1024 .f32) (x3 : Vec F S88x128 .i32)
    (i : grid1.Coords) (acc : Vec F S2048x1024 .f32) : Vec F S2048x1024 .f32 :=
  k1_pay1 (k1_pay3 x0) (k1_pay5 x1)
    (k1_pay6 (View.ld x3 (Rect.unit (s := S88x128) (k1_off1 i) S8x128.size (k1_off1_inb i))))
    (k1_pay7 (View.ld x2 (Rect.unit (s := S88x1024) (k1_off2 i) S8x1024.size (k1_off2_inb i)))) acc

theorem zero2 : (![0, 0] : Fin 2 → ℕ) = fun _ => 0 := by
  funext a; fin_cases a <;> rfl

/-! ## What each case's pieces read back as -/

/-- k = 0: the reset then the update read back over it — one step from the zero accumulator. -/
theorem canonA (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : condA i) (hc1 : ¬condC i)
    (x0 : Vec F S2048x1024 .bf16) (x1 : Vec F S1024x128 .i32) (x2 : Vec F S88x1024 .f32) (x3 : Vec F S88x128 .i32) :
    View.canon (runA c i arg3 harg3 arg4 harg4 arg5 harg5 arg6 harg6 arg7 harg7 arg8 harg8 hc0 hc1 x0 x1 x2 x3).2.1 = step x0 x1 x2 x3 i (k1_pay2 (F := F)) := by
  unfold runA; dsimp only; sl_unfold_run_names
  rw [View.canon_cons_unit_zero (S := S2048x1024) zero2, View.readCov_unit_zero (S := S2048x1024) _ zero2]
  simp only [View.readAt_eq_ld, Memref.IsWhole.read_unread, View.ld_unit_zero (S := S2048x1024) zero2, View.ld_unit_zero (S := S1024x128) zero2]
  rfl

/-- 0 < k < 10: the update over what the accumulator held — one step from it. -/
theorem canonB (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : ¬condC i)
    (x0 : Vec F S2048x1024 .bf16) (x1 : Vec F S1024x128 .i32) (x2 : Vec F S88x1024 .f32) (x3 : Vec F S88x128 .i32) (xs : Vec F S2048x1024 .f32) :
    View.canon (runB c i arg3 harg3 arg4 harg4 arg5 harg5 arg6 harg6 arg7 harg7 arg8 harg8 hc0 hc1 x0 x1 x2 x3 xs).2.1 = step x0 x1 x2 x3 i xs := by
  unfold runB; dsimp only; sl_unfold_run_names
  rw [View.canon_unit_zero (S := S2048x1024) zero2]
  simp only [View.readAt_eq_ld, Memref.IsWhole.read_unread, View.ld_unit_zero (S := S2048x1024) zero2, View.ld_unit_zero (S := S1024x128) zero2]
  rfl

/-- k = 10: the accumulator likewise, -/
theorem canonC (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    View.canon (runC c i arg3 harg3 arg4 harg4 arg5 harg5 arg6 harg6 arg7 harg7 arg8 harg8 hc0 hc1 x0 x1 x2 x3 xs).2.1 = step x0 x1 x2 x3 i xs := by
  unfold runC; dsimp only; sl_unfold_run_names
  rw [View.canon_unit_zero (S := S2048x1024) zero2]
  simp only [View.readAt_eq_ld, Memref.IsWhole.read_unread, View.ld_unit_zero (S := S2048x1024) zero2, View.ld_unit_zero (S := S1024x128) zero2]
  rfl

/-- and the output block holds the accumulator read back after its update: the same. -/
theorem canonC4 (c : Dev nD) (i : grid1.Coords) (arg3 : Memref sig .tc .vmem S2048x1024 .bf16) (harg3 : arg3.IsWhole) (arg4 : Memref sig .tc .vmem S1024x128 .i32) (harg4 : arg4.IsWhole) (arg5 : Memref sig .tc .vmem S88x1024 .f32) (harg5 : arg5.IsWhole) (arg6 : Memref sig .tc .vmem S88x128 .i32) (harg6 : arg6.IsWhole) (arg7 : Memref sig .tc .vmem S2048x1024 .f32) (harg7 : arg7.IsWhole) (arg8 : Memref sig .tc .vmem S2048x1024 .f32) (harg8 : arg8.IsWhole) (hc0 : ¬condA i) (hc1 : condC i)
    (x0 : Vec F S2048x1024 .bf16) (x1 : Vec F S1024x128 .i32) (x2 : Vec F S88x1024 .f32) (x3 : Vec F S88x128 .i32) (xs : Vec F S2048x1024 .f32) :
    View.canon (runC c i arg3 harg3 arg4 harg4 arg5 harg5 arg6 harg6 arg7 harg7 arg8 harg8 hc0 hc1 x0 x1 x2 x3 xs).1 = step x0 x1 x2 x3 i xs := by
  unfold runC; dsimp only; sl_unfold_run_names
  rw [View.canon_unit_zero (S := S2048x1024) zero2, View.readCov_unit_zero (S := S2048x1024) _ zero2]
  simp only [View.readAt_eq_ld, Memref.IsWhole.read_unread, View.ld_unit_zero (S := S2048x1024) zero2, View.ld_unit_zero (S := S1024x128) zero2]
  rfl

/-! ## The accumulator after each point -/

/-- THE ACCUMULATION. The accumulator after the body at position `n`: where k = 0 (the positions ≡ 0 mod 11) one
    step from the zero accumulator, elsewhere one step from what position `n - 1` left — a reduction over k
    restarted at every output block. -/
def accAt (c : Dev nD) : (n : ℕ) → n < cfg1.N → Vec F S2048x1024 .f32
  | 0, hn => step (iblk V c 0 ⟨0, hn⟩) (iblk V c 1 ⟨0, hn⟩) (iblk V c 2 ⟨0, hn⟩) (iblk V c 3 ⟨0, hn⟩) (grid1.coords ⟨0, hn⟩) (k1_pay2 (F := F))
  | n + 1, hn =>
    if (n + 1) % 11 = 0 then
      step (iblk V c 0 ⟨n + 1, hn⟩) (iblk V c 1 ⟨n + 1, hn⟩) (iblk V c 2 ⟨n + 1, hn⟩) (iblk V c 3 ⟨n + 1, hn⟩) (grid1.coords ⟨n + 1, hn⟩) (k1_pay2 (F := F))
    else
      step (iblk V c 0 ⟨n + 1, hn⟩) (iblk V c 1 ⟨n + 1, hn⟩) (iblk V c 2 ⟨n + 1, hn⟩) (iblk V c 3 ⟨n + 1, hn⟩) (grid1.coords ⟨n + 1, hn⟩) (accAt c n (Nat.lt_of_succ_lt hn))

/-- At the first point of a reduction: one step from zero. -/
theorem accAt_first (c : Dev nD) (t : Fin cfg1.N) (h : t.val % 11 = 0) :
    accAt V c t.val t.isLt = step (iblk V c 0 t) (iblk V c 1 t) (iblk V c 2 t) (iblk V c 3 t) (grid1.coords t) (k1_pay2 (F := F)) := by
  obtain ⟨n, hn⟩ := t
  cases n with
  | zero => exact rfl
  | succ n => exact (if_pos h).trans rfl

/-- At a later point: one step from what the point before left. -/
theorem accAt_next (c : Dev nD) (t : Fin cfg1.N) (h : ¬ t.val % 11 = 0) :
    accAt V c t.val t.isLt = step (iblk V c 0 t) (iblk V c 1 t) (iblk V c 2 t) (iblk V c 3 t) (grid1.coords t)
      (accAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The invariant point by point -/

/-- Before position `n`: before the first point the accumulator at anything; afterwards at what the point before left. -/
def PhiS (c : Dev nD) : (n : ℕ) → n ≤ cfg1.N → sProp 𝕄
  | 0, _ => PhiWith (F := F) c iprop(∃ d, owns (c : Thread nD τ) scM fullShare d)
  | n + 1, hn => PhiWith (F := F) c (owns (c : Thread nD τ) scM fullShare (accAt V c n hn))

theorem PhiS_zero (c : Dev nD) (n : ℕ) (h : n ≤ cfg1.N) (hz : n = 0) :
    PhiS V c n h = PhiWith (F := F) c iprop(∃ d, owns (c : Thread nD τ) scM fullShare d) := by
  subst hz; rfl

theorem PhiS_succ (c : Dev nD) (n : ℕ) (hn : n < cfg1.N) :
    PhiS V c (n + 1) hn = PhiWith (F := F) c (owns (c : Thread nD τ) scM fullShare (accAt V c n hn)) := rfl

theorem PhiS_pos (c : Dev nD) (n : ℕ) (h : n ≤ cfg1.N) (hz : n ≠ 0) :
    PhiS V c n h = PhiWith (F := F) c (owns (c : Thread nD τ) scM fullShare (accAt V c (n - 1) (by omega))) := by
  cases n with
  | zero => exact absurd rfl hz
  | succ n => rfl

/-! ## The pipeline's proof data -/

/-- The proof data of the second pipeline on core `c`: the arrays as the pipeline finds them; after the body at
    point `t` each input's buffer at its block and the output's at the accumulator (consulted only where k = 10,
    where the block is written back); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => accAt V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = accAt V c t.val t.isLt := by dsimp only [dat]

/-- Where the output block is written back (k = 10) it holds the accumulator. -/
theorem after_out (c : Dev nD) (t : Fin cfg1.N) (h : t.val % 11 = 10) : (dat V c).after 4 t = accAt V c t.val t.isLt :=
  after4 V c t

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d

/-! ## The body obligation, at a generic point -/

/-- What the body is called with at point `t` (the windows one by one), -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms say which case the point is in;
    the invariant hands the body the accumulator at what the point before left (at anything before the first point,
    and where k = 0 the body does not read it) and takes it back one step further; where k < 10 the output's buffer
    is handed back as found, where k = 10 it holds the accumulator; the other scoped buffers, the generator register
    and the core's debts pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt0 t], after0]
  rw [show (dat V c).leavesExact 1 t = owns (c : Thread nD τ) (ms1 t) fullShare ((dat V c).after 1 t) from by
    unfold Dat.leavesExact; rw [liveAt1 t], after1]
  rw [show (dat V c).leavesExact 2 t = owns (c : Thread nD τ) (ms2 t) fullShare ((dat V c).after 2 t) from by
    unfold Dat.leavesExact; rw [liveAt2 t], after2]
  rw [show (dat V c).leavesExact 3 t = owns (c : Thread nD τ) (ms3 t) fullShare ((dat V c).after 3 t) from by
    unfold Dat.leavesExact; rw [liveAt3 t], after3]
  have hN : t.val < 88 := lt_of_lt_of_eq t.isLt (show cfg1.N = 88 from N_1)
  by_cases h0 : t.val % 11 = 0
  · have hA : condA (grid1.coords t) := (hcondA t).mpr h0
    have hC : ¬condC (grid1.coords t) := fun h => by have := (hcondC t).mp h; omega
    rw [Dat.leavesExact_idle (dat V c) 4 t (idleAt4_A t hA hC) (noFlush4_A t hA hC)]
    rw [accAt_first V c t h0]
    by_cases hz : t.val = 0
    · rw [PhiS_castSucc V c t, PhiS_zero V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))).trans (canonA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))).trans (canonA c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t))
        iexact Hg
      isplitl [Ho]; · iexact Ho
      isplitl [H0]; · iexact H0
      isplitl [H1]; · iexact H1
      isplitl [H2]; · iexact H2
      isplitl [H3]; · iexact H3
      iexists _; iexact H4
  · have hA : ¬condA (grid1.coords t) := fun h => h0 ((hcondA t).mp h)
    have hz : t.val ≠ 0 := fun e => h0 (by rw [e])
    by_cases h1 : t.val % 11 = 10
    · have hC : condC (grid1.coords t) := (hcondC t).mpr h1
      rw [show (dat V c).leavesExact 4 t = owns (c : Thread nD τ) (ms4 t) fullShare ((dat V c).after 4 t) from by
        unfold Dat.leavesExact; rw [liveAt4_C t hA hC], after4]
      rw [accAt_next V c t h0]
      rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HO HS Hg]
      · isplitl [HO HS]
        · isplitl [HO]; · iexact HO
          unfold owns; iexists _; isplitr
          swap; · iexact HS
          ipureintro
          exact (View.read_writes_eq_canon _ _ _ (scoverC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (coverC c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonC4 c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
    · have hC : ¬condC (grid1.coords t) := fun h => h1 ((hcondC t).mp h)
      rw [Dat.leavesExact_idle (dat V c) 4 t (idleAt4_B t hA hC) (noFlush4_B t hA hC)]
      rw [accAt_next V c t h0]
      rw [PhiS_castSucc V c t, PhiS_pos V c _ _ hz]; unfold PhiWith
      iintro ⟨⟨⟨HO, HS⟩, Hg⟩, Ho, ⟨%d0, H0⟩, ⟨%d1, H1⟩, ⟨%d2, H2⟩, ⟨%d3, H3⟩, ⟨%d4, H4⟩⟩
      iapply ((runB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HO HS Hg]
      · isplitl [HO HS]
        · isplitl [HO]; · iexact HO
          unfold owns; iexists _; isplitr
          swap; · iexact HS
          ipureintro
          exact (View.read_writes_eq_canon _ _ _ (scoverB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))).trans (canonB c (grid1.coords t) (ms0 t) (hs0 t) (ms1 t) (hs1 t) (ms2 t) (hs2 t) (ms3 t) (hs3 t) (ms4 t) (hs4 t) scM (Memref.isWhole_whole cc1_scratch0) hA hC (iblk V c 0 t) (iblk V c 1 t) (iblk V c 2 t) (iblk V c 3 t) (accAt V c (t.val - 1) (Nat.lt_of_le_of_lt (Nat.sub_le _ _) t.isLt)))
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-! ## Into and out of the pipeline -/

/-- What the launch hands the pipeline is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  exact PhiA_split c

/-- The accumulator's named contents may be forgotten. -/
theorem PhiWith_forget (c : Dev nD) (X : Vec F S2048x1024 .f32) :
    PhiWith (F := F) c (owns (c : Thread nD τ) scM fullShare X) ⊢ PhiWith (F := F) c iprop(∃ d, owns (c : Thread nD τ) scM fullShare d) := by
  unfold PhiWith
  iintro ⟨⟨HO, HS⟩, Hg⟩
  isplitl [HO HS]
  · isplitl [HO]; · iexact HO
    iexists _; iexact HS
  iexact Hg

/-- After any point the invariant gives back what the launch handed in: what the accumulator holds is forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht]
  exact Idealize.SL.BI.Entails.trans (PhiWith_forget c _) (PhiA_join c)

/-- The same after the last point. -/
theorem hout (c : Dev nD) : (dat V c).Φ (Fin.last cfg1.N) ⊢ (Pipeline.ΦA spec1 c : sProp 𝕄) :=
  Phi_out V c _ (by rw [Fin.val_last]; have : cfg1.N = 88 := N_1; omega)

end Cert.KernelIdeal.R1

end
-- ==== Proof.KernelIdeal.Frame.lean ====
/-
  The program's frame: the launch of its two kernel regions at each region's proof data.

  The first region is entered at the launch contents pushed through the host operations before it, the second at those
  contents with the first region's output array at what its write-backs leave, pushed through the host operations
  between the regions. Each region's proof data has its arrays at that entry valuation, holds them whole, owes nothing,
  and its invariant begins and ends at the scoped rest with the generator register; so every weakly fair execution
  terminates with every unscoped buffer at the last valuation, in which no argument has moved.
-/
import proofs.«413103_j549755813920_3_alg».proof.Proof.KernelIdeal.Run
import proofs.«413103_j549755813920_3_alg».proof.Proof.KernelIdeal.R0.Body
import proofs.«413103_j549755813920_3_alg».proof.Proof.KernelIdeal.R1.Body

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The first region's proof data, at its entry contents. -/
abbrev D0 (c : Dev nD) : Dat τ (Elt F) Unit ℕ (UR sig nD τ) ℕ cfg0 c := R0.dat (Run.VA m) c

/-- The second region's proof data, at its entry contents: the first region's output array at what it left. -/
abbrev D1 (c : Dev nD) : Dat τ (Elt F) Unit ℕ (UR sig nD τ) ℕ cfg1 c := R1.dat (Run.VB m (D0 m)) c

theorem half0 : Run.Half0 m (D0 m) where
  hA c w := R0.A_eq (Run.VA m) c w
  hq _ _ := rfl
  howed _ _ := rfl
  hrec _ _ := rfl
  hb c := R0.body_obligation (Run.VA m) c
  hin c := R0.hin (Run.VA m) c
  hout c := R0.hout (Run.VA m) c

theorem half1 : Run.Half1 m (D0 m) (D1 m) where
  hA c w := R1.A_eq (Run.VB m (D0 m)) c w
  hq _ _ := rfl
  howed _ _ := rfl
  hrec _ _ := rfl
  hb c := R1.body_obligation (Run.VB m (D0 m)) c
  hin c := R1.hin (Run.VB m (D0 m)) c
  hout c := R1.hout (Run.VB m (D0 m)) c

/-- What the regions leave. -/
abbrev outs : Outs (F := F) := Run.outs m (D0 m) (D1 m)

/-- Every weakly fair execution terminates with every unscoped buffer at the last valuation. -/
theorem run : θ_run defs (onTc (τ := τ) (main (F := F))) ⟨m, fun _ => 0, ρ⟩ (fun r => ∀ c : Dev nD,
    ∀ b ∈ Pipeline.ucRefs τ sig, r.2.mem ((c : Thread nD τ).1, b) = V21 m (outs m) c b) :=
  Run.run_all m ρ (D0 m) (D1 m) (half0 m) (half1 m)

/-- An unscoped reference of the TensorCore is among those the last valuation names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (V21_main_arg0 m (outs m) c),
      (h c _ (mem_uc main_arg1 (by decide))).trans (V21_main_arg1 m (outs m) c),
      (h c _ (mem_uc main_arg2 (by decide))).trans (V21_main_arg2 m (outs m) c),
      (h c _ (mem_uc main_arg3 (by decide))).trans (V21_main_arg3 m (outs m) c),
      (h c _ (mem_uc main_arg4 (by decide))).trans (V21_main_arg4 m (outs m) c),
      (h c _ (mem_uc main_arg5 (by decide))).trans (V21_main_arg5 m (outs m) c),
      (h c _ (mem_uc main_arg6 (by decide))).trans (V21_main_arg6 m (outs m) c),
      (h c _ (mem_uc main_arg7 (by decide))).trans (V21_main_arg7 m (outs m) c),
      (h c _ (mem_uc main_arg8 (by decide))).trans (V21_main_arg8 m (outs m) c),
      (h c _ (mem_uc main_arg9 (by decide))).trans (V21_main_arg9 m (outs m) c)⟩) (run m ρ)

/-- The same with the result buffer named: it ends at the last valuation's contents. -/
theorem run_result : θ_run defs (onTc (τ := τ) (main (F := F))) ⟨m, fun _ => 0, ρ⟩ (fun r => ∀ c : Dev nD,
      r.2.mem ((c.tc : Thread nD τ).loc main_v13) = V21 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v13 (by decide)), (h c _ (mem_uc main_arg0 (by decide))).trans (V21_main_arg0 m (outs m) c),
      (h c _ (mem_uc main_arg1 (by decide))).trans (V21_main_arg1 m (outs m) c),
      (h c _ (mem_uc main_arg2 (by decide))).trans (V21_main_arg2 m (outs m) c),
      (h c _ (mem_uc main_arg3 (by decide))).trans (V21_main_arg3 m (outs m) c),
      (h c _ (mem_uc main_arg4 (by decide))).trans (V21_main_arg4 m (outs m) c),
      (h c _ (mem_uc main_arg5 (by decide))).trans (V21_main_arg5 m (outs m) c),
      (h c _ (mem_uc main_arg6 (by decide))).trans (V21_main_arg6 m (outs m) c),
      (h c _ (mem_uc main_arg7 (by decide))).trans (V21_main_arg7 m (outs m) c),
      (h c _ (mem_uc main_arg8 (by decide))).trans (V21_main_arg8 m (outs m) c),
      (h c _ (mem_uc main_arg9 (by decide))).trans (V21_main_arg9 m (outs m) c)⟩) (run m ρ)

end Cert.KernelIdeal.Fr

end
-- ==== Proof.Spec.lean ====
/-
  The function both programs compute, stated once over natural-number coordinates.

  A packed word holds eight 4-bit values; nibble `s` of `w` is bits `4s … 4s+3`, read as an integer in `[0, 15]`.
  A quantised matrix with `K` rows and `N` columns is given by packed words `qw k (j / 8)`, one zero-point word
  `qz (k / 128) (j / 8)` and one scale `sc (k / 128) j` per group of 128 consecutive rows; its entry at `(k, j)` is
  `(nib qw − nib qz) · sc`. With `Wg`, `Wu` (4096 × 11008) and `Wd` (11008 × 4096) dequantised so, and `x` read as a
  4096 × 4096 matrix (row `t = 2048·b + r` of the 2 × 2048 × 4096 input), the result is

      out t o = Σ_{j < 11008} (silu (Σ_{k < 4096} x t k · Wg k j) · (Σ_{k < 4096} x t k · Wu k j)) · Wd j o,
      silu g = g · (1 / (1 + e^(−g))).

  Sums are over `Finset.range` in the extended reals, an additive commutative monoid: regrouping a sum into
  consecutive blocks and dropping a tail of zero terms need no finiteness (`sum_range_succ_block`, `sum_range_pad`).
-/
import Idealize.ShloMosaic.Lib.ValueIdx

noncomputable section

open scoped BigOperators

namespace Cert.Spec

open Idealize.ShloMosaic Idealize.ShloMosaic.ValueIdx

/-- Nibble `s` of the packed word `w`: arithmetic shift right by `4 s`, the low four bits, as an integer. -/
def nib (w : BitVec 32) (s : ℕ) : EReal := ((((w.sshiftRight (4 * s)) &&& 15#32).toInt : ℝ) : EReal)

/-- The dequantised entry `(k, j)`: packed value minus the group's zero point, times the group's scale. -/
def deq (qw : ℕ → ℕ → BitVec 32) (sc : ℕ → ℕ → EReal) (qz : ℕ → ℕ → BitVec 32) (k j : ℕ) : EReal :=
  (nib (qw k (j / 8)) (j % 8) - nib (qz (k / 128) (j / 8)) (j % 8)) * sc (k / 128) j

/-- `silu g = g · logistic g`. -/
def silu (g : EReal) : EReal := g * Ideal.logistic g

/-- The gate projection `Σ_{k < 4096} x t k · w k j`. -/
def proj (x w : ℕ → ℕ → EReal) (t j : ℕ) : EReal := ∑ k ∈ Finset.range 4096, x t k * w k j

/-- The hidden activation at `(t, j)`. -/
def hid (x wg wu : ℕ → ℕ → EReal) (t j : ℕ) : EReal := silu (proj x wg t j) * proj x wu t j

/-- The output at `(t, o)`. -/
def out (x wg wu wd : ℕ → ℕ → EReal) (t o : ℕ) : EReal := ∑ j ∈ Finset.range 11008, hid x wg wu t j * wd j o

/-- A rank-2 array read at natural coordinates (`d` outside its extents). -/
def at2 {α : Type} (d : α) {R C : ℕ} (a : (⟨2, ![R, C]⟩ : Shape).Idx → α) (r c : ℕ) : α :=
  if h : r < R ∧ c < C then a (ix2 ⟨r, h.1⟩ ⟨c, h.2⟩) else d

theorem at2_ix {α : Type} (d : α) {R C : ℕ} (a : (⟨2, ![R, C]⟩ : Shape).Idx → α) (r : Fin R) (c : Fin C) :
    at2 d a r.val c.val = a (ix2 r c) := by
  unfold at2; rw [dif_pos ⟨r.isLt, c.isLt⟩]

theorem at2_of_lt {α : Type} (d : α) {R C : ℕ} (a : (⟨2, ![R, C]⟩ : Shape).Idx → α) {r c : ℕ} (hr : r < R) (hc : c < C) :
    at2 d a r c = a (ix2 ⟨r, hr⟩ ⟨c, hc⟩) := by
  unfold at2; rw [dif_pos ⟨hr, hc⟩]

/-- The input `x : [2, 2048, 4096]` read as the matrix of its 4096 rows `t = 2048·b + r`. -/
def xrow (a : (⟨3, ![2, 2048, 4096]⟩ : Shape).Idx → EReal) (t k : ℕ) : EReal :=
  if h : t < 4096 ∧ k < 4096 then
    a (ix3 ⟨t / 2048, by omega⟩ ⟨t % 2048, Nat.mod_lt _ (by norm_num)⟩ ⟨k, h.2⟩) else 0

theorem xrow_ix (a : (⟨3, ![2, 2048, 4096]⟩ : Shape).Idx → EReal) (b : Fin 2) (r : Fin 2048) (k : Fin 4096) :
    xrow a (2048 * b.val + r.val) k.val = a (ix3 b r k) := by
  have hb := b.isLt; have hr := r.isLt
  unfold xrow
  rw [dif_pos ⟨by omega, k.isLt⟩]
  congr 1
  funext d
  match d with
  | ⟨0, _⟩ => exact Fin.ext (by show (2048 * b.val + r.val) / 2048 = b.val; omega)
  | ⟨1, _⟩ => exact Fin.ext (by show (2048 * b.val + r.val) % 2048 = r.val; omega)
  | ⟨2, _⟩ => rfl

/-- THE SPECIFICATION: the result array as one function of the ten argument arrays. -/
def G (a0 : (⟨3, ![2, 2048, 4096]⟩ : Shape).Idx → EReal)
    (a1 : (⟨2, ![4096, 1376]⟩ : Shape).Idx → BitVec 32) (a2 : (⟨2, ![32, 11008]⟩ : Shape).Idx → EReal) (a3 : (⟨2, ![32, 1376]⟩ : Shape).Idx → BitVec 32)
    (a4 : (⟨2, ![4096, 1376]⟩ : Shape).Idx → BitVec 32) (a5 : (⟨2, ![32, 11008]⟩ : Shape).Idx → EReal) (a6 : (⟨2, ![32, 1376]⟩ : Shape).Idx → BitVec 32)
    (a7 : (⟨2, ![11008, 512]⟩ : Shape).Idx → BitVec 32) (a8 : (⟨2, ![86, 4096]⟩ : Shape).Idx → EReal) (a9 : (⟨2, ![86, 512]⟩ : Shape).Idx → BitVec 32) :
    (⟨3, ![2, 2048, 4096]⟩ : Shape).Idx → EReal :=
  fun i => out (xrow a0) (deq (at2 0#32 a1) (at2 0 a2) (at2 0#32 a3)) (deq (at2 0#32 a4) (at2 0 a5) (at2 0#32 a6))
    (deq (at2 0#32 a7) (at2 0 a8) (at2 0#32 a9)) (2048 * (i 0).val + (i 1).val) (i 2).val

/-- One more block of `B` consecutive terms. -/
theorem sum_range_succ_block (f : ℕ → EReal) (B n : ℕ) :
    ∑ k ∈ Finset.range (B * (n + 1)), f k = ∑ k ∈ Finset.range (B * n), f k + ∑ kk ∈ Finset.range B, f (B * n + kk) := by
  rw [Nat.mul_succ, Finset.sum_range_add]

/-- A tail of zero terms contributes nothing. -/
theorem sum_range_pad (f : ℕ → EReal) (n p : ℕ) (h : ∀ j, n ≤ j → j < n + p → f j = 0) :
    ∑ j ∈ Finset.range (n + p), f j = ∑ j ∈ Finset.range n, f j := by
  rw [Finset.sum_range_add, Finset.sum_eq_zero (fun x hx => h (n + x) (Nat.le_add_right _ _)
    (by have := Finset.mem_range.mp hx; omega)), add_zero]

end Cert.Spec

end
-- ==== Proof.KernelIdeal.HostVals.lean ====
/-
  What the arrays the two kernels read hold, as functions of the arguments.

  Around its two kernels the program runs whole-array operations: the input's two leading axes are merged and the
  result narrowed to 16 bits; six arguments are padded with zeros after their last column (the packed weights, zero
  points and scales of the gate and up projections, to 1408 words and 11264 columns) before the first kernel; three
  are padded with zeros after their last row (the packed weights, scales and zero points of the down projection, to
  11264 and 88 rows) before the second; the second kernel's 4096 output rows are split back into 2 × 2048.

  A zero-padded array read at natural coordinates, with zero outside its extents, is the unpadded array read so, at
  every pair of naturals: inside the argument both hold the argument's entry, in the padding one holds the padding
  zero and the other answers the default zero, outside both answer the default. So every array a kernel reads is,
  through that reading, an argument; and the merged input is the input's row `t = 2048 b + r`.
-/
import proofs.«413103_j549755813920_3_alg».proof.Proof.Gen.KernelIdeal.Regions
import proofs.«413103_j549755813920_3_alg».proof.Proof.Spec
import Idealize.ShloMosaic.Lib.StableHlo.Run
import Idealize.ShloMosaic.Lib.KernelVsHost
import Idealize.ShloMosaic.Lib.Pipeline.Value

noncomputable section

namespace Cert.KernelIdeal.HostVals

open Idealize.ShloMosaic Idealize.ShloMosaic.TcCoe Idealize.SL.Sem Idealize.ShloMosaic.StableHlo
open Idealize.ShloMosaic.ValueIdx
open Cert.KernelIdeal Cert.KernelIdeal.Facts₀ Cert.KernelIdeal.Facts Cert.Spec

/-- A rank-2 array padded after its last row and column, read at natural coordinates with the padding value as the
    default, is the array itself read so: inside the array the padded array holds the array's entry, in the padding
    it holds the padding value, and outside both readings answer the default. -/
theorem at2_pad {α : Type} (z : α) {R C R' C' : ℕ} (hi : Fin 2 → ℕ) (x : (⟨2, ![R, C]⟩ : Shape).Idx → α)
    {u : Shape} (v : u.Idx → α)
    (h : (⟨2, ![R, C]⟩ : Shape).Pads (![0, 0] : Fin 2 → ℕ) hi (![0, 0] : Fin 2 → ℕ) (⟨2, ![R', C']⟩ : Shape))
    (hu : 0 < u.numel) (hv : v (Shape.Idx.first hu) = z) :
    at2 z (pad (⟨2, ![R', C']⟩ : Shape) (![0, 0] : Fin 2 → ℕ) hi (![0, 0] : Fin 2 → ℕ) x v h hu) = at2 z x := by
  have hR : R' = R + hi 0 := by
    have := h.2 (0 : Fin 2)
    simpa using this
  have hC : C' = C + hi 1 := by
    have := h.2 (1 : Fin 2)
    simpa using this
  funext r c
  unfold at2
  by_cases hin : r < R ∧ c < C
  · rw [dif_pos hin, dif_pos ⟨by omega, by omega⟩]
    refine pad_apply_of_inside _ _ _ x v h hu _ (ix2 ⟨r, hin.1⟩ ⟨c, hin.2⟩) ?_
    intro a
    match a with
    | ⟨0, _⟩ => show r = 0 + r * (0 + 1); omega
    | ⟨1, _⟩ => show c = 0 + c * (0 + 1); omega
  · rw [dif_neg hin]
    by_cases hin' : r < R' ∧ c < C'
    · rw [dif_pos hin']
      by_cases hr : r < R
      · have hc : ¬ c < C := fun hc => hin ⟨hr, hc⟩
        rw [pad_apply_of_not_inside _ _ _ x v h hu _ (1 : Fin 2) (by
          show ¬(0 ≤ c ∧ (c - 0) % (0 + 1) = 0 ∧ (c - 0) / (0 + 1) < C)
          intro hh; exact hc (by have := hh.2.2; simpa using this))]
        exact hv
      · rw [pad_apply_of_not_inside _ _ _ x v h hu _ (0 : Fin 2) (by
          show ¬(0 ≤ r ∧ (r - 0) % (0 + 1) = 0 ∧ (r - 0) / (0 + 1) < R)
          intro hh; exact hr (by have := hh.2.2; simpa using this))]
        exact hv
    · rw [dif_neg hin']

/-! ## Before the first kernel -/

section
variable (m : (ℓ : Loc nD τ sig) → Buf (Elt Ideal) ℓ) (c : Dev nD)

/-- The activations the first kernel reads: the input with its two leading axes merged into 4096 rows, then narrowed to
    the 16-bit format, which at the extended reals changes no value. -/
theorem v1_val : Gen.V12 m c main_v1
    = (truncf (F := Ideal) .bf16 (shapeCast S4096x4096 (m ((c.tc : Thread nD τ).loc main_arg0)) shapeCasts_S2x2048x4096_S4096x4096)
        bitsLt_bf16_f32 : FVec Ideal S4096x4096 .bf16) := by
  rw [Gen.V12_of m c main_v1 (by decide), Gen.V11_of m c main_v1 (by decide), Gen.V10_of m c main_v1 (by decide), Gen.V9_of m c main_v1 (by decide), Gen.V8_of m c main_v1 (by decide), Gen.V7_of m c main_v1 (by decide), Gen.V6_of m c main_v1 (by decide), Gen.V5_of m c main_v1 (by decide), Gen.V4_of m c main_v1 (by decide), Gen.V3_of m c main_v1 (by decide), Gen.V2_of m c main_v1 (by decide)]
  show StableHlo.after Gen.hostOps0 (Gen.V0 m c) (Proc.devRef .tc main_v1) = _
  after_results
  rfl

/-- Read at natural coordinates, those activations are the input's row `t = 2048 b + r`: entry `(t, k)` of the merged
    array and entry `(t / 2048, t % 2048, k)` of the input have the same row-major position; both readings are zero
    outside 4096 × 4096. -/
theorem v1_at (t k : ℕ) : at2 (0 : EReal) (Gen.V12 m c main_v1) t k = xrow (m ((c.tc : Thread nD τ).loc main_arg0)) t k := by
  rw [v1_val]
  unfold at2 xrow
  by_cases h : t < 4096 ∧ k < 4096
  · rw [dif_pos h, dif_pos h]
    show shapeCast S4096x4096 (m ((c.tc : Thread nD τ).loc main_arg0)) shapeCasts_S2x2048x4096_S4096x4096 (ix2 ⟨t, h.1⟩ ⟨k, h.2⟩) = _
    refine shapeCast_apply _ _ _ _ ?_
    show ((⟨3, ![2, 2048, 4096]⟩ : Shape).rowMajor _).val = ((⟨2, ![4096, 4096]⟩ : Shape).rowMajor _).val
    rw [Shape.rowMajor_val_three, Shape.rowMajor_val_two]
    show (t / 2048 * 2048 + t % 2048) * 4096 + k = t * 4096 + k
    omega
  · rw [dif_neg h, dif_neg h]

/-- The array the first kernel reads in place of argument 1: that argument padded with zeros after its last column. -/
theorem v2_val : Gen.V12 m c main_v2
    = pad S4096x1408 ![0, 0] ![0, 32] ![0, 0] (m ((c.tc : Thread nD τ).loc main_arg1)) (constantI S_ 32 0#32) pads_S4096x1376_S4096x1408_000_0320 h_S_ := by
  rw [Gen.V12_of m c main_v2 (by decide), Gen.V11_of m c main_v2 (by decide), Gen.V10_of m c main_v2 (by decide), Gen.V9_of m c main_v2 (by decide), Gen.V8_of m c main_v2 (by decide), Gen.V7_of m c main_v2 (by decide), Gen.V6_of m c main_v2 (by decide), Gen.V5_of m c main_v2 (by decide), Gen.V4_of m c main_v2 (by decide), Gen.V3_of m c main_v2 (by decide)]
  show StableHlo.after Gen.hostOps0_1 (Gen.V1 m c) (Proc.devRef .tc main_v2) = _
  after_results
  rfl

/-- Read at natural coordinates with zero outside, the padded array is the argument: the padding holds the same zero. -/
theorem v2_at : at2 0#32 (Gen.V12 m c main_v2) = at2 0#32 (m ((c.tc : Thread nD τ).loc main_arg1)) := by
  rw [v2_val]
  exact at2_pad _ _ _ _ _ _ rfl

/-- The array the first kernel reads in place of argument 2: that argument padded with zeros after its last column. -/
theorem v3_val : Gen.V12 m c main_v3
    = pad S32x11264 ![0, 0] ![0, 256] ![0, 0] (m ((c.tc : Thread nD τ).loc main_arg2)) (constant (F := Ideal) S_ .f32 0x00000000#32) pads_S32x11008_S32x11264_000_02560 h_S_ := by
  rw [Gen.V12_of m c main_v3 (by decide), Gen.V11_of m c main_v3 (by decide), Gen.V10_of m c main_v3 (by decide), Gen.V9_of m c main_v3 (by decide), Gen.V8_of m c main_v3 (by decide), Gen.V7_of m c main_v3 (by decide), Gen.V6_of m c main_v3 (by decide), Gen.V5_of m c main_v3 (by decide)]
  show StableHlo.after Gen.hostOps0_3 (Gen.V3 m c) (Proc.devRef .tc main_v3) = _
  after_results
  rfl

/-- Read at natural coordinates with zero outside, the padded array is the argument: the padding holds the same zero. -/
theorem v3_at : at2 (0 : EReal) (Gen.V12 m c main_v3) = at2 (0 : EReal) (m ((c.tc : Thread nD τ).loc main_arg2)) := by
  rw [v3_val]
  exact at2_pad _ _ _ _ _ _ Ideal.ofBits_zero_f32

/-- The array the first kernel reads in place of argument 3: that argument padded with zeros after its last column. -/
theorem v4_val : Gen.V12 m c main_v4
    = pad S32x1408 ![0, 0] ![0, 32] ![0, 0] (m ((c.tc : Thread nD τ).loc main_arg3)) (constantI S_ 32 0#32) pads_S32x1376_S32x1408_000_0320 h_S_ := by
  rw [Gen.V12_of m c main_v4 (by decide), Gen.V11_of m c main_v4 (by decide), Gen.V10_of m c main_v4 (by decide), Gen.V9_of m c main_v4 (by decide), Gen.V8_of m c main_v4 (by decide), Gen.V7_of m c main_v4 (by decide)]
  show StableHlo.after Gen.hostOps0_5 (Gen.V5 m c) (Proc.devRef .tc main_v4) = _
  after_results
  rfl

/-- Read at natural coordinates with zero outside, the padded array is the argument: the padding holds the same zero. -/
theorem v4_at : at2 0#32 (Gen.V12 m c main_v4) = at2 0#32 (m ((c.tc : Thread nD τ).loc main_arg3)) := by
  rw [v4_val]
  exact at2_pad _ _ _ _ _ _ rfl

/-- The array the first kernel reads in place of argument 4: that argument padded with zeros after its last column. -/
theorem v5_val : Gen.V12 m c main_v5
    = pad S4096x1408 ![0, 0] ![0, 32] ![0, 0] (m ((c.tc : Thread nD τ).loc main_arg4)) (constantI S_ 32 0#32) pads_S4096x1376_S4096x1408_000_0320 h_S_ := by
  rw [Gen.V12_of m c main_v5 (by decide), Gen.V11_of m c main_v5 (by decide), Gen.V10_of m c main_v5 (by decide), Gen.V9_of m c main_v5 (by decide)]
  show StableHlo.after Gen.hostOps0_7 (Gen.V7 m c) (Proc.devRef .tc main_v5) = _
  after_results
  rfl

/-- Read at natural coordinates with zero outside, the padded array is the argument: the padding holds the same zero. -/
theorem v5_at : at2 0#32 (Gen.V12 m c main_v5) = at2 0#32 (m ((c.tc : Thread nD τ).loc main_arg4)) := by
  rw [v5_val]
  exact at2_pad _ _ _ _ _ _ rfl

/-- The array the first kernel reads in place of argument 5: that argument padded with zeros after its last column. -/
theorem v6_val : Gen.V12 m c main_v6
    = pad S32x11264 ![0, 0] ![0, 256] ![0, 0] (m ((c.tc : Thread nD τ).loc main_arg5)) (constant (F := Ideal) S_ .f32 0x00000000#32) pads_S32x11008_S32x11264_000_02560 h_S_ := by
  rw [Gen.V12_of m c main_v6 (by decide), Gen.V11_of m c main_v6 (by decide)]
  show StableHlo.after Gen.hostOps0_9 (Gen.V9 m c) (Proc.devRef .tc main_v6) = _
  after_results
  rfl

/-- Read at natural coordinates with zero outside, the padded array is the argument: the padding holds the same zero. -/
theorem v6_at : at2 (0 : EReal) (Gen.V12 m c main_v6) = at2 (0 : EReal) (m ((c.tc : Thread nD τ).loc main_arg5)) := by
  rw [v6_val]
  exact at2_pad _ _ _ _ _ _ Ideal.ofBits_zero_f32

/-- The array the first kernel reads in place of argument 6: that argument padded with zeros after its last column. -/
theorem v7_val : Gen.V12 m c main_v7
    = pad S32x1408 ![0, 0] ![0, 32] ![0, 0] (m ((c.tc : Thread nD τ).loc main_arg6)) (constantI S_ 32 0#32) pads_S32x1376_S32x1408_000_0320 h_S_ := by
  show StableHlo.after Gen.hostOps0_11 (Gen.V11 m c) (Proc.devRef .tc main_v7) = _
  after_results
  rfl

/-- Read at natural coordinates with zero outside, the padded array is the argument: the padding holds the same zero. -/
theorem v7_at : at2 0#32 (Gen.V12 m c main_v7) = at2 0#32 (m ((c.tc : Thread nD τ).loc main_arg6)) := by
  rw [v7_val]
  exact at2_pad _ _ _ _ _ _ rfl

end

/-! ## Between the kernels and after the second -/

section
variable (m : (ℓ : Loc nD τ sig) → Buf (Elt Ideal) ℓ) (outs : Gen.Outs (F := Ideal)) (c : Dev nD)

/-- The first kernel's output array is what that kernel left: no host operation between the two kernels writes it. -/
theorem v8_eq : Gen.V19 m outs c main_v8 = outs 13 main_v8 c := by
  rw [Gen.V19_of m outs c main_v8 (by decide), Gen.V18_of m outs c main_v8 (by decide), Gen.V17_of m outs c main_v8 (by decide), Gen.V16_of m outs c main_v8 (by decide), Gen.V15_of m outs c main_v8 (by decide), Gen.V14_of m outs c main_v8 (by decide)]
  show Function.update (Gen.V12 m c) (Proc.devRef .tc main_v8) (outs 13 main_v8 c) (Proc.devRef .tc main_v8) = _
  rw [Function.update_self]

/-- Argument 7 still holds its launch contents after the first kernel: nothing before wrote it. -/
theorem V13_arg7 : Gen.V13 m outs c main_arg7 = (m ((c.tc : Thread nD τ).loc main_arg7)) := by
  rw [Gen.V13_of m outs c main_arg7 (by decide), Gen.V12_of m c main_arg7 (by decide), Gen.V11_of m c main_arg7 (by decide), Gen.V10_of m c main_arg7 (by decide), Gen.V9_of m c main_arg7 (by decide), Gen.V8_of m c main_arg7 (by decide), Gen.V7_of m c main_arg7 (by decide), Gen.V6_of m c main_arg7 (by decide), Gen.V5_of m c main_arg7 (by decide), Gen.V4_of m c main_arg7 (by decide), Gen.V3_of m c main_arg7 (by decide), Gen.V2_of m c main_arg7 (by decide), Gen.V1_of m c main_arg7 (by decide)]

/-- The array the second kernel reads in place of argument 7: that argument padded with zeros after its last row. -/
theorem v9_val : Gen.V19 m outs c main_v9
    = pad S11264x512 ![0, 0] ![256, 0] ![0, 0] (m ((c.tc : Thread nD τ).loc main_arg7)) (constantI S_ 32 0#32) pads_S11008x512_S11264x512_02560_000 h_S_ := by
  rw [Gen.V19_of m outs c main_v9 (by decide), Gen.V18_of m outs c main_v9 (by decide), Gen.V17_of m outs c main_v9 (by decide), Gen.V16_of m outs c main_v9 (by decide)]
  show StableHlo.after Gen.hostOps1_1 (Gen.V14 m outs c) (Proc.devRef .tc main_v9) = _
  after_results
  show pad S11264x512 ![0, 0] ![256, 0] ![0, 0] (Gen.V13 m outs c (Proc.devRef .tc main_arg7)) (constantI S_ 32 0#32) pads_S11008x512_S11264x512_02560_000 h_S_ = _
  rw [V13_arg7]

/-- Read at natural coordinates with zero outside, the padded array is the argument: the padding holds the same zero. -/
theorem v9_at : at2 0#32 (Gen.V19 m outs c main_v9) = at2 0#32 (m ((c.tc : Thread nD τ).loc main_arg7)) := by
  rw [v9_val]
  exact at2_pad _ _ _ _ _ _ rfl

/-- Argument 8 still holds its launch contents after the first kernel: nothing before wrote it. -/
theorem V13_arg8 : Gen.V13 m outs c main_arg8 = (m ((c.tc : Thread nD τ).loc main_arg8)) := by
  rw [Gen.V13_of m outs c main_arg8 (by decide), Gen.V12_of m c main_arg8 (by decide), Gen.V11_of m c main_arg8 (by decide), Gen.V10_of m c main_arg8 (by decide), Gen.V9_of m c main_arg8 (by decide), Gen.V8_of m c main_arg8 (by decide), Gen.V7_of m c main_arg8 (by decide), Gen.V6_of m c main_arg8 (by decide), Gen.V5_of m c main_arg8 (by decide), Gen.V4_of m c main_arg8 (by decide), Gen.V3_of m c main_arg8 (by decide), Gen.V2_of m c main_arg8 (by decide), Gen.V1_of m c main_arg8 (by decide)]

/-- The array the second kernel reads in place of argument 8: that argument padded with zeros after its last row. -/
theorem v10_val : Gen.V19 m outs c main_v10
    = pad S88x4096 ![0, 0] ![2, 0] ![0, 0] (m ((c.tc : Thread nD τ).loc main_arg8)) (constant (F := Ideal) S_ .f32 0x00000000#32) pads_S86x4096_S88x4096_020_000 h_S_ := by
  rw [Gen.V19_of m outs c main_v10 (by decide), Gen.V18_of m outs c main_v10 (by decide)]
  show StableHlo.after Gen.hostOps1_3 (Gen.V16 m outs c) (Proc.devRef .tc main_v10) = _
  after_results
  show pad S88x4096 ![0, 0] ![2, 0] ![0, 0] (Gen.V13 m outs c (Proc.devRef .tc main_arg8)) (constant (F := Ideal) S_ .f32 0x00000000#32) pads_S86x4096_S88x4096_020_000 h_S_ = _
  rw [V13_arg8]

/-- Read at natural coordinates with zero outside, the padded array is the argument: the padding holds the same zero. -/
theorem v10_at : at2 (0 : EReal) (Gen.V19 m outs c main_v10) = at2 (0 : EReal) (m ((c.tc : Thread nD τ).loc main_arg8)) := by
  rw [v10_val]
  exact at2_pad _ _ _ _ _ _ Ideal.ofBits_zero_f32

/-- Argument 9 still holds its launch contents after the first kernel: nothing before wrote it. -/
theorem V13_arg9 : Gen.V13 m outs c main_arg9 = (m ((c.tc : Thread nD τ).loc main_arg9)) := by
  rw [Gen.V13_of m outs c main_arg9 (by decide), Gen.V12_of m c main_arg9 (by decide), Gen.V11_of m c main_arg9 (by decide), Gen.V10_of m c main_arg9 (by decide), Gen.V9_of m c main_arg9 (by decide), Gen.V8_of m c main_arg9 (by decide), Gen.V7_of m c main_arg9 (by decide), Gen.V6_of m c main_arg9 (by decide), Gen.V5_of m c main_arg9 (by decide), Gen.V4_of m c main_arg9 (by decide), Gen.V3_of m c main_arg9 (by decide), Gen.V2_of m c main_arg9 (by decide), Gen.V1_of m c main_arg9 (by decide)]

/-- The array the second kernel reads in place of argument 9: that argument padded with zeros after its last row. -/
theorem v11_val : Gen.V19 m outs c main_v11
    = pad S88x512 ![0, 0] ![2, 0] ![0, 0] (m ((c.tc : Thread nD τ).loc main_arg9)) (constantI S_ 32 0#32) pads_S86x512_S88x512_020_000 h_S_ := by
  show StableHlo.after Gen.hostOps1_5 (Gen.V18 m outs c) (Proc.devRef .tc main_v11) = _
  after_results
  show pad S88x512 ![0, 0] ![2, 0] ![0, 0] (Gen.V13 m outs c (Proc.devRef .tc main_arg9)) (constantI S_ 32 0#32) pads_S86x512_S88x512_020_000 h_S_ = _
  rw [V13_arg9]

/-- Read at natural coordinates with zero outside, the padded array is the argument: the padding holds the same zero. -/
theorem v11_at : at2 0#32 (Gen.V19 m outs c main_v11) = at2 0#32 (m ((c.tc : Thread nD τ).loc main_arg9)) := by
  rw [v11_val]
  exact at2_pad _ _ _ _ _ _ rfl

/-- The second kernel's output array is what that kernel left. -/
theorem V20_v12 : Gen.V20 m outs c main_v12 = outs 20 main_v12 c := by
  show Function.update (Gen.V19 m outs c) (Proc.devRef .tc main_v12) (outs 20 main_v12 c) (Proc.devRef .tc main_v12) = _
  rw [Function.update_self]

/-- The result array: the second kernel's 4096 output rows split back into 2 × 2048. -/
theorem v13_eq : Gen.V21 m outs c main_v13
    = shapeCast S2x2048x4096 (outs 20 main_v12 c) shapeCasts_S4096x4096_S2x2048x4096 := by
  show StableHlo.after Gen.hostOps2 (Gen.V20 m outs c) (Proc.devRef .tc main_v13) = _
  after_results
  show shapeCast S2x2048x4096 (Gen.V20 m outs c (Proc.devRef .tc main_v12)) shapeCasts_S4096x4096_S2x2048x4096 = _
  rw [V20_v12]

/-- Entry `(b, r, o)` of the result is entry `(2048 b + r, o)` of the second kernel's output: the two have the same
    row-major position. -/
theorem v13_apply (b : Fin 2) (r : Fin 2048) (o : Fin 4096) :
    Gen.V21 m outs c main_v13 (ix3 b r o)
      = outs 20 main_v12 c (ix2 ⟨2048 * b.val + r.val, by have := b.isLt; have := r.isLt; omega⟩ o) := by
  rw [v13_eq]
  refine shapeCast_apply _ _ _ _ ?_
  show ((⟨2, ![4096, 4096]⟩ : Shape).rowMajor _).val = ((⟨3, ![2, 2048, 4096]⟩ : Shape).rowMajor _).val
  rw [Shape.rowMajor_val_three, Shape.rowMajor_val_two]
  show (2048 * b.val + r.val) * 4096 + o.val = (b.val * 2048 + r.val) * 4096 + o.val
  omega

end

end Cert.KernelIdeal.HostVals

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelIdeal.Pay.lean ====
/-
  What each pure value of the two kernels is at an index, at the ideal values (a float an extended real, every float
  operation exact, a change of format the identity).

  * The shift amounts are the words `0, 4, …, 28`; a packed word shifted right arithmetically by `4 s`, masked with 15
    and read as a signed integer is its nibble `s`.
  * The unpacked weight block has, at `(k, c)`, nibble `c % 8` of the packed word `(k, c / 8)`; the unpacked zero points,
    spread over the 128 rows of their group, have at `(k, c)` nibble `c % 8` of the word `(k / 128, c / 8)`; the scales,
    spread likewise, have at `(k, c)` the scale `(k / 128, c)`.
  * One step of each of the three contractions is, at `(r, c)`,
        acc (r, c) + Σ_{kk < 1024} x (r, kk) · ((q (kk, c) − z (kk, c)) · s (kk, c)),
    the factors in the order the step computes them.
  * The stored activation is `silu g · u`; the fills are zero.
-/
import proofs.«413103_j549755813920_3_alg».proof.Proof.Gen.KernelIdeal.Skeleton
import proofs.«413103_j549755813920_3_alg».proof.Proof.Spec
import proofs.«413103_j549755813920_3_alg».proof.Proof.LibRowDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-! ## Words: one nibble of a packed word -/

/-- Shifting a word right (arithmetically) by the word `4 s`, `s < 8`, keeping the low four bits and reading the result
    as a signed integer gives nibble `s` of the word. -/
theorem nib_word (w : BitVec 32) (s : ℕ) (hs : s < 8) :
    FloatOps.sitofp (F := Ideal) .f32 (IntOp.andi (IntOp.shrsi .vector w (BitVec.ofNat 32 s * 4#32)) 15#32) = nib w s := by
  have hn : (BitVec.ofNat 32 s * 4#32).toNat = 4 * s := by
    rw [BitVec.toNat_mul, BitVec.toNat_ofNat]
    show (s % 2 ^ 32 * 4) % 2 ^ 32 = 4 * s
    omega
  unfold IntOp.shrsi
  rw [if_pos (by rw [hn]; omega)]
  unfold nib
  show (((IntOp.andi (w.sshiftRight (BitVec.ofNat 32 s * 4#32).toNat) 15#32).toInt : ℝ) : EReal) = _
  rw [hn]
  rfl

/-- The same for a vector of words shifted lane by lane: where the word is `w` and the shift amount is `4 s`. -/
theorem nibvec_apply {S : Shape} (X Y : IVec S 32) (i : S.Idx) (w : BitVec 32) (s : ℕ) (hs : s < 8)
    (hX : X i = w) (hY : Y i = BitVec.ofNat 32 s * 4#32) :
    (sitofp .f32 (andi (shrsi X Y) (broadcast S 15#32)) : FVec Ideal S .f32) i = nib w s := by
  show FloatOps.sitofp (F := Ideal) .f32 (IntOp.andi (IntOp.shrsi .vector (X i) (Y i)) 15#32) = _
  rw [hX, hY]
  exact nib_word w s hs

/-! ## Layout operations at an index given by coordinates -/

section Layout
variable {α : Type}

/-- A trailing unit axis broadcast: `[a, b, 1] → [a, b, n]` reads `(i, j, 0)` at `(i, j, s)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (s : Fin n) :
    broadcastTo ⟨3, ![a, b, n]⟩ v h (ix3 i j s) = v (ix3 i j (0 : Fin 1)) := by
  refine broadcastTo_apply v h (ix3 i j s) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- Two leading unit axes broadcast: `[1, 1, n] → [a, b, n]` reads `(0, 0, s)` at `(i, j, s)`. -/
theorem broadcastTo_11n_abn_apply {a b n : ℕ} (v : (⟨3, ![1, 1, n]⟩ : Shape).Idx → α)
    (h : (⟨3, ![1, 1, n]⟩ : Shape).Broadcasts ⟨3, ![a, b, n]⟩) (i : Fin a) (j : Fin b) (s : Fin n) :
    broadcastTo ⟨3, ![a, b, n]⟩ v h (ix3 i j s) = v (ix3 (0 : Fin 1) (0 : Fin 1) s) := by
  refine broadcastTo_apply v h (ix3 i j s) (ix3 (0 : Fin 1) (0 : Fin 1) s) fun ax => ?_
  match ax with
  | ⟨0, _⟩ => rfl
  | ⟨1, _⟩ => rfl
  | ⟨2, _⟩ =>
    show s.val = if n = 1 then 0 else s.val
    split
    · have := s.isLt; omega
    · rfl

/-- A middle unit axis broadcast: `[a, 1, n] → [a, b, n]` reads `(i, 0, s)` at `(i, j, s)`. -/
theorem broadcastTo_a1n_abn_apply {a b n : ℕ} (v : (⟨3, ![a, 1, n]⟩ : Shape).Idx → α)
    (h : (⟨3, ![a, 1, n]⟩ : Shape).Broadcasts ⟨3, ![a, b, n]⟩) (i : Fin a) (j : Fin b) (s : Fin n) :
    broadcastTo ⟨3, ![a, b, n]⟩ v h (ix3 i j s) = v (ix3 i (0 : Fin 1) s) := by
  refine broadcastTo_apply v h (ix3 i j s) (ix3 i (0 : Fin 1) s) fun ax => ?_
  match ax with
  | ⟨0, _⟩ =>
    show i.val = if a = 1 then 0 else i.val
    split
    · have := i.isLt; omega
    · rfl
  | ⟨1, _⟩ => rfl
  | ⟨2, _⟩ =>
    show s.val = if n = 1 then 0 else s.val
    split
    · have := s.isLt; omega
    · rfl

/-- A trailing unit axis added: `[a, b] → [a, b, 1]` reads `(i, j)` at `(i, j, u)`. -/
theorem shapeCast_ab_ab1_apply {a b : ℕ} (v : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ v h (ix3 i j u) = v (ix2 i j) :=
  shapeCast_apply v h _ _ (by
    have hu : u.val = 0 := by omega
    rw [Shape.rowMajor_val_three, Shape.rowMajor_val_two]
    show i.val * b + j.val = (i.val * b + j.val) * 1 + u.val
    rw [hu, Nat.mul_one, Nat.add_zero])

/-- A middle unit axis added: `[a, b] → [a, 1, b]` reads `(i, j)` at `(i, u, j)`. -/
theorem shapeCast_ab_a1b_apply {a b : ℕ} (v : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ v h (ix3 i u j) = v (ix2 i j) :=
  shapeCast_apply v h _ _ (by
    have hu : u.val = 0 := by omega
    rw [Shape.rowMajor_val_three, Shape.rowMajor_val_two]
    show i.val * b + j.val = (i.val * 1 + u.val) * b + j.val
    rw [hu, Nat.mul_one, Nat.add_zero])

/-- Two leading unit axes added to a vector: `[a] → [1, 1, a]` reads `i` at `(u, u', i)`. -/
theorem shapeCast_a_11a_apply {a : ℕ} (v : (⟨1, ![a]⟩ : Shape).Idx → α)
    (h : (⟨1, ![a]⟩ : Shape).ShapeCasts ⟨3, ![1, 1, a]⟩) (u u' : Fin 1) (i : Fin a) :
    shapeCast ⟨3, ![1, 1, a]⟩ v h (ix3 u u' i) = v (ix1 i) :=
  shapeCast_apply v h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add])

end Layout

/-! ## The shift amounts `0, 4, …, 28` -/

/-- Lane `s` of the shift vector is the word `4 s`. -/
theorem pay6_apply (s : Fin 8) : k0_pay6 (ix1 s) = BitVec.ofNat 32 s.val * 4#32 := by
  unfold k0_pay6
  show IntOp.muli (shapeCast S8 (iota .tc S1x8 32 [1] iota_S1x8_d1_w32) shapeCasts_S1x8_S8 (ix1 s)) 4#32 = _
  rw [shapeCast_1a_a_apply, iota_single_apply]
  rfl

/-! ## The packed weights, the zero points and the scales, entry by entry -/

/-- The unpacked weight block: entry `(k, c)` is nibble `c % 8` of the packed word `(k, c / 8)`. -/
theorem pay7_apply (x1 : Vec Ideal S1024x128 .i32) (k : Fin 1024) (c : Fin 1024) :
    k0_pay7 (F := Ideal) x1 (ix2 k c) = nib (at2 0#32 x1 k.val (c.val / 8)) (c.val % 8) := by
  have hj : c.val / 8 < 128 := by have := c.isLt; omega
  have hs : c.val % 8 < 8 := Nat.mod_lt _ (by norm_num)
  rw [at2_of_lt 0#32 x1 k.isLt hj]
  unfold k0_pay7
  refine (shapeCast_apply _ _ (ix2 k c) (ix3 k ⟨c.val / 8, hj⟩ ⟨c.val % 8, hs⟩) ?_).trans ?_
  · rw [Shape.rowMajor_val_three, Shape.rowMajor_val_two]
    show (k.val * 128 + c.val / 8) * 8 + c.val % 8 = k.val * 1024 + c.val
    omega
  · refine nibvec_apply _ _ _ _ _ hs ?_ ?_
    · refine (broadcastTo_ab1_abn_apply _ _ k _ _).trans ?_
      refine (shapeCast_ab_ab1_apply _ _ k _ 0).trans ?_
      rw [shapeCast_self]
    · refine (broadcastTo_11n_abn_apply _ _ k _ _).trans ?_
      refine (shapeCast_a_11a_apply _ _ 0 0 _).trans ?_
      exact pay6_apply _

/-- The unpacked zero points, spread over the rows of their group: entry `(k, c)` is nibble `c % 8` of the packed
    word `(k / 128, c / 8)`. -/
theorem pay8_apply (zr : Vec Ideal S8x128 .i32) (k : Fin 1024) (c : Fin 1024) :
    k0_pay8 (F := Ideal) zr (ix2 k c) = nib (at2 0#32 zr (k.val / 128) (c.val / 8)) (c.val % 8) := by
  have hg : k.val / 128 < 8 := by have := k.isLt; omega
  have hm : k.val % 128 < 128 := Nat.mod_lt _ (by norm_num)
  have hj : c.val / 8 < 128 := by have := c.isLt; omega
  have hs : c.val % 8 < 8 := Nat.mod_lt _ (by norm_num)
  rw [at2_of_lt 0#32 zr hg hj]
  unfold k0_pay8
  -- rows of the block regrouped as (group, row in group)
  refine (shapeCast_apply _ _ (ix2 k c) (ix3 ⟨k.val / 128, hg⟩ ⟨k.val % 128, hm⟩ c) ?_).trans ?_
  · rw [Shape.rowMajor_val_three, Shape.rowMajor_val_two]
    show (k.val / 128 * 128 + k.val % 128) * 1024 + c.val = k.val * 1024 + c.val
    omega
  -- one row per group, repeated
  refine (broadcastTo_a1n_abn_apply _ _ _ _ c).trans ?_
  rw [shapeCast_self]
  refine (shapeCast_ab_a1b_apply _ _ _ 0 c).trans ?_
  -- the eight nibbles of a word laid side by side
  refine (shapeCast_apply _ _ (ix2 (⟨k.val / 128, hg⟩ : Fin 8) c)
    (ix3 (⟨k.val / 128, hg⟩ : Fin 8) (⟨c.val / 8, hj⟩ : Fin 128) (⟨c.val % 8, hs⟩ : Fin 8)) ?_).trans ?_
  · rw [Shape.rowMajor_val_three, Shape.rowMajor_val_two]
    show (k.val / 128 * 128 + c.val / 8) * 8 + c.val % 8 = k.val / 128 * 1024 + c.val
    omega
  · refine nibvec_apply _ _ _ _ _ hs ?_ ?_
    · refine (broadcastTo_ab1_abn_apply _ _ _ _ _).trans ?_
      refine (shapeCast_ab_ab1_apply _ _ _ _ 0).trans ?_
      rw [shapeCast_self]
    · refine (broadcastTo_11n_abn_apply _ _ _ _ _).trans ?_
      refine (shapeCast_a_11a_apply _ _ 0 0 _).trans ?_
      exact pay6_apply _

/-- The scales, one row per group, repeated over the rows of the group. -/
theorem pay9_apply (sr : Vec Ideal S8x1024 .f32) (g : Fin 8) (m : Fin 128) (c : Fin 1024) :
    k0_pay9 (F := Ideal) sr (ix3 g m c) = sr (ix2 g c) := by
  unfold k0_pay9
  refine (broadcastTo_a1n_abn_apply _ _ g m c).trans ?_
  rw [shapeCast_self]
  refine (shapeCast_ab_a1b_apply _ _ g 0 c).trans ?_
  rw [shapeCast_self]

/-! ## The dequantise-and-contract step -/

/-- The matrix unit's dimension numbers are the plain ones: rows by contraction times contraction by columns. -/
theorem dot_eq_plain : dot_S2048x1024_S1024x1024_S2048x1024_1_0_0_1_n_n = DotDims.plain 2048 1024 1024 := rfl

/-- The input block read through the identity cast. -/
theorem pay5_apply (x0 : Vec Ideal S2048x1024 .bf16) (i : S2048x1024.Idx) : k0_pay5 (F := Ideal) x0 i = x0 i := by
  unfold k0_pay5
  rw [shapeCast_self]

/-- One step over its four operands: the accumulator plus the sum over the contracted coordinate of the input entry
    times the dequantised weight, `(q − z) · s` with the scale of the row's group. -/
theorem pay10_apply (v4 : FVec Ideal S2048x1024 .bf16) (v21 v37 : FVec Ideal S1024x1024 .f32)
    (v43 : FVec Ideal S8x128x1024 .f32) (acc : Vec Ideal S2048x1024 .f32) (r : Fin 2048) (c : Fin 1024) :
    k0_pay10 (F := Ideal) v4 v21 v37 v43 acc (ix2 r c)
      = acc (ix2 r c) + ∑ k : Fin 1024, v4 (ix2 r k) * ((v21 (ix2 k c) - v37 (ix2 k c))
          * v43 (ix3 (⟨k.val / 128, by have := k.isLt; omega⟩ : Fin 8)
              (⟨k.val % 128, Nat.mod_lt _ (by norm_num)⟩ : Fin 128) c)) := by
  unfold k0_pay10
  rw [shapeCast_self]
  show acc (ix2 r c) + FloatOps.matmul (DotDims.plain 2048 1024 1024) none v4 _
    (constant (F := Ideal) S2048x1024 .f32 0x00000000#32) (ix2 r c) = _
  refine congrArg (acc (ix2 r c) + ·) ?_
  refine (RowDims.matmul_plain_zero_apply none v4 _ r c).trans ?_
  refine Finset.sum_congr rfl fun k _ => ?_
  refine congrArg (v4 (ix2 r k) * ·) ?_
  show (v21 (ix2 k c) - v37 (ix2 k c)) * shapeCast S1024x1024 v43 shapeCasts_S8x128x1024_S1024x1024 (ix2 k c) = _
  refine congrArg ((v21 (ix2 k c) - v37 (ix2 k c)) * ·) ?_
  refine shapeCast_apply _ _ _ _ ?_
  rw [Shape.rowMajor_val_three, Shape.rowMajor_val_two]
  show (k.val / 128 * 128 + k.val % 128) * 1024 + c.val = k.val * 1024 + c.val
  omega

/-- (1) The gate step at `(r, c)`. -/
theorem gstep_apply (x0 : Vec Ideal S2048x1024 .bf16) (x1 : Vec Ideal S1024x128 .i32) (zr : Vec Ideal S8x128 .i32)
    (sr : Vec Ideal S8x1024 .f32) (acc : Vec Ideal S2048x1024 .f32) (r : Fin 2048) (c : Fin 1024) :
    k0_pay10 (F := Ideal) (k0_pay5 x0) (k0_pay7 x1) (k0_pay8 zr) (k0_pay9 sr) acc (ix2 r c)
      = acc (ix2 r c) + ∑ kk ∈ Finset.range 1024, at2 0 x0 r.val kk * ((nib (at2 0#32 x1 kk (c.val / 8)) (c.val % 8) - nib (at2 0#32 zr (kk / 128) (c.val / 8)) (c.val % 8)) * at2 0 sr (kk / 128) c.val) := by
  rw [pay10_apply]
  refine congrArg (acc (ix2 r c) + ·) ?_
  refine (Finset.sum_congr rfl fun k _ => ?_).trans (Fin.sum_univ_eq_sum_range (fun kk : ℕ =>
    at2 0 x0 r.val kk * ((nib (at2 0#32 x1 kk (c.val / 8)) (c.val % 8) - nib (at2 0#32 zr (kk / 128) (c.val / 8)) (c.val % 8)) * at2 0 sr (kk / 128) c.val)) 1024)
  have hg : k.val / 128 < 8 := by have := k.isLt; omega
  show _ = at2 0 x0 r.val k.val * ((nib (at2 0#32 x1 k.val (c.val / 8)) (c.val % 8) - nib (at2 0#32 zr (k.val / 128) (c.val / 8)) (c.val % 8)) * at2 0 sr (k.val / 128) c.val)
  rw [pay5_apply, pay7_apply, pay8_apply, pay9_apply, at2_ix 0 x0 r k, at2_of_lt 0 sr hg c.isLt]

/-! ## The other two steps are the same step -/

theorem pay11_eq : k0_pay11 = k0_pay6 := rfl
theorem pay12_eq (x : Vec Ideal S1024x128 .i32) : k0_pay12 (F := Ideal) x = k0_pay7 x := rfl
theorem pay13_eq (z : Vec Ideal S8x128 .i32) : k0_pay13 (F := Ideal) z = k0_pay8 z := rfl
theorem pay1_eq (v4 : FVec Ideal S2048x1024 .bf16) (v70 v86 : FVec Ideal S1024x1024 .f32) (sr : Vec Ideal S8x1024 .f32)
    (acc : Vec Ideal S2048x1024 .f32) :
    k0_pay1 (F := Ideal) v4 v70 v86 (k0_pay14 sr) acc = k0_pay10 v4 v70 v86 (k0_pay9 sr) acc := rfl

/-- (2) The up step at `(r, c)`. -/
theorem ustep_apply (x0 : Vec Ideal S2048x1024 .bf16) (x4 : Vec Ideal S1024x128 .i32) (zr : Vec Ideal S8x128 .i32)
    (sr : Vec Ideal S8x1024 .f32) (acc : Vec Ideal S2048x1024 .f32) (r : Fin 2048) (c : Fin 1024) :
    k0_pay1 (F := Ideal) (k0_pay5 x0) (k0_pay12 x4) (k0_pay13 zr) (k0_pay14 sr) acc (ix2 r c)
      = acc (ix2 r c) + ∑ kk ∈ Finset.range 1024, at2 0 x0 r.val kk * ((nib (at2 0#32 x4 kk (c.val / 8)) (c.val % 8) - nib (at2 0#32 zr (kk / 128) (c.val / 8)) (c.val % 8)) * at2 0 sr (kk / 128) c.val) := by
  rw [pay1_eq, pay12_eq, pay13_eq]
  exact gstep_apply x0 x4 zr sr acc r c

theorem k1_pay4_eq : k1_pay4 = k0_pay6 := rfl
theorem k1_pay3_eq (x : Vec Ideal S2048x1024 .bf16) : k1_pay3 (F := Ideal) x = k0_pay5 x := rfl
theorem k1_pay5_eq (x : Vec Ideal S1024x128 .i32) : k1_pay5 (F := Ideal) x = k0_pay7 x := rfl
theorem k1_pay6_eq (z : Vec Ideal S8x128 .i32) : k1_pay6 (F := Ideal) z = k0_pay8 z := rfl
theorem k1_pay7_eq (s : Vec Ideal S8x1024 .f32) : k1_pay7 (F := Ideal) s = k0_pay9 s := rfl
theorem k1_pay1_eq (v4 : FVec Ideal S2048x1024 .bf16) (v21 v37 : FVec Ideal S1024x1024 .f32)
    (v43 : FVec Ideal S8x128x1024 .f32) (acc : Vec Ideal S2048x1024 .f32) :
    k1_pay1 (F := Ideal) v4 v21 v37 v43 acc = k0_pay10 v4 v21 v37 v43 acc := rfl

/-- (3) The down step at `(r, c)`. -/
theorem dstep_apply (x0 : Vec Ideal S2048x1024 .bf16) (x1 : Vec Ideal S1024x128 .i32) (zr : Vec Ideal S8x128 .i32)
    (sr : Vec Ideal S8x1024 .f32) (acc : Vec Ideal S2048x1024 .f32) (r : Fin 2048) (c : Fin 1024) :
    k1_pay1 (F := Ideal) (k1_pay3 x0) (k1_pay5 x1) (k1_pay6 zr) (k1_pay7 sr) acc (ix2 r c)
      = acc (ix2 r c) + ∑ kk ∈ Finset.range 1024, at2 0 x0 r.val kk * ((nib (at2 0#32 x1 kk (c.val / 8)) (c.val % 8) - nib (at2 0#32 zr (kk / 128) (c.val / 8)) (c.val % 8)) * at2 0 sr (kk / 128) c.val) := by
  rw [k1_pay1_eq, k1_pay3_eq, k1_pay5_eq, k1_pay6_eq, k1_pay7_eq]
  exact gstep_apply x0 x1 zr sr acc r c

/-! ## The activation and the zero fills -/

/-- (4) The stored activation: `silu g · u`, the narrowing the identity on extended reals. -/
theorem silu_mul_apply (g u : Vec Ideal S2048x1024 .f32) (i : S2048x1024.Idx) :
    k0_pay2 (F := Ideal) g u i = silu (g i) * u i := rfl

/-- (5) The zero fills. -/
theorem pay3_apply (i : S2048x1024.Idx) : k0_pay3 (F := Ideal) i = 0 := by
  unfold k0_pay3
  rw [shapeCast_self]
  exact Ideal.ofBits_zero_f32

theorem pay4_apply (i : S2048x1024.Idx) : k0_pay4 (F := Ideal) i = 0 := by
  unfold k0_pay4
  rw [shapeCast_self]
  exact Ideal.ofBits_zero_f32

theorem k1_pay2_apply (i : S2048x1024.Idx) : k1_pay2 (F := Ideal) i = 0 := by
  unfold k1_pay2
  rw [shapeCast_self]
  exact Ideal.ofBits_zero_f32

end Cert.KernelIdeal.Pay

end
-- ==== Proof.KernelIdeal.R0.Value.lean ====
/-
  Region 0 (the gate/up projection): what the output array holds after the last grid point.

  The grid is (i0, i1, i2) ∈ 2 × 11 × 4, point t = 44·i0 + 4·i1 + i2. At point t the body multiplies the
  2048 × 1024 block (i0, i2) of the activations x by the dequantised 1024 × 1024 tile (i2, i1) of each weight matrix
  and adds the product into an accumulator that was reset at i2 = 0. So after point t the gate accumulator holds, at
  (r, cc),
        Σ_{k < 1024·(i2+1)} x (2048·i0 + r, k) · Wg (k, 1024·i1 + cc),
  by induction along the four points of a run (one more block of 1024 terms per point), and likewise the up
  accumulator with Wu. At i2 = 3 the sum runs over all 4096 values of k, and the body stores silu(gate) · up into
  block (i0, i1) of the output. Those 22 blocks tile the 4096 × 11264 output array, so the array ends holding
  hid x Wg Wu (T, j) at every (T, j).

  The dequantised entry Wg (k, j) = (nib(qw (k, j/8), j%8) − nib(qz (k/128, j/8), j%8)) · sc (k/128, j) is read inside
  a tile through the tile's own coordinates: with k = 1024·i2 + kk and j = 1024·i1 + cc, the word column j/8 is
  128·i1 + cc/8, the nibble j%8 is cc%8, and the group row k/128 is 8·i2 + kk/128, which is row kk/128 of the eight
  group rows the body loads from row 8·i2 on.
-/
import proofs.«413103_j549755813920_3_alg».proof.Proof.KernelIdeal.R0.Shared
import proofs.«413103_j549755813920_3_alg».proof.Proof.KernelIdeal.Pay
import proofs.«413103_j549755813920_3_alg».proof.Proof.Spec
import Idealize.ShloMosaic.Lib.Pipeline.Value

set_option maxRecDepth 16384

noncomputable section

open scoped BigOperators

namespace Cert.KernelIdeal.R0

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

-- the TensorCore's buffer contents when the region is entered, at the ideal values
variable (V : (c : Dev nD) → (b : Ref sig .tc) → Buf (Elt Ideal) ((c : Thread nD τ).loc b))

namespace Value

/-! ## The grid point's coordinates, and where each window's block sits -/

/-- A point is below 88. -/
theorem pt_lt (t : Fin cfg0.N) : t.val < 88 := lt_of_lt_of_eq t.isLt N_0

/-- The printed index maps and the body's row offset, decided over the grid: with t = 44·i0 + 4·i1 + i2, the
    activations' block is (i0, i2), the words' blocks are (i2, i1), the scales' and zero points' blocks are (0, i1),
    the output's block is (i0, i1), and the eight group rows are loaded from row 8·i2, column 0. -/
theorem idx_facts : ∀ t : Fin cfg0.N,
    (win0_0.index t (0 : Fin 2) = t.val / 44 ∧ win0_0.index t (1 : Fin 2) = t.val % 4)
    ∧ (win0_1.index t (0 : Fin 2) = t.val % 4 ∧ win0_1.index t (1 : Fin 2) = t.val / 4 % 11)
    ∧ (win0_2.index t (0 : Fin 2) = 0 ∧ win0_2.index t (1 : Fin 2) = t.val / 4 % 11)
    ∧ (win0_3.index t (0 : Fin 2) = 0 ∧ win0_3.index t (1 : Fin 2) = t.val / 4 % 11)
    ∧ (win0_4.index t (0 : Fin 2) = t.val % 4 ∧ win0_4.index t (1 : Fin 2) = t.val / 4 % 11)
    ∧ (win0_5.index t (0 : Fin 2) = 0 ∧ win0_5.index t (1 : Fin 2) = t.val / 4 % 11)
    ∧ (win0_6.index t (0 : Fin 2) = 0 ∧ win0_6.index t (1 : Fin 2) = t.val / 4 % 11)
    ∧ (win0_7.index t (0 : Fin 2) = t.val / 44 ∧ win0_7.index t (1 : Fin 2) = t.val / 4 % 11)
    ∧ (k0_off1 (grid0.coords t) (0 : Fin 2) = 8 * (t.val % 4) ∧ k0_off1 (grid0.coords t) (1 : Fin 2) = 0)
    ∧ (k0_off2 (grid0.coords t) (0 : Fin 2) = 8 * (t.val % 4) ∧ k0_off2 (grid0.coords t) (1 : Fin 2) = 0) :=
  (by decide +kernel : ∀ t : Fin grid0.N, _)

/-! ## The blocks, read at natural coordinates -/

/-- The activations' block at point t: rows from 2048·i0, columns from 1024·i2. -/
theorem blk0_at (c : Dev nD) (t : Fin cfg0.N) {r kk : ℕ} (hr : r < 2048) (hk : kk < 1024) :
    at2 (0 : EReal) (iblk V c 0 t : Vec Ideal S2048x1024 .bf16) r kk
      = at2 (0 : EReal) (V c main_v1) (2048 * (t.val / 44) + r) (1024 * (t.val % 4) + kk) := by
  have ht := pt_lt t
  obtain ⟨⟨e0, e1⟩, -⟩ := idx_facts t
  rw [at2_of_lt _ _ hr hk, at2_of_lt _ _ (show 2048 * (t.val / 44) + r < 4096 by omega)
    (show 1024 * (t.val % 4) + kk < 4096 by omega)]
  unfold iblk
  rw [View.read_apply]
  show V c main_v1 _ = V c main_v1 _
  congr 1
  funext a
  apply Fin.ext
  match a with
  | ⟨0, _⟩ => show win0_0.index t (0 : Fin 2) * 2048 + 1 * r = 2048 * (t.val / 44) + r; rw [e0]; omega
  | ⟨1, _⟩ => show win0_0.index t (1 : Fin 2) * 1024 + 1 * kk = 1024 * (t.val % 4) + kk; rw [e1]; omega

/-- A tile of packed words (gate) at point t: rows from 1024·i2, word columns from 128·i1. -/
theorem blk1_at (c : Dev nD) (t : Fin cfg0.N) {kk c8 : ℕ} (hk : kk < 1024) (hc : c8 < 128) :
    at2 0#32 (iblk V c 1 t : Vec Ideal S1024x128 .i32) kk c8
      = at2 0#32 (V c main_v2) (1024 * (t.val % 4) + kk) (128 * (t.val / 4 % 11) + c8) := by
  have ht := pt_lt t
  obtain ⟨-, ⟨e0, e1⟩, -⟩ := idx_facts t
  rw [at2_of_lt _ _ hk hc, at2_of_lt _ _ (show 1024 * (t.val % 4) + kk < 4096 by omega)
    (show 128 * (t.val / 4 % 11) + c8 < 1408 by omega)]
  unfold iblk
  rw [View.read_apply]
  show V c main_v2 _ = V c main_v2 _
  congr 1
  funext a
  apply Fin.ext
  match a with
  | ⟨0, _⟩ => show win0_1.index t (0 : Fin 2) * 1024 + 1 * kk = 1024 * (t.val % 4) + kk; rw [e0]; omega
  | ⟨1, _⟩ => show win0_1.index t (1 : Fin 2) * 128 + 1 * c8 = 128 * (t.val / 4 % 11) + c8; rw [e1]; omega

/-- The gate scales' block at point t: all 32 group rows, columns from 1024·i1. -/
theorem blk2_at (c : Dev nD) (t : Fin cfg0.N) {g cc : ℕ} (hg : g < 32) (hc : cc < 1024) :
    at2 (0 : EReal) (iblk V c 2 t : Vec Ideal S32x1024 .f32) g cc
      = at2 (0 : EReal) (V c main_v3) g (1024 * (t.val / 4 % 11) + cc) := by
  have ht := pt_lt t
  obtain ⟨-, -, ⟨e0, e1⟩, -⟩ := idx_facts t
  rw [at2_of_lt _ _ hg hc, at2_of_lt _ _ hg (show 1024 * (t.val / 4 % 11) + cc < 11264 by omega)]
  unfold iblk
  rw [View.read_apply]
  show V c main_v3 _ = V c main_v3 _
  congr 1
  funext a
  apply Fin.ext
  match a with
  | ⟨0, _⟩ => show win0_2.index t (0 : Fin 2) * 32 + 1 * g = g; rw [e0]; omega
  | ⟨1, _⟩ => show win0_2.index t (1 : Fin 2) * 1024 + 1 * cc = 1024 * (t.val / 4 % 11) + cc; rw [e1]; omega

/-- The gate zero points' block at point t: all 32 group rows, word columns from 128·i1. -/
theorem blk3_at (c : Dev nD) (t : Fin cfg0.N) {g c8 : ℕ} (hg : g < 32) (hc : c8 < 128) :
    at2 0#32 (iblk V c 3 t : Vec Ideal S32x128 .i32) g c8
      = at2 0#32 (V c main_v4) g (128 * (t.val / 4 % 11) + c8) := by
  have ht := pt_lt t
  obtain ⟨-, -, -, ⟨e0, e1⟩, -⟩ := idx_facts t
  rw [at2_of_lt _ _ hg hc, at2_of_lt _ _ hg (show 128 * (t.val / 4 % 11) + c8 < 1408 by omega)]
  unfold iblk
  rw [View.read_apply]
  show V c main_v4 _ = V c main_v4 _
  congr 1
  funext a
  apply Fin.ext
  match a with
  | ⟨0, _⟩ => show win0_3.index t (0 : Fin 2) * 32 + 1 * g = g; rw [e0]; omega
  | ⟨1, _⟩ => show win0_3.index t (1 : Fin 2) * 128 + 1 * c8 = 128 * (t.val / 4 % 11) + c8; rw [e1]; omega

/-- A tile of packed words (up) at point t. -/
theorem blk4_at (c : Dev nD) (t : Fin cfg0.N) {kk c8 : ℕ} (hk : kk < 1024) (hc : c8 < 128) :
    at2 0#32 (iblk V c 4 t : Vec Ideal S1024x128 .i32) kk c8
      = at2 0#32 (V c main_v5) (1024 * (t.val % 4) + kk) (128 * (t.val / 4 % 11) + c8) := by
  have ht := pt_lt t
  obtain ⟨-, -, -, -, ⟨e0, e1⟩, -⟩ := idx_facts t
  rw [at2_of_lt _ _ hk hc, at2_of_lt _ _ (show 1024 * (t.val % 4) + kk < 4096 by omega)
    (show 128 * (t.val / 4 % 11) + c8 < 1408 by omega)]
  unfold iblk
  rw [View.read_apply]
  show V c main_v5 _ = V c main_v5 _
  congr 1
  funext a
  apply Fin.ext
  match a with
  | ⟨0, _⟩ => show win0_4.index t (0 : Fin 2) * 1024 + 1 * kk = 1024 * (t.val % 4) + kk; rw [e0]; omega
  | ⟨1, _⟩ => show win0_4.index t (1 : Fin 2) * 128 + 1 * c8 = 128 * (t.val / 4 % 11) + c8; rw [e1]; omega

/-- The up scales' block at point t. -/
theorem blk5_at (c : Dev nD) (t : Fin cfg0.N) {g cc : ℕ} (hg : g < 32) (hc : cc < 1024) :
    at2 (0 : EReal) (iblk V c 5 t : Vec Ideal S32x1024 .f32) g cc
      = at2 (0 : EReal) (V c main_v6) g (1024 * (t.val / 4 % 11) + cc) := by
  have ht := pt_lt t
  obtain ⟨-, -, -, -, -, ⟨e0, e1⟩, -⟩ := idx_facts t
  rw [at2_of_lt _ _ hg hc, at2_of_lt _ _ hg (show 1024 * (t.val / 4 % 11) + cc < 11264 by omega)]
  unfold iblk
  rw [View.read_apply]
  show V c main_v6 _ = V c main_v6 _
  congr 1
  funext a
  apply Fin.ext
  match a with
  | ⟨0, _⟩ => show win0_5.index t (0 : Fin 2) * 32 + 1 * g = g; rw [e0]; omega
  | ⟨1, _⟩ => show win0_5.index t (1 : Fin 2) * 1024 + 1 * cc = 1024 * (t.val / 4 % 11) + cc; rw [e1]; omega

/-- The up zero points' block at point t. -/
theorem blk6_at (c : Dev nD) (t : Fin cfg0.N) {g c8 : ℕ} (hg : g < 32) (hc : c8 < 128) :
    at2 0#32 (iblk V c 6 t : Vec Ideal S32x128 .i32) g c8
      = at2 0#32 (V c main_v7) g (128 * (t.val / 4 % 11) + c8) := by
  have ht := pt_lt t
  obtain ⟨-, -, -, -, -, -, ⟨e0, e1⟩, -⟩ := idx_facts t
  rw [at2_of_lt _ _ hg hc, at2_of_lt _ _ hg (show 128 * (t.val / 4 % 11) + c8 < 1408 by omega)]
  unfold iblk
  rw [View.read_apply]
  show V c main_v7 _ = V c main_v7 _
  congr 1
  funext a
  apply Fin.ext
  match a with
  | ⟨0, _⟩ => show win0_6.index t (0 : Fin 2) * 32 + 1 * g = g; rw [e0]; omega
  | ⟨1, _⟩ => show win0_6.index t (1 : Fin 2) * 128 + 1 * c8 = 128 * (t.val / 4 % 11) + c8; rw [e1]; omega

/-- Rows loaded from a block from row `off 0` on, all columns: row g of the load is row `off 0 + g` of the block. -/
theorem ld_rows_at {e : EltTy} (d : Elt Ideal e) {R C r : ℕ} (x : (⟨2, ![R, C]⟩ : Shape).Idx → Elt Ideal e)
    (off : Fin 2 → ℕ) (inb : ∀ a, off a + (⟨2, ![r, C]⟩ : Shape).size a ≤ (⟨2, ![R, C]⟩ : Shape).size a)
    (h1 : off 1 = 0) {g k : ℕ} (hg : g < r) (hk : k < C) :
    at2 d (View.ld x (Rect.unit (s := ⟨2, ![R, C]⟩) off (⟨2, ![r, C]⟩ : Shape).size inb)) g k
      = at2 d x (off 0 + g) k := by
  have h0 : off 0 + r ≤ R := inb 0
  rw [at2_of_lt _ _ hg hk, at2_of_lt _ _ (show off 0 + g < R by omega) hk]
  show x _ = x _
  congr 1
  funext a
  apply Fin.ext
  match a with
  | ⟨0, _⟩ => show off 0 + 1 * g = off 0 + g; omega
  | ⟨1, _⟩ => show off 1 + 1 * k = k; omega

/-! ## One tile's contribution, in the arrays' coordinates -/

/-- The sum one step adds at (r, cc), its factors read through the tile (block coordinates), is the sum over the
    tile's 1024 values of k of x times the dequantised weight, both read in the arrays' coordinates: the word column,
    the nibble and the group row of (1024·i2 + kk, 1024·i1 + cc) are those of (kk, cc) moved by the tile's origin. -/
theorem tile_sum (x0 : Vec Ideal S2048x1024 .bf16) (x1 : Vec Ideal S1024x128 .i32) (zr : Vec Ideal S8x128 .i32)
    (sr : Vec Ideal S8x1024 .f32) (Xa : ℕ → ℕ → EReal) (qw : ℕ → ℕ → BitVec 32) (sc : ℕ → ℕ → EReal)
    (qz : ℕ → ℕ → BitVec 32) (i0 i1 i2 : ℕ)
    (h0 : ∀ r kk, r < 2048 → kk < 1024 → at2 (0 : EReal) x0 r kk = Xa (2048 * i0 + r) (1024 * i2 + kk))
    (h1 : ∀ kk c8, kk < 1024 → c8 < 128 → at2 0#32 x1 kk c8 = qw (1024 * i2 + kk) (128 * i1 + c8))
    (hz : ∀ g c8, g < 8 → c8 < 128 → at2 0#32 zr g c8 = qz (8 * i2 + g) (128 * i1 + c8))
    (hs : ∀ g cc, g < 8 → cc < 1024 → at2 (0 : EReal) sr g cc = sc (8 * i2 + g) (1024 * i1 + cc))
    (r : Fin 2048) (cc : Fin 1024) :
    ∑ kk ∈ Finset.range 1024, at2 (0 : EReal) x0 r.val kk * ((nib (at2 0#32 x1 kk (cc.val / 8)) (cc.val % 8)
        - nib (at2 0#32 zr (kk / 128) (cc.val / 8)) (cc.val % 8)) * at2 (0 : EReal) sr (kk / 128) cc.val)
      = ∑ kk ∈ Finset.range 1024, Xa (2048 * i0 + r.val) (1024 * i2 + kk) * deq qw sc qz (1024 * i2 + kk) (1024 * i1 + cc.val) := by
  refine Finset.sum_congr rfl fun kk hkk => ?_
  have hk : kk < 1024 := Finset.mem_range.mp hkk
  have hc := cc.isLt
  have hg : kk / 128 < 8 := by omega
  have hc8 : cc.val / 8 < 128 := by omega
  have e1 : (1024 * i1 + cc.val) / 8 = 128 * i1 + cc.val / 8 := by omega
  have e2 : (1024 * i1 + cc.val) % 8 = cc.val % 8 := by omega
  have e3 : (1024 * i2 + kk) / 128 = 8 * i2 + kk / 128 := by omega
  unfold deq
  rw [h0 r.val kk r.isLt hk, h1 kk _ hk hc8, hz _ _ hg hc8, hs _ _ hg hc, e1, e2, e3]

/-! ## The accumulation along a run of four points -/

/-- The partial projection after point n: the sum over the first (i2 + 1) tiles of k. -/
def psum (Xa W : ℕ → ℕ → EReal) (n r cc : ℕ) : EReal :=
  ∑ k ∈ Finset.range (1024 * (n % 4 + 1)), Xa (2048 * (n / 44) + r) k * W k (1024 * (n / 4 % 11) + cc)

/-- The last tile of the partial projection, split off. -/
theorem psum_split (Xa W : ℕ → ℕ → EReal) (n r cc : ℕ) :
    psum Xa W n r cc
      = (∑ k ∈ Finset.range (1024 * (n % 4)), Xa (2048 * (n / 44) + r) k * W k (1024 * (n / 4 % 11) + cc))
        + ∑ kk ∈ Finset.range 1024, Xa (2048 * (n / 44) + r) (1024 * (n % 4) + kk)
            * W (1024 * (n % 4) + kk) (1024 * (n / 4 % 11) + cc) :=
  sum_range_succ_block (fun k => Xa (2048 * (n / 44) + r) k * W k (1024 * (n / 4 % 11) + cc)) 1024 (n % 4)

/-- At the first point of a run the partial projection is the first tile's sum. -/
theorem psum_first (Xa W : ℕ → ℕ → EReal) (n r cc : ℕ) (h0 : n % 4 = 0) :
    psum Xa W n r cc = 0 + ∑ kk ∈ Finset.range 1024, Xa (2048 * (n / 44) + r) (1024 * (n % 4) + kk)
        * W (1024 * (n % 4) + kk) (1024 * (n / 4 % 11) + cc) := by
  rw [psum_split]
  refine congrArg₂ (· + ·) ?_ rfl
  rw [h0, Nat.mul_zero, Finset.range_zero, Finset.sum_empty]

/-- At a later point of a run it is the point before's plus this point's tile: the row block and the column block
    have not moved, and the tile count is one more. -/
theorem psum_step (Xa W : ℕ → ℕ → EReal) (n r cc : ℕ) (h0 : ¬ (n + 1) % 4 = 0) :
    psum Xa W (n + 1) r cc = psum Xa W n r cc
      + ∑ kk ∈ Finset.range 1024, Xa (2048 * ((n + 1) / 44) + r) (1024 * ((n + 1) % 4) + kk)
          * W (1024 * ((n + 1) % 4) + kk) (1024 * ((n + 1) / 4 % 11) + cc) := by
  rw [psum_split]
  refine congrArg₂ (· + ·) ?_ rfl
  have a1 : n % 4 + 1 = (n + 1) % 4 := by omega
  have a2 : n / 44 = (n + 1) / 44 := by omega
  have a3 : n / 4 % 11 = (n + 1) / 4 % 11 := by omega
  unfold psum
  rw [a1, a2, a3]

/-- A point-indexed block that is reset to one tile's sum at the first point of each run of four and gains one tile's
    sum at each later point holds the partial projection after every point: by induction on the point, one more
    block of 1024 consecutive values of k at each step. -/
theorem acc_eq_psum (acc : (n : ℕ) → n < cfg0.N → Vec Ideal S2048x1024 .f32) (Xa W : ℕ → ℕ → EReal)
    (hF : ∀ t : Fin cfg0.N, t.val % 4 = 0 → ∀ (r : Fin 2048) (cc : Fin 1024), acc t.val t.isLt (ix2 r cc)
      = 0 + ∑ kk ∈ Finset.range 1024, Xa (2048 * (t.val / 44) + r.val) (1024 * (t.val % 4) + kk)
          * W (1024 * (t.val % 4) + kk) (1024 * (t.val / 4 % 11) + cc.val))
    (hS : ∀ t : Fin cfg0.N, ¬ t.val % 4 = 0 → ∀ (r : Fin 2048) (cc : Fin 1024), acc t.val t.isLt (ix2 r cc)
      = acc (t.val - 1) (Nat.lt_of_le_of_lt (Nat.sub_le _ _) t.isLt) (ix2 r cc)
        + ∑ kk ∈ Finset.range 1024, Xa (2048 * (t.val / 44) + r.val) (1024 * (t.val % 4) + kk)
          * W (1024 * (t.val % 4) + kk) (1024 * (t.val / 4 % 11) + cc.val)) :
    ∀ (n : ℕ) (h : n < cfg0.N) (r : Fin 2048) (cc : Fin 1024), acc n h (ix2 r cc) = psum Xa W n r.val cc.val := by
  intro n
  induction n with
  | zero =>
    intro h r cc
    exact (hF ⟨0, h⟩ rfl r cc).trans (psum_first Xa W 0 r.val cc.val rfl).symm
  | succ n ih =>
    intro h r cc
    by_cases hm : (n + 1) % 4 = 0
    · exact (hF ⟨n + 1, h⟩ hm r cc).trans (psum_first Xa W (n + 1) r.val cc.val hm).symm
    · refine (hS ⟨n + 1, h⟩ hm r cc).trans ?_
      rw [psum_step Xa W n r.val cc.val hm]
      refine congrArg₂ (· + ·) ?_ rfl
      exact ih (Nat.lt_of_succ_lt h) r cc

/-! ## The two steps of the body at a point, at an index -/

/-- The gate step over the four blocks it reads: the eight zero-point and scale rows are loaded from the body's row
    offset. -/
def gstepI (x0 : Vec Ideal S2048x1024 .bf16) (x1 : Vec Ideal S1024x128 .i32) (x2 : Vec Ideal S32x1024 .f32)
    (x3 : Vec Ideal S32x128 .i32) (i : grid0.Coords) (acc : Vec Ideal S2048x1024 .f32) : Vec Ideal S2048x1024 .f32 :=
  k0_pay10 (k0_pay5 x0) (k0_pay7 x1)
    (k0_pay8 (View.ld x3 (Rect.unit (s := S32x128) (k0_off1 i) S8x128.size (k0_off1_inb i))))
    (k0_pay9 (View.ld x2 (Rect.unit (s := S32x1024) (k0_off2 i) S8x1024.size (k0_off2_inb i)))) acc

/-- The up step, likewise. -/
def ustepI (x0 : Vec Ideal S2048x1024 .bf16) (x4 : Vec Ideal S1024x128 .i32) (x5 : Vec Ideal S32x1024 .f32)
    (x6 : Vec Ideal S32x128 .i32) (i : grid0.Coords) (acc : Vec Ideal S2048x1024 .f32) : Vec Ideal S2048x1024 .f32 :=
  k0_pay1 (k0_pay5 x0) (k0_pay12 x4)
    (k0_pay13 (View.ld x6 (Rect.unit (s := S32x128) (k0_off1 i) S8x128.size (k0_off1_inb i))))
    (k0_pay14 (View.ld x5 (Rect.unit (s := S32x1024) (k0_off2 i) S8x1024.size (k0_off2_inb i)))) acc

/-- The activations, and the two dequantised weight matrices, as functions of natural coordinates. -/
def Xn (c : Dev nD) : ℕ → ℕ → EReal := at2 0 (V c main_v1)
def Wg (c : Dev nD) : ℕ → ℕ → EReal := deq (at2 0#32 (V c main_v2)) (at2 0 (V c main_v3)) (at2 0#32 (V c main_v4))
def Wu (c : Dev nD) : ℕ → ℕ → EReal := deq (at2 0#32 (V c main_v5)) (at2 0 (V c main_v6)) (at2 0#32 (V c main_v7))

/-- The gate step at point t adds, at (r, cc), tile (i2, i1)'s part of row 2048·i0 + r of x times column
    1024·i1 + cc of the gate weights. -/
theorem gstep_at (c : Dev nD) (t : Fin cfg0.N) (acc : Vec Ideal S2048x1024 .f32) (r : Fin 2048) (cc : Fin 1024) :
    gstepI (iblk V c 0 t) (iblk V c 1 t) (iblk V c 2 t) (iblk V c 3 t) (grid0.coords t) acc (ix2 r cc)
      = acc (ix2 r cc) + ∑ kk ∈ Finset.range 1024, Xn V c (2048 * (t.val / 44) + r.val) (1024 * (t.val % 4) + kk)
          * Wg V c (1024 * (t.val % 4) + kk) (1024 * (t.val / 4 % 11) + cc.val) := by
  obtain ⟨-, -, -, -, -, -, -, -, ⟨o10, o11⟩, ⟨o20, o21⟩⟩ := idx_facts t
  unfold gstepI
  rw [Pay.gstep_apply]
  refine congrArg (acc (ix2 r cc) + ·) ?_
  exact tile_sum _ _ _ _ (at2 0 (V c main_v1)) (at2 0#32 (V c main_v2)) (at2 0 (V c main_v3)) (at2 0#32 (V c main_v4))
    (t.val / 44) (t.val / 4 % 11) (t.val % 4)
    (fun r kk hr hk => blk0_at V c t hr hk) (fun kk c8 hk hc => blk1_at V c t hk hc)
    (fun g c8 hg hc => (ld_rows_at (e := .i32) (R := 32) (C := 128) (r := 8) 0#32 (iblk V c 3 t : Vec Ideal S32x128 .i32)
      (k0_off1 (grid0.coords t)) (k0_off1_inb (grid0.coords t)) o11 hg hc).trans
      (by rw [o10]; exact blk3_at V c t (by omega) hc))
    (fun g cc hg hc => (ld_rows_at (e := .f32) (R := 32) (C := 1024) (r := 8) (0 : EReal) (iblk V c 2 t : Vec Ideal S32x1024 .f32)
      (k0_off2 (grid0.coords t)) (k0_off2_inb (grid0.coords t)) o21 hg hc).trans
      (by rw [o20]; exact blk2_at V c t (by omega) hc)) r cc

/-- The up step at point t, likewise with the up weights. -/
theorem ustep_at (c : Dev nD) (t : Fin cfg0.N) (acc : Vec Ideal S2048x1024 .f32) (r : Fin 2048) (cc : Fin 1024) :
    ustepI (iblk V c 0 t) (iblk V c 4 t) (iblk V c 5 t) (iblk V c 6 t) (grid0.coords t) acc (ix2 r cc)
      = acc (ix2 r cc) + ∑ kk ∈ Finset.range 1024, Xn V c (2048 * (t.val / 44) + r.val) (1024 * (t.val % 4) + kk)
          * Wu V c (1024 * (t.val % 4) + kk) (1024 * (t.val / 4 % 11) + cc.val) := by
  obtain ⟨-, -, -, -, -, -, -, -, ⟨o10, o11⟩, ⟨o20, o21⟩⟩ := idx_facts t
  unfold ustepI
  rw [Pay.ustep_apply]
  refine congrArg (acc (ix2 r cc) + ·) ?_
  exact tile_sum _ _ _ _ (at2 0 (V c main_v1)) (at2 0#32 (V c main_v5)) (at2 0 (V c main_v6)) (at2 0#32 (V c main_v7))
    (t.val / 44) (t.val / 4 % 11) (t.val % 4)
    (fun r kk hr hk => blk0_at V c t hr hk) (fun kk c8 hk hc => blk4_at V c t hk hc)
    (fun g c8 hg hc => (ld_rows_at (e := .i32) (R := 32) (C := 128) (r := 8) 0#32 (iblk V c 6 t : Vec Ideal S32x128 .i32)
      (k0_off1 (grid0.coords t)) (k0_off1_inb (grid0.coords t)) o11 hg hc).trans
      (by rw [o10]; exact blk6_at V c t (by omega) hc))
    (fun g cc hg hc => (ld_rows_at (e := .f32) (R := 32) (C := 1024) (r := 8) (0 : EReal) (iblk V c 5 t : Vec Ideal S32x1024 .f32)
      (k0_off2 (grid0.coords t)) (k0_off2_inb (grid0.coords t)) o21 hg hc).trans
      (by rw [o20]; exact blk5_at V c t (by omega) hc)) r cc

/-! ## At the last tile the partial projection is the whole one -/

theorem psum_last (Xa W : ℕ → ℕ → EReal) (n r cc : ℕ) (h3 : n % 4 = 3) :
    psum Xa W n r cc = proj Xa W (2048 * (n / 44) + r) (1024 * (n / 4 % 11) + cc) := by
  unfold psum proj
  rw [h3]

/-! ## The output window's blocks -/

/-- An index of the output array is in point t's block iff each coordinate is in the block's range on its axis. -/
theorem mem_blk7 (t : Fin cfg0.N) (i : S4096x11264.Idx) :
    i ∈ ((cfg0.win 7).blk t).view.set ↔ ∀ a : Fin 2, win0_7.index t a * S2048x1024.size a ≤ (i a).val
      ∧ (i a).val < win0_7.index t a * S2048x1024.size a + S2048x1024.size a := by
  show i ∈ ((View.whole main_v8).slice (win0_7.rect t)).set ↔ _
  rw [View.set_slice_whole, Rect.mem_set_unit]
  exact Iff.rfl

/-- Every index (T, j) of the output array lies in the block of the flushing point with i0 = T / 2048, i1 = j / 1024
    and i2 = 3: the 2 × 11 blocks tile the 4096 × 11264 array. -/
theorem cover7 (i : S4096x11264.Idx) :
    ∃ t : Fin cfg0.N, (cfg0.win 7).flush t = true ∧ i ∈ ((cfg0.win 7).blk t).view.set := by
  have hT : (i 0).val < 4096 := idx2_lt0 i
  have hJ : (i 1).val < 11264 := idx2_lt1 i
  obtain ⟨n, hn⟩ : ∃ n : ℕ, n = 44 * ((i 0).val / 2048) + 4 * ((i 1).val / 1024) + 3 := ⟨_, rfl⟩
  have hlt : n < cfg0.N := lt_of_lt_of_eq (show n < 88 by omega) N_0.symm
  refine ⟨⟨n, hlt⟩, (flush0_7 _).mpr (show n % 4 = 3 by omega), ?_⟩
  rw [mem_blk7]
  obtain ⟨-, -, -, -, -, -, -, ⟨e0, e1⟩, -⟩ := idx_facts ⟨n, hlt⟩
  have e0' : win0_7.index ⟨n, hlt⟩ (0 : Fin 2) = n / 44 := e0
  have e1' : win0_7.index ⟨n, hlt⟩ (1 : Fin 2) = n / 4 % 11 := e1
  intro a
  match a with
  | ⟨0, _⟩ =>
    show win0_7.index ⟨n, hlt⟩ (0 : Fin 2) * 2048 ≤ (i 0).val ∧ (i 0).val < win0_7.index ⟨n, hlt⟩ (0 : Fin 2) * 2048 + 2048
    rw [e0']; omega
  | ⟨1, _⟩ =>
    show win0_7.index ⟨n, hlt⟩ (1 : Fin 2) * 1024 ≤ (i 1).val ∧ (i 1).val < win0_7.index ⟨n, hlt⟩ (1 : Fin 2) * 1024 + 1024
    rw [e1']; omega

/-- What the output array ends holding: the hidden activation at every (T, j). -/
def Gout (c : Dev nD) : S4096x11264.Idx → EReal := fun i => hid (Xn V c) (Wg V c) (Wu V c) (i 0).val (i 1).val

/-- An element of point t's output block sits at row 2048·i0 + its row, column 1024·i1 + its column. -/
theorem Gout_emb (c : Dev nD) (t : Fin cfg0.N) (y : S2048x1024.Idx) :
    Gout V c (((cfg0.win 7).blk t).view.emb y)
      = hid (Xn V c) (Wg V c) (Wu V c) (2048 * (t.val / 44) + (y 0).val) (1024 * (t.val / 4 % 11) + (y 1).val) := by
  obtain ⟨-, -, -, -, -, -, -, ⟨e0, e1⟩, -⟩ := idx_facts t
  show hid (Xn V c) (Wg V c) (Wu V c) (win0_7.index t (0 : Fin 2) * 2048 + 1 * (y 0).val)
    (win0_7.index t (1 : Fin 2) * 1024 + 1 * (y 1).val) = _
  rw [e0, e1, Nat.one_mul, Nat.one_mul, Nat.mul_comm (t.val / 44) 2048, Nat.mul_comm (t.val / 4 % 11) 1024]

/-! ## The region's value, from what the body leaves at each point

The two accumulators after each point and the output window's staging contents after the last point of a run are
taken as given here in the form the region's frame proves them: reset and first step at the points ≡ 0 (mod 4), one
more step from the point before elsewhere, and silu(gate) · up stored at the points ≡ 3 (mod 4). -/

section Region

variable (gacc uacc : (c : Dev nD) → (n : ℕ) → n < cfg0.N → Vec Ideal S2048x1024 .f32)
variable (dat : (c : Dev nD) → Dat τ (Elt Ideal) Unit ℕ (UR sig nD τ) ℕ cfg0 c)
variable (hgF : ∀ (c : Dev nD) (t : Fin cfg0.N), t.val % 4 = 0 → gacc c t.val t.isLt
    = gstepI (iblk V c 0 t) (iblk V c 1 t) (iblk V c 2 t) (iblk V c 3 t) (grid0.coords t) (k0_pay3 (F := Ideal)))
variable (hgS : ∀ (c : Dev nD) (t : Fin cfg0.N), ¬ t.val % 4 = 0 → gacc c t.val t.isLt
    = gstepI (iblk V c 0 t) (iblk V c 1 t) (iblk V c 2 t) (iblk V c 3 t) (grid0.coords t)
        (gacc c (t.val - 1) (Nat.lt_of_le_of_lt (Nat.sub_le _ _) t.isLt)))
variable (huF : ∀ (c : Dev nD) (t : Fin cfg0.N), t.val % 4 = 0 → uacc c t.val t.isLt
    = ustepI (iblk V c 0 t) (iblk V c 4 t) (iblk V c 5 t) (iblk V c 6 t) (grid0.coords t) (k0_pay4 (F := Ideal)))
variable (huS : ∀ (c : Dev nD) (t : Fin cfg0.N), ¬ t.val % 4 = 0 → uacc c t.val t.isLt
    = ustepI (iblk V c 0 t) (iblk V c 4 t) (iblk V c 5 t) (iblk V c 6 t) (grid0.coords t)
        (uacc c (t.val - 1) (Nat.lt_of_le_of_lt (Nat.sub_le _ _) t.isLt)))
variable (hafter : ∀ (c : Dev nD) (t : Fin cfg0.N), t.val % 4 = 3 → (dat c).after 7 t
    = k0_pay2 (F := Ideal) (gacc c t.val t.isLt) (uacc c t.val t.isLt))

include hgF hgS in
/-- The gate accumulator after point n is the partial gate projection. -/
theorem gacc_eq (c : Dev nD) (n : ℕ) (h : n < cfg0.N) (r : Fin 2048) (cc : Fin 1024) :
    gacc c n h (ix2 r cc) = psum (Xn V c) (Wg V c) n r.val cc.val :=
  acc_eq_psum (gacc c) (Xn V c) (Wg V c)
    (fun t h0 r cc => by rw [hgF c t h0, gstep_at, Pay.pay3_apply])
    (fun t h0 r cc => by rw [hgS c t h0, gstep_at]) n h r cc

include huF huS in
/-- The up accumulator after point n is the partial up projection. -/
theorem uacc_eq (c : Dev nD) (n : ℕ) (h : n < cfg0.N) (r : Fin 2048) (cc : Fin 1024) :
    uacc c n h (ix2 r cc) = psum (Xn V c) (Wu V c) n r.val cc.val :=
  acc_eq_psum (uacc c) (Xn V c) (Wu V c)
    (fun t h0 r cc => by rw [huF c t h0, ustep_at, Pay.pay4_apply])
    (fun t h0 r cc => by rw [huS c t h0, ustep_at]) n h r cc

include hgF hgS huF huS hafter in
/-- What a flushing point writes back is its block of the hidden activation. -/
theorem flushed_eq (c : Dev nD) (t : Fin cfg0.N) (hf : (cfg0.win 7).flush t = true) :
    (dat c).flushed 7 t = ((cfg0.win 7).blk t).view.read (Elt Ideal) (Gout V c) := by
  have h3 : t.val % 4 = 3 := (flush0_7 t).mp hf
  show (cfg0.win 7).cut (grid0.coords t) ((dat c).after 7 t) = _
  rw [hafter c t h3]
  refine funext fun (y : S2048x1024.Idx) => ?_
  obtain ⟨r, cc, rfl⟩ : ∃ (r : Fin 2048) (cc : Fin 1024), y = ix2 r cc := ⟨y 0, y 1, eq_ix2 y⟩
  show k0_pay2 (F := Ideal) (gacc c t.val t.isLt) (uacc c t.val t.isLt) (ix2 r cc)
    = Gout V c (((cfg0.win 7).blk t).view.emb (ix2 r cc))
  rw [Gout_emb, Pay.silu_mul_apply, gacc_eq V gacc hgF hgS, uacc_eq V uacc huF huS, psum_last _ _ _ _ _ h3,
    psum_last _ _ _ _ _ h3]
  rfl

include hgF hgS huF huS hafter in
/-- THE VALUE: after the last point the output array holds the hidden activation at every (T, j). -/
theorem arrAt_out_of (c : Dev nD) (T : Fin 4096) (j : Fin 11264) :
    (dat c).arrAt 7 cfg0.N (ix2 T j)
      = hid (at2 0 (V c main_v1)) (deq (at2 0#32 (V c main_v2)) (at2 0 (V c main_v3)) (at2 0#32 (V c main_v4)))
          (deq (at2 0#32 (V c main_v5)) (at2 0 (V c main_v6)) (at2 0#32 (V c main_v7))) T.val j.val :=
  congrFun ((dat c).arrAt_eq_of_cover 7 (Gout V c) (flushed_eq V gacc uacc dat hgF hgS huF huS hafter c) cover7) (ix2 T j)

end Region

end Value

end Cert.KernelIdeal.R0
end
-- ==== Proof.KernelIdeal.R0.ValueOut.lean ====
/-
  Region 0's value, assembled. The region's frame gives the two accumulators after each point (reset and first step at
  the points ≡ 0 (mod 4), one more step from the point before elsewhere) and the block stored at the points
  ≡ 3 (mod 4), silu(gate) · up. Put into the closed form of the accumulation, they give what the output array holds
  after the last point: the hidden activation silu(x · Wg) · (x · Wu) at every (T, j), over the dequantised weights.
-/
import proofs.«413103_j549755813920_3_alg».proof.Proof.KernelIdeal.R0.Body
import proofs.«413103_j549755813920_3_alg».proof.Proof.KernelIdeal.R0.Value

set_option maxRecDepth 16384

noncomputable section

namespace Cert.KernelIdeal.R0

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- THE VALUE of region 0: after its last point the output array holds, at (T, j), silu of row T of x times column j of
    the dequantised gate weights, times row T of x times column j of the dequantised up weights. -/
theorem arrAt_out (c : Dev nD) (T : Fin 4096) (j : Fin 11264) :
    (dat (F := Ideal) V c).arrAt 7 cfg0.N (ix2 T j)
      = hid (at2 0 (V c main_v1)) (deq (at2 0#32 (V c main_v2)) (at2 0 (V c main_v3)) (at2 0#32 (V c main_v4)))
          (deq (at2 0#32 (V c main_v5)) (at2 0 (V c main_v6)) (at2 0#32 (V c main_v7))) T.val j.val :=
  Value.arrAt_out_of V (gaccAt V) (uaccAt V) (dat V)
    (fun c t h => gaccAt_first V c t h) (fun c t h => gaccAt_next V c t h)
    (fun c t h => uaccAt_first V c t h) (fun c t h => uaccAt_next V c t h)
    (fun c t h => after_out V c t h) c T j

end Cert.KernelIdeal.R0

end
-- ==== Proof.KernelIdeal.R1.Value.lean ====
/-
  The value of the second pipeline (the down projection, grid 2 × 4 × 11): what its output array holds after the
  last point, as one function of the four arrays the region reads.

  Point `t` of the 88 has row tile `i0 = t / 44`, column tile `i1 = t / 11 % 4` and reduction tile `i2 = t % 11`
  (the innermost coordinate). Its blocks are rows `2048 i0 + r`, columns `1024 i2 + kk` of the activations; rows
  `1024 i2 + kk`, word columns `128 i1 + c8` of the packed weights; all 88 group rows and columns `1024 i1 + cc` of the
  scales (word columns `128 i1 + c8` of the packed zero points), of which the body loads the eight rows
  `8 i2 … 8 i2 + 7`: the groups `(1024 i2 + kk) / 128 = 8 i2 + kk / 128` of the tile's rows. So one step adds, at
  element `(r, cc)` of the accumulator,

      Σ_{kk < 1024} a (2048 i0 + r, 1024 i2 + kk) · W (1024 i2 + kk, 1024 i1 + cc),    W = the dequantised weights,

  the terms `1024 i2 … 1024 i2 + 1023` of the contraction for output element `(2048 i0 + r, 1024 i1 + cc)`. The
  accumulator starts from zero where `i2 = 0`, so after point `t` it holds the terms below `1024 (i2 + 1)` (induction
  on the point inside its run of eleven); where `i2 = 10` that is the whole contraction over the 11264 rows, and there
  the block is written back. The 2 × 4 output blocks tile the 4096 × 4096 array, each written at the last point of
  its run, so the array ends as

      out (T, o) = Σ_{j < 11264} a (T, j) · W (j, o).
-/
import proofs.«413103_j549755813920_3_alg».proof.Proof.KernelIdeal.R1.Body
import proofs.«413103_j549755813920_3_alg».proof.Proof.KernelIdeal.Pay
import proofs.«413103_j549755813920_3_alg».proof.Proof.Spec
import Idealize.ShloMosaic.Lib.Pipeline.Value
import Idealize.ShloMosaic.Lib.ValueIdx

set_option maxRecDepth 16384

noncomputable section

open scoped BigOperators

namespace Cert.KernelIdeal.R1

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The index maps over the grid -/

/-- The printed index maps and the two row offsets, decided over the 88 points: point `t` has row tile `t / 44`,
    column tile `t / 11 % 4` and reduction tile `t % 11`. -/
theorem idx_facts : ∀ t : Fin cfg1.N,
    win1_0.index t (0 : Fin 2) = t.val / 44 ∧ win1_0.index t (1 : Fin 2) = t.val % 11
    ∧ win1_1.index t (0 : Fin 2) = t.val % 11 ∧ win1_1.index t (1 : Fin 2) = t.val / 11 % 4
    ∧ win1_2.index t (0 : Fin 2) = 0 ∧ win1_2.index t (1 : Fin 2) = t.val / 11 % 4
    ∧ win1_3.index t (0 : Fin 2) = 0 ∧ win1_3.index t (1 : Fin 2) = t.val / 11 % 4
    ∧ win1_4.index t (0 : Fin 2) = t.val / 44 ∧ win1_4.index t (1 : Fin 2) = t.val / 11 % 4
    ∧ k1_off1 (grid1.coords t) = ![8 * (t.val % 11), 0] ∧ k1_off2 (grid1.coords t) = ![8 * (t.val % 11), 0] :=
  (by decide +kernel : ∀ t : Fin grid1.N, _)

/-! ## The four arrays the region reads, at natural coordinates -/

/-- The hidden activations, 4096 × 11264. -/
abbrev actA (c : Dev nD) : ℕ → ℕ → EReal := at2 (α := EReal) (R := 4096) (C := 11264) 0 (V c main_v8)
/-- The packed weight words, 11264 × 512. -/
abbrev wordA (c : Dev nD) : ℕ → ℕ → BitVec 32 := at2 (α := BitVec 32) (R := 11264) (C := 512) 0#32 (V c main_v9)
/-- The scales, 88 × 4096. -/
abbrev scaleA (c : Dev nD) : ℕ → ℕ → EReal := at2 (α := EReal) (R := 88) (C := 4096) 0 (V c main_v10)
/-- The packed zero points, 88 × 512. -/
abbrev zeroA (c : Dev nD) : ℕ → ℕ → BitVec 32 := at2 (α := BitVec 32) (R := 88) (C := 512) 0#32 (V c main_v11)

/-! ## The blocks read at natural coordinates -/

/-- The activation block at point `t`: rows `2048 (t / 44) + r`, columns `1024 (t % 11) + kk` of the array. -/
theorem blk0_at (c : Dev nD) (t : Fin cfg1.N) (r kk : ℕ) (hr : r < 2048) (hk : kk < 1024) :
    at2 (α := EReal) 0 (iblk V c 0 t : Vec Ideal S2048x1024 .bf16) r kk
      = actA V c (2048 * (t.val / 44) + r) (1024 * (t.val % 11) + kk) := by
  obtain ⟨e0, e1, -⟩ := idx_facts t
  have ht : t.val < 88 := t.isLt
  unfold actA
  rw [at2_of_lt 0 _ hr hk, at2_of_lt (α := EReal) (R := 4096) (C := 11264) 0 (V c main_v8)
    (show 2048 * (t.val / 44) + r < 4096 by omega) (show 1024 * (t.val % 11) + kk < 11264 by omega)]
  unfold iblk
  rw [View.read_apply]
  show V c main_v8 _ = V c main_v8 _
  congr 1
  funext a
  apply Fin.ext
  match a with
  | ⟨0, _⟩ => show win1_0.index t (0 : Fin 2) * 2048 + 1 * r = 2048 * (t.val / 44) + r; rw [e0]; omega
  | ⟨1, _⟩ => show win1_0.index t (1 : Fin 2) * 1024 + 1 * kk = 1024 * (t.val % 11) + kk; rw [e1]; omega

/-- The packed-word block at point `t`: rows `1024 (t % 11) + kk`, word columns `128 (t / 11 % 4) + c8`. -/
theorem blk1_at (c : Dev nD) (t : Fin cfg1.N) (kk c8 : ℕ) (hk : kk < 1024) (hc : c8 < 128) :
    at2 (α := BitVec 32) 0#32 (iblk V c 1 t : Vec Ideal S1024x128 .i32) kk c8
      = wordA V c (1024 * (t.val % 11) + kk) (128 * (t.val / 11 % 4) + c8) := by
  obtain ⟨-, -, e0, e1, -⟩ := idx_facts t
  have ht : t.val < 88 := t.isLt
  unfold wordA
  rw [at2_of_lt 0#32 _ hk hc, at2_of_lt (α := BitVec 32) (R := 11264) (C := 512) 0#32 (V c main_v9)
    (show 1024 * (t.val % 11) + kk < 11264 by omega) (show 128 * (t.val / 11 % 4) + c8 < 512 by omega)]
  unfold iblk
  rw [View.read_apply]
  show V c main_v9 _ = V c main_v9 _
  congr 1
  funext a
  apply Fin.ext
  match a with
  | ⟨0, _⟩ => show win1_1.index t (0 : Fin 2) * 1024 + 1 * kk = 1024 * (t.val % 11) + kk; rw [e0]; omega
  | ⟨1, _⟩ => show win1_1.index t (1 : Fin 2) * 128 + 1 * c8 = 128 * (t.val / 11 % 4) + c8; rw [e1]; omega

/-- The scale block at point `t`: all 88 group rows, columns `1024 (t / 11 % 4) + cc`. -/
theorem blk2_at (c : Dev nD) (t : Fin cfg1.N) (g cc : ℕ) (hg : g < 88) (hc : cc < 1024) :
    at2 (α := EReal) 0 (iblk V c 2 t : Vec Ideal S88x1024 .f32) g cc
      = scaleA V c g (1024 * (t.val / 11 % 4) + cc) := by
  obtain ⟨-, -, -, -, e0, e1, -⟩ := idx_facts t
  have ht : t.val < 88 := t.isLt
  unfold scaleA
  rw [at2_of_lt 0 _ hg hc, at2_of_lt (α := EReal) (R := 88) (C := 4096) 0 (V c main_v10)
    hg (show 1024 * (t.val / 11 % 4) + cc < 4096 by omega)]
  unfold iblk
  rw [View.read_apply]
  show V c main_v10 _ = V c main_v10 _
  congr 1
  funext a
  apply Fin.ext
  match a with
  | ⟨0, _⟩ => show win1_2.index t (0 : Fin 2) * 88 + 1 * g = g; rw [e0]; omega
  | ⟨1, _⟩ => show win1_2.index t (1 : Fin 2) * 1024 + 1 * cc = 1024 * (t.val / 11 % 4) + cc; rw [e1]; omega

/-- The zero-point block at point `t`: all 88 group rows, word columns `128 (t / 11 % 4) + c8`. -/
theorem blk3_at (c : Dev nD) (t : Fin cfg1.N) (g c8 : ℕ) (hg : g < 88) (hc : c8 < 128) :
    at2 (α := BitVec 32) 0#32 (iblk V c 3 t : Vec Ideal S88x128 .i32) g c8
      = zeroA V c g (128 * (t.val / 11 % 4) + c8) := by
  obtain ⟨-, -, -, -, -, -, e0, e1, -⟩ := idx_facts t
  have ht : t.val < 88 := t.isLt
  unfold zeroA
  rw [at2_of_lt 0#32 _ hg hc, at2_of_lt (α := BitVec 32) (R := 88) (C := 512) 0#32 (V c main_v11)
    hg (show 128 * (t.val / 11 % 4) + c8 < 512 by omega)]
  unfold iblk
  rw [View.read_apply]
  show V c main_v11 _ = V c main_v11 _
  congr 1
  funext a
  apply Fin.ext
  match a with
  | ⟨0, _⟩ => show win1_3.index t (0 : Fin 2) * 88 + 1 * g = g; rw [e0]; omega
  | ⟨1, _⟩ => show win1_3.index t (1 : Fin 2) * 128 + 1 * c8 = 128 * (t.val / 11 % 4) + c8; rw [e1]; omega

/-! ## The eight group rows the body loads -/

/-- Eight rows of the zero-point block loaded at row offset `m`: row `g` of the load is row `m + g` of the block. -/
theorem ld_zero_rows (x : Vec Ideal S88x128 .i32) (off : Fin 2 → ℕ) (inb : ∀ a, off a + S8x128.size a ≤ S88x128.size a)
    (m : ℕ) (hoff : off = ![m, 0]) (g c8 : ℕ) (hg : g < 8) (hc : c8 < 128) :
    at2 (α := BitVec 32) 0#32 (View.ld x (Rect.unit (s := S88x128) off S8x128.size inb)) g c8 = at2 0#32 x (m + g) c8 := by
  subst hoff
  have hm : m + 8 ≤ 88 := inb 0
  rw [at2_of_lt 0#32 _ hg hc, at2_of_lt 0#32 x (show m + g < 88 by omega) hc]
  show x _ = x _
  congr 1
  funext a
  apply Fin.ext
  match a with
  | ⟨0, _⟩ => show m + 1 * g = m + g; omega
  | ⟨1, _⟩ => show 0 + 1 * c8 = c8; omega

/-- Eight rows of the scale block loaded at row offset `m`. -/
theorem ld_scale_rows (x : Vec Ideal S88x1024 .f32) (off : Fin 2 → ℕ) (inb : ∀ a, off a + S8x1024.size a ≤ S88x1024.size a)
    (m : ℕ) (hoff : off = ![m, 0]) (g cc : ℕ) (hg : g < 8) (hc : cc < 1024) :
    at2 (α := EReal) 0 (View.ld x (Rect.unit (s := S88x1024) off S8x1024.size inb)) g cc = at2 0 x (m + g) cc := by
  subst hoff
  have hm : m + 8 ≤ 88 := inb 0
  rw [at2_of_lt 0 _ hg hc, at2_of_lt 0 x (show m + g < 88 by omega) hc]
  show x _ = x _
  congr 1
  funext a
  apply Fin.ext
  match a with
  | ⟨0, _⟩ => show m + 1 * g = m + g; omega
  | ⟨1, _⟩ => show 0 + 1 * cc = cc; omega

/-! ## One step of the accumulation at an element -/

/-- The term of the contraction: activation `(T, k)` times the dequantised weight `(k, o)`. -/
abbrev term (c : Dev nD) (T o k : ℕ) : EReal :=
  actA V c T k * deq (wordA V c) (scaleA V c) (zeroA V c) k o

/-- The dequantised weight at row `1024 i2 + kk`, column `1024 i1 + cc`: its word is at word column
    `128 i1 + cc / 8`, nibble `cc % 8`, and its group is `8 i2 + kk / 128`. -/
theorem deq_tile (qw : ℕ → ℕ → BitVec 32) (sc : ℕ → ℕ → EReal) (qz : ℕ → ℕ → BitVec 32) (i1 i2 kk cc : ℕ) :
    deq qw sc qz (1024 * i2 + kk) (1024 * i1 + cc)
      = (nib (qw (1024 * i2 + kk) (128 * i1 + cc / 8)) (cc % 8) - nib (qz (8 * i2 + kk / 128) (128 * i1 + cc / 8)) (cc % 8))
          * sc (8 * i2 + kk / 128) (1024 * i1 + cc) := by
  unfold deq
  rw [show (1024 * i1 + cc) / 8 = 128 * i1 + cc / 8 by omega, show (1024 * i1 + cc) % 8 = cc % 8 by omega,
    show (1024 * i2 + kk) / 128 = 8 * i2 + kk / 128 by omega]

/-- At point `t`, element `(r, cc)` of the block: the step adds the 1024 terms of reduction tile `t % 11` of output
    element `(2048 (t / 44) + r, 1024 (t / 11 % 4) + cc)`. -/
theorem step_apply (c : Dev nD) (t : Fin cfg1.N) (acc : Vec Ideal S2048x1024 .f32) (r : Fin 2048) (cc : Fin 1024) :
    step (iblk V c 0 t) (iblk V c 1 t) (iblk V c 2 t) (iblk V c 3 t) (grid1.coords t) acc (ix2 r cc)
      = acc (ix2 r cc) + ∑ kk ∈ Finset.range 1024,
          term V c (2048 * (t.val / 44) + r.val) (1024 * (t.val / 11 % 4) + cc.val) (1024 * (t.val % 11) + kk) := by
  obtain ⟨-, -, -, -, -, -, -, -, -, -, o1, o2⟩ := idx_facts t
  have ht : t.val < 88 := t.isLt
  have hr := r.isLt
  have hc := cc.isLt
  unfold step
  rw [Pay.dstep_apply]
  refine congrArg (acc (ix2 r cc) + ·) (Finset.sum_congr rfl fun kk hkk => ?_)
  have hk : kk < 1024 := Finset.mem_range.mp hkk
  unfold term
  rw [deq_tile, blk0_at V c t r.val kk hr hk, blk1_at V c t kk (cc.val / 8) hk (by omega),
    ld_zero_rows _ _ _ (8 * (t.val % 11)) o1 (kk / 128) (cc.val / 8) (by omega) (by omega),
    blk3_at V c t (8 * (t.val % 11) + kk / 128) (cc.val / 8) (by omega) (by omega),
    ld_scale_rows _ _ _ (8 * (t.val % 11)) o2 (kk / 128) cc.val (by omega) hc,
    blk2_at V c t (8 * (t.val % 11) + kk / 128) cc.val (by omega) hc]

/-! ## The accumulation -/

/-- THE ACCUMULATION. After point `n` the accumulator holds, at `(r, cc)`, the sum of the terms of reduction tiles
    `0 … n % 11` of the output element `(2048 (n / 44) + r, 1024 (n / 11 % 4) + cc)`: the first point of a run starts
    from zero, every later one adds its tile to what the point before left. -/
theorem acc_eq (c : Dev nD) (n : ℕ) : ∀ (h : n < cfg1.N) (r : Fin 2048) (cc : Fin 1024),
    accAt V c n h (ix2 r cc)
      = ∑ k ∈ Finset.range (1024 * (n % 11 + 1)),
          term V c (2048 * (n / 44) + r.val) (1024 * (n / 11 % 4) + cc.val) k := by
  induction n using Nat.strong_induction_on with
  | _ n ih =>
    intro h r cc
    have hN : n < 88 := h
    rw [sum_range_succ_block]
    by_cases h0 : n % 11 = 0
    · rw [accAt_first V c ⟨n, h⟩ h0, step_apply, Pay.k1_pay2_apply]
      dsimp only
      rw [h0, Nat.mul_zero, Finset.sum_range_zero]
    · rw [accAt_next V c ⟨n, h⟩ h0, step_apply]
      dsimp only
      rw [ih (n - 1) (by omega) (by show n - 1 < 88; omega) r cc,
        show (n - 1) / 44 = n / 44 by omega, show (n - 1) / 11 % 4 = n / 11 % 4 by omega,
        show (n - 1) % 11 + 1 = n % 11 by omega]

/-! ## The array the region leaves -/

/-- The output array as one function of the four arrays read: the full contraction over the 11264 rows. -/
def outG (c : Dev nD) : Vec Ideal S4096x4096 .f32 :=
  fun i => ∑ j ∈ Finset.range 11264, term V c (i 0).val (i 1).val j

/-- At the last reduction tile of a run the accumulator's element `(r, cc)` is `outG` at the element's place in
    the array: all eleven tiles have been added. -/
theorem acc_last (c : Dev nD) (t : Fin cfg1.N) (h10 : t.val % 11 = 10) (r : Fin 2048) (cc : Fin 1024) :
    accAt V c t.val t.isLt (ix2 r cc) = outG V c (((cfg1.win 4).blk t).view.emb (ix2 r cc)) := by
  obtain ⟨-, -, -, -, -, -, -, -, e0, e1, -⟩ := idx_facts t
  have a0 : ((((cfg1.win 4).blk t).view.emb (ix2 r cc)) 0).val = 2048 * (t.val / 44) + r.val := by
    show win1_4.index t (0 : Fin 2) * 2048 + 1 * r.val = _; rw [e0]; omega
  have a1 : ((((cfg1.win 4).blk t).view.emb (ix2 r cc)) 1).val = 1024 * (t.val / 11 % 4) + cc.val := by
    show win1_4.index t (1 : Fin 2) * 1024 + 1 * cc.val = _; rw [e1]; omega
  show _ = ∑ j ∈ Finset.range 11264, term V c ((((cfg1.win 4).blk t).view.emb (ix2 r cc)) 0).val
        ((((cfg1.win 4).blk t).view.emb (ix2 r cc)) 1).val j
  rw [a0, a1, acc_eq, h10]

/-- WHAT A FLUSHING POINT WRITES BACK (the last reduction tile of a run) is its block of `outG`. -/
theorem flushed_out (c : Dev nD) (t : Fin cfg1.N) (hf : (cfg1.win 4).flush t = true) :
    (dat V c).flushed 4 t = ((cfg1.win 4).blk t).view.read (Elt Ideal) (outG V c) := by
  have h10 : t.val % 11 = 10 := (flush1_4 t).mp hf
  show (cfg1.win 4).cut (grid1.coords t) ((dat V c).after 4 t) = _
  rw [after_out V c t h10]
  funext y
  rw [View.read_apply, eq_ix2 (n0 := 2048) (n1 := 1024) y]
  exact acc_last V c t h10 (y 0) (y 1)

/-- An index of the output array is in point `t`'s block iff each coordinate is in the block's range on its axis. -/
theorem mem_blk_out (t : Fin cfg1.N) (i : S4096x4096.Idx) :
    i ∈ ((cfg1.win 4).blk t).view.set ↔ ∀ a : Fin 2, win1_4.index t a * S2048x1024.size a ≤ (i a).val
      ∧ (i a).val < win1_4.index t a * S2048x1024.size a + S2048x1024.size a := by
  show i ∈ ((View.whole main_v12).slice (win1_4.rect t)).set ↔ _
  rw [View.set_slice_whole, Rect.mem_set_unit]
  exact Iff.rfl

/-- THE COVER: element `(T, o)` lies in the block of the flushing point with row tile `T / 2048`, column tile
    `o / 1024` and the last reduction tile. -/
theorem cover_out (i : S4096x4096.Idx) :
    ∃ t : Fin cfg1.N, (cfg1.win 4).flush t = true ∧ i ∈ ((cfg1.win 4).blk t).view.set := by
  have h0 : (i 0).val < 4096 := (i 0).isLt
  have h1 : (i 1).val < 4096 := (i 1).isLt
  obtain ⟨t, ht⟩ : ∃ t : Fin cfg1.N, t.val = 44 * ((i 0).val / 2048) + 11 * ((i 1).val / 1024) + 10 :=
    ⟨⟨44 * ((i 0).val / 2048) + 11 * ((i 1).val / 1024) + 10, by show _ < 88; omega⟩, rfl⟩
  obtain ⟨-, -, -, -, -, -, -, -, e0, e1, -⟩ := idx_facts t
  refine ⟨t, (flush1_4 t).mpr (by omega), ?_⟩
  rw [mem_blk_out]
  intro a
  match a with
  | ⟨0, _⟩ =>
    show win1_4.index t (0 : Fin 2) * 2048 ≤ (i 0).val ∧ (i 0).val < win1_4.index t (0 : Fin 2) * 2048 + 2048
    rw [e0]; omega
  | ⟨1, _⟩ =>
    show win1_4.index t (1 : Fin 2) * 1024 ≤ (i 1).val ∧ (i 1).val < win1_4.index t (1 : Fin 2) * 1024 + 1024
    rw [e1]; omega

/-- THE ARRAY after the region: `outG` of the arrays as the region finds them. -/
theorem arrAt_eq (c : Dev nD) : (dat (F := Ideal) V c).arrAt 4 cfg1.N = outG V c :=
  (dat V c).arrAt_eq_of_cover 4 (outG V c) (flushed_out V c) cover_out

/-- Element `(T, o)` of it: the activations' row `T` contracted with column `o` of the dequantised weights. -/
theorem arrAt_out (c : Dev nD) (T : Fin 4096) (o : Fin 4096) :
    (dat (F := Ideal) V c).arrAt 4 cfg1.N (ix2 T o)
      = ∑ j ∈ Finset.range 11264, actA V c T.val j * deq (wordA V c) (scaleA V c) (zeroA V c) j o.val := by
  rw [arrAt_eq]
  rfl

end Cert.KernelIdeal.R1

end
-- ==== Proof.Bridge.lean ====
/-
  The padded down-projection is the unpadded one.

  The intermediate dimension 11008 is padded to 11264 with zero words and zero scales. Read through accessors that give
  0 outside an array's extents, the padded tables are the unpadded ones, and a dequantised entry `(q − z) · s` whose scale
  is 0 is 0 whatever its nibbles are. So every term `h · w` of the sum over `11008 ≤ j < 11264` is `h · 0 = 0`, whatever
  `h` is there (in the extended reals `a · 0 = 0` for every `a`), and the sum over 11264 terms is the sum over the first
  11008, which is the output of the specification.
-/
import proofs.«413103_j549755813920_3_alg».proof.Proof.Spec

noncomputable section

open scoped BigOperators

namespace Cert.Bridge

open Cert.Spec Idealize.ShloMosaic Idealize.ShloMosaic.ValueIdx

/-- Every nibble of the zero word is 0. -/
theorem nib_zero (s : ℕ) : nib 0#32 s = 0 := by
  unfold nib
  rw [BitVec.zero_sshiftRight, BitVec.zero_and]
  simp

/-- A dequantised entry with the zero scale is 0. -/
theorem deq_eq_zero_of_tail (qw : ℕ → ℕ → BitVec 32) (sc : ℕ → ℕ → EReal) (qz : ℕ → ℕ → BitVec 32) (k j : ℕ)
    (hsc : sc (k / 128) j = 0) : deq qw sc qz k j = 0 := by
  unfold deq
  rw [hsc, mul_zero]

/-- Beyond row 11008 the group index is at least 86, outside the scales' extents: the scale read there is the
    default 0, so the dequantised entry is 0. -/
theorem deq_at2_tail (qw : (⟨2, ![11008, 512]⟩ : Shape).Idx → BitVec 32) (sc : (⟨2, ![86, 4096]⟩ : Shape).Idx → EReal)
    (qz : (⟨2, ![86, 512]⟩ : Shape).Idx → BitVec 32) (j o : ℕ) (hj : 11008 ≤ j) :
    deq (at2 0#32 qw) (at2 0 sc) (at2 0#32 qz) j o = 0 := by
  refine deq_eq_zero_of_tail _ _ _ j o ?_
  unfold at2
  rw [dif_neg (by omega)]

/-- The sum over the padded range is the specification's output: the last 256 terms vanish, and on the first 11008
    the left factor is the hidden activation. -/
theorem out_of_padded (x wg wu : ℕ → ℕ → EReal) (qw : (⟨2, ![11008, 512]⟩ : Shape).Idx → BitVec 32)
    (sc : (⟨2, ![86, 4096]⟩ : Shape).Idx → EReal) (qz : (⟨2, ![86, 512]⟩ : Shape).Idx → BitVec 32)
    (h : ℕ → ℕ → EReal) (hh : ∀ T j, j < 11008 → h T j = hid x wg wu T j) (T o : ℕ) :
    ∑ j ∈ Finset.range 11264, h T j * deq (at2 0#32 qw) (at2 0 sc) (at2 0#32 qz) j o
      = out x wg wu (deq (at2 0#32 qw) (at2 0 sc) (at2 0#32 qz)) T o := by
  unfold out
  show ∑ j ∈ Finset.range (11008 + 256), h T j * deq (at2 0#32 qw) (at2 0 sc) (at2 0#32 qz) j o = _
  rw [sum_range_pad _ 11008 256 (fun j hj _ => by rw [deq_at2_tail qw sc qz j o hj, mul_zero])]
  exact Finset.sum_congr rfl fun j hj => by rw [hh T j (Finset.mem_range.mp hj)]

end Cert.Bridge

end
-- ==== Proof.KernelIdeal.Result.lean ====
/-
  The kernel program's result at the ideal values is the specification.

  The result buffer is the second kernel's output array with its 4096 rows split back into 2 × 2048. That array is,
  entry by entry, the sum over the 11264 padded intermediate positions of the first kernel's output times the
  dequantised down weights; the first kernel's output is the hidden activation silu(x·Wg)·(x·Wu); the padded tables read
  through accessors that return zero outside an array's extents ARE the unpadded ones; and beyond position 11008 the down
  weights' scale is zero, so the last 256 terms vanish and the sum is the specification's sum over 11008.
-/
import proofs.«413103_j549755813920_3_alg».proof.Proof.KernelIdeal.Frame
import proofs.«413103_j549755813920_3_alg».proof.Proof.KernelIdeal.HostVals
import proofs.«413103_j549755813920_3_alg».proof.Proof.KernelIdeal.R0.ValueOut
import proofs.«413103_j549755813920_3_alg».proof.Proof.KernelIdeal.R1.Value
import proofs.«413103_j549755813920_3_alg».proof.Proof.Bridge

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ)

/-- The ten argument arrays at launch, at their literal types. -/
abbrev a0 (c : Dev nD) : (⟨3, ![2, 2048, 4096]⟩ : Shape).Idx → EReal := m ((c.tc : Thread nD τ).loc main_arg0)
abbrev a1 (c : Dev nD) : (⟨2, ![4096, 1376]⟩ : Shape).Idx → BitVec 32 := m ((c.tc : Thread nD τ).loc main_arg1)
abbrev a2 (c : Dev nD) : (⟨2, ![32, 11008]⟩ : Shape).Idx → EReal := m ((c.tc : Thread nD τ).loc main_arg2)
abbrev a3 (c : Dev nD) : (⟨2, ![32, 1376]⟩ : Shape).Idx → BitVec 32 := m ((c.tc : Thread nD τ).loc main_arg3)
abbrev a4 (c : Dev nD) : (⟨2, ![4096, 1376]⟩ : Shape).Idx → BitVec 32 := m ((c.tc : Thread nD τ).loc main_arg4)
abbrev a5 (c : Dev nD) : (⟨2, ![32, 11008]⟩ : Shape).Idx → EReal := m ((c.tc : Thread nD τ).loc main_arg5)
abbrev a6 (c : Dev nD) : (⟨2, ![32, 1376]⟩ : Shape).Idx → BitVec 32 := m ((c.tc : Thread nD τ).loc main_arg6)
abbrev a7 (c : Dev nD) : (⟨2, ![11008, 512]⟩ : Shape).Idx → BitVec 32 := m ((c.tc : Thread nD τ).loc main_arg7)
abbrev a8 (c : Dev nD) : (⟨2, ![86, 4096]⟩ : Shape).Idx → EReal := m ((c.tc : Thread nD τ).loc main_arg8)
abbrev a9 (c : Dev nD) : (⟨2, ![86, 512]⟩ : Shape).Idx → BitVec 32 := m ((c.tc : Thread nD τ).loc main_arg9)

/-- The first kernel's output array after its last point. -/
abbrev hidA (c : Dev nD) : (⟨2, ![4096, 11264]⟩ : Shape).Idx → EReal := (Fr.D0 m c).arrAt 7 cfg0.N

/-- Entry by entry it is the hidden activation of the launch arrays. -/
theorem hidA_apply (c : Dev nD) (T : Fin 4096) (j : Fin 11264) :
    hidA m c (ix2 T j) = hid (xrow (a0 m c)) (deq (at2 0#32 (a1 m c)) (at2 (0 : EReal) (a2 m c)) (at2 0#32 (a3 m c)))
      (deq (at2 0#32 (a4 m c)) (at2 (0 : EReal) (a5 m c)) (at2 0#32 (a6 m c))) T.val j.val := by
  show (R0.dat (F := Ideal) (Run.VA m) c).arrAt 7 cfg0.N (ix2 T j) = _
  rw [R0.arrAt_out (Run.VA m) c T j]
  have e1 : at2 (0 : EReal) (Run.VA m c main_v1) = xrow (a0 m c) := by
    funext t k; exact HostVals.v1_at m c t k
  rw [e1, HostVals.v2_at m c, HostVals.v3_at m c, HostVals.v4_at m c, HostVals.v5_at m c, HostVals.v6_at m c, HostVals.v7_at m c]

/-- THE RESULT: the last valuation's result buffer is the specification of the launch arrays. -/
theorem result_eq (c : Dev nD) :
    V21 m (Fr.outs m) c main_v13 = G (a0 m c) (a1 m c) (a2 m c) (a3 m c) (a4 m c) (a5 m c) (a6 m c) (a7 m c) (a8 m c) (a9 m c) := by
  funext i
  obtain ⟨b, r, o, rfl⟩ : ∃ (b : Fin 2) (r : Fin 2048) (o : Fin 4096), i = ix3 b r o := ⟨i 0, i 1, i 2, eq_ix3 i⟩
  have hb := b.isLt; have hr := r.isLt
  have hT : 2048 * b.val + r.val < 4096 := by omega
  rw [HostVals.v13_apply m (Fr.outs m) c b r o]
  rw [show Fr.outs m 20 main_v12 c = (Fr.D1 m c).arrAt 4 cfg1.N from Run.outs20 m (Fr.D0 m) (Fr.D1 m) c]
  show (R1.dat (F := Ideal) (Run.VB m (Fr.D0 m)) c).arrAt 4 cfg1.N (ix2 ⟨2048 * b.val + r.val, hT⟩ o) = _
  rw [R1.arrAt_out (Run.VB m (Fr.D0 m)) c ⟨2048 * b.val + r.val, hT⟩ o]
  -- the second kernel's entry arrays: the first kernel's output, and the padded down tables
  have e8 : Run.VB m (Fr.D0 m) c main_v8 = hidA m c :=
    (HostVals.v8_eq m (Run.outsA m (Fr.D0 m)) c).trans (Run.outsA13 m (Fr.D0 m) c)
  have e9 : at2 0#32 (Run.VB m (Fr.D0 m) c main_v9) = at2 0#32 (a7 m c) := HostVals.v9_at m (Run.outsA m (Fr.D0 m)) c
  have e10 : at2 (0 : EReal) (Run.VB m (Fr.D0 m) c main_v10) = at2 (0 : EReal) (a8 m c) := HostVals.v10_at m (Run.outsA m (Fr.D0 m)) c
  have e11 : at2 0#32 (Run.VB m (Fr.D0 m) c main_v11) = at2 0#32 (a9 m c) := HostVals.v11_at m (Run.outsA m (Fr.D0 m)) c
  show ∑ j ∈ Finset.range 11264, at2 (0 : EReal) (Run.VB m (Fr.D0 m) c main_v8) (2048 * b.val + r.val) j
      * deq (at2 0#32 (Run.VB m (Fr.D0 m) c main_v9)) (at2 0 (Run.VB m (Fr.D0 m) c main_v10)) (at2 0#32 (Run.VB m (Fr.D0 m) c main_v11)) j o.val = _
  rw [e8, e9, e10, e11]
  -- the hidden activations: the first kernel's array on the rows that exist
  let x := xrow (a0 m c)
  let wg := deq (at2 0#32 (a1 m c)) (at2 (0 : EReal) (a2 m c)) (at2 0#32 (a3 m c))
  let wu := deq (at2 0#32 (a4 m c)) (at2 (0 : EReal) (a5 m c)) (at2 0#32 (a6 m c))
  let h : ℕ → ℕ → EReal := fun T j => if T < 4096 then at2 (0 : EReal) (hidA m c) T j else hid x wg wu T j
  have hh : ∀ T j, j < 11008 → h T j = hid x wg wu T j := by
    intro T j hj
    show (if T < 4096 then at2 (0 : EReal) (hidA m c) T j else hid x wg wu T j) = _
    split
    · rename_i hT'
      rw [at2_of_lt (0 : EReal) (hidA m c) hT' (show j < 11264 by omega)]
      exact hidA_apply m c ⟨T, hT'⟩ ⟨j, by omega⟩
    · rfl
  have hsum : ∑ j ∈ Finset.range 11264, at2 (0 : EReal) (hidA m c) (2048 * b.val + r.val) j
        * deq (at2 0#32 (a7 m c)) (at2 (0 : EReal) (a8 m c)) (at2 0#32 (a9 m c)) j o.val
      = ∑ j ∈ Finset.range 11264, h (2048 * b.val + r.val) j
        * deq (at2 0#32 (a7 m c)) (at2 (0 : EReal) (a8 m c)) (at2 0#32 (a9 m c)) j o.val := by
    refine Finset.sum_congr rfl fun j _ => ?_
    show _ = (if 2048 * b.val + r.val < 4096 then at2 (0 : EReal) (hidA m c) (2048 * b.val + r.val) j else hid x wg wu (2048 * b.val + r.val) j) * _
    rw [if_pos hT]
  rw [hsum, Bridge.out_of_padded x wg wu (a7 m c) (a8 m c) (a9 m c) h hh (2048 * b.val + r.val) o.val]
  rfl

end Cert.KernelIdeal.Result

end
-- ==== Proof.RefTerm.lean ====
/-
  The reference's result as a function of its ten argument arrays, stage by stage.

  The reference computes a gated feed-forward block over 4-bit quantised weights. Each weight matrix
  is stored eight 4-bit fields to a 32-bit word along its second axis: field `k` of a word `w` is
  `(w >>ₛ 4k) &&& 15`, and the fields of one row, word after word, are the row of the unpacked matrix.
  A matrix is de-quantised group by group of 128 rows: `(unpack q − rep (unpack z)) * rep s`, where
  `rep` repeats each row of the per-group table 128 times. With `x` the activations flattened to
  4096 rows, the result is `((silu (x · Wg)) * (x · Wu)) · Wd`, reshaped back to 2 × 2048 rows, where
  `silu g = g * (1 / (1 + exp (−g)))`.

  Every stage below is the composition of the same pure operations, in the same order and with the
  same operands, as the corresponding lines of the reference program.
-/
import proofs.«413103_j549755813920_3_alg».proof.Proof.Gen.ReferenceIdeal

noncomputable section

namespace Cert.ReferenceIdeal.RefTerm

open Cert.ReferenceIdeal Idealize.ShloMosaic
open Cert.ReferenceIdeal.Facts₀ Cert.ReferenceIdeal.Facts

variable {F : FTy → Type} [FloatOps F]

/-! ## The shift amounts -/

/-- The eight shift amounts `0, 4, …, 28`: field `k` of a word sits at bit `4k`. -/
def shifts : IVec S8 32 := fun i => lit0 (S8.rowMajor i)

/-- The shift amounts along the last axis of a `1 × 1 × 8` array. -/
def shifts3 : IVec S1x1x8 32 := broadcastInDim S1x1x8 ![2] bcast_S8_S1x1x8_2 shifts

/-! ## The gate and up weights: 4096 × 1376 words, 4096 × 11008 fields -/

/-- The words, each repeated along a new last axis of length eight. -/
def wordsW (q : IVec S4096x1376 32) : IVec S4096x1376x8 32 :=
  broadcastInDim S4096x1376x8 ![0, 1, 2] bcast_S4096x1376x1_S4096x1376x8_0_1_2
    (broadcastInDim S4096x1376x1 ![0, 1] bcast_S4096x1376_S4096x1376x1_0_1 q)

/-- The fields of every word: `(w >>ₛ 4k) &&& 15` at `(i, j, k)`. -/
def fieldsW (q : IVec S4096x1376 32) : IVec S4096x1376x8 32 :=
  andi
    (Host.shrsi (wordsW q) (broadcastInDim S4096x1376x8 ![0, 1, 2] bcast_S1x1x8_S4096x1376x8_0_1_2 shifts3))
    (broadcastInDim S4096x1376x8 ![] bcast_S_S4096x1376x8 (constantI S_ 32 15#32))

/-- The unpacked matrix: the fields of a row word after word, as floats. -/
def unpackW (q : IVec S4096x1376 32) : FVec F S4096x11008 .f32 :=
  sitofp (F := F) .f32 (shapeCast S4096x11008 (fieldsW q) shapeCasts_S4096x1376x8_S4096x11008)

/-! ## Their zero points: 32 × 1376 words, 32 × 11008 fields -/

def wordsZ (q : IVec S32x1376 32) : IVec S32x1376x8 32 :=
  broadcastInDim S32x1376x8 ![0, 1, 2] bcast_S32x1376x1_S32x1376x8_0_1_2
    (broadcastInDim S32x1376x1 ![0, 1] bcast_S32x1376_S32x1376x1_0_1 q)

def fieldsZ (q : IVec S32x1376 32) : IVec S32x1376x8 32 :=
  andi
    (Host.shrsi (wordsZ q) (broadcastInDim S32x1376x8 ![0, 1, 2] bcast_S1x1x8_S32x1376x8_0_1_2 shifts3))
    (broadcastInDim S32x1376x8 ![] bcast_S_S32x1376x8 (constantI S_ 32 15#32))

def unpackZ (q : IVec S32x1376 32) : FVec F S32x11008 .f32 :=
  sitofp (F := F) .f32 (shapeCast S32x11008 (fieldsZ q) shapeCasts_S32x1376x8_S32x11008)

/-- Each of the 32 rows repeated 128 times: row `r` of the result is row `r / 128` of `z`. -/
def rep128 (z : FVec F S32x11008 .f32) : FVec F S4096x11008 .f32 :=
  shapeCast S4096x11008
    (broadcastInDim S32x128x11008 ![0, 2] bcast_S32x11008_S32x128x11008_0_2 z)
    shapeCasts_S32x128x11008_S4096x11008

/-- A de-quantised gate or up matrix: `(unpack q − rep (unpack z)) * rep s`. -/
def deqGU (q : IVec S4096x1376 32) (sc : FVec F S32x11008 .f32) (z : IVec S32x1376 32) :
    FVec F S4096x11008 .f32 :=
  mulf (subf (unpackW (F := F) q) (rep128 (unpackZ (F := F) z))) (rep128 sc)

/-! ## The down weights: 11008 × 512 words, 11008 × 4096 fields -/

def wordsWd (q : IVec S11008x512 32) : IVec S11008x512x8 32 :=
  broadcastInDim S11008x512x8 ![0, 1, 2] bcast_S11008x512x1_S11008x512x8_0_1_2
    (broadcastInDim S11008x512x1 ![0, 1] bcast_S11008x512_S11008x512x1_0_1 q)

def fieldsWd (q : IVec S11008x512 32) : IVec S11008x512x8 32 :=
  andi
    (Host.shrsi (wordsWd q) (broadcastInDim S11008x512x8 ![0, 1, 2] bcast_S1x1x8_S11008x512x8_0_1_2 shifts3))
    (broadcastInDim S11008x512x8 ![] bcast_S_S11008x512x8 (constantI S_ 32 15#32))

def unpackWd (q : IVec S11008x512 32) : FVec F S11008x4096 .f32 :=
  sitofp (F := F) .f32 (shapeCast S11008x4096 (fieldsWd q) shapeCasts_S11008x512x8_S11008x4096)

/-! ## Their zero points: 86 × 512 words, 86 × 4096 fields -/

def wordsZd (q : IVec S86x512 32) : IVec S86x512x8 32 :=
  broadcastInDim S86x512x8 ![0, 1, 2] bcast_S86x512x1_S86x512x8_0_1_2
    (broadcastInDim S86x512x1 ![0, 1] bcast_S86x512_S86x512x1_0_1 q)

def fieldsZd (q : IVec S86x512 32) : IVec S86x512x8 32 :=
  andi
    (Host.shrsi (wordsZd q) (broadcastInDim S86x512x8 ![0, 1, 2] bcast_S1x1x8_S86x512x8_0_1_2 shifts3))
    (broadcastInDim S86x512x8 ![] bcast_S_S86x512x8 (constantI S_ 32 15#32))

def unpackZd (q : IVec S86x512 32) : FVec F S86x4096 .f32 :=
  sitofp (F := F) .f32 (shapeCast S86x4096 (fieldsZd q) shapeCasts_S86x512x8_S86x4096)

/-- Each of the 86 rows repeated 128 times. -/
def rep128d (z : FVec F S86x4096 .f32) : FVec F S11008x4096 .f32 :=
  shapeCast S11008x4096
    (broadcastInDim S86x128x4096 ![0, 2] bcast_S86x4096_S86x128x4096_0_2 z)
    shapeCasts_S86x128x4096_S11008x4096

/-- The de-quantised down matrix. -/
def deqD (q : IVec S11008x512 32) (sc : FVec F S86x4096 .f32) (z : IVec S86x512 32) :
    FVec F S11008x4096 .f32 :=
  mulf (subf (unpackWd (F := F) q) (rep128d (unpackZd (F := F) z))) (rep128d sc)

/-! ## The activations and the block -/

/-- The activations with their two leading axes merged: 2 × 2048 rows become 4096. -/
def xflat (a0 : FVec F S2x2048x4096 .f32) : FVec F S4096x4096 .f32 :=
  shapeCast S4096x4096 a0 shapeCasts_S2x2048x4096_S4096x4096

/-- The constant one at every index. -/
def ones : FVec F S4096x11008 .f32 :=
  broadcastInDim S4096x11008 ![] bcast_S_S4096x11008 (constant (F := F) S_ .f32 0x3F800000#32)

/-- `silu g = g * (1 / (1 + exp (−g)))`, elementwise. -/
def siluT (g : FVec F S4096x11008 .f32) : FVec F S4096x11008 .f32 :=
  mulf g (Host.divf (F := F) (ones (F := F))
    (addf (ones (F := F)) (Host.exp (F := F) (Host.negf (F := F) g))))

/-- `x · Wg`. -/
def gate (a0 : FVec F S2x2048x4096 .f32) (a1 : IVec S4096x1376 32) (a2 : FVec F S32x11008 .f32)
    (a3 : IVec S32x1376 32) : FVec F S4096x11008 .f32 :=
  Host.dotGeneral (F := F) dot_S4096x4096_S4096x11008_S4096x11008_1_0_0_1_n_n none (xflat a0) (deqGU a1 a2 a3)

/-- `x · Wu`. -/
def up (a0 : FVec F S2x2048x4096 .f32) (a4 : IVec S4096x1376 32) (a5 : FVec F S32x11008 .f32)
    (a6 : IVec S32x1376 32) : FVec F S4096x11008 .f32 :=
  Host.dotGeneral (F := F) dot_S4096x4096_S4096x11008_S4096x11008_1_0_0_1_n_n none (xflat a0) (deqGU a4 a5 a6)

/-- `silu (x · Wg) * (x · Wu)`. -/
def hidden (a0 : FVec F S2x2048x4096 .f32) (a1 : IVec S4096x1376 32) (a2 : FVec F S32x11008 .f32)
    (a3 : IVec S32x1376 32) (a4 : IVec S4096x1376 32) (a5 : FVec F S32x11008 .f32) (a6 : IVec S32x1376 32) :
    FVec F S4096x11008 .f32 :=
  mulf (siluT (gate a0 a1 a2 a3)) (up a0 a4 a5 a6)

/-- `hidden · Wd`, 4096 rows. -/
def outFlat (a0 : FVec F S2x2048x4096 .f32) (a1 : IVec S4096x1376 32) (a2 : FVec F S32x11008 .f32)
    (a3 : IVec S32x1376 32) (a4 : IVec S4096x1376 32) (a5 : FVec F S32x11008 .f32) (a6 : IVec S32x1376 32)
    (a7 : IVec S11008x512 32) (a8 : FVec F S86x4096 .f32) (a9 : IVec S86x512 32) : FVec F S4096x4096 .f32 :=
  Host.dotGeneral (F := F) dot_S4096x11008_S11008x4096_S4096x4096_1_0_0_1_n_n none
    (hidden a0 a1 a2 a3 a4 a5 a6) (deqD a7 a8 a9)

/-- The reference's result: `outFlat` with its rows split back into 2 × 2048. -/
def refOut (a0 : FVec F S2x2048x4096 .f32) (a1 : IVec S4096x1376 32) (a2 : FVec F S32x11008 .f32)
    (a3 : IVec S32x1376 32) (a4 : IVec S4096x1376 32) (a5 : FVec F S32x11008 .f32) (a6 : IVec S32x1376 32)
    (a7 : IVec S11008x512 32) (a8 : FVec F S86x4096 .f32) (a9 : IVec S86x512 32) : FVec F S2x2048x4096 .f32 :=
  shapeCast S2x2048x4096 (outFlat a0 a1 a2 a3 a4 a5 a6 a7 a8 a9) shapeCasts_S4096x4096_S2x2048x4096

end Cert.ReferenceIdeal.RefTerm

end
-- ==== Proof.RefRun.lean ====
/-
  The reference program's run, read back.

  The reference is a straight line of 94 whole-array operations: 85 of its entry function and, where
  it calls `silu`, the nine of that function over the call's own arrays. Run from any memory, every
  weakly fair execution terminates; afterwards the result array holds the composition of the
  operations' functions applied to the argument arrays at launch — the term `RefTerm.refOut` — and
  the ten argument arrays hold what they held, no operation writing one.
-/
import proofs.«413103_j549755813920_3_alg».proof.Proof.RefTerm
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The reference's 94 operations, in order; the nine of `silu` stand where it is called, over the
    call's arrays, reading the first product and writing the call's result. -/
abbrev ops : List (HloOp τ sig (Elt F)) :=
  [
    StableHlo.nullary main_c (fun i => lit0 (S8.rowMajor i)),
    StableHlo.reshape main_arg0 main_v0 rfl shapeCasts_S2x2048x4096_S4096x4096,
    StableHlo.unary main_arg1 main_v1 (broadcastInDim S4096x1376x1 ![0, 1] bcast_S4096x1376_S4096x1376x1_0_1 : (⟨S4096x1376, .i32⟩ : BufTy).Contents (Elt F) → (⟨S4096x1376x1, .i32⟩ : BufTy).Contents (Elt F)),
    StableHlo.unary main_c main_v2 (broadcastInDim S1x1x8 ![2] bcast_S8_S1x1x8_2 : (⟨S8, .i32⟩ : BufTy).Contents (Elt F) → (⟨S1x1x8, .i32⟩ : BufTy).Contents (Elt F)),
    StableHlo.unary main_v1 main_v3 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    StableHlo.unary main_v2 main_v4 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    StableHlo.binary main_v3 main_v4 main_v5 (Host.shrsi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_0 (constantI S_ 32 15#32),
    StableHlo.unary main_c_0 main_v6 (broadcastInDim S4096x1376x8 ![] bcast_S_S4096x1376x8 : (⟨S_, .i32⟩ : BufTy).Contents (Elt F) → (⟨S4096x1376x8, .i32⟩ : BufTy).Contents (Elt F)),
    StableHlo.binary main_v5 main_v6 main_v7 (andi : (⟨S4096x1376x8, .i32⟩ : BufTy).Contents (Elt F) → (⟨S4096x1376x8, .i32⟩ : BufTy).Contents (Elt F) → (⟨S4096x1376x8, .i32⟩ : BufTy).Contents (Elt F)),
    StableHlo.reshape main_v7 main_v8 rfl shapeCasts_S4096x1376x8_S4096x11008,
    StableHlo.unary main_v8 main_v9 (sitofp .f32 : (⟨S4096x11008, .i32⟩ : BufTy).Contents (Elt F) → (⟨S4096x11008, .f32⟩ : BufTy).Contents (Elt F)),
    StableHlo.unary main_arg3 main_v10 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_c main_v11 (broadcastInDim S1x1x8 ![2] bcast_S8_S1x1x8_2 : (⟨S8, .i32⟩ : BufTy).Contents (Elt F) → (⟨S1x1x8, .i32⟩ : BufTy).Contents (Elt F)),
    StableHlo.unary main_v10 main_v12 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v11 main_v13 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v12 main_v13 main_v14 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_1 (constantI S_ 32 15#32),
    StableHlo.unary main_c_1 main_v15 (broadcastInDim S32x1376x8 ![] bcast_S_S32x1376x8 : (⟨S_, .i32⟩ : BufTy).Contents (Elt F) → (⟨S32x1376x8, .i32⟩ : BufTy).Contents (Elt F)),
    StableHlo.binary main_v14 main_v15 main_v16 (andi : (⟨S32x1376x8, .i32⟩ : BufTy).Contents (Elt F) → (⟨S32x1376x8, .i32⟩ : BufTy).Contents (Elt F) → (⟨S32x1376x8, .i32⟩ : BufTy).Contents (Elt F)),
    StableHlo.reshape main_v16 main_v17 rfl shapeCasts_S32x1376x8_S32x11008,
    StableHlo.unary main_v17 main_v18 (sitofp .f32 : (⟨S32x11008, .i32⟩ : BufTy).Contents (Elt F) → (⟨S32x11008, .f32⟩ : BufTy).Contents (Elt F)),
    StableHlo.unary main_v18 main_v19 (broadcastInDim S32x128x11008 ![0, 2] bcast_S32x11008_S32x128x11008_0_2 : (⟨S32x11008, .f32⟩ : BufTy).Contents (Elt F) → (⟨S32x128x11008, .f32⟩ : BufTy).Contents (Elt F)),
    StableHlo.reshape main_v19 main_v20 rfl shapeCasts_S32x128x11008_S4096x11008,
    StableHlo.binary main_v9 main_v20 main_v21 (subf : (⟨S4096x11008, .f32⟩ : BufTy).Contents (Elt F) → (⟨S4096x11008, .f32⟩ : BufTy).Contents (Elt F) → (⟨S4096x11008, .f32⟩ : BufTy).Contents (Elt F)),
    StableHlo.unary main_arg2 main_v22 (broadcastInDim S32x128x11008 ![0, 2] bcast_S32x11008_S32x128x11008_0_2 : (⟨S32x11008, .f32⟩ : BufTy).Contents (Elt F) → (⟨S32x128x11008, .f32⟩ : BufTy).Contents (Elt F)),
    StableHlo.reshape main_v22 main_v23 rfl shapeCasts_S32x128x11008_S4096x11008,
    StableHlo.binary main_v21 main_v23 main_v24 (mulf : (⟨S4096x11008, .f32⟩ : BufTy).Contents (Elt F) → (⟨S4096x11008, .f32⟩ : BufTy).Contents (Elt F) → (⟨S4096x11008, .f32⟩ : BufTy).Contents (Elt F)),
    StableHlo.unary main_arg4 main_v25 (broadcastInDim S4096x1376x1 ![0, 1] bcast_S4096x1376_S4096x1376x1_0_1 : (⟨S4096x1376, .i32⟩ : BufTy).Contents (Elt F) → (⟨S4096x1376x1, .i32⟩ : BufTy).Contents (Elt F)),
    StableHlo.unary main_c main_v26 (broadcastInDim S1x1x8 ![2] bcast_S8_S1x1x8_2 : (⟨S8, .i32⟩ : BufTy).Contents (Elt F) → (⟨S1x1x8, .i32⟩ : BufTy).Contents (Elt F)),
    StableHlo.unary main_v25 main_v27 (broadcastInDim S4096x1376x8 ![0, 1, 2] bcast_S4096x1376x1_S4096x1376x8_0_1_2 : (⟨S4096x1376x1, .i32⟩ : BufTy).Contents (Elt F) → (⟨S4096x1376x8, .i32⟩ : BufTy).Contents (Elt F)),
    StableHlo.unary main_v26 main_v28 (broadcastInDim S4096x1376x8 ![0, 1, 2] bcast_S1x1x8_S4096x1376x8_0_1_2 : (⟨S1x1x8, .i32⟩ : BufTy).Contents (Elt F) → (⟨S4096x1376x8, .i32⟩ : BufTy).Contents (Elt F)),
    StableHlo.binary main_v27 main_v28 main_v29 (Host.shrsi : (⟨S4096x1376x8, .i32⟩ : BufTy).Contents (Elt F) → (⟨S4096x1376x8, .i32⟩ : BufTy).Contents (Elt F) → (⟨S4096x1376x8, .i32⟩ : BufTy).Contents (Elt F)),
    StableHlo.nullary main_c_2 (constantI S_ 32 15#32),
    StableHlo.unary main_c_2 main_v30 (broadcastInDim S4096x1376x8 ![] bcast_S_S4096x1376x8 : (⟨S_, .i32⟩ : BufTy).Contents (Elt F) → (⟨S4096x1376x8, .i32⟩ : BufTy).Contents (Elt F)),
    StableHlo.binary main_v29 main_v30 main_v31 (andi : (⟨S4096x1376x8, .i32⟩ : BufTy).Contents (Elt F) → (⟨S4096x1376x8, .i32⟩ : BufTy).Contents (Elt F) → (⟨S4096x1376x8, .i32⟩ : BufTy).Contents (Elt F)),
    StableHlo.reshape main_v31 main_v32 rfl shapeCasts_S4096x1376x8_S4096x11008,
    StableHlo.unary main_v32 main_v33 (sitofp .f32 : (⟨S4096x11008, .i32⟩ : BufTy).Contents (Elt F) → (⟨S4096x11008, .f32⟩ : BufTy).Contents (Elt F)),
    StableHlo.unary main_arg6 main_v34 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_c main_v35 (broadcastInDim S1x1x8 ![2] bcast_S8_S1x1x8_2 : (⟨S8, .i32⟩ : BufTy).Contents (Elt F) → (⟨S1x1x8, .i32⟩ : BufTy).Contents (Elt F)),
    StableHlo.unary main_v34 main_v36 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v35 main_v37 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v36 main_v37 main_v38 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_3 (constantI S_ 32 15#32),
    StableHlo.unary main_c_3 main_v39 (broadcastInDim S32x1376x8 ![] bcast_S_S32x1376x8 : (⟨S_, .i32⟩ : BufTy).Contents (Elt F) → (⟨S32x1376x8, .i32⟩ : BufTy).Contents (Elt F)),
    StableHlo.binary main_v38 main_v39 main_v40 (andi : (⟨S32x1376x8, .i32⟩ : BufTy).Contents (Elt F) → (⟨S32x1376x8, .i32⟩ : BufTy).Contents (Elt F) → (⟨S32x1376x8, .i32⟩ : BufTy).Contents (Elt F)),
    StableHlo.reshape main_v40 main_v41 rfl shapeCasts_S32x1376x8_S32x11008,
    StableHlo.unary main_v41 main_v42 (sitofp .f32 : (⟨S32x11008, .i32⟩ : BufTy).Contents (Elt F) → (⟨S32x11008, .f32⟩ : BufTy).Contents (Elt F)),
    StableHlo.unary main_v42 main_v43 (broadcastInDim S32x128x11008 ![0, 2] bcast_S32x11008_S32x128x11008_0_2 : (⟨S32x11008, .f32⟩ : BufTy).Contents (Elt F) → (⟨S32x128x11008, .f32⟩ : BufTy).Contents (Elt F)),
    StableHlo.reshape main_v43 main_v44 rfl shapeCasts_S32x128x11008_S4096x11008,
    StableHlo.binary main_v33 main_v44 main_v45 (subf : (⟨S4096x11008, .f32⟩ : BufTy).Contents (Elt F) → (⟨S4096x11008, .f32⟩ : BufTy).Contents (Elt F) → (⟨S4096x11008, .f32⟩ : BufTy).Contents (Elt F)),
    StableHlo.unary main_arg5 main_v46 (broadcastInDim S32x128x11008 ![0, 2] bcast_S32x11008_S32x128x11008_0_2 : (⟨S32x11008, .f32⟩ : BufTy).Contents (Elt F) → (⟨S32x128x11008, .f32⟩ : BufTy).Contents (Elt F)),
    StableHlo.reshape main_v46 main_v47 rfl shapeCasts_S32x128x11008_S4096x11008,
    StableHlo.binary main_v45 main_v47 main_v48 (mulf : (⟨S4096x11008, .f32⟩ : BufTy).Contents (Elt F) → (⟨S4096x11008, .f32⟩ : BufTy).Contents (Elt F) → (⟨S4096x11008, .f32⟩ : BufTy).Contents (Elt F)),
    StableHlo.unary main_arg7 main_v49 (broadcastInDim S11008x512x1 ![0, 1] bcast_S11008x512_S11008x512x1_0_1 : (⟨S11008x512, .i32⟩ : BufTy).Contents (Elt F) → (⟨S11008x512x1, .i32⟩ : BufTy).Contents (Elt F)),
    StableHlo.unary main_c main_v50 (broadcastInDim S1x1x8 ![2] bcast_S8_S1x1x8_2 : (⟨S8, .i32⟩ : BufTy).Contents (Elt F) → (⟨S1x1x8, .i32⟩ : BufTy).Contents (Elt F)),
    StableHlo.unary main_v49 main_v51 (broadcastInDim S11008x512x8 ![0, 1, 2] bcast_S11008x512x1_S11008x512x8_0_1_2 : (⟨S11008x512x1, .i32⟩ : BufTy).Contents (Elt F) → (⟨S11008x512x8, .i32⟩ : BufTy).Contents (Elt F)),
    StableHlo.unary main_v50 main_v52 (broadcastInDim S11008x512x8 ![0, 1, 2] bcast_S1x1x8_S11008x512x8_0_1_2 : (⟨S1x1x8, .i32⟩ : BufTy).Contents (Elt F) → (⟨S11008x512x8, .i32⟩ : BufTy).Contents (Elt F)),
    StableHlo.binary main_v51 main_v52 main_v53 (Host.shrsi : (⟨S11008x512x8, .i32⟩ : BufTy).Contents (Elt F) → (⟨S11008x512x8, .i32⟩ : BufTy).Contents (Elt F) → (⟨S11008x512x8, .i32⟩ : BufTy).Contents (Elt F)),
    StableHlo.nullary main_c_4 (constantI S_ 32 15#32),
    StableHlo.unary main_c_4 main_v54 (broadcastInDim S11008x512x8 ![] bcast_S_S11008x512x8 : (⟨S_, .i32⟩ : BufTy).Contents (Elt F) → (⟨S11008x512x8, .i32⟩ : BufTy).Contents (Elt F)),
    StableHlo.binary main_v53 main_v54 main_v55 (andi : (⟨S11008x512x8, .i32⟩ : BufTy).Contents (Elt F) → (⟨S11008x512x8, .i32⟩ : BufTy).Contents (Elt F) → (⟨S11008x512x8, .i32⟩ : BufTy).Contents (Elt F)),
    StableHlo.reshape main_v55 main_v56 rfl shapeCasts_S11008x512x8_S11008x4096,
    StableHlo.unary main_v56 main_v57 (sitofp .f32 : (⟨S11008x4096, .i32⟩ : BufTy).Contents (Elt F) → (⟨S11008x4096, .f32⟩ : BufTy).Contents (Elt F)),
    StableHlo.unary main_arg9 main_v58 (broadcastInDim S86x512x1 ![0, 1] bcast_S86x512_S86x512x1_0_1 : (⟨S86x512, .i32⟩ : BufTy).Contents (Elt F) → (⟨S86x512x1, .i32⟩ : BufTy).Contents (Elt F)),
    StableHlo.unary main_c main_v59 (broadcastInDim S1x1x8 ![2] bcast_S8_S1x1x8_2 : (⟨S8, .i32⟩ : BufTy).Contents (Elt F) → (⟨S1x1x8, .i32⟩ : BufTy).Contents (Elt F)),
    StableHlo.unary main_v58 main_v60 (broadcastInDim S86x512x8 ![0, 1, 2] bcast_S86x512x1_S86x512x8_0_1_2 : (⟨S86x512x1, .i32⟩ : BufTy).Contents (Elt F) → (⟨S86x512x8, .i32⟩ : BufTy).Contents (Elt F)),
    StableHlo.unary main_v59 main_v61 (broadcastInDim S86x512x8 ![0, 1, 2] bcast_S1x1x8_S86x512x8_0_1_2 : (⟨S1x1x8, .i32⟩ : BufTy).Contents (Elt F) → (⟨S86x512x8, .i32⟩ : BufTy).Contents (Elt F)),
    StableHlo.binary main_v60 main_v61 main_v62 (Host.shrsi : (⟨S86x512x8, .i32⟩ : BufTy).Contents (Elt F) → (⟨S86x512x8, .i32⟩ : BufTy).Contents (Elt F) → (⟨S86x512x8, .i32⟩ : BufTy).Contents (Elt F)),
    StableHlo.nullary main_c_5 (constantI S_ 32 15#32),
    StableHlo.unary main_c_5 main_v63 (broadcastInDim S86x512x8 ![] bcast_S_S86x512x8 : (⟨S_, .i32⟩ : BufTy).Contents (Elt F) → (⟨S86x512x8, .i32⟩ : BufTy).Contents (Elt F)),
    StableHlo.binary main_v62 main_v63 main_v64 (andi : (⟨S86x512x8, .i32⟩ : BufTy).Contents (Elt F) → (⟨S86x512x8, .i32⟩ : BufTy).Contents (Elt F) → (⟨S86x512x8, .i32⟩ : BufTy).Contents (Elt F)),
    StableHlo.reshape main_v64 main_v65 rfl shapeCasts_S86x512x8_S86x4096,
    StableHlo.unary main_v65 main_v66 (sitofp .f32 : (⟨S86x4096, .i32⟩ : BufTy).Contents (Elt F) → (⟨S86x4096, .f32⟩ : BufTy).Contents (Elt F)),
    StableHlo.unary main_v66 main_v67 (broadcastInDim S86x128x4096 ![0, 2] bcast_S86x4096_S86x128x4096_0_2 : (⟨S86x4096, .f32⟩ : BufTy).Contents (Elt F) → (⟨S86x128x4096, .f32⟩ : BufTy).Contents (Elt F)),
    StableHlo.reshape main_v67 main_v68 rfl shapeCasts_S86x128x4096_S11008x4096,
    StableHlo.binary main_v57 main_v68 main_v69 (subf : (⟨S11008x4096, .f32⟩ : BufTy).Contents (Elt F) → (⟨S11008x4096, .f32⟩ : BufTy).Contents (Elt F) → (⟨S11008x4096, .f32⟩ : BufTy).Contents (Elt F)),
    StableHlo.unary main_arg8 main_v70 (broadcastInDim S86x128x4096 ![0, 2] bcast_S86x4096_S86x128x4096_0_2 : (⟨S86x4096, .f32⟩ : BufTy).Contents (Elt F) → (⟨S86x128x4096, .f32⟩ : BufTy).Contents (Elt F)),
    StableHlo.reshape main_v70 main_v71 rfl shapeCasts_S86x128x4096_S11008x4096,
    StableHlo.binary main_v69 main_v71 main_v72 (mulf : (⟨S11008x4096, .f32⟩ : BufTy).Contents (Elt F) → (⟨S11008x4096, .f32⟩ : BufTy).Contents (Elt F) → (⟨S11008x4096, .f32⟩ : BufTy).Contents (Elt F)),
    StableHlo.binary main_v0 main_v24 main_v73 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    StableHlo.TRef.unary (.of main_v73 : StableHlo.TRef sig ⟨S4096x11008, .f32⟩) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S4096x11008 ![] bcast_S_S4096x11008),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S4096x11008 ![] bcast_S_S4096x11008),
    StableHlo.TRef.binary main_call0.v4 main_call0.v3 main_call0.v5 Host.divf,
    StableHlo.TRef.binary (.of main_v73 : StableHlo.TRef sig ⟨S4096x11008, .f32⟩) main_call0.v5 main_call0.v6 mulf,
    StableHlo.binary main_v0 main_v48 main_v75 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    StableHlo.binary main_v74 main_v75 main_v76 (mulf : (⟨S4096x11008, .f32⟩ : BufTy).Contents (Elt F) → (⟨S4096x11008, .f32⟩ : BufTy).Contents (Elt F) → (⟨S4096x11008, .f32⟩ : BufTy).Contents (Elt F)),
    StableHlo.binary main_v76 main_v72 main_v77 ((fun l r => Host.dotGeneral dot_S4096x11008_S11008x4096_S4096x4096_1_0_0_1_n_n none l r) : (⟨S4096x11008, .f32⟩ : BufTy).Contents (Elt F) → (⟨S11008x4096, .f32⟩ : BufTy).Contents (Elt F) → (⟨S4096x4096, .f32⟩ : BufTy).Contents (Elt F)),
    StableHlo.reshape main_v77 main_v78 rfl shapeCasts_S4096x4096_S2x2048x4096 ]

set_option maxRecDepth 4096 in
set_option maxHeartbeats 4000000 in
/-- The entry function is that straight line: its two halves and the called function unfolded at the
    call and the call's record at its fields, both sides are one chain of steps once sequencing is
    reassociated. -/
theorem main_eq (c : Dev nD) : main (F := F) c = seq ops := by
  simp only [main, main_part0, main_part1, fn_silu.body, seq, bind_assoc, pure_bind]

/-- No array of the reference is scoped. -/
theorem scopedRefs_eq : (Finset.univ.filter fun b : Ref sig .tc => b.isScoped) = ∅ := by decide
/-- The reference has no semaphore. -/
theorem scopedSems_eq : (Finset.univ.filter fun sm : SemLoc sig => sm.isScoped .tc) = ∅ := by decide

set_option maxRecDepth 4096 in
set_option maxHeartbeats 4000000 in
/-- Every operation touches only arrays of the device. -/
theorem ops_sub : (ops : List (HloOp τ sig (Elt F))).Forall fun op => op.bufs ⊆ tcRefs τ sig :=
  ⟨
    nullary_bufs_sub .., reshape_bufs_sub .., unary_bufs_sub .., unary_bufs_sub .., unary_bufs_sub .., unary_bufs_sub ..,
    binary_bufs_sub .., nullary_bufs_sub .., unary_bufs_sub .., binary_bufs_sub .., reshape_bufs_sub .., unary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub .., unary_bufs_sub .., reshape_bufs_sub ..,
    binary_bufs_sub .., unary_bufs_sub .., reshape_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., unary_bufs_sub .., unary_bufs_sub .., unary_bufs_sub .., unary_bufs_sub ..,
    binary_bufs_sub .., nullary_bufs_sub .., unary_bufs_sub .., binary_bufs_sub .., reshape_bufs_sub .., unary_bufs_sub ..,
    unary_bufs_sub .., reshape_bufs_sub .., binary_bufs_sub .., unary_bufs_sub .., reshape_bufs_sub .., binary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., unary_bufs_sub .., reshape_bufs_sub .., binary_bufs_sub .., unary_bufs_sub ..,
    reshape_bufs_sub .., binary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., binary_bufs_sub .., binary_bufs_sub .., reshape_bufs_sub ..⟩

set_option maxRecDepth 8192 in
set_option maxHeartbeats 4000000 in
/-- The fold of the 94 operations at the result array: each operation's result is its function of its
    operands' contents at the array it writes and what was there at every other array, so the result
    array holds the operations' composed term over the arguments' contents; the stages of
    `RefTerm.refOut` are that term's subterms, by unfolding (a reshape's result at an index is the cast's
    value there, and the called function's typed arrays carry the identity transport). -/
theorem out_eq (V : Valuation τ sig (Elt F)) :
    after ops V (main_v78 : DevRef τ sig)
      = RefTerm.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

set_option maxRecDepth 8192 in
set_option maxHeartbeats 4000000 in
/-- No operation writes argument 0: it holds what it held. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1: it holds what it held. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2: it holds what it held. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3: it holds what it held. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4: it holds what it held. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5: it holds what it held. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6: it holds what it held. -/
theorem arg6_eq (V : Valuation τ sig (Elt F)) :
    after ops V (main_arg6 : DevRef τ sig) = V (main_arg6 : DevRef τ sig) := by
  after_results_simp

set_option maxRecDepth 8192 in
set_option maxHeartbeats 4000000 in
/-- No operation writes argument 7: it holds what it held. -/
theorem arg7_eq (V : Valuation τ sig (Elt F)) :
    after ops V (main_arg7 : DevRef τ sig) = V (main_arg7 : DevRef τ sig) := by
  after_results_simp

set_option maxRecDepth 8192 in
set_option maxHeartbeats 4000000 in
/-- No operation writes argument 8: it holds what it held. -/
theorem arg8_eq (V : Valuation τ sig (Elt F)) :
    after ops V (main_arg8 : DevRef τ sig) = V (main_arg8 : DevRef τ sig) := by
  after_results_simp

set_option maxRecDepth 8192 in
set_option maxHeartbeats 4000000 in
/-- No operation writes argument 9: it holds what it held. -/
theorem arg9_eq (V : Valuation τ sig (Elt F)) :
    after ops V (main_arg9 : DevRef τ sig) = V (main_arg9 : DevRef τ sig) := by
  after_results_simp

set_option maxRecDepth 8192 in
set_option maxHeartbeats 4000000 in
/-- On every device, for any float values, from any memory with zero counters: every weakly fair
    execution of the reference terminates with the result array at `RefTerm.refOut` of the arguments'
    launch contents, and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
        = RefTerm.refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v78).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefRead.lean ====
/-
  The reference's result read at an index, stage by stage, at the ideal values (a float is an extended real, every
  operation exact, a format change the identity), ending in: the reference's result IS the specification.

  * Words. Field `k` of a packed word `w` is `(w >>ₛ 4k) &&& 15`. The shift amounts are the table `0, 4, …, 28`; each is
    below the word width, so the host's arithmetic shift by the table's entry `k` is the arithmetic shift by the natural
    number `4k`. A word repeated along a new last axis of length eight reads the word; the shift table broadcast over
    every word reads its entry `k`; the mask `15` broadcast from a scalar reads `15` everywhere.
  * Unpacking. The `[R, C, 8]` array of fields reshaped to `[R, 8C]` reads, at `(r, c)`, field `c % 8` of word `c / 8` of
    row `r`: the two row-major positions are `(r·C + c/8)·8 + c%8` and `r·8C + c`. Converted to a float it is that
    field's integer value: the specification's `nib`.
  * Groups. A per-group table `[G, C]` broadcast to `[G, 128, C]` and reshaped to `[128·G, C]` reads, at `(r, c)`, the
    table at `(r / 128, c)`: the positions are `((r/128)·128 + r%128)·C + c` and `r·C + c`.
  * De-quantisation. `(unpack q − rep (unpack z)) · rep s` at `(k, j)` is `(nib qₖ − nib z_{k/128}) · s_{k/128, j}`: the
    specification's `deq`.
  * Activations. `[2, 2048, 4096]` reshaped to `[4096, 4096]` reads, at `(t, k)`, the input at `(t / 2048, t % 2048, k)`:
    the specification's `xrow`.
  * Products. Each of the three contractions has the dimension numbers of a plain `[M, K] × [K, N]` product, whose entry
    `(p, q)` is `Σ_{k < K} lhs (p, k) · rhs (k, q)`; a sum over `Fin K` is the sum over `Finset.range K`.
  * silu. The word `0x3F800000` is the number one, and `g · (1 / (1 + exp (−g)))` is `g · logistic g` by the definition
    of the logistic function.
  * The result. `[4096, 4096]` reshaped to `[2, 2048, 4096]` reads, at `(b, r, o)`, the product at `(2048·b + r, o)`.
-/
import proofs.«413103_j549755813920_3_alg».proof.Proof.RefTerm
import proofs.«413103_j549755813920_3_alg».proof.Proof.Spec
import proofs.«413103_j549755813920_3_alg».proof.Proof.LibRowDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.RefTerm Cert.Spec Idealize.ShloMosaic Idealize.ShloMosaic.ValueIdx
open Cert.ReferenceIdeal.Facts₀ Cert.ReferenceIdeal.Facts

/-! ## Words -/

/-- The shift amount of field `k` is `4k`, below the word width: the host's arithmetic shift by it is the
    arithmetic shift by the natural number `4k`. -/
theorem shrsi_lit0 (w : BitVec 32) (k : Fin 8) : IntOp.shrsi .host w (lit0 k) = w.sshiftRight (4 * k.val) := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The table of shift amounts read at its `k`-th entry. -/
theorem shifts_apply (k : Fin 8) : shifts (ix1 k) = lit0 k := by
  unfold shifts
  congr 1
  exact Fin.ext (Shape.rowMajor_val_one _)

/-- The shift amounts lie along the last axis of the `1 × 1 × 8` array. -/
theorem shifts3_apply (a b : Fin 1) (k : Fin 8) : shifts3 (ix3 a b k) = lit0 k := by
  unfold shifts3
  rw [broadcastInDim_apply _ _ shifts (ix3 a b k) (ix1 k) (fun ax => by
    match ax with
    | ⟨0, _⟩ => rfl)]
  exact shifts_apply k

/-! ## A packed matrix unpacked -/

section Unpack
variable {R C C8 : Nat}

/-- Each word repeated along a new last axis of length eight reads, at `(i, j, k)`, the word at `(i, j)`. -/
theorem words_apply {α : Type}
    (h1 : (⟨2, ![R, C]⟩ : Shape).BroadcastsInDim ⟨3, ![R, C, 1]⟩ ![0, 1])
    (h2 : (⟨3, ![R, C, 1]⟩ : Shape).BroadcastsInDim ⟨3, ![R, C, 8]⟩ ![0, 1, 2])
    (q : (⟨2, ![R, C]⟩ : Shape).Idx → α) (i : Fin R) (j : Fin C) (k : Fin 8) :
    broadcastInDim ⟨3, ![R, C, 8]⟩ ![0, 1, 2] h2 (broadcastInDim ⟨3, ![R, C, 1]⟩ ![0, 1] h1 q) (ix3 i j k) = q (ix2 i j) := by
  have hi := i.isLt; have hj := j.isLt
  rw [broadcastInDim_apply _ h2 _ (ix3 i j k) (ix3 i j (0 : Fin 1)) (fun ax => by
    match ax with
    | ⟨0, _⟩ => show i.val = if R = 1 then 0 else i.val; split <;> omega
    | ⟨1, _⟩ => show j.val = if C = 1 then 0 else j.val; split <;> omega
    | ⟨2, _⟩ => rfl)]
  exact broadcastInDim_apply _ h1 q (ix3 i j (0 : Fin 1)) (ix2 i j) (fun ax => by
    match ax with
    | ⟨0, _⟩ => show i.val = if R = 1 then 0 else i.val; split <;> omega
    | ⟨1, _⟩ => show j.val = if C = 1 then 0 else j.val; split <;> omega)

/-- The shift amounts broadcast over every word read, at `(i, j, k)`, the amount `4k`. -/
theorem shiftsB_apply (h3 : S1x1x8.BroadcastsInDim ⟨3, ![R, C, 8]⟩ ![0, 1, 2]) (i : Fin R) (j : Fin C) (k : Fin 8) :
    broadcastInDim ⟨3, ![R, C, 8]⟩ ![0, 1, 2] h3 shifts3 (ix3 i j k) = lit0 k := by
  rw [broadcastInDim_apply _ h3 shifts3 (ix3 i j k) (ix3 (0 : Fin 1) (0 : Fin 1) k) (fun ax => by
    match ax with
    | ⟨0, _⟩ => rfl
    | ⟨1, _⟩ => rfl
    | ⟨2, _⟩ => rfl)]
  exact shifts3_apply 0 0 k

/-- Field `k` of the word at `(i, j)`. -/
theorem fields_apply
    (h1 : (⟨2, ![R, C]⟩ : Shape).BroadcastsInDim ⟨3, ![R, C, 1]⟩ ![0, 1])
    (h2 : (⟨3, ![R, C, 1]⟩ : Shape).BroadcastsInDim ⟨3, ![R, C, 8]⟩ ![0, 1, 2])
    (h3 : S1x1x8.BroadcastsInDim ⟨3, ![R, C, 8]⟩ ![0, 1, 2])
    (h4 : S_.BroadcastsInDim ⟨3, ![R, C, 8]⟩ ![])
    (q : IVec ⟨2, ![R, C]⟩ 32) (i : Fin R) (j : Fin C) (k : Fin 8) :
    andi (Host.shrsi (broadcastInDim ⟨3, ![R, C, 8]⟩ ![0, 1, 2] h2 (broadcastInDim ⟨3, ![R, C, 1]⟩ ![0, 1] h1 q))
        (broadcastInDim ⟨3, ![R, C, 8]⟩ ![0, 1, 2] h3 shifts3))
      (broadcastInDim ⟨3, ![R, C, 8]⟩ ![] h4 (constantI S_ 32 15#32)) (ix3 i j k)
      = (q (ix2 i j)).sshiftRight (4 * k.val) &&& 15#32 := by
  show IntOp.andi (IntOp.shrsi .host
      (broadcastInDim ⟨3, ![R, C, 8]⟩ ![0, 1, 2] h2 (broadcastInDim ⟨3, ![R, C, 1]⟩ ![0, 1] h1 q) (ix3 i j k))
      (broadcastInDim ⟨3, ![R, C, 8]⟩ ![0, 1, 2] h3 shifts3 (ix3 i j k))) 15#32 = _
  rw [words_apply h1 h2 q i j k, shiftsB_apply h3 i j k, shrsi_lit0]
  rfl

/-- The unpacked matrix at `(r, c)`: field `c % 8` of word `c / 8` of row `r`, as a real number. -/
theorem unpack_core (hC : C8 = C * 8)
    (h1 : (⟨2, ![R, C]⟩ : Shape).BroadcastsInDim ⟨3, ![R, C, 1]⟩ ![0, 1])
    (h2 : (⟨3, ![R, C, 1]⟩ : Shape).BroadcastsInDim ⟨3, ![R, C, 8]⟩ ![0, 1, 2])
    (h3 : S1x1x8.BroadcastsInDim ⟨3, ![R, C, 8]⟩ ![0, 1, 2])
    (h4 : S_.BroadcastsInDim ⟨3, ![R, C, 8]⟩ ![])
    (h5 : (⟨3, ![R, C, 8]⟩ : Shape).ShapeCasts ⟨2, ![R, C8]⟩)
    (q : IVec ⟨2, ![R, C]⟩ 32) (r : Fin R) (c : Fin C8) :
    sitofp (F := Ideal) .f32 (shapeCast ⟨2, ![R, C8]⟩
      (andi (Host.shrsi (broadcastInDim ⟨3, ![R, C, 8]⟩ ![0, 1, 2] h2 (broadcastInDim ⟨3, ![R, C, 1]⟩ ![0, 1] h1 q))
          (broadcastInDim ⟨3, ![R, C, 8]⟩ ![0, 1, 2] h3 shifts3))
        (broadcastInDim ⟨3, ![R, C, 8]⟩ ![] h4 (constantI S_ 32 15#32))) h5) (ix2 r c)
      = nib (at2 0#32 q r.val (c.val / 8)) (c.val % 8) := by
  have hc := c.isLt
  have hc8 : c.val / 8 < C := by omega
  rw [sitofp_apply]
  rw [shapeCast_apply _ h5 (ix2 r c) (ix3 r ⟨c.val / 8, hc8⟩ ⟨c.val % 8, Nat.mod_lt _ (by norm_num)⟩) (by
    rw [Shape.rowMajor_val_three, Shape.rowMajor_val_two]
    show (r.val * C + c.val / 8) * 8 + c.val % 8 = r.val * C8 + c.val
    have e : r.val * C8 = r.val * C * 8 := by rw [hC, Nat.mul_assoc]
    omega)]
  rw [fields_apply h1 h2 h3 h4 q r ⟨c.val / 8, hc8⟩ ⟨c.val % 8, _⟩, at2_of_lt 0#32 q r.isLt hc8]
  rfl

end Unpack

/-- The gate and up weights unpacked. -/
theorem unpackW_apply (q : IVec S4096x1376 32) (r : Fin 4096) (c : Fin 11008) :
    unpackW (F := Ideal) q (ix2 r c) = nib (at2 0#32 q r.val (c.val / 8)) (c.val % 8) :=
  unpack_core (by norm_num) _ _ _ _ _ q r c

/-- Their zero points unpacked. -/
theorem unpackZ_apply (q : IVec S32x1376 32) (r : Fin 32) (c : Fin 11008) :
    unpackZ (F := Ideal) q (ix2 r c) = nib (at2 0#32 q r.val (c.val / 8)) (c.val % 8) :=
  unpack_core (by norm_num) _ _ _ _ _ q r c

/-- The down weights unpacked. -/
theorem unpackWd_apply (q : IVec S11008x512 32) (r : Fin 11008) (c : Fin 4096) :
    unpackWd (F := Ideal) q (ix2 r c) = nib (at2 0#32 q r.val (c.val / 8)) (c.val % 8) :=
  unpack_core (by norm_num) _ _ _ _ _ q r c

/-- Their zero points unpacked. -/
theorem unpackZd_apply (q : IVec S86x512 32) (r : Fin 86) (c : Fin 4096) :
    unpackZd (F := Ideal) q (ix2 r c) = nib (at2 0#32 q r.val (c.val / 8)) (c.val % 8) :=
  unpack_core (by norm_num) _ _ _ _ _ q r c

/-! ## A per-group table repeated over the 128 rows of each group -/

/-- Row `r` of the repeated table is row `r / 128` of the table. -/
theorem rep_apply {α : Type} {G R C : Nat}
    (h1 : (⟨2, ![G, C]⟩ : Shape).BroadcastsInDim ⟨3, ![G, 128, C]⟩ ![0, 2])
    (h2 : (⟨3, ![G, 128, C]⟩ : Shape).ShapeCasts ⟨2, ![R, C]⟩)
    (z : (⟨2, ![G, C]⟩ : Shape).Idx → α) (r : Fin R) (c : Fin C) (hg : r.val / 128 < G) :
    shapeCast ⟨2, ![R, C]⟩ (broadcastInDim ⟨3, ![G, 128, C]⟩ ![0, 2] h1 z) h2 (ix2 r c) = z (ix2 ⟨r.val / 128, hg⟩ c) := by
  have hc := c.isLt
  rw [shapeCast_apply _ h2 (ix2 r c) (ix3 ⟨r.val / 128, hg⟩ ⟨r.val % 128, Nat.mod_lt _ (by norm_num)⟩ c) (by
    rw [Shape.rowMajor_val_three, Shape.rowMajor_val_two]
    show (r.val / 128 * 128 + r.val % 128) * C + c.val = r.val * C + c.val
    have e : r.val / 128 * 128 + r.val % 128 = r.val := by omega
    rw [e])]
  exact broadcastInDim_apply _ h1 z _ (ix2 ⟨r.val / 128, hg⟩ c) (fun ax => by
    match ax with
    | ⟨0, _⟩ => show r.val / 128 = if G = 1 then 0 else r.val / 128; split <;> omega
    | ⟨1, _⟩ => show c.val = if C = 1 then 0 else c.val; split <;> omega)

/-- The 32 groups of the gate and up matrices. -/
theorem rep128_apply (z : FVec Ideal S32x11008 .f32) (r : Fin 4096) (c : Fin 11008) (hg : r.val / 128 < 32) :
    rep128 (F := Ideal) z (ix2 r c) = z (ix2 ⟨r.val / 128, hg⟩ c) :=
  rep_apply _ _ z r c hg

/-- The 86 groups of the down matrix. -/
theorem rep128d_apply (z : FVec Ideal S86x4096 .f32) (r : Fin 11008) (c : Fin 4096) (hg : r.val / 128 < 86) :
    rep128d (F := Ideal) z (ix2 r c) = z (ix2 ⟨r.val / 128, hg⟩ c) :=
  rep_apply _ _ z r c hg

/-! ## The de-quantised matrices -/

/-- A de-quantised gate or up matrix at `(k, j)`. -/
theorem deqGU_apply (q : IVec S4096x1376 32) (sc : FVec Ideal S32x11008 .f32) (z : IVec S32x1376 32)
    (k : Fin 4096) (j : Fin 11008) :
    deqGU (F := Ideal) q sc z (ix2 k j) = deq (at2 0#32 q) (at2 0 sc) (at2 0#32 z) k.val j.val := by
  have hk := k.isLt
  have hg : k.val / 128 < 32 := by omega
  unfold deqGU
  rw [mulf_apply, subf_apply, unpackW_apply, rep128_apply _ k j hg, rep128_apply _ k j hg, unpackZ_apply]
  unfold deq
  rw [at2_of_lt 0 sc hg j.isLt]

/-- The de-quantised down matrix at `(j, o)`. -/
theorem deqD_apply (q : IVec S11008x512 32) (sc : FVec Ideal S86x4096 .f32) (z : IVec S86x512 32)
    (j : Fin 11008) (o : Fin 4096) :
    deqD (F := Ideal) q sc z (ix2 j o) = deq (at2 0#32 q) (at2 0 sc) (at2 0#32 z) j.val o.val := by
  have hj := j.isLt
  have hg : j.val / 128 < 86 := by omega
  unfold deqD
  rw [mulf_apply, subf_apply, unpackWd_apply, rep128d_apply _ j o hg, rep128d_apply _ j o hg, unpackZd_apply]
  unfold deq
  rw [at2_of_lt 0 sc hg o.isLt]

/-! ## The activations -/

/-- The flattened activations at `(t, k)`: row `t = 2048 b + r` of the input. -/
theorem xflat_apply (a0 : FVec Ideal S2x2048x4096 .f32) (t k : Fin 4096) :
    xflat (F := Ideal) a0 (ix2 t k) = xrow a0 t.val k.val := by
  have ht := t.isLt
  unfold xflat xrow
  rw [dif_pos ⟨t.isLt, k.isLt⟩]
  exact shapeCast_apply a0 _ (ix2 t k) _ (by
    rw [Shape.rowMajor_val_three, Shape.rowMajor_val_two]
    show (t.val / 2048 * 2048 + t.val % 2048) * 4096 + k.val = t.val * 4096 + k.val
    omega)

/-! ## The three products -/

/-- The dimension numbers of `x · Wg` and `x · Wu` are those of a plain `[4096, 4096] × [4096, 11008]` product. -/
theorem dotGU_eq : dot_S4096x4096_S4096x11008_S4096x11008_1_0_0_1_n_n = DotDims.plain 4096 4096 11008 := rfl

/-- The dimension numbers of `hidden · Wd` are those of a plain `[4096, 11008] × [11008, 4096]` product. -/
theorem dotD_eq : dot_S4096x11008_S11008x4096_S4096x4096_1_0_0_1_n_n = DotDims.plain 4096 11008 4096 := rfl

/-- The host's product `[4096, 4096] × [4096, 11008]` at `(t, j)`: the sum over the contracted coordinate. -/
theorem dotGU_apply (lhs : FVec Ideal S4096x4096 .f32) (rhs : FVec Ideal S4096x11008 .f32) (t : Fin 4096) (j : Fin 11008) :
    Host.dotGeneral (F := Ideal) dot_S4096x4096_S4096x11008_S4096x11008_1_0_0_1_n_n none lhs rhs (ix2 t j)
      = ∑ k : Fin 4096, lhs (ix2 t k) * rhs (ix2 k j) := by
  show FloatOps.dotGeneral dot_S4096x4096_S4096x11008_S4096x11008_1_0_0_1_n_n none .single lhs rhs (ix2 t j) = _
  rw [dotGU_eq]
  exact RowDims.dotGeneral_plain_apply none .single lhs rhs t j

/-- The host's product `[4096, 11008] × [11008, 4096]` at `(t, o)`. -/
theorem dotD_apply (lhs : FVec Ideal S4096x11008 .f32) (rhs : FVec Ideal S11008x4096 .f32) (t : Fin 4096) (o : Fin 4096) :
    Host.dotGeneral (F := Ideal) dot_S4096x11008_S11008x4096_S4096x4096_1_0_0_1_n_n none lhs rhs (ix2 t o)
      = ∑ j : Fin 11008, lhs (ix2 t j) * rhs (ix2 j o) := by
  show FloatOps.dotGeneral dot_S4096x11008_S11008x4096_S4096x4096_1_0_0_1_n_n none .single lhs rhs (ix2 t o) = _
  rw [dotD_eq]
  exact RowDims.dotGeneral_plain_apply none .single lhs rhs t o

/-- `x · W` for a de-quantised gate or up matrix `W`, at `(t, j)`. -/
theorem gate_apply (a0 : FVec Ideal S2x2048x4096 .f32) (a1 : IVec S4096x1376 32) (a2 : FVec Ideal S32x11008 .f32)
    (a3 : IVec S32x1376 32) (t : Fin 4096) (j : Fin 11008) :
    gate (F := Ideal) a0 a1 a2 a3 (ix2 t j)
      = proj (xrow a0) (deq (at2 0#32 a1) (at2 0 a2) (at2 0#32 a3)) t.val j.val := by
  unfold gate proj
  rw [dotGU_apply, ← Fin.sum_univ_eq_sum_range
    (fun k => xrow a0 t.val k * deq (at2 0#32 a1) (at2 0 a2) (at2 0#32 a3) k j.val) 4096]
  exact Finset.sum_congr rfl (fun k _ => by rw [xflat_apply, deqGU_apply])

/-- The same for the up matrix. -/
theorem up_apply (a0 : FVec Ideal S2x2048x4096 .f32) (a4 : IVec S4096x1376 32) (a5 : FVec Ideal S32x11008 .f32)
    (a6 : IVec S32x1376 32) (t : Fin 4096) (j : Fin 11008) :
    up (F := Ideal) a0 a4 a5 a6 (ix2 t j)
      = proj (xrow a0) (deq (at2 0#32 a4) (at2 0 a5) (at2 0#32 a6)) t.val j.val := by
  unfold up proj
  rw [dotGU_apply, ← Fin.sum_univ_eq_sum_range
    (fun k => xrow a0 t.val k * deq (at2 0#32 a4) (at2 0 a5) (at2 0#32 a6) k j.val) 4096]
  exact Finset.sum_congr rfl (fun k _ => by rw [xflat_apply, deqGU_apply])

/-! ## silu -/

/-- The single-precision word `0x3F800000` is the number one. -/
theorem ofBits_one_f32 : Ideal.ofBits .f32 0x3F800000#32 = 1 := by
  simp [Ideal.ofBits, Ideal.ieee, -EReal.coe_mul]; norm_num

/-- The constant one at every index. -/
theorem ones_apply (i : S4096x11008.Idx) : ones (F := Ideal) i = 1 := by
  show Ideal.ofBits .f32 0x3F800000#32 = 1
  exact ofBits_one_f32

/-- `g * (1 / (1 + exp (−g)))` is `g` times the logistic function of `g`. -/
theorem siluT_apply (g : FVec Ideal S4096x11008 .f32) (i : S4096x11008.Idx) : siluT (F := Ideal) g i = silu (g i) := by
  show g i * Ideal.div (ones (F := Ideal) i) (ones (F := Ideal) i + Ideal.exp (-(g i))) = g i * Ideal.logistic (g i)
  rw [ones_apply]
  rfl

/-! ## The block -/

/-- `silu (x · Wg) · (x · Wu)` at `(t, j)`. -/
theorem hidden_apply (a0 : FVec Ideal S2x2048x4096 .f32) (a1 : IVec S4096x1376 32) (a2 : FVec Ideal S32x11008 .f32)
    (a3 : IVec S32x1376 32) (a4 : IVec S4096x1376 32) (a5 : FVec Ideal S32x11008 .f32) (a6 : IVec S32x1376 32)
    (t : Fin 4096) (j : Fin 11008) :
    RefTerm.hidden (F := Ideal) a0 a1 a2 a3 a4 a5 a6 (ix2 t j)
      = hid (xrow a0) (deq (at2 0#32 a1) (at2 0 a2) (at2 0#32 a3)) (deq (at2 0#32 a4) (at2 0 a5) (at2 0#32 a6))
          t.val j.val := by
  unfold RefTerm.hidden hid
  rw [mulf_apply, siluT_apply, gate_apply, up_apply]

/-- `hidden · Wd` at `(t, o)`. -/
theorem outFlat_apply (a0 : FVec Ideal S2x2048x4096 .f32) (a1 : IVec S4096x1376 32) (a2 : FVec Ideal S32x11008 .f32)
    (a3 : IVec S32x1376 32) (a4 : IVec S4096x1376 32) (a5 : FVec Ideal S32x11008 .f32) (a6 : IVec S32x1376 32)
    (a7 : IVec S11008x512 32) (a8 : FVec Ideal S86x4096 .f32) (a9 : IVec S86x512 32) (t : Fin 4096) (o : Fin 4096) :
    outFlat (F := Ideal) a0 a1 a2 a3 a4 a5 a6 a7 a8 a9 (ix2 t o)
      = out (xrow a0) (deq (at2 0#32 a1) (at2 0 a2) (at2 0#32 a3)) (deq (at2 0#32 a4) (at2 0 a5) (at2 0#32 a6))
          (deq (at2 0#32 a7) (at2 0 a8) (at2 0#32 a9)) t.val o.val := by
  unfold outFlat out
  rw [dotD_apply, ← Fin.sum_univ_eq_sum_range
    (fun j => hid (xrow a0) (deq (at2 0#32 a1) (at2 0 a2) (at2 0#32 a3)) (deq (at2 0#32 a4) (at2 0 a5) (at2 0#32 a6))
      t.val j * deq (at2 0#32 a7) (at2 0 a8) (at2 0#32 a9) j o.val) 11008]
  exact Finset.sum_congr rfl (fun j _ => by rw [hidden_apply, deqD_apply])

/-- THE REFERENCE'S RESULT IS THE SPECIFICATION: entry `(b, r, o)` of the result is entry `(2048 b + r, o)` of the
    4096-row product. -/
theorem refOut_eq (a0 : FVec Ideal S2x2048x4096 .f32) (a1 : IVec S4096x1376 32) (a2 : FVec Ideal S32x11008 .f32)
    (a3 : IVec S32x1376 32) (a4 : IVec S4096x1376 32) (a5 : FVec Ideal S32x11008 .f32) (a6 : IVec S32x1376 32)
    (a7 : IVec S11008x512 32) (a8 : FVec Ideal S86x4096 .f32) (a9 : IVec S86x512 32) :
    refOut (F := Ideal) a0 a1 a2 a3 a4 a5 a6 a7 a8 a9 = Cert.Spec.G a0 a1 a2 a3 a4 a5 a6 a7 a8 a9 := by
  funext i
  obtain ⟨b, r, o, rfl⟩ : ∃ (b : Fin 2) (r : Fin 2048) (o : Fin 4096), i = ix3 b r o := ⟨i 0, i 1, i 2, eq_ix3 i⟩
  have hb := b.isLt; have hr := r.isLt
  unfold refOut
  rw [shapeCast_apply _ _ (ix3 b r o) (ix2 (⟨2048 * b.val + r.val, by omega⟩ : Fin 4096) o) (by
    rw [Shape.rowMajor_val_three, Shape.rowMajor_val_two]
    show (2048 * b.val + r.val) * 4096 + o.val = (b.val * 2048 + r.val) * 4096 + o.val
    omega)]
  rw [outFlat_apply]
  rfl

end Cert.ReferenceIdeal.RefRead

end
-- ==== Proof.lean ====
/-
  A gated feed-forward block over 4-bit quantised weights: `out = (silu (x · Wg) * (x · Wu)) · Wd`, with each weight
  matrix stored eight 4-bit fields to a word and dequantised group by group of 128 rows as `(q − z) · s`.

  The kernel program computes it in two blocked matrix products on the TensorCore. The first accumulates `x · Wg` and
  `x · Wu` over four tiles of the contraction in two scratch accumulators, reset at the first tile, and writes
  `silu (gate) · up` at the last; the second accumulates the product with `Wd` over eleven tiles. The intermediate
  dimension 11008 is padded to 11264 with zero words and zero scales. The reference computes the same products whole.

  At the ideal values both are one function of the ten argument arrays (`Cert.Spec.G`): a sum regrouped into
  consecutive tiles is the same sum, a dequantised entry whose scale is zero is zero, and a product with zero vanishes,
  so the padded tail contributes nothing; `silu` is the same expression `g · (1 / (1 + e^(−g)))` on both sides, the
  kernel's logistic being that quotient. No finiteness of the inputs is needed.

  The three frames: each kernel region runs its body at every grid point from an invariant that carries the scratch
  accumulators from point to point, the output window left untouched except at the last tile; the reference is a
  straight line of host operations.
-/
import proofs.«413103_j549755813920_3_alg».proof.Defs
import proofs.«413103_j549755813920_3_alg».proof.Proof.Gen.Kernel
import proofs.«413103_j549755813920_3_alg».proof.Proof.Gen.KernelIdeal
import proofs.«413103_j549755813920_3_alg».proof.Proof.Gen.ReferenceIdeal
import proofs.«413103_j549755813920_3_alg».proof.Proof.Gen.Pre_finite_inputs
import proofs.«413103_j549755813920_3_alg».proof.Proof.Kernel.Frame
import proofs.«413103_j549755813920_3_alg».proof.Proof.KernelIdeal.Result
import proofs.«413103_j549755813920_3_alg».proof.Proof.RefRun
import proofs.«413103_j549755813920_3_alg».proof.Proof.RefRead

noncomputable section

namespace Cert.Proof

open Idealize.ShloMosaic Idealize.ShloMosaic.TcCoe Idealize.SL.Sem

/-- The word-level program runs to the end and leaves its arguments as launched. -/
theorem frame_p : Cert.frame_Kernel := fun m ρ _ => Cert.Kernel.Fr.frame (F := Bits) m ρ

/-- So does the idealized program. -/
theorem frame_pi : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- At the ideal values the kernel program's result and the reference's are the specification of the argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result_eq m c), (h c).2⟩)
      (Cert.KernelIdeal.Fr.run_result (F := Ideal) m ρ)
  · refine (θ_run Cert.ReferenceIdeal.defs _ _).mono (fun r h c => ⟨?_, (h c).2⟩)
      (Cert.ReferenceIdeal.RefRun.run (F := Ideal) m' ρ')
    refine ((h c).1.trans (Cert.ReferenceIdeal.RefRead.refOut_eq _ _ _ _ _ _ _ _ _ _)).trans ?_
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
